-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  main_v3
-- ==== Kernel.lean ====
abbrev S1024x512 : Shape := ⟨2, ![1024, 512]⟩
abbrev S1x512 : Shape := ⟨2, ![1, 512]⟩
abbrev S4x256x512 : Shape := ⟨3, ![4, 256, 512]⟩
abbrev S16x512 : Shape := ⟨2, ![16, 512]⟩
abbrev S4 : Shape := ⟨1, ![4]⟩
abbrev S15 : Shape := ⟨1, ![15]⟩
abbrev S_ : Shape := ⟨0, ![]⟩
abbrev S1 : Shape := ⟨1, ![1]⟩
abbrev S1x256x512 : Shape := ⟨3, ![1, 256, 512]⟩
abbrev S256x512 : Shape := ⟨2, ![256, 512]⟩
abbrev S512 : Shape := ⟨1, ![512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S1x512, .f32⟩
  | .local _ .vmem, ⟨1, _⟩ => ⟨S4x256x512, .f32⟩
  | .local _ .vmem, ⟨2, _⟩ => ⟨S16x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v125 : Index := Scalar.indexCast v2
  let c0_118 : Index := 0#32
  ![v125.toNat, 0]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_125 : BitVec 32 := 0#32
  ![v2.toNat, 0]
def k0_dev16 (d0 : Dev nD) : Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_119 : BitVec 32 := 1#32
  let v129 : BitVec 32 := Scalar.addi v2 c1_i32_119
  let c16_i32_120 : BitVec 32 := 16#32
  let v130 : BitVec 32 := Scalar.remsi v129 c16_i32_120
  let c1_i32_123 : BitVec 32 := 1#32
  let v131 : BitVec 32 := Scalar.muli v130 c1_i32_123
  let v132 : BitVec 32 := Scalar.addi c0_i32_124 v131
  v132.toNat
def k0_dev17 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_127 : BitVec 32 := 2#32
  let v139 : BitVec 32 := Scalar.addi v2 c2_i32_127
  let c16_i32_128 : BitVec 32 := 16#32
  let v140 : BitVec 32 := Scalar.remsi v139 c16_i32_128
  let c1_i32_131 : BitVec 32 := 1#32
  let v141 : BitVec 32 := Scalar.muli v140 c1_i32_131
  let v142 : BitVec 32 := Scalar.addi c0_i32_132 v141
  v142.toNat
def k0_dev18 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_135 : BitVec 32 := 3#32
  let v149 : BitVec 32 := Scalar.addi v2 c3_i32_135
  let c16_i32_136 : BitVec 32 := 16#32
  let v150 : BitVec 32 := Scalar.remsi v149 c16_i32_136
  let c1_i32_139 : BitVec 32 := 1#32
  let v151 : BitVec 32 := Scalar.muli v150 c1_i32_139
  let v152 : BitVec 32 := Scalar.addi c0_i32_140 v151
  v152.toNat
def k0_dev19 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_143 : BitVec 32 := 4#32
  let v159 : BitVec 32 := Scalar.addi v2 c4_i32_143
  let c16_i32_144 : BitVec 32 := 16#32
  let v160 : BitVec 32 := Scalar.remsi v159 c16_i32_144
  let c1_i32_147 : BitVec 32 := 1#32
  let v161 : BitVec 32 := Scalar.muli v160 c1_i32_147
  let v162 : BitVec 32 := Scalar.addi c0_i32_148 v161
  v162.toNat
def k0_dev20 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_151 : BitVec 32 := 5#32
  let v169 : BitVec 32 := Scalar.addi v2 c5_i32_151
  let c16_i32_152 : BitVec 32 := 16#32
  let v170 : BitVec 32 := Scalar.remsi v169 c16_i32_152
  let c1_i32_155 : BitVec 32 := 1#32
  let v171 : BitVec 32 := Scalar.muli v170 c1_i32_155
  let v172 : BitVec 32 := Scalar.addi c0_i32_156 v171
  v172.toNat
def k0_dev21 (d0 : Dev nD) : Nat :=
  let c0_i32_164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_159 : BitVec 32 := 6#32
  let v179 : BitVec 32 := Scalar.addi v2 c6_i32_159
  let c16_i32_160 : BitVec 32 := 16#32
  let v180 : BitVec 32 := Scalar.remsi v179 c16_i32_160
  let c1_i32_163 : BitVec 32 := 1#32
  let v181 : BitVec 32 := Scalar.muli v180 c1_i32_163
  let v182 : BitVec 32 := Scalar.addi c0_i32_164 v181
  v182.toNat
def k0_dev22 (d0 : Dev nD) : Nat :=
  let c0_i32_172 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_167 : BitVec 32 := 7#32
  let v189 : BitVec 32 := Scalar.addi v2 c7_i32_167
  let c16_i32_168 : BitVec 32 := 16#32
  let v190 : BitVec 32 := Scalar.remsi v189 c16_i32_168
  let c1_i32_171 : BitVec 32 := 1#32
  let v191 : BitVec 32 := Scalar.muli v190 c1_i32_171
  let v192 : BitVec 32 := Scalar.addi c0_i32_172 v191
  v192.toNat
def k0_dev23 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_175 : BitVec 32 := 8#32
  let v199 : BitVec 32 := Scalar.addi v2 c8_i32_175
  let c16_i32_176 : BitVec 32 := 16#32
  let v200 : BitVec 32 := Scalar.remsi v199 c16_i32_176
  let c1_i32_179 : BitVec 32 := 1#32
  let v201 : BitVec 32 := Scalar.muli v200 c1_i32_179
  let v202 : BitVec 32 := Scalar.addi c0_i32_180 v201
  v202.toNat
def k0_dev24 (d0 : Dev nD) : Nat :=
  let c0_i32_188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_183 : BitVec 32 := 9#32
  let v209 : BitVec 32 := Scalar.addi v2 c9_i32_183
  let c16_i32_184 : BitVec 32 := 16#32
  let v210 : BitVec 32 := Scalar.remsi v209 c16_i32_184
  let c1_i32_187 : BitVec 32 := 1#32
  let v211 : BitVec 32 := Scalar.muli v210 c1_i32_187
  let v212 : BitVec 32 := Scalar.addi c0_i32_188 v211
  v212.toNat
def k0_dev25 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_191 : BitVec 32 := 10#32
  let v219 : BitVec 32 := Scalar.addi v2 c10_i32_191
  let c16_i32_192 : BitVec 32 := 16#32
  let v220 : BitVec 32 := Scalar.remsi v219 c16_i32_192
  let c1_i32_195 : BitVec 32 := 1#32
  let v221 : BitVec 32 := Scalar.muli v220 c1_i32_195
  let v222 : BitVec 32 := Scalar.addi c0_i32_196 v221
  v222.toNat
def k0_dev26 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_199 : BitVec 32 := 11#32
  let v229 : BitVec 32 := Scalar.addi v2 c11_i32_199
  let c16_i32_200 : BitVec 32 := 16#32
  let v230 : BitVec 32 := Scalar.remsi v229 c16_i32_200
  let c1_i32_203 : BitVec 32 := 1#32
  let v231 : BitVec 32 := Scalar.muli v230 c1_i32_203
  let v232 : BitVec 32 := Scalar.addi c0_i32_204 v231
  v232.toNat
def k0_dev27 (d0 : Dev nD) : Nat :=
  let c0_i32_212 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_207 : BitVec 32 := 12#32
  let v239 : BitVec 32 := Scalar.addi v2 c12_i32_207
  let c16_i32_208 : BitVec 32 := 16#32
  let v240 : BitVec 32 := Scalar.remsi v239 c16_i32_208
  let c1_i32_211 : BitVec 32 := 1#32
  let v241 : BitVec 32 := Scalar.muli v240 c1_i32_211
  let v242 : BitVec 32 := Scalar.addi c0_i32_212 v241
  v242.toNat
def k0_dev28 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_215 : BitVec 32 := 13#32
  let v249 : BitVec 32 := Scalar.addi v2 c13_i32_215
  let c16_i32_216 : BitVec 32 := 16#32
  let v250 : BitVec 32 := Scalar.remsi v249 c16_i32_216
  let c1_i32_219 : BitVec 32 := 1#32
  let v251 : BitVec 32 := Scalar.muli v250 c1_i32_219
  let v252 : BitVec 32 := Scalar.addi c0_i32_220 v251
  v252.toNat
def k0_dev29 (d0 : Dev nD) : Nat :=
  let c0_i32_228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_223 : BitVec 32 := 14#32
  let v259 : BitVec 32 := Scalar.addi v2 c14_i32_223
  let c16_i32_224 : BitVec 32 := 16#32
  let v260 : BitVec 32 := Scalar.remsi v259 c16_i32_224
  let c1_i32_227 : BitVec 32 := 1#32
  let v261 : BitVec 32 := Scalar.muli v260 c1_i32_227
  let v262 : BitVec 32 := Scalar.addi c0_i32_228 v261
  v262.toNat
def k0_dev30 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_231 : BitVec 32 := 15#32
  let v269 : BitVec 32 := Scalar.addi v2 c15_i32_231
  let c16_i32_232 : BitVec 32 := 16#32
  let v270 : BitVec 32 := Scalar.remsi v269 c16_i32_232
  let c1_i32_235 : BitVec 32 := 1#32
  let v271 : BitVec 32 := Scalar.muli v270 c1_i32_235
  let v272 : BitVec 32 := Scalar.addi c0_i32_236 v271
  v272.toNat
def k0_off3 (d0 : Dev nD) (c1_i32_239 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v279 : BitVec 32 := Scalar.subi v2 c1_i32_239
  let c16_i32_240 : BitVec 32 := 16#32
  let v280 : BitVec 32 := Scalar.addi v279 c16_i32_240
  let c16_i32_241 : BitVec 32 := 16#32
  let v281 : BitVec 32 := Scalar.remsi v280 c16_i32_241
  let c0_i32_246 : BitVec 32 := 0#32
  ![v281.toNat, 0]
abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  inb_S4_S1_0 : ∀ a, (![0] : Fin 1 → Nat) a + S1.size a ≤ S4.size a
  squeezes_S1_S_ : S1.Squeezes S_
  inb_S4x256x512_S1x256x512_0_0_0 : ∀ a, (![0, 0, 0] : Fin 3 → Nat) a + S1x256x512.size a ≤ S4x256x512.size a
  squeezes_S1x256x512_S256x512 : S1x256x512.Squeezes S256x512
  inb_S1024x512_S256x512_0_0 : ∀ a, (![0, 0] : Fin 2 → Nat) a + S256x512.size a ≤ S1024x512.size a
  inb_S4_S1_1 : ∀ a, (![1] : Fin 1 → Nat) a + S1.size a ≤ S4.size a
  inb_S4x256x512_S1x256x512_1_0_0 : ∀ a, (![1, 0, 0] : Fin 3 → Nat) a + S1x256x512.size a ≤ S4x256x512.size a
  inb_S1024x512_S256x512_256_0 : ∀ a, (![256, 0] : Fin 2 → Nat) a + S256x512.size a ≤ S1024x512.size a
  inb_S4_S1_2 : ∀ a, (![2] : Fin 1 → Nat) a + S1.size a ≤ S4.size a
  inb_S4x256x512_S1x256x512_2_0_0 : ∀ a, (![2, 0, 0] : Fin 3 → Nat) a + S1x256x512.size a ≤ S4x256x512.size a
  inb_S1024x512_S256x512_512_0 : ∀ a, (![512, 0] : Fin 2 → Nat) a + S256x512.size a ≤ S1024x512.size a
  inb_S4_S1_3 : ∀ a, (![3] : Fin 1 → Nat) a + S1.size a ≤ S4.size a
  inb_S4x256x512_S1x256x512_3_0_0 : ∀ a, (![3, 0, 0] : Fin 3 → Nat) a + S1x256x512.size a ≤ S4x256x512.size a
  inb_S1024x512_S256x512_768_0 : ∀ a, (![768, 0] : Fin 2 → Nat) a + S256x512.size a ≤ S1024x512.size a
  h_S1x256x512 : 0 < S1x256x512.numel
  shapeCasts_S1x256x512_S256x512 : S1x256x512.ShapeCasts S256x512
  reduces_S256x512_S512 : S256x512.Reduces [0] S512
  shapeCasts_S512_S1x512 : S512.ShapeCasts S1x512
  hamt_15 : (15#32 : BitVec 32).msb = false
  h_S1x512 : 0 < S1x512.numel
  shapeCasts_S1x512_S1x512 : S1x512.ShapeCasts S1x512
  inb_S15_S1_0 : ∀ a, (![0] : Fin 1 → Nat) a + S1.size a ≤ S15.size a
  inb_S15_S1_1 : ∀ a, (![1] : Fin 1 → Nat) a + S1.size a ≤ S15.size a
  inb_S15_S1_2 : ∀ a, (![2] : Fin 1 → Nat) a + S1.size a ≤ S15.size a
  inb_S15_S1_3 : ∀ a, (![3] : Fin 1 → Nat) a + S1.size a ≤ S15.size a
  inb_S15_S1_4 : ∀ a, (![4] : Fin 1 → Nat) a + S1.size a ≤ S15.size a
  inb_S15_S1_5 : ∀ a, (![5] : Fin 1 → Nat) a + S1.size a ≤ S15.size a
  inb_S15_S1_6 : ∀ a, (![6] : Fin 1 → Nat) a + S1.size a ≤ S15.size a
  inb_S15_S1_7 : ∀ a, (![7] : Fin 1 → Nat) a + S1.size a ≤ S15.size a
  inb_S15_S1_8 : ∀ a, (![8] : Fin 1 → Nat) a + S1.size a ≤ S15.size a
  inb_S15_S1_9 : ∀ a, (![9] : Fin 1 → Nat) a + S1.size a ≤ S15.size a
  inb_S15_S1_10 : ∀ a, (![10] : Fin 1 → Nat) a + S1.size a ≤ S15.size a
  inb_S15_S1_11 : ∀ a, (![11] : Fin 1 → Nat) a + S1.size a ≤ S15.size a
  inb_S15_S1_12 : ∀ a, (![12] : Fin 1 → Nat) a + S1.size a ≤ S15.size a
  inb_S15_S1_13 : ∀ a, (![13] : Fin 1 → Nat) a + S1.size a ≤ S15.size a
  inb_S15_S1_14 : ∀ a, (![14] : Fin 1 → Nat) a + S1.size a ≤ S15.size a
  inb_S16x512_S16x512_0_0 : ∀ a, (![0, 0] : Fin 2 → Nat) a + S16x512.size a ≤ S16x512.size a
  h_S16x512 : 0 < S16x512.numel
  reduces_S16x512_S512 : S16x512.Reduces [0] S512
  inb_S1x512_S1x512_0_0 : ∀ a, (![0, 0] : Fin 2 → Nat) a + S1x512.size a ≤ S1x512.size a
  hcc0_scratch2 : 1 + S4.numel ≤ 35
  hcc0_scratch3 : 5 + S15.numel ≤ 35
  hcc0_scratch4 : 20 + S15.numel ≤ 35
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off1_inb : ∀ d0 : Dev nD, ∀ a, (k0_off1 d0) a + S1x512.size a ≤ S16x512.size a
  k0_off2_inb : ∀ d0 : Dev nD, ∀ a, (k0_off2 d0) a + S1x512.size a ≤ S16x512.size a
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off3_inb : ∀ d0 : Dev nD, ∀ (r : Fin 15), ∀ a, (k0_off3 d0 (BitVec.ofNat 32 (1 + r.val))) a + S1x512.size a ≤ S16x512.size a
  hstage0_0 : ∀ j, (stage0_0 j).IsWhole

variable [Facts₀]

abbrev cc0_scratch2 : DmaSems sig S4 := SemArray.consecutive 1 S4 hcc0_scratch2
abbrev cc0_scratch3 : DmaSems sig S15 := SemArray.consecutive 5 S15 hcc0_scratch3
abbrev cc0_scratch4 : DmaSems sig S15 := SemArray.consecutive 20 S15 hcc0_scratch4

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S16384x512 : Shape := ⟨2, ![16384, 512]⟩
abbrev S_ : Shape := ⟨0, ![]⟩
abbrev S512 : Shape := ⟨1, ![512]⟩
abbrev S1x512 : Shape := ⟨2, ![1, 512]⟩

abbrev nBuf : Space → Nat
  | .hbm => 4
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S_, .f32⟩
  | .hbm, ⟨2, _⟩ => ⟨S512, .f32⟩
  | .hbm, ⟨3, _⟩ => ⟨S1x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S16384x512_S512_d0 : S16384x512.ReducesTo [0] S512
  h_S_ : 0 < S_.numel
  bcast_S512_S1x512_1 : S512.BroadcastsInDim S1x512 (![1] : Fin 1 → Fin S1x512.rank)

variable [Facts₀]

class Facts : Prop extends Facts₀ where

variable [Facts]
-- ==== Proof.Proto.lean ====
/-
  The sixteen-device row sum: what the devices say to each other.

  Every device c first tells each of the other fifteen, through the barrier semaphore, that it has entered the
  kernel; it sums its own 1024 rows of x in four pieces of 256 into one row acc(c); once all fifteen others have
  signalled it, it stores acc(c) into row c of its 16-row exchange buffer and copies that row into row c of every
  other device's exchange buffer; it waits until the fifteen rows of the others have landed in its own buffer and its
  fifteen copies have left; then every row r of its buffer holds acc(r), and the sum of the sixteen rows is the
  column sums of the whole of x.

  This module names the devices' neighbours, the semaphores as cells, the rows of the exchange buffer, what every
  buffer holds at each moment, and the schedule of duties: who owes which cell how much, and what each payment hands
  the cell's owner.
-/
import proofs.«901068_g7700000000001069_dist_sum_ax0_shard0_i_m1024_n512_v7x_i16_bf16_1_alg».proof.Proof.Gen.KernelIdeal
import proofs.«901068_g7700000000001069_dist_sum_ax0_shard0_i_m1024_n512_v7x_i16_bf16_1_alg».proof.Proof.Gen.KernelIdeal.Skeleton
import proofs.«901068_g7700000000001069_dist_sum_ax0_shard0_i_m1024_n512_v7x_i16_bf16_1_alg».proof.Proof.Gen.KernelIdeal.Launch
import proofs.«901068_g7700000000001069_dist_sum_ax0_shard0_i_m1024_n512_v7x_i16_bf16_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.Transfers
import Idealize.ShloMosaic.Lib.ValueIdx

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the exchange's (duties `Fin 15`) -/

abbrev DD : Type := Fin 15
abbrev UB : Type := URounds (GSem nD τ sig) DD
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## Neighbours on the ring of sixteen -/

/-- The device `o + 1` places after `c`. -/
def peer (c : Dev nD) (o : Fin 15) : Dev nD := ⟨(c.val + o.val + 1) % 16, Nat.mod_lt _ (by decide)⟩
/-- The device `o + 1` places before `c`. -/
def from_ (c : Dev nD) (o : Fin 15) : Dev nD := ⟨(c.val + 15 - o.val) % 16, Nat.mod_lt _ (by decide)⟩

theorem from_peer (c : Dev nD) (o : Fin 15) : from_ (peer c o) o = c := by revert c o; decide
theorem peer_from (c : Dev nD) (o : Fin 15) : peer (from_ c o) o = c := by revert c o; decide
theorem peer_ne (c : Dev nD) (o : Fin 15) : peer c o ≠ c := by revert c o; decide
theorem from_ne (c : Dev nD) (o : Fin 15) : from_ c o ≠ c := by revert c o; decide
theorem peer_inj (c : Dev nD) : Function.Injective (peer c) := by revert c; decide
theorem from_inj (c : Dev nD) : Function.Injective (from_ c) := by revert c; decide
/-- Every device other than `c` is some `from_ c o`. -/
theorem exists_from (c d : Dev nD) (h : d ≠ c) : ∃ o, from_ c o = d := by revert c d; decide

/-- Turning by `o + 1` places is a permutation of the devices. -/
def rot (o : Fin 15) : Dev nD ≃ Dev nD := ⟨fun c => peer c o, fun c => from_ c o, fun c => from_peer c o, fun c => peer_from c o⟩

/-! ## The semaphores, as cells -/

/-- The runtime's barrier semaphore of collective id 0. -/
abbrev barS : Sem sig := (SemArray.scalar (sig.barrier 0 rfl) : Sems sig S_).sem
/-- The DMA semaphores of the four local copies, of the fifteen sends and of the fifteen receives. -/
abbrev cpS (j : Fin 4) : DmaSem sig := ⟨1 + j.val, by show 1 + j.val < 35; omega⟩
abbrev sendS (o : Fin 15) : DmaSem sig := ⟨5 + o.val, by show 5 + o.val < 35; omega⟩
abbrev recvS (o : Fin 15) : DmaSem sig := ⟨20 + o.val, by show 20 + o.val < 35; omega⟩

abbrev barCell (c : Dev nD) : GSem nD τ sig := ((c : Thread nD τ), .reg barS)
abbrev cpCell (c : Dev nD) (j : Fin 4) : GSem nD τ sig := ((c : Thread nD τ), .dma (cpS j))
abbrev sendCell (c : Dev nD) (o : Fin 15) : GSem nD τ sig := ((c : Thread nD τ), .dma (sendS o))
abbrev recvCell (c : Dev nD) (o : Fin 15) : GSem nD τ sig := ((c : Thread nD τ), .dma (recvS o))

theorem dev1_eq (c : Dev nD) : (⟨k0_dev1 c, k0_dev1_lt c⟩ : Dev nD) = peer c 0 := Fin.ext (k0_dev1_eq c)
theorem dev2_eq (c : Dev nD) : (⟨k0_dev2 c, k0_dev2_lt c⟩ : Dev nD) = peer c 1 := Fin.ext (k0_dev2_eq c)
theorem dev3_eq (c : Dev nD) : (⟨k0_dev3 c, k0_dev3_lt c⟩ : Dev nD) = peer c 2 := Fin.ext (k0_dev3_eq c)
theorem dev4_eq (c : Dev nD) : (⟨k0_dev4 c, k0_dev4_lt c⟩ : Dev nD) = peer c 3 := Fin.ext (k0_dev4_eq c)
theorem dev5_eq (c : Dev nD) : (⟨k0_dev5 c, k0_dev5_lt c⟩ : Dev nD) = peer c 4 := Fin.ext (k0_dev5_eq c)
theorem dev6_eq (c : Dev nD) : (⟨k0_dev6 c, k0_dev6_lt c⟩ : Dev nD) = peer c 5 := Fin.ext (k0_dev6_eq c)
theorem dev7_eq (c : Dev nD) : (⟨k0_dev7 c, k0_dev7_lt c⟩ : Dev nD) = peer c 6 := Fin.ext (k0_dev7_eq c)
theorem dev8_eq (c : Dev nD) : (⟨k0_dev8 c, k0_dev8_lt c⟩ : Dev nD) = peer c 7 := Fin.ext (k0_dev8_eq c)
theorem dev9_eq (c : Dev nD) : (⟨k0_dev9 c, k0_dev9_lt c⟩ : Dev nD) = peer c 8 := Fin.ext (k0_dev9_eq c)
theorem dev10_eq (c : Dev nD) : (⟨k0_dev10 c, k0_dev10_lt c⟩ : Dev nD) = peer c 9 := Fin.ext (k0_dev10_eq c)
theorem dev11_eq (c : Dev nD) : (⟨k0_dev11 c, k0_dev11_lt c⟩ : Dev nD) = peer c 10 := Fin.ext (k0_dev11_eq c)
theorem dev12_eq (c : Dev nD) : (⟨k0_dev12 c, k0_dev12_lt c⟩ : Dev nD) = peer c 11 := Fin.ext (k0_dev12_eq c)
theorem dev13_eq (c : Dev nD) : (⟨k0_dev13 c, k0_dev13_lt c⟩ : Dev nD) = peer c 12 := Fin.ext (k0_dev13_eq c)
theorem dev14_eq (c : Dev nD) : (⟨k0_dev14 c, k0_dev14_lt c⟩ : Dev nD) = peer c 13 := Fin.ext (k0_dev14_eq c)
theorem dev15_eq (c : Dev nD) : (⟨k0_dev15 c, k0_dev15_lt c⟩ : Dev nD) = peer c 14 := Fin.ext (k0_dev15_eq c)
theorem dev16_eq (c : Dev nD) : (⟨k0_dev16 c, k0_dev16_lt c⟩ : Dev nD) = peer c 0 := Fin.ext (k0_dev16_eq c)
theorem dev17_eq (c : Dev nD) : (⟨k0_dev17 c, k0_dev17_lt c⟩ : Dev nD) = peer c 1 := Fin.ext (k0_dev17_eq c)
theorem dev18_eq (c : Dev nD) : (⟨k0_dev18 c, k0_dev18_lt c⟩ : Dev nD) = peer c 2 := Fin.ext (k0_dev18_eq c)
theorem dev19_eq (c : Dev nD) : (⟨k0_dev19 c, k0_dev19_lt c⟩ : Dev nD) = peer c 3 := Fin.ext (k0_dev19_eq c)
theorem dev20_eq (c : Dev nD) : (⟨k0_dev20 c, k0_dev20_lt c⟩ : Dev nD) = peer c 4 := Fin.ext (k0_dev20_eq c)
theorem dev21_eq (c : Dev nD) : (⟨k0_dev21 c, k0_dev21_lt c⟩ : Dev nD) = peer c 5 := Fin.ext (k0_dev21_eq c)
theorem dev22_eq (c : Dev nD) : (⟨k0_dev22 c, k0_dev22_lt c⟩ : Dev nD) = peer c 6 := Fin.ext (k0_dev22_eq c)
theorem dev23_eq (c : Dev nD) : (⟨k0_dev23 c, k0_dev23_lt c⟩ : Dev nD) = peer c 7 := Fin.ext (k0_dev23_eq c)
theorem dev24_eq (c : Dev nD) : (⟨k0_dev24 c, k0_dev24_lt c⟩ : Dev nD) = peer c 8 := Fin.ext (k0_dev24_eq c)
theorem dev25_eq (c : Dev nD) : (⟨k0_dev25 c, k0_dev25_lt c⟩ : Dev nD) = peer c 9 := Fin.ext (k0_dev25_eq c)
theorem dev26_eq (c : Dev nD) : (⟨k0_dev26 c, k0_dev26_lt c⟩ : Dev nD) = peer c 10 := Fin.ext (k0_dev26_eq c)
theorem dev27_eq (c : Dev nD) : (⟨k0_dev27 c, k0_dev27_lt c⟩ : Dev nD) = peer c 11 := Fin.ext (k0_dev27_eq c)
theorem dev28_eq (c : Dev nD) : (⟨k0_dev28 c, k0_dev28_lt c⟩ : Dev nD) = peer c 12 := Fin.ext (k0_dev28_eq c)
theorem dev29_eq (c : Dev nD) : (⟨k0_dev29 c, k0_dev29_lt c⟩ : Dev nD) = peer c 13 := Fin.ext (k0_dev29_eq c)
theorem dev30_eq (c : Dev nD) : (⟨k0_dev30 c, k0_dev30_lt c⟩ : Dev nD) = peer c 14 := Fin.ext (k0_dev30_eq c)

/-! ## The buffers and their pieces -/

abbrev xM : Memref sig .tc .hbm S1024x512 .f32 := Memref.whole main_arg0
abbrev oM : Memref sig .tc .vmem S1x512 .f32 := Memref.whole cc0_stg0_0
abbrev vM : Memref sig .tc .vmem S4x256x512 .f32 := Memref.whole cc0_scratch0
abbrev cM : Memref sig .tc .vmem S16x512 .f32 := Memref.whole cc0_scratch1

/-- Row `r` of the exchange buffer: the row device `r`'s partial sums travel in, on every device. -/
abbrev rowM (r : Dev nD) : Memref sig .tc .vmem S1x512 .f32 :=
  cM.slice (Rect.unit (s := S16x512) (k0_off2 r) S1x512.size (k0_off2_inb r)) (fun _ => rfl)

/-- The four slabs of 256 rows of a device's block of `x`, and the four slots they are copied into. -/
theorem xsl_inb : ∀ (j : Fin 4) a, (![256 * j.val, 0] : Fin 2 → Nat) a + S256x512.size a ≤ S1024x512.size a := by decide
theorem vsl_inb : ∀ (j : Fin 4) a, (![j.val, 0, 0] : Fin 3 → Nat) a + S1x256x512.size a ≤ S4x256x512.size a := by decide
abbrev xsl (j : Fin 4) : Memref sig .tc .hbm S256x512 .f32 :=
  xM.slice (Rect.unit (s := S1024x512) ![256 * j.val, 0] S256x512.size (xsl_inb j)) (fun _ => rfl)
abbrev vsl (j : Fin 4) : Memref sig .tc .vmem S256x512 .f32 :=
  (vM.slice (Rect.unit (s := S4x256x512) ![j.val, 0, 0] S1x256x512.size (vsl_inb j)) (fun _ => rfl)).squeeze S256x512 squeezes_S1x256x512_S256x512

/-- The credit of one copied slab, and of one copied row. -/
abbrev Ncp : ℕ := (vsl 0).view.dmaCredit
abbrev Nrow : ℕ := (rowM 0).view.dmaCredit
theorem Ncp_pos : 0 < Ncp := View.dmaCredit_pos _ (by decide)
theorem Nrow_pos : 0 < Nrow := View.dmaCredit_pos _ (by decide)

/-! ## What the buffers hold -/

/-- Device `c`'s block of `x`, as launched. -/
def X (c : Dev nD) : Buf (Elt F) ((c : Thread nD τ).loc main_arg0) := m ((c : Thread nD τ).loc main_arg0)

/-- The copy buffer once the four slabs have landed: slot `j`, row `i`, is row `256 j + i` of the block. -/
def XV (c : Dev nD) : Buf (Elt F) ((c : Thread nD τ).loc cc0_scratch0) := fun i =>
  X m c (ValueIdx.ix2 (⟨256 * (i 0).val + (i 1).val, by
    have h0 : (i 0).val < 4 := (i 0).isLt
    have h1 : (i 1).val < 256 := (i 1).isLt
    omega⟩ : Fin 1024) (i 2))

/-- What the kernel's load of slot `j` reads once the slabs have landed. -/
def chunk (c : Dev nD) : Fin 4 → Vec F S1x256x512 .f32
  | 0 => (vM : Memref sig .tc .vmem S4x256x512 .f32).view.readAt (Elt F) (Rect.unit (s := S4x256x512) ![0, 0, 0] S1x256x512.size inb_S4x256x512_S1x256x512_0_0_0).toLoadRect (XV m c)
  | 1 => (vM : Memref sig .tc .vmem S4x256x512 .f32).view.readAt (Elt F) (Rect.unit (s := S4x256x512) ![1, 0, 0] S1x256x512.size inb_S4x256x512_S1x256x512_1_0_0).toLoadRect (XV m c)
  | 2 => (vM : Memref sig .tc .vmem S4x256x512 .f32).view.readAt (Elt F) (Rect.unit (s := S4x256x512) ![2, 0, 0] S1x256x512.size inb_S4x256x512_S1x256x512_2_0_0).toLoadRect (XV m c)
  | 3 => (vM : Memref sig .tc .vmem S4x256x512 .f32).view.readAt (Elt F) (Rect.unit (s := S4x256x512) ![3, 0, 0] S1x256x512.size inb_S4x256x512_S1x256x512_3_0_0).toLoadRect (XV m c)

/-- Device `c`'s partial sums: the column sums of its 1024 rows, a slab of 256 at a time, from zero. -/
def acc (c : Dev nD) : FVec F S1x512 .f32 := k0_pay3 (k0_pay2 (chunk m c 0)) (chunk m c 1) (chunk m c 2) (chunk m c 3)

/-- The exchange buffer in the end, the same on every device: row `r` is device `r`'s partial sums. -/
def commF (c : Dev nD) : Buf (Elt F) ((c : Thread nD τ).loc cc0_scratch1) := fun i =>
  acc m (i 0) (ValueIdx.ix2 (0 : Fin 1) (i 1))

/-- The result, the same on every device: the sixteen rows summed. -/
def outF : (cc0_stg0_0 : Ref sig .tc).ty.Contents (Elt F) :=
  k0_pay1 ((cM : Memref sig .tc .vmem S16x512 .f32).view.readAt (Elt F) (Rect.unit (s := S16x512) ![0, 0] S16x512.size inb_S16x512_S16x512_0_0).toLoadRect (commF m 0))

/-! ## Holdings -/

/-- Device `d` holds row `r` of its exchange buffer, at share `q` and contents `f`. -/
def rowPts (d r : Dev nD) (q : PosShare TreeShare) (f : Buf (Elt F) ((d : Thread nD τ).loc cc0_scratch1)) : sProp 𝕄 :=
  (rowM r).view.loc (d : Thread nD τ) ↦[(rowM r).view.set]{q} f
/-- Device `c` holds slab `j` of its block of `x` as launched; slot `j` of its copy buffer at contents `f`. -/
def slabPts (c : Dev nD) (j : Fin 4) : sProp 𝕄 := (xsl j).view.loc (c : Thread nD τ) ↦[(xsl j).view.set]{fullShare} X m c
def slotPts (c : Dev nD) (j : Fin 4) (f : Buf (Elt F) ((c : Thread nD τ).loc cc0_scratch0)) : sProp 𝕄 :=
  (vsl j).view.loc (c : Thread nD τ) ↦[(vsl j).view.set]{fullShare} f
omit [FloatOps F] in
instance rowPts_storable (d r : Dev nD) (q : PosShare TreeShare) (f) : BI.Storable (upEmb : UEmb _ 𝕄) (rowPts (F := F) d r q f) := by unfold rowPts; infer_instance
omit [FloatOps F] in
instance slabPts_storable (c : Dev nD) (j : Fin 4) : BI.Storable (upEmb : UEmb _ 𝕄) (slabPts (F := F) m c j) := by unfold slabPts; infer_instance
omit [FloatOps F] in
instance slotPts_storable (c : Dev nD) (j : Fin 4) (f) : BI.Storable (upEmb : UEmb _ 𝕄) (slotPts (F := F) c j f) := by unfold slotPts; infer_instance
/-- The three buffers whole. -/
def xPts (c : Dev nD) : sProp 𝕄 := ((c : Thread nD τ).loc main_arg0) ↦{fullShare} X m c
def vPts (c : Dev nD) (f : Buf (Elt F) ((c : Thread nD τ).loc cc0_scratch0)) : sProp 𝕄 := ((c : Thread nD τ).loc cc0_scratch0) ↦{fullShare} f
def cPts (c : Dev nD) (f : Buf (Elt F) ((c : Thread nD τ).loc cc0_scratch1)) : sProp 𝕄 := ((c : Thread nD τ).loc cc0_scratch1) ↦{fullShare} f

/-- The share of its own row a device lends its `o`-th copy, and what it keeps meanwhile. -/
abbrev shr (o : Fin 15) : PosShare TreeShare := Transfers.shareTok fullShare 15 o
abbrev shrKeep : PosShare TreeShare := Transfers.shareDrop fullShare 15

/-! ## The schedule: one round; who pays what, and what a payment hands over -/

/-- Duty `o` of device `c`'s barrier cell is the signal of the device `o + 1` places after it, whose signal it is
    number `14 - o`. -/
def rev (o : Fin 15) : Fin 15 := ⟨14 - o.val, by omega⟩
theorem rev_rev (o : Fin 15) : rev (rev o) = o := by revert o; decide
theorem peer_peer_rev (c : Dev nD) (o : Fin 15) : peer (peer c o) (rev o) = c := by revert c o; decide

/-- Which of a device's cells a semaphore is. -/
inductive Kd where
  | bar | cp (j : Fin 4) | send (o : Fin 15) | recv (o : Fin 15) | other
def kd : SemLoc sig → Kd
  | .reg _ => .bar
  | .dma q =>
    if h : q.val < 1 then .other
    else if h4 : q.val < 5 then .cp ⟨q.val - 1, by omega⟩
    else if h19 : q.val < 20 then .send ⟨q.val - 5, by omega⟩
    else if h34 : q.val < 35 then .recv ⟨q.val - 20, by omega⟩
    else .other

/-- The signal of the device `o + 1` places after `c` hands `c` row `c` of that device's exchange buffer. -/
def barPay (c : Dev nD) (o : Fin 15) : sProp 𝕄 := iprop(∃ f, rowPts (peer c o) c fullShare f)
/-- A local copy landed hands back the slot, holding the slab, and the slab. -/
def cpPay (c : Dev nD) (j : Fin 4) : sProp 𝕄 := iprop(slotPts c j (XV m c) ∗ slabPts m c j)
/-- A copy read out of its source hands back the share of the source row it was lent. -/
def sendPay (c : Dev nD) (o : Fin 15) : sProp 𝕄 := rowPts c c (shr o) (commF m c)
/-- A copy landed hands the receiver the sender's row, holding the sender's partial sums. -/
def recvPay (c : Dev nD) (o : Fin 15) : sProp 𝕄 := rowPts c (from_ c o) fullShare (commF m c)

def sched : Rounds.Schedule (GSem nD τ sig) DD 𝕄 where
  duties g r := if r = 0 ∧ g.1.2 = .tc then (match kd g.2 with | .bar => Finset.univ | .other => ∅ | _ => {0}) else ∅
  unitless _ := False
  amount g _ _ := match kd g.2 with | .bar => 1 | .cp _ => Ncp | _ => Nrow
  payload g _ d := match kd g.2 with
    | .bar => barPay g.1.1 d | .cp j => cpPay m g.1.1 j | .send o => sendPay m g.1.1 o | .recv o => recvPay m g.1.1 o | .other => iprop(emp)
  amount_pos g _ _ _ := by
    cases kd g.2
    · exact Nat.one_pos
    · exact Ncp_pos
    · exact Nrow_pos
    · exact Nrow_pos
    · exact Nrow_pos

instance sched_payload_storable (g : GSem nD τ sig) (r : ℕ) (d : DD) :
    BI.Storable (upEmb : UEmb _ 𝕄) ((sched (F := F) m).payload g r d) := by
  show BI.Storable upEmb (match kd g.2 with
    | .bar => barPay g.1.1 d | .cp j => cpPay m g.1.1 j | .send o => sendPay m g.1.1 o | .recv o => recvPay m g.1.1 o | .other => iprop(emp))
  unfold barPay cpPay sendPay recvPay
  split <;> infer_instance

/-! ## What each device owes at launch, and the levels -/

/-- Device `c`'s `j`-th payment: fifteen signals, then fifteen copies. -/
def due (c : Dev nD) (j : ℕ) : CellTallies nD τ sig Unit :=
  if h : j < 15 then tallyAt (barCell (peer c ⟨j, h⟩)) () 1
  else if h' : j < 30 then tallyAt (recvCell (peer c ⟨j - 15, by omega⟩) ⟨j - 15, by omega⟩) () Nrow
  else 0
/-- What `c` still owes when `n` payments are left. -/
def owedLeft (c : Dev nD) : ℕ → CellTallies nD τ sig Unit
  | 0 => 0
  | n + 1 => owedLeft c n + due c (29 - n)
def O₀ (c : Dev nD) : CellTallies nD τ sig Unit := owedLeft c 30

def L (g : GSem nD τ sig) : Finset Unit := if g.1.2 = .tc then {()} else ∅
/-- Barrier cells at 1, receive cells at 2, the rest (staging, local copies, sends) at 0. -/
def lv (g : GSem nD τ sig) (_ : Unit) : ℕ := match kd g.2 with | .bar => 1 | .recv _ => 2 | _ => 0

/-! ## The cells as the launch indexes them -/

/-- The kernel's own (scoped) semaphores: every DMA semaphore but the staging one. -/
abbrev osem : Fin 34 → SemLoc sig := fun k => .dma ⟨k.val + 1, by show k.val + 1 < 35; omega⟩
/-- All thirty-five cells of a device: the barrier, then its own. -/
abbrev csem : Fin 35 → SemLoc sig := fun k => if h : k.val = 0 then .reg barS else .dma ⟨k.val, k.isLt⟩
abbrev kcell (ck : Dev nD × Fin 35) : GSem nD τ sig := ((ck.1 : Thread nD τ), csem ck.2)

/-! ## The ghost state a device's body starts from -/

/-- Every cell's invariant, and that every cell is at round 0: known to all. -/
def records (K : Dev nD × Fin 35 → ℕ) : sProp 𝕄 :=
  iprop((bigSep Finset.univ fun ck : Dev nD × Fin 35 => cellInv ER (sched m) (K ck) (kcell ck))
    ∗ bigSep Finset.univ fun ck : Dev nD × Fin 35 => reached ER (kcell ck) 0)

/-- What is device `c`'s alone: its positions on its own cells, and the tokens of the duties it pays. -/
def linear (c : Dev nD) : sProp 𝕄 :=
  iprop(atPos ER (barCell c) 0 ∅ 0
    ∗ (bigSep Finset.univ fun j : Fin 4 => iprop(atPos ER (cpCell c j) 0 ∅ 0 ∗ dutyTok ER (cpCell c j) 0 (0 : DD)))
    ∗ (bigSep Finset.univ fun o : Fin 15 => iprop(atPos ER (sendCell c o) 0 ∅ 0 ∗ dutyTok ER (sendCell c o) 0 (0 : DD)))
    ∗ (bigSep Finset.univ fun o : Fin 15 => atPos ER (recvCell c o) 0 ∅ 0)
    ∗ (bigSep Finset.univ fun o : Fin 15 => dutyTok ER (barCell (peer c o)) 0 (rev o))
    ∗ (bigSep Finset.univ fun o : Fin 15 => dutyTok ER (recvCell (peer c o) o) 0 (0 : DD)))

def ghost (K : Dev nD × Fin 35 → ℕ) (c : Dev nD) : sProp 𝕄 := iprop(records m K ∗ linear c)

/-- What a device's body starts from: the ghost state at some names, the credit its barrier's fifteen units and its
    fifteen receive cells are funded with, and the levels. -/
def start (c : Dev nD) : sProp 𝕄 :=
  iprop((∃ K, ghost m K c) ∗ cred (tallyAt (barCell c) () 15)
    ∗ (bigSep Finset.univ fun o : Fin 15 => cred (tallyAt (recvCell c o) () Nrow)) ∗ levAts L lv)

def Φ₀ (c : Dev nD) : sProp 𝕄 := iprop(start m c ∗ xPts m c ∗ (∃ f, vPts c f) ∗ (∃ f, cPts c f))
/-- After the point: `x` as launched, the copy buffer holding the block, the exchange buffer holding every device's
    partial sums, the own cells closed at zero. -/
def Φ₁ (c : Dev nD) : sProp 𝕄 :=
  iprop(xPts m c ∗ vPts c (XV m c) ∗ cPts c (commF m c) ∗ bigSep Finset.univ fun k : Fin 34 => semVal ((c : Thread nD τ), osem k) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outF m
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.AR

end
-- ==== Proof.Tables.lean ====
/-
  The schedule read cell by cell: which duties each of a device's cells has in its one round, their amounts, what the
  round expects in all, and what each payment hands over.
-/
import proofs.«901068_g7700000000001069_dist_sum_ax0_shard0_i_m1024_n512_v7x_i16_bf16_1_alg».proof.Proof.Proto

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which cell a semaphore is -/

theorem kd_bar : kd (.reg barS) = Kd.bar := rfl
theorem kd_cp (j : Fin 4) : kd (.dma (cpS j)) = Kd.cp j := by
  have hj := j.isLt
  have h1 : ¬ (cpS j).val < 1 := by show ¬ (1 + j.val < 1); omega
  have h4 : (cpS j).val < 5 := by show 1 + j.val < 5; omega
  unfold kd
  simp only [dif_neg h1, dif_pos h4]
  congr 1
  exact Fin.ext (by show 1 + j.val - 1 = j.val; omega)
theorem kd_send (o : Fin 15) : kd (.dma (sendS o)) = Kd.send o := by
  have ho := o.isLt
  have h1 : ¬ (sendS o).val < 1 := by show ¬ (5 + o.val < 1); omega
  have h4 : ¬ (sendS o).val < 5 := by show ¬ (5 + o.val < 5); omega
  have h19 : (sendS o).val < 20 := by show 5 + o.val < 20; omega
  unfold kd
  simp only [dif_neg h1, dif_neg h4, dif_pos h19]
  congr 1
  exact Fin.ext (by show 5 + o.val - 5 = o.val; omega)
theorem kd_recv (o : Fin 15) : kd (.dma (recvS o)) = Kd.recv o := by
  have ho := o.isLt
  have h1 : ¬ (recvS o).val < 1 := by show ¬ (20 + o.val < 1); omega
  have h4 : ¬ (recvS o).val < 5 := by show ¬ (20 + o.val < 5); omega
  have h19 : ¬ (recvS o).val < 20 := by show ¬ (20 + o.val < 20); omega
  have h34 : (recvS o).val < 35 := by show 20 + o.val < 35; omega
  unfold kd
  simp only [dif_neg h1, dif_neg h4, dif_neg h19, dif_pos h34]
  congr 1
  exact Fin.ext (by show 20 + o.val - 20 = o.val; omega)

section Sched
variable (c : Dev nD)

/-! ## Duties -/
theorem duties_bar : (sched (F := F) m).duties (barCell c) 0 = Finset.univ := by
  dsimp only [sched]; exact if_pos ⟨rfl, rfl⟩
theorem duties_cp (j : Fin 4) : (sched (F := F) m).duties (cpCell c j) 0 = {0} := by
  dsimp only [sched]; rw [if_pos ⟨rfl, rfl⟩, kd_cp]
theorem duties_send (o : Fin 15) : (sched (F := F) m).duties (sendCell c o) 0 = {0} := by
  dsimp only [sched]; rw [if_pos ⟨rfl, rfl⟩, kd_send]
theorem duties_recv (o : Fin 15) : (sched (F := F) m).duties (recvCell c o) 0 = {0} := by
  dsimp only [sched]; rw [if_pos ⟨rfl, rfl⟩, kd_recv]
theorem duties_later (g : GSem nD τ sig) : ∀ r, 1 ≤ r → (sched (F := F) m).duties g r = ∅ :=
  fun r hr => by dsimp only [sched]; exact if_neg fun h => by omega

/-! ## Amounts and what a round expects -/
theorem amount_bar (d : DD) : (sched (F := F) m).amount (barCell c) 0 d = 1 := rfl
theorem amount_cp (j : Fin 4) (d : DD) : (sched (F := F) m).amount (cpCell c j) 0 d = Ncp := by
  dsimp only [sched]; rw [kd_cp]
theorem amount_send (o : Fin 15) (d : DD) : (sched (F := F) m).amount (sendCell c o) 0 d = Nrow := by
  dsimp only [sched]; rw [kd_send]
theorem amount_recv (o : Fin 15) (d : DD) : (sched (F := F) m).amount (recvCell c o) 0 d = Nrow := by
  dsimp only [sched]; rw [kd_recv]
theorem expect_bar : (sched (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_cp (j : Fin 4) : (sched (F := F) m).expect (cpCell c j) 0 = Ncp := by
  unfold Schedule.expect Schedule.amountOf; rw [duties_cp, Finset.sum_singleton, amount_cp]
theorem expect_send (o : Fin 15) : (sched (F := F) m).expect (sendCell c o) 0 = Nrow := by
  unfold Schedule.expect Schedule.amountOf; rw [duties_send, Finset.sum_singleton, amount_send]
theorem expect_recv (o : Fin 15) : (sched (F := F) m).expect (recvCell c o) 0 = Nrow := by
  unfold Schedule.expect Schedule.amountOf; rw [duties_recv, Finset.sum_singleton, amount_recv]

/-! ## Payloads -/
theorem payload_bar (d : DD) : (sched (F := F) m).payload (barCell c) 0 d = barPay c d := rfl
theorem payload_cp (j : Fin 4) (d : DD) : (sched (F := F) m).payload (cpCell c j) 0 d = cpPay m c j := by
  dsimp only [sched]; rw [kd_cp]
theorem payload_send (o : Fin 15) (d : DD) : (sched (F := F) m).payload (sendCell c o) 0 d = sendPay m c o := by
  dsimp only [sched]; rw [kd_send]
theorem payload_recv (o : Fin 15) (d : DD) : (sched (F := F) m).payload (recvCell c o) 0 d = recvPay m c o := by
  dsimp only [sched]; rw [kd_recv]

/-- The rest of a round of which no duty has been taken. -/
theorem rest_bar : bigSep ((sched (F := F) m).duties (barCell c) 0 \ ∅) (fun d => (sched (F := F) m).payload (barCell c) 0 d)
    = bigSep Finset.univ (fun o : Fin 15 => barPay (F := F) c o) := by
  rw [Finset.sdiff_empty, duties_bar]
  exact congrArg (bigSep Finset.univ) (funext fun d => payload_bar m c d)
theorem rest_cp (j : Fin 4) : bigSep ((sched (F := F) m).duties (cpCell c j) 0 \ ∅) (fun d => (sched (F := F) m).payload (cpCell c j) 0 d) = cpPay m c j := by
  rw [Finset.sdiff_empty, duties_cp, bigSep_singleton, payload_cp]
theorem rest_send (o : Fin 15) : bigSep ((sched (F := F) m).duties (sendCell c o) 0 \ ∅) (fun d => (sched (F := F) m).payload (sendCell c o) 0 d) = sendPay m c o := by
  rw [Finset.sdiff_empty, duties_send, bigSep_singleton, payload_send]
theorem rest_recv (o : Fin 15) : bigSep ((sched (F := F) m).duties (recvCell c o) 0 \ ∅) (fun d => (sched (F := F) m).payload (recvCell c o) 0 d) = recvPay m c o := by
  rw [Finset.sdiff_empty, duties_recv, bigSep_singleton, payload_recv]

end Sched

end Cert.KernelIdeal.AR

end
-- ==== Proof.Owed.lean ====
/-
  What a device still owes as its thirty payments go by, that every wait of the kernel is on a cell below everything
  still owed, and that the units all devices owe one cell at launch are what its owner is credited.
-/
import proofs.«901068_g7700000000001069_dist_sum_ax0_shard0_i_m1024_n512_v7x_i16_bf16_1_alg».proof.Proof.Proto
import Mathlib.Algebra.BigOperators.Group.Finset.Basic
import Mathlib.Algebra.BigOperators.Group.Finset.Piecewise
import Mathlib.Algebra.BigOperators.Group.Finset.Sigma
import Mathlib.Algebra.BigOperators.Fin
import Mathlib.Algebra.BigOperators.Intervals
import Mathlib.Algebra.BigOperators.Finsupp.Basic

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The owed tallies, payment by payment -/

/-- Payment `o`, `o < 15`, is the signal to the device `o + 1` places on; -/
private theorem due_sig (c : Dev nD) (o : Fin 15) : due c o.val = tallyAt (barCell (peer c o)) () 1 := by
  unfold due; rw [dif_pos o.isLt]
/-- payment `15 + o` is the copy to it. -/
private theorem due_send (c : Dev nD) (o : Fin 15) : due c (15 + o.val) = tallyAt (recvCell (peer c o) o) () Nrow := by
  unfold due
  rw [dif_neg (by omega), dif_pos (by omega : 15 + o.val < 30)]
  simp only [Nat.add_sub_cancel_left]

/-- Before its `o`-th signal a device owes that signal's unit on top of the rest. -/
theorem owed_sig (c : Dev nD) (o : Fin 15) :
    owedLeft c (30 - o.val) = owedLeft c (29 - o.val) + tallyAt (barCell (peer c o)) () 1 := by
  have h1 : 30 - o.val = (29 - o.val) + 1 := by omega
  have h2 : 29 - (29 - o.val) = o.val := by omega
  rw [h1, ← due_sig]
  show owedLeft c (29 - o.val) + due c (29 - (29 - o.val)) = _
  rw [h2]
/-- Before its `o`-th copy a device owes that copy's landing on top of the rest. -/
theorem owed_send (c : Dev nD) (o : Fin 15) :
    owedLeft c (15 - o.val) = owedLeft c (14 - o.val) + tallyAt (recvCell (peer c o) o) () Nrow := by
  have h1 : 15 - o.val = (14 - o.val) + 1 := by omega
  have h2 : 29 - (14 - o.val) = 15 + o.val := by omega
  rw [h1, ← due_send]
  show owedLeft c (14 - o.val) + due c (29 - (14 - o.val)) = _
  rw [h2]
theorem owedLeft_zero (c : Dev nD) : owedLeft c 0 = 0 := rfl

/-- A payment is a unit to a barrier cell if it is one of the first fifteen, else a row's credit to a receive cell. -/
private theorem due_pos {c : Dev nD} {j : ℕ} {g : GSem nD τ sig} {u : Unit} (h : 0 < due c j g u) :
    (j < 15 ∧ ∃ o, g = barCell (peer c o)) ∨ (15 ≤ j ∧ ∃ o, g = recvCell (peer c o) o) := by
  unfold due at h
  by_cases h1 : j < 15
  · rw [dif_pos h1] at h
    exact Or.inl ⟨h1, ⟨j, h1⟩, (Pipeline.tallyAt_pos h).1⟩
  · rw [dif_neg h1] at h
    by_cases h2 : j < 30
    · rw [dif_pos h2] at h
      exact Or.inr ⟨by omega, _, (Pipeline.tallyAt_pos h).1⟩
    · rw [dif_neg h2, Pi.zero_apply, Finsupp.zero_apply] at h
      exact absurd h (Nat.lt_irrefl 0)

/-- Whatever is owed is owed to a barrier cell or a receive cell of another device; -/
theorem owedLeft_pos {c : Dev nD} {n : ℕ} {g : GSem nD τ sig} {u : Unit} (h : 0 < owedLeft c n g u) :
    (∃ o, g = barCell (peer c o)) ∨ (∃ o, g = recvCell (peer c o) o) := by
  induction n with
  | zero => rw [owedLeft_zero, Pi.zero_apply, Finsupp.zero_apply] at h; exact absurd h (Nat.lt_irrefl 0)
  | succ n ih =>
    rcases Pipeline.add_pos_cases (show 0 < (owedLeft c n + due c (29 - n)) g u from h) with h | h
    · exact ih h
    · rcases due_pos h with ⟨_, ho⟩ | ⟨_, ho⟩
      · exact Or.inl ho
      · exact Or.inr ho
/-- once the signals are paid, to a receive cell. -/
theorem owedLeft_pos_le {c : Dev nD} {n : ℕ} (hn : n ≤ 15) {g : GSem nD τ sig} {u : Unit} (h : 0 < owedLeft c n g u) :
    ∃ o, g = recvCell (peer c o) o := by
  induction n with
  | zero => rw [owedLeft_zero, Pi.zero_apply, Finsupp.zero_apply] at h; exact absurd h (Nat.lt_irrefl 0)
  | succ n ih =>
    rcases Pipeline.add_pos_cases (show 0 < (owedLeft c n + due c (29 - n)) g u from h) with h | h
    · exact ih (by omega) h
    · rcases due_pos h with ⟨hlt, _⟩ | ⟨_, ho⟩
      · omega
      · exact ho

/-! ## Levels -/

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_cp (c : Dev nD) (j : Fin 4) : lv (cpCell c j) () = 0 := by revert c j; decide
theorem lv_send (c : Dev nD) (o : Fin 15) : lv (sendCell c o) () = 0 := by revert c o; decide
theorem lv_recv (c : Dev nD) (o : Fin 15) : lv (recvCell c o) () = 2 := by revert c o; decide

omit [FloatOps F] in
/-- A wait on a cell at level 0 is below everything a device owes at launch (and below nothing owed). -/
theorem mayWait_zero_level (c : Dev nD) (sm : SemLoc sig) (hsm : lv ((c : Thread nD τ), sm) () = 0) (O : CellTallies nD τ sig Unit)
    (hO : (∃ n, O = owedLeft c n) ∨ O = 0) :
    (levAts L lv : sProp 𝕄) ⊢ MayWait (c : Thread nD τ) sm () O := by
  rcases hO with ⟨n, rfl⟩ | rfl
  · refine MayOwe.of_cut (L := L) (lev := lv) 0 (fun p hp => by rw [Finset.mem_singleton.mp hp, L_tc]; exact Finset.mem_singleton_self _)
      (fun g u hg => by
        rcases owedLeft_pos hg with ⟨o, rfl⟩ | ⟨o, rfl⟩
        · rw [L_tc]; exact Finset.mem_singleton_self _
        · rw [L_tc]; exact Finset.mem_singleton_self _)
      (fun p hp => by rw [Finset.mem_singleton.mp hp]; exact le_of_eq hsm)
      (fun g u hg => by
        rcases owedLeft_pos hg with ⟨o, rfl⟩ | ⟨o, rfl⟩
        · cases u; rw [lv_bar]; decide
        · cases u; rw [lv_recv]; decide)
  · rw [MayWait_zero]; iintro -; iempintro
omit [FloatOps F] in
/-- Once the signals are paid, a wait on a cell below level 2 is below everything still owed. -/
theorem mayWait_low (c : Dev nD) (sm : SemLoc sig) (hsm : lv ((c : Thread nD τ), sm) () < 2) (n : ℕ) (hn : n ≤ 15) :
    (levAts L lv : sProp 𝕄) ⊢ MayWait (c : Thread nD τ) sm () (owedLeft c n) :=
  MayOwe.of_cut (L := L) (lev := lv) (lv ((c : Thread nD τ), sm) ()) (fun p hp => by rw [Finset.mem_singleton.mp hp, L_tc]; exact Finset.mem_singleton_self _)
    (fun g u hg => by obtain ⟨o, rfl⟩ := owedLeft_pos_le hn hg; rw [L_tc]; exact Finset.mem_singleton_self _)
    (fun p hp => by rw [Finset.mem_singleton.mp hp])
    (fun g u hg => by obtain ⟨o, rfl⟩ := owedLeft_pos_le hn hg; cases u; rw [lv_recv]; exact hsm)

/-! ## The launch credit -/

/-- What is owed with `n` payments left is the last `n` payments summed. -/
private theorem owedLeft_eq_sum (c : Dev nD) (n : ℕ) : owedLeft c n = ∑ k ∈ Finset.range n, due c (29 - k) := by
  induction n with
  | zero => rfl
  | succ n ih => rw [Finset.sum_range_succ, ← ih]; rfl

/-- At launch a device owes its fifteen signals and its fifteen copies. -/
private theorem O₀_eq (d : Dev nD) :
    O₀ d = (∑ o : Fin 15, tallyAt (barCell (peer d o)) () 1) + ∑ o : Fin 15, tallyAt (recvCell (peer d o) o) () Nrow := by
  unfold O₀
  rw [owedLeft_eq_sum, show (∑ k ∈ Finset.range 30, due d (29 - k)) = ∑ k ∈ Finset.range 30, due d k from Finset.sum_range_reflect (fun k => due d k) 30,
    show (30 : ℕ) = 15 + 15 from rfl, Finset.sum_range_add, Finset.sum_range, Finset.sum_range]
  exact congrArg₂ (· + ·) (Finset.sum_congr rfl fun o _ => due_sig d o) (Finset.sum_congr rfl fun o _ => due_send d o)

private theorem bar_eq_iff {a b : Dev nD} : Iff (barCell a = barCell b) (a = b) :=
  ⟨fun h => Fin.ext (congrArg (fun g : GSem nD τ sig => g.1.1.val) h), fun h => h ▸ rfl⟩
private theorem recv_eq_iff {a b : Dev nD} {o o' : Fin 15} : Iff (recvCell a o = recvCell b o') (a = b ∧ o = o') :=
  ⟨fun h => ⟨Fin.ext (congrArg (fun g : GSem nD τ sig => g.1.1.val) h), by
      have h2 : recvS o = recvS o' := SemLoc.dma.inj (congrArg Prod.snd h)
      have h3 : 20 + o.val = 20 + o'.val := congrArg Fin.val h2
      exact Fin.ext (by omega)⟩, fun h => by rw [h.1, h.2]⟩
private theorem recv_ne_bar (a b : Dev nD) (o : Fin 15) : recvCell a o ≠ barCell b := fun h => by cases congrArg Prod.snd h
private theorem bar_ne_recv (a b : Dev nD) (o : Fin 15) : barCell b ≠ recvCell a o := fun h => by cases congrArg Prod.snd h

private theorem peer_eq_iff (d c : Dev nD) (o : Fin 15) : Iff (peer d o = c) (d = from_ c o) :=
  ⟨fun h => by rw [← h, from_peer], fun h => by rw [h, peer_from]⟩

/-- What device `d` owes device `c`'s barrier cell: a unit for each of its signals that goes there. -/
private theorem owed_bar (d c : Dev nD) : O₀ d (barCell c) () = ∑ o : Fin 15, if d = from_ c o then 1 else 0 := by
  rw [O₀_eq, Pi.add_apply, Finsupp.add_apply, Finset.sum_apply, Finsupp.finsetSum_apply, Finset.sum_apply, Finsupp.finsetSum_apply,
    Finset.sum_eq_zero (s := Finset.univ) (f := fun o : Fin 15 => (tallyAt (recvCell (peer d o) o) () Nrow : CellTallies nD τ sig Unit) (barCell c) ())
      (fun o _ => by rw [tallyAt_ne_cell (bar_ne_recv _ _ _)]; rfl), Nat.add_zero]
  refine Finset.sum_congr rfl fun o _ => ?_
  rw [tallyAt_apply]
  exact if_congr ⟨fun h => (peer_eq_iff d c o).mp (bar_eq_iff.mp h.1).symm, fun h => ⟨(bar_eq_iff.mpr ((peer_eq_iff d c o).mpr h)).symm, rfl⟩⟩ rfl rfl

/-- What device `d` owes receive cell `o` of device `c`: a row's credit if it is the device `o + 1` places before `c`. -/
private theorem owed_recv (d c : Dev nD) (o : Fin 15) : O₀ d (recvCell c o) () = if d = from_ c o then Nrow else 0 := by
  rw [O₀_eq, Pi.add_apply, Finsupp.add_apply, Finset.sum_apply, Finsupp.finsetSum_apply, Finset.sum_apply, Finsupp.finsetSum_apply,
    Finset.sum_eq_zero (s := Finset.univ) (f := fun o' : Fin 15 => (tallyAt (barCell (peer d o')) () 1 : CellTallies nD τ sig Unit) (recvCell c o) ())
      (fun o' _ => by rw [tallyAt_ne_cell (recv_ne_bar _ _ _)]; rfl), Nat.zero_add,
    Finset.sum_eq_single o (fun o' _ ho' => by
      rw [tallyAt_apply, if_neg (fun h => ho' (recv_eq_iff.mp h.1).2.symm)]) (fun h => absurd (Finset.mem_univ o) h), tallyAt_apply]
  exact if_congr ⟨fun h => (peer_eq_iff d c o).mp (recv_eq_iff.mp h.1).1.symm, fun h => ⟨by rw [(peer_eq_iff d c o).mpr h], rfl⟩⟩ rfl rfl

omit [FloatOps F] in
/-- The fifteen other devices owe a barrier cell one unit each; -/
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun (o : Fin 15) _ => (Finset.sum_ite_eq' Finset.univ (from_ c o) fun _ => 1).trans (if_pos (Finset.mem_univ _)),
    Finset.sum_const, Finset.card_univ, Fintype.card_fin, smul_eq_mul, Nat.mul_one]
omit [FloatOps F] in
/-- one device owes a receive cell one row's credit. -/
theorem launch_recv (c : Dev nD) (o : Fin 15) :
    tallyOn (recvCell c o) (launchCredit (Pipeline.owing O₀) 0 (recvCell c o)) = (tallyAt (recvCell c o) () Nrow : CellTallies nD τ sig Unit) := by
  unfold tallyAt; refine congrArg _ (Finsupp.ext fun u => ?_); cases u
  rw [Pipeline.launchCredit_owing, Finsupp.single_eq_same, Finset.sum_congr rfl fun d _ => owed_recv d c o,
    Finset.sum_ite_eq' Finset.univ (from_ c o) fun _ => Nrow, if_pos (Finset.mem_univ _)]

/-- The receive semaphores among all semaphores. -/
private def recvEmb : Fin 15 ↪ SemLoc sig :=
  ⟨fun o => SemLoc.dma (recvS o), fun o o' h => by
    have h3 : 20 + o.val = 20 + o'.val := congrArg Fin.val (SemLoc.dma.inj h)
    exact Fin.ext (by omega)⟩

omit [FloatOps F] in
theorem creds (c : Dev nD) :
    (Pipeline.launchCred O₀ c : sProp 𝕄)
      ⊢ iprop(cred (tallyAt (barCell c) () 15) ∗ bigSep Finset.univ fun o : Fin 15 => cred (tallyAt (recvCell c o) () Nrow)) := by
  unfold Pipeline.launchCred
  rw [bigSep_univ_at _ (SemLoc.reg barS), launch_bar]
  refine sep_mono_right ?_
  have hR : (bigSep Finset.univ fun o : Fin 15 => (cred (tallyAt (recvCell c o) () Nrow) : sProp 𝕄))
      = bigSep (Finset.univ.map recvEmb) fun sm : SemLoc sig =>
          cred (tallyOn ((c : Thread nD τ), sm) (launchCredit (Pipeline.owing O₀) 0 ((c : Thread nD τ), sm))) := by
    rw [bigSep_map]
    exact bigSep_congr fun o _ => by rw [← launch_recv]; rfl
  rw [hR]
  refine bigSep_subset fun sm h => ?_
  obtain ⟨o, -, rfl⟩ := Finset.mem_map.mp h
  exact Finset.mem_erase.mpr ⟨(fun h' => by cases h'), Finset.mem_univ _⟩

end Cert.KernelIdeal.AR

end
-- ==== Proof.Geom.lean ====
/-
  The buffers in pieces: the exchange buffer is its sixteen rows, a device's block of x its four slabs, the copy buffer
  its four slots, a row held whole is fifteen lent shares and a kept one; and what a landed copy and a stored row leave.
-/
import proofs.«901068_g7700000000001069_dist_sum_ax0_shard0_i_m1024_n512_v7x_i16_bf16_1_alg».proof.Proof.Proto
import Idealize.ShloMosaic.Lib.SparseCore.Stream
import Idealize.ShloMosaic.Lib.Pipeline.Value

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The sixteen devices from one device's place -/

omit [FloatOps F] in
/-- All devices: `c` itself and the fifteen after it; -/
theorem bigSep_dev_peer (c : Dev nD) (Φ : Dev nD → sProp 𝕄) :
    bigSep Finset.univ Φ = iprop(Φ c ∗ bigSep Finset.univ fun o : Fin 15 => Φ (peer c o)) := by
  have hu : (Finset.univ : Finset (Dev nD)) = insert c ((Finset.univ : Finset (Fin 15)).map ⟨peer c, peer_inj c⟩) := by
    revert c; decide
  have hn : c ∉ (Finset.univ : Finset (Fin 15)).map ⟨peer c, peer_inj c⟩ := by
    rw [Finset.mem_map]
    rintro ⟨o, -, ho⟩
    exact peer_ne c o ho
  rw [hu, bigSep_insert hn, bigSep_map]
  rfl
omit [FloatOps F] in
/-- `c` itself and the fifteen before it. -/
theorem bigSep_dev_from (c : Dev nD) (Φ : Dev nD → sProp 𝕄) :
    bigSep Finset.univ Φ = iprop(Φ c ∗ bigSep Finset.univ fun o : Fin 15 => Φ (from_ c o)) := by
  have hu : (Finset.univ : Finset (Dev nD)) = insert c ((Finset.univ : Finset (Fin 15)).map ⟨from_ c, from_inj c⟩) := by
    revert c; decide
  have hn : c ∉ (Finset.univ : Finset (Fin 15)).map ⟨from_ c, from_inj c⟩ := by
    rw [Finset.mem_map]
    rintro ⟨o, -, ho⟩
    exact from_ne c o ho
  rw [hu, bigSep_insert hn, bigSep_map]
  rfl

/-! ## Buffers in pieces -/

/-- Two unit-stride rectangles with pointwise equal offsets and sizes read the same elements. -/
private theorem unit_set_eq {s : Shape} {off off' size size' : Fin s.rank → Nat} {inb inb'}
    (ho : ∀ a, off a = off' a) (hs : ∀ a, size a = size' a) :
    (Rect.unit (s := s) off size inb).set = (Rect.unit (s := s) off' size' inb').set := by
  ext i
  rw [Rect.mem_set_unit, Rect.mem_set_unit]
  exact forall_congr' fun a => by rw [ho a, hs a]

omit [FloatOps F] in
/-- Row `r` of the exchange buffer is its row `r` along the first axis. -/
private theorem rowM_set (r : Dev nD) :
    (rowM r).view.set = ((cM : Memref sig .tc .vmem S16x512 .f32).view.slice (S16x512.rowRect 0 r)).set := by
  have h1 : (rowM r).view.set = (Rect.unit (s := S16x512) (k0_off2 r) S1x512.size (k0_off2_inb r)).set :=
    View.set_slice_whole cc0_scratch1 _
  have h2 : ((cM : Memref sig .tc .vmem S16x512 .f32).view.slice (S16x512.rowRect 0 r)).set = (S16x512.rowRect 0 r).set :=
    View.set_slice_whole cc0_scratch1 _
  rw [h1, h2]
  refine unit_set_eq (fun a => ?_) (fun a => ?_)
  · rw [k0_off2_eq]
    revert a; exact Fin.forall_fin_two.mpr ⟨rfl, rfl⟩
  · revert a; exact Fin.forall_fin_two.mpr ⟨rfl, rfl⟩

/-- The four slabs of 256 rows cover the 1024 rows; -/
private theorem slab_cover :
    (Finset.univ : Finset S1024x512.Idx)
      = Finset.univ.biUnion fun j : Fin 4 => (Rect.unit (s := S1024x512) ![256 * j.val, 0] S256x512.size (xsl_inb j)).set := by
  ext i
  simp only [Finset.mem_univ, Finset.mem_biUnion, true_and, true_iff]
  have h0 : (i 0).val < 1024 := (i 0).isLt
  have h1 : (i 1).val < 512 := (i 1).isLt
  refine ⟨⟨(i 0).val / 256, by omega⟩, Rect.mem_set_unit.mpr (Fin.forall_fin_two.mpr ⟨?_, ?_⟩)⟩
  · show 256 * ((i 0).val / 256) ≤ (i 0).val ∧ (i 0).val < 256 * ((i 0).val / 256) + 256
    omega
  · show 0 ≤ (i 1).val ∧ (i 1).val < 0 + 512
    omega

/-- and two of them share no row. -/
private theorem slab_disj {j j' : Fin 4} (h : j ≠ j') :
    Disjoint (Rect.unit (s := S1024x512) ![256 * j.val, 0] S256x512.size (xsl_inb j)).set
      (Rect.unit (s := S1024x512) ![256 * j'.val, 0] S256x512.size (xsl_inb j')).set := by
  refine Rect.unit_disjoint 0 ?_
  show 256 * j.val + 256 ≤ 256 * j'.val ∨ 256 * j'.val + 256 ≤ 256 * j.val
  have : j.val ≠ j'.val := fun e => h (Fin.ext e)
  omega

omit [FloatOps F] in
/-- Slot `j` of the copy buffer is its row `j` along the first axis: dropping the axis of extent one keeps the elements. -/
private theorem vsl_set (j : Fin 4) :
    (vsl j).view.set = ((vM : Memref sig .tc .vmem S4x256x512 .f32).view.slice (S4x256x512.rowRect 0 j)).set := by
  have h0 : (vsl j).view.set
      = ((vM : Memref sig .tc .vmem S4x256x512 .f32).view.slice (Rect.unit (s := S4x256x512) ![j.val, 0, 0] S1x256x512.size (vsl_inb j))).set :=
    View.set_reshape _ _
  have h1 : ((vM : Memref sig .tc .vmem S4x256x512 .f32).view.slice (Rect.unit (s := S4x256x512) ![j.val, 0, 0] S1x256x512.size (vsl_inb j))).set
      = (Rect.unit (s := S4x256x512) ![j.val, 0, 0] S1x256x512.size (vsl_inb j)).set :=
    View.set_slice_whole cc0_scratch0 _
  have h2 : ((vM : Memref sig .tc .vmem S4x256x512 .f32).view.slice (S4x256x512.rowRect 0 j)).set = (S4x256x512.rowRect 0 j).set :=
    View.set_slice_whole cc0_scratch0 _
  rw [h0, h1, h2]
  refine unit_set_eq (fun a => ?_) (fun a => ?_)
  · revert a; exact Fin.forall_fin_succ.mpr ⟨rfl, Fin.forall_fin_two.mpr ⟨rfl, rfl⟩⟩
  · revert a; exact Fin.forall_fin_succ.mpr ⟨rfl, Fin.forall_fin_two.mpr ⟨rfl, rfl⟩⟩

omit [FloatOps F] in
/-- The exchange buffer held whole is its sixteen rows held. -/
theorem cPts_rows (c : Dev nD) (f : Buf (Elt F) ((c : Thread nD τ).loc cc0_scratch1)) :
    cPts c f ⊣⊢ bigSep Finset.univ fun r : Dev nD => rowPts c r fullShare f := by
  refine BiEntails.of_eq ?_
  have h := pointsTo_rows (Ix := Unit) (Val := Elt F) (Name := ℕ) (U := UU) (Lvl := ℕ) (c : Thread nD τ)
    (cM : Memref sig .tc .vmem S16x512 .f32).view 0 fullShare f
  have hw : (cM : Memref sig .tc .vmem S16x512 .f32).view.set = Finset.univ := View.set_whole cc0_scratch1
  rw [hw] at h
  refine h.trans ?_
  refine bigSep_congr fun r _ => ?_
  unfold rowPts
  rw [rowM_set r]
omit [FloatOps F] in
/-- A device's block of `x` held whole is its four slabs held. -/
theorem xPts_slabs (c : Dev nD) : xPts m c ⊣⊢ bigSep Finset.univ fun j : Fin 4 => slabPts m c j := by
  refine BiEntails.of_eq ?_
  have h := pointsTo_biUnion (Ix := Unit) (Val := Elt F) (Name := ℕ) (U := UU) (Lvl := ℕ)
    (ℓ := (c : Thread nD τ).loc main_arg0) (q := fullShare) (f := X m c) (Finset.univ : Finset (Fin 4))
    (fun j => (Rect.unit (s := S1024x512) ![256 * j.val, 0] S256x512.size (xsl_inb j)).set)
    (fun j _ j' _ h => slab_disj h)
  rw [← slab_cover] at h
  refine h.trans (bigSep_congr fun j _ => ?_)
  have hs : (xsl j).view.set = (Rect.unit (s := S1024x512) ![256 * j.val, 0] S256x512.size (xsl_inb j)).set :=
    View.set_slice_whole main_arg0 _
  unfold slabPts
  rw [hs]
omit [FloatOps F] in
/-- The copy buffer held whole is its four slots held. -/
theorem vPts_slots (c : Dev nD) (f : Buf (Elt F) ((c : Thread nD τ).loc cc0_scratch0)) :
    vPts c f ⊣⊢ bigSep Finset.univ fun j : Fin 4 => slotPts c j f := by
  refine BiEntails.of_eq ?_
  have h := pointsTo_rows (Ix := Unit) (Val := Elt F) (Name := ℕ) (U := UU) (Lvl := ℕ) (c : Thread nD τ)
    (vM : Memref sig .tc .vmem S4x256x512 .f32).view 0 fullShare f
  have hw : (vM : Memref sig .tc .vmem S4x256x512 .f32).view.set = Finset.univ := View.set_whole cc0_scratch0
  rw [hw] at h
  refine h.trans ?_
  refine bigSep_congr fun j _ => ?_
  unfold slotPts
  rw [vsl_set j]
omit [FloatOps F] in
/-- A row held whole is a kept share and the fifteen shares lent to the copies. -/
theorem rowPts_shares (d r : Dev nD) (f : Buf (Elt F) ((d : Thread nD τ).loc cc0_scratch1)) :
    rowPts d r fullShare f ⊣⊢ iprop(rowPts d r shrKeep f ∗ bigSep Finset.univ fun o : Fin 15 => rowPts d r (shr o) f) := by
  unfold rowPts
  exact Transfers.pointsTo_toks fullShare 15
omit [FloatOps F] in
/-- Only a row's own elements matter. -/
theorem rowPts_congr (d r : Dev nD) (q : PosShare TreeShare) (f g : Buf (Elt F) ((d : Thread nD τ).loc cc0_scratch1))
    (h : ∀ i ∈ (rowM r).view.set, f i = g i) : rowPts d r q f = rowPts d r q g := by
  unfold rowPts
  exact pointsTo_congr h
omit [FloatOps F] in
theorem slotPts_congr (c : Dev nD) (j : Fin 4) (f g : Buf (Elt F) ((c : Thread nD τ).loc cc0_scratch0))
    (h : ∀ i ∈ (vsl j).view.set, f i = g i) : slotPts c j f = slotPts c j g := by
  unfold slotPts
  exact pointsTo_congr h

end Cert.KernelIdeal.AR

end
-- ==== Proof.Landed.lean ====
/-
  What a landed copy, a stored row and the kernel's loads and stores leave and touch, element by element.
-/
import proofs.«901068_g7700000000001069_dist_sum_ax0_shard0_i_m1024_n512_v7x_i16_bf16_1_alg».proof.Proof.Proto
import Idealize.ShloMosaic.Lib.Pipeline.Value
import Idealize.ShloMosaic.Lib.ValueLayout
import Idealize.ShloMosaic.Lib.Exec.Geometry

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rows as the kernel spells them -/

/-- The row a device stores into, and the rows it waits to be filled, are rows of the same family. -/
theorem off1_eq (c : Dev nD) : k0_off1 c = k0_off2 c := (k0_off1_eq c).trans (k0_off2_eq c).symm
theorem off3_eq (c : Dev nD) (o : Fin 15) : k0_off3 c (BitVec.ofNat 32 (1 + o.val)) = k0_off2 (from_ c o) := by
  rw [k0_off3_eq, k0_off2_eq]; rfl

/-! ## What a landed copy, a stored row and the loads leave -/

open Idealize.ShloMosaic.ValueIdx in
/-- Where element `y` of slot `j` sits in the copy buffer: slot `j`, row `y 0`, column `y 1` (the squeezed unit
    axis is put back as the coordinate `0`, and the slice adds its offsets `(j, 0, 0)`). -/
private theorem vsl_emb (j : Fin 4) (y : S256x512.Idx) :
    ((vsl j).view.emb y 0).val = j.val ∧ ((vsl j).view.emb y 1).val = (y 0).val ∧ ((vsl j).view.emb y 2).val = (y 1).val := by
  have hz : Shape.reshapeEquiv squeezes_S1x256x512_S256x512.numel_eq y = ix3 (⟨0, Nat.one_pos⟩ : Fin 1) (y 0) (y 1) :=
    (congrArg _ (eq_ix2 y)).trans (reshapeEquiv_ix2_1ab _ (y 0) (y 1))
  have e : (vsl j).view.emb y
      = (Rect.unit (s := S4x256x512) ![j.val, 0, 0] S1x256x512.size (vsl_inb j)).emb
          (Shape.reshapeEquiv squeezes_S1x256x512_S256x512.numel_eq y) := rfl
  rw [e, hz]
  refine ⟨?_, ?_, ?_⟩
  · show j.val + 1 * 0 = j.val; omega
  · show 0 + 1 * (y 0).val = (y 0).val; omega
  · show 0 + 1 * (y 1).val = (y 1).val; omega

/-- An element of the exchange buffer in row `c`, at the column of `y`, is device `c`'s partial sum at `y`. -/
private theorem commF_at (c : Dev nD) (i : Idx ((c : Thread nD τ).loc cc0_scratch1)) (y : S1x512.Idx)
    (h0 : (i 0).val = c.val) (h1 : (i 1).val = (y 1).val) : commF m c i = acc m c y := by
  unfold commF
  have e0 : i 0 = c := Fin.ext h0
  rw [e0]
  congr 1
  funext a
  match a with
  | ⟨0, _⟩ => exact Fin.ext (by have h : (y 0).val < 1 := (y 0).isLt; show 0 = (y 0).val; omega)
  | ⟨1, _⟩ => exact Fin.ext h1

private theorem S1x512_size_pos (a : Fin 2) : 0 < S1x512.size a := by
  match a with
  | ⟨0, _⟩ => show 0 < 1; omega
  | ⟨1, _⟩ => show 0 < 512; omega

private theorem S1x256x512_size_pos (a : Fin 3) : 0 < S1x256x512.size a := by
  match a with
  | ⟨0, _⟩ => show 0 < 1; omega
  | ⟨1, _⟩ => show 0 < 256; omega
  | ⟨2, _⟩ => show 0 < 512; omega

/-- Row `c` as the store spells its offsets lies within row `c` as the copies spell them: the offsets are equal. -/
private theorem row_within (c : Dev nD) :
    LoadRect.within (Rect.unit (s := S16x512) (k0_off2 c) S1x512.size (k0_off2_inb c))
      (Rect.unit (s := S16x512) (k0_off1 c) S1x512.size (k0_off1_inb c)).toLoadRect = true :=
  LoadRect.within_of_withinP fun a => by
    have hp := S1x512_size_pos a
    have e : k0_off1 c a = k0_off2 c a := congrFun (off1_eq c) a
    refine ⟨?_, ?_, Or.inl rfl⟩
    · show k0_off2 c a ≤ k0_off1 c a; omega
    · show k0_off1 c a + 1 * (S1x512.size a - 1) < k0_off2 c a + 1 * S1x512.size a; omega

/-- Slab `j` landed in slot `j`: on the slot's elements the copy buffer holds the block. -/
theorem slot_landed (c : Dev nD) (j : Fin 4) (fd : Buf (Elt F) ((c : Thread nD τ).loc cc0_scratch0)) :
    ∀ i ∈ (vsl j).view.set, (vsl j).view.write (Elt F) fd ((xsl j).view.read (Elt F) (X m c)) Finset.univ i = XV m c i := by
  intro i hi
  obtain ⟨y, rfl⟩ := View.exists_emb_of_mem_set _ hi
  rw [View.write_emb_of_mem _ _ (Finset.mem_univ y), View.read_apply, cast_cast, cast_eq]
  -- element `y` of the slab is row `256 j + y 0`, column `y 1` of the block; of the slot, `(j, y 0, y 1)` of the buffer
  obtain ⟨h0, h1, h2⟩ := vsl_emb j y
  unfold XV
  congr 1
  funext a
  apply Fin.ext
  match a with
  | ⟨0, _⟩ =>
    show 256 * j.val + 1 * (y 0).val = 256 * ((vsl j).view.emb y 0).val + ((vsl j).view.emb y 1).val
    rw [h0, h1]; omega
  | ⟨1, _⟩ =>
    show 0 + 1 * (y 1).val = ((vsl j).view.emb y 2).val
    rw [h2]; omega
/-- Device `c`'s row landed in row `c` of device `p`'s buffer: on the row's elements that buffer holds what every
    exchange buffer holds in the end. -/
theorem row_landed (c p : Dev nD) (fd : Buf (Elt F) ((p : Thread nD τ).loc cc0_scratch1)) :
    ∀ i ∈ (rowM c).view.set, (rowM c).view.write (Elt F) fd ((rowM c).view.read (Elt F) (commF m c)) Finset.univ i = commF m p i := by
  intro i hi
  obtain ⟨y, rfl⟩ := View.exists_emb_of_mem_set _ hi
  rw [View.write_emb_of_mem _ _ (Finset.mem_univ y), View.read_apply, cast_cast, cast_eq]
  -- the two exchange buffers' contents are the same function of the index
  rfl
/-- The partial sums stored into row `c`. -/
theorem row_stored (c : Dev nD) (f : Buf (Elt F) ((c : Thread nD τ).loc cc0_scratch1)) :
    ∀ i ∈ (rowM c).view.set,
      ((cM : Memref sig .tc .vmem S16x512 .f32).access (Rect.unit (s := S16x512) (k0_off1 c) S1x512.size (k0_off1_inb c)) : View sig .tc _ _ _).write (Elt F) f (acc m c) Finset.univ i
        = commF m c i := by
  intro i hi
  obtain ⟨y, rfl⟩ := View.exists_emb_of_mem_set _ hi
  -- the store's rectangle and the row's have equal offsets, so they place `y` at the same element
  have e : (rowM c).view.emb y = ((cM : Memref sig .tc .vmem S16x512 .f32).access (Rect.unit (s := S16x512) (k0_off1 c) S1x512.size (k0_off1_inb c)) : View sig .tc _ _ _).emb y := by
    funext a
    apply Fin.ext
    show k0_off2 c a + 1 * (y a).val = k0_off1 c a + 1 * (y a).val
    rw [off1_eq]
  rw [e, View.write_emb_of_mem _ _ (Finset.mem_univ y)]
  have hy0 : (y 0).val < 1 := (y 0).isLt
  refine Eq.symm (commF_at m c _ y ?_ ?_)
  · show k0_off1 c 0 + 1 * (y 0).val = c.val
    rw [k0_off1_eq]; show c.val + 1 * (y 0).val = c.val; omega
  · show k0_off1 c 1 + 1 * (y 1).val = (y 1).val
    rw [k0_off1_eq]; show 0 + 1 * (y 1).val = (y 1).val; omega
omit [FloatOps F] in
/-- The store into row `c` and the load before it touch row `c` only. -/
theorem store_row_sub (c : Dev nD) :
    ((cM : Memref sig .tc .vmem S16x512 .f32).access (Rect.unit (s := S16x512) (k0_off1 c) S1x512.size (k0_off1_inb c)) : View sig .tc _ _ _).setOn Finset.univ
      ⊆ (rowM c).view.set :=
  Memref.setOn_access_subset_slice_of_within cM _ (fun _ => rfl) _ Finset.univ (row_within c)
omit [FloatOps F] in
theorem load_row_sub (c : Dev nD) :
    (cM : Memref sig .tc .vmem S16x512 .f32).view.setOn (Rect.unit (s := S16x512) (k0_off1 c) S1x512.size (k0_off1_inb c)).toLoadRect.set ⊆ (rowM c).view.set :=
  Memref.setOn_subset_slice_of_within cM _ (fun _ => rfl) _ (row_within c)
omit [FloatOps F] in
/-- The load of slot `j` touches slot `j` only. -/
theorem load_slot_sub (j : Fin 4) :
    (vM : Memref sig .tc .vmem S4x256x512 .f32).view.setOn (Rect.unit (s := S4x256x512) ![j.val, 0, 0] S1x256x512.size (vsl_inb j)).toLoadRect.set ⊆ (vsl j).view.set := by
  -- squeezing keeps the element set; the load's rectangle is the slot's own
  rw [Memref.set_view_squeeze]
  refine Memref.setOn_subset_slice_of_within vM _ (fun _ => rfl) _ (LoadRect.within_of_withinP fun a => ?_)
  have hp := S1x256x512_size_pos a
  refine ⟨le_refl _, ?_, Or.inl rfl⟩
  show (![j.val, 0, 0] : Fin 3 → ℕ) a + 1 * (S1x256x512.size a - 1) < (![j.val, 0, 0] : Fin 3 → ℕ) a + 1 * S1x256x512.size a
  omega

end Cert.KernelIdeal.AR

end
-- ==== Proof.Steps.lean ====
/-
  The kernel's operations one at a time: what a device hands in at a signal, a copy, a wait, and what it has afterwards.
-/
import proofs.«901068_g7700000000001069_dist_sum_ax0_shard0_i_m1024_n512_v7x_i16_bf16_1_alg».proof.Proof.Proto
import proofs.«901068_g7700000000001069_dist_sum_ax0_shard0_i_m1024_n512_v7x_i16_bf16_1_alg».proof.Proof.Tables
import proofs.«901068_g7700000000001069_dist_sum_ax0_shard0_i_m1024_n512_v7x_i16_bf16_1_alg».proof.Proof.Owed
import proofs.«901068_g7700000000001069_dist_sum_ax0_shard0_i_m1024_n512_v7x_i16_bf16_1_alg».proof.Proof.Landed

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 35 → ℕ)

/-! ## The records, cell by cell -/

abbrev kBar : Fin 35 := 0
abbrev kCp (j : Fin 4) : Fin 35 := ⟨1 + j.val, by omega⟩
abbrev kSend (o : Fin 15) : Fin 35 := ⟨5 + o.val, by omega⟩
abbrev kRecv (o : Fin 15) : Fin 35 := ⟨20 + o.val, by omega⟩

theorem kcell_bar (c : Dev nD) : kcell (c, kBar) = barCell c := rfl
theorem kcell_cp (c : Dev nD) (j : Fin 4) : kcell (c, kCp j) = cpCell c j := by
  show ((c : Thread nD τ), csem (kCp j)) = _; unfold csem; rw [dif_neg (by show ¬ (1 + j.val = 0); omega)]
theorem kcell_send (c : Dev nD) (o : Fin 15) : kcell (c, kSend o) = sendCell c o := by
  show ((c : Thread nD τ), csem (kSend o)) = _; unfold csem; rw [dif_neg (by show ¬ (5 + o.val = 0); omega)]
theorem kcell_recv (c : Dev nD) (o : Fin 15) : kcell (c, kRecv o) = recvCell c o := by
  show ((c : Thread nD τ), csem (kRecv o)) = _; unfold csem; rw [dif_neg (by show ¬ (20 + o.val = 0); omega)]

theorem inv_at (ck : Dev nD × Fin 35) : records m K ⊢ cellInv ER (sched m) (K ck) (kcell ck) := by
  unfold records; iintro ⟨H, -⟩
  iapply (show (bigSep Finset.univ fun ck : Dev nD × Fin 35 => (cellInv ER (sched m) (K ck) (kcell ck) : sProp 𝕄)) ⊢ cellInv ER (sched m) (K ck) (kcell ck)
    from bigSep_elim (Finset.mem_univ ck))
  iexact H
theorem reached_at (ck : Dev nD × Fin 35) : records m K ⊢ reached ER (kcell ck) 0 := by
  unfold records; iintro ⟨-, H⟩
  iapply (show (bigSep Finset.univ fun ck : Dev nD × Fin 35 => (reached ER (kcell ck) 0 : sProp 𝕄)) ⊢ reached ER (kcell ck) 0
    from bigSep_elim (Finset.mem_univ ck))
  iexact H
instance records_persistent : BI.Persistent (records m K) := by unfold records; infer_instance

theorem inv_bar (c : Dev nD) : records m K ⊢ cellInv ER (sched m) (K (c, kBar)) (barCell c) := inv_at m K (c, kBar)
theorem inv_cp (c : Dev nD) (j : Fin 4) : records m K ⊢ cellInv ER (sched m) (K (c, kCp j)) (cpCell c j) := by
  have := inv_at m K (c, kCp j); rwa [kcell_cp] at this
theorem inv_send (c : Dev nD) (o : Fin 15) : records m K ⊢ cellInv ER (sched m) (K (c, kSend o)) (sendCell c o) := by
  have := inv_at m K (c, kSend o); rwa [kcell_send] at this
theorem inv_recv (c : Dev nD) (o : Fin 15) : records m K ⊢ cellInv ER (sched m) (K (c, kRecv o)) (recvCell c o) := by
  have := inv_at m K (c, kRecv o); rwa [kcell_recv] at this
theorem reached_bar (c : Dev nD) : records m K ⊢ reached ER (barCell c) 0 := reached_at m K (c, kBar)
theorem reached_cp (c : Dev nD) (j : Fin 4) : records m K ⊢ reached ER (cpCell c j) 0 := by
  have := reached_at m K (c, kCp j); rwa [kcell_cp] at this
theorem reached_send (c : Dev nD) (o : Fin 15) : records m K ⊢ reached ER (sendCell c o) 0 := by
  have := reached_at m K (c, kSend o); rwa [kcell_send] at this
theorem reached_recv (c : Dev nD) (o : Fin 15) : records m K ⊢ reached ER (recvCell c o) 0 := by
  have := reached_at m K (c, kRecv o); rwa [kcell_recv] at this

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

section Steps
variable (c : Dev nD)

/-! ## A signal -/

/-- The `o`-th signal, to the device `o + 1` places on: it pays that device's barrier duty `rev o`, handing over the row
    of this device's exchange buffer that device will copy into. -/
theorem wp_sig {α : Type} {Q : α → sProp 𝕄} {k : PUnit → Prog (TpuEff nD τ sig (Elt F) Λ₀ .tc) α} (o : Fin 15) (n : Dev nD) (hn : n = peer c o) {W : Waits sig Unit} {k' : ℕ} (hk' : k' = 1) :
    iprop(records m K ∗ owes (c : Thread nD τ) (owedLeft c (30 - o.val)) W ∗ dutyTok ER (barCell (peer c o)) 0 (rev o)
        ∗ (∃ f, rowPts c (peer c o) fullShare f))
      ⊢ iprop((owes (c : Thread nD τ) (owedLeft c (29 - o.val)) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n, Proc.tc) : Thread nD τ) barS k') k) Q) := by
  subst hn hk'
  iintro ⟨#HR, HO, Htok, Hrow⟩
  iapply (Rounds.wp_signal 𝒱₀ ER (sched m) (c : Thread nD τ) none (dst := (peer c o : Thread nD τ)) (κ := K (peer c o, kBar))
      (d := rev o) (by rw [duties_bar]; exact Finset.mem_univ _) (amount_bar m (peer c o) (rev o)) () (owedLeft c (29 - o.val)) (owed_sig c o))
    $$ [HO Htok Hrow]
  isplitr; · iapply (inv_bar m K (peer c o)); iexact HR
  isplitl [HO]; · iexact HO
  isplitl [Htok]; · iexact Htok
  isplitl [Hrow]
  · rw [payload_bar]; unfold barPay; rw [peer_peer_rev]; iexact Hrow
  · iapply (reached_bar m K (peer c o)); iexact HR

/-! ## A local copy and its wait -/

/-- Slab `j` of the block starts for slot `j`: the copy's landing is the one duty of its cell. -/
theorem wp_cpstart {α : Type} {Q : α → sProp 𝕄} {k : PUnit → Prog (TpuEff nD τ sig (Elt F) Λ₀ .tc) α} (j : Fin 4) (fd : Buf (Elt F) ((c : Thread nD τ).loc cc0_scratch0))
    {hsrc : (xsl j : Memref sig .tc .hbm S256x512 .f32).view.WordExact} {hdst : (vsl j : Memref sig .tc .vmem S256x512 .f32).view.WordExact}
    {hsem : DmaTarget.Typed (nD := nD) .hbm (.dma (cpS j)) (DmaTarget.here (vsl j) : DmaTarget nD τ sig Proc.tc .vmem S256x512 .f32)} :
    iprop(records m K ∗ slabPts m c j ∗ slotPts c j fd ∗ dutyTok ER (cpCell c j) 0 (0 : DD))
      ⊢ iprop((cred (tallyAt (cpCell c j) () Ncp) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (xsl j) (.here (vsl j)) (.dma (cpS j)) hsrc hdst hsem) k) Q) := by
  iintro ⟨#HR, Hx, Hv, Htok⟩
  unfold slabPts slotPts
  iapply (Rounds.wp_copy_pointsTo 𝒱₀ ER (sched m) (c : Thread nD τ) none (src := xsl j) (dst := vsl j) (sem := .dma (cpS j)) (q := fullShare) (fs := X m c) (κ := K (c, kCp j)) (r := 0) (d := (0 : DD)) (fd := fd)
      (by rw [duties_cp]; exact Finset.mem_singleton_self _) () Ncp rfl (amount_cp m c j 0)
      (by rw [payload_cp]; unfold cpPay slotPts slabPts; rw [pointsTo_congr (slot_landed m c j fd)]))
    $$ [Hx Hv Htok]
  isplitr; · iapply (inv_cp m K c j); iexact HR
  isplitl [Hx]; · iexact Hx
  isplitl [Hv]; · iexact Hv
  isplitl [Htok]; · iexact Htok
  iapply (reached_cp m K c j); iexact HR

/-- The wait for slab `j`: the slot comes back holding the slab, the slab with it, and the cell is closed. -/
theorem wp_cpwait {α : Type} {Q : α → sProp 𝕄} {k : PUnit → Prog (TpuEff nD τ sig (Elt F) Λ₀ .tc) α} (j : Fin 4) (n : ℕ) (hn : n ≤ 15) {W : Waits sig Unit}
    {hsrc : (xsl j : Memref sig .tc .hbm S256x512 .f32).view.WordExact} {hdst : (vsl j : Memref sig .tc .vmem S256x512 .f32).view.WordExact} :
    iprop(records m K ∗ levAts L lv ∗ cred (tallyAt (cpCell c j) () Ncp) ∗ owes (c : Thread nD τ) (owedLeft c n) W ∗ atPos ER (cpCell c j) 0 ∅ 0)
      ⊢ iprop(((owes (c : Thread nD τ) (owedLeft c n) (insert (SemLoc.dma (cpS j), ()) W) ∗ semVal (cpCell c j) 0 ∗ slotPts c j (XV m c) ∗ slabPts m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (cpS j) (xsl j) (vsl j) hsrc hdst) k) Q) := by
  iintro ⟨#HR, #Hlev, Hc, HO, Hat⟩ Hk
  iapply (Rounds.wp_wait_rest_token 𝒱₀ ER (sched m) (c : Thread nD τ) none (κ := K (c, kCp j))
      (wpE_waitDma2_eq 𝒱₀ (c : Thread nD τ) none Set.univ) (Set.mem_univ _) () (O := owedLeft c n) (W := W) (R := 0) (m := 0) (T := ∅)
      (by rw [Nat.zero_add, expect_cp])) $$ [Hc HO Hat]
  · isplitr; · iapply (inv_cp m K c j); iexact HR
    isplitl [Hc]; · iexact Hc
    isplitl [HO]; · iexact HO
    isplitr; · iapply (mayWait_low (F := F) c (.dma (cpS j)) (by rw [lv_cp]; decide) n hn); iexact Hlev
    iexact Hat
  iintro ⟨HO, Hat, -, Hpay⟩
  ihave Hp := (Entails.of_eq (rest_cp m c j)) $$ Hpay
  unfold cpPay
  icases Hp with ⟨Hv, Hx⟩
  imod (Rounds.cell_close ER (sched m) (Set.mem_univ (K (c, kCp j))) (fun h => h) (R := 0 + 1) (duties_later m (cpCell c j))) $$ [Hat] with Hz
  · isplitr; · iapply (inv_cp m K c j); iexact HR
    iexact Hat
  iapply Hk
  isplitl [HO]; · iexact HO
  isplitl [Hz]; · iexact Hz
  isplitl [Hv]; · iexact Hv
  iexact Hx

/-! ## The wait on the barrier -/

/-- Once the fifteen others have signalled, a device holds row `c` of each of their exchange buffers. -/
theorem wp_barwait {α : Type} {Q : α → sProp 𝕄} {k : PUnit → Prog (TpuEff nD τ sig (Elt F) Λ₀ .tc) α} {W : Waits sig Unit} {k' : ℕ} (hk' : k' = 15) :
    iprop(records m K ∗ levAts L lv ∗ cred (tallyAt (barCell c) () 15) ∗ owes (c : Thread nD τ) (owedLeft c 15) W ∗ atPos ER (barCell c) 0 ∅ 0)
      ⊢ iprop(((owes (c : Thread nD τ) (owedLeft c 15) (insert (SemLoc.reg barS, ()) W) ∗ bigSep Finset.univ (fun o : Fin 15 => barPay (F := F) c o))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HR, #Hlev, Hc, HO, Hat⟩ Hk
  iapply (Rounds.wp_wait_rest_token 𝒱₀ ER (sched m) (c : Thread nD τ) none (κ := K (c, kBar))
      (wpE_semWait_eq 𝒱₀ (c : Thread nD τ) none Set.univ) (Set.mem_univ _) () (O := owedLeft c 15) (W := W) (R := 0) (m := 0) (T := ∅)
      (by rw [Nat.zero_add, expect_bar])) $$ [Hc HO Hat]
  · isplitr; · iapply (inv_bar m K c); iexact HR
    isplitl [Hc]; · iexact Hc
    isplitl [HO]; · iexact HO
    isplitr; · iapply (mayWait_low (F := F) c (.reg barS) (by rw [lv_bar]; decide) 15 (Nat.le_refl _)); iexact Hlev
    iexact Hat
  iintro ⟨HO, Hat, -, Hpay⟩
  ihave Hp := (Entails.of_eq (rest_bar m c)) $$ Hpay
  iapply Hk
  isplitl [HO]; · iexact HO
  iexact Hp

/-! ## A copy to another device, and its two waits -/

/-- The `o`-th copy: row `c` of this device's buffer, at the share lent to it, into row `c` of the buffer of the device
    `o + 1` places on. Its reading-out is the duty of this device's `o`-th send cell, its landing the duty of that device's
    `o`-th receive cell. -/
theorem wp_send_o {α : Type} {Q : α → sProp 𝕄} {k : PUnit → Prog (TpuEff nD τ sig (Elt F) Λ₀ .tc) α} (o : Fin 15) (n : Dev nD) (hn : n = peer c o) (fn : Buf (Elt F) ((peer c o : Thread nD τ).loc cc0_scratch1)) {W : Waits sig Unit}
    {hsc : (rowM c : Memref sig (Dev.tc n : Thread nD τ).2.kind .vmem S1x512 .f32).view.ref.isScScratch = false}
    {hsrc : (rowM c : Memref sig .tc .vmem S1x512 .f32).view.WordExact} {hdst : (rowM c : Memref sig .tc .vmem S1x512 .f32).view.WordExact}
    {hsem : DmaTarget.Typed .vmem (.dma (recvS o)) (.remote (Dev.tc n : Thread nD τ) (rowM c : Memref sig .tc .vmem S1x512 .f32) (.dma (sendS o)) hsc)} :
    iprop(records m K ∗ rowPts c c (shr o) (commF m c) ∗ rowPts (peer c o) c fullShare fn ∗ owes (c : Thread nD τ) (owedLeft c (15 - o.val)) W
        ∗ dutyTok ER (sendCell c o) 0 (0 : DD) ∗ dutyTok ER (recvCell (peer c o) o) 0 (0 : DD))
      ⊢ iprop(((cred (tallyAt (sendCell c o) () Nrow) ∗ owes (c : Thread nD τ) (owedLeft c (14 - o.val)) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (rowM c) (.remote (Dev.tc n : Thread nD τ) (rowM c) (.dma (sendS o)) hsc) (.dma (recvS o)) hsrc hdst hsem) k) Q) := by
  subst hn
  iintro ⟨#HR, Hsrc, Hdst, HO, HtS, HtR⟩
  unfold rowPts
  iapply (Rounds.wp_send_pointsTo 𝒱₀ ER (sched m) (c : Thread nD τ) none (c' := (peer c o : Thread nD τ)) (src := rowM c) (dst := rowM c) (sS := .dma (sendS o)) (sem := .dma (recvS o)) (q := shr o) (fs := commF m c) (κ₁ := K (c, kSend o)) (κ₂ := K (peer c o, kRecv o))
      (r₁ := 0) (r₂ := 0) (d₁ := (0 : DD)) (d₂ := (0 : DD)) (fd := fn)
      (by rw [duties_send]; exact Finset.mem_singleton_self _) (by rw [duties_recv]; exact Finset.mem_singleton_self _)
      () () Nrow rfl (amount_send m c o 0) (amount_recv m (peer c o) o 0) (owedLeft c (14 - o.val)) (owed_send c o) (W := W)
      (by rw [payload_send]; unfold sendPay rowPts; exact BI.Entails.refl _)
      (by rw [payload_recv]; unfold recvPay rowPts; rw [from_peer, pointsTo_congr (row_landed m c (peer c o) fn)]))
    $$ [Hsrc Hdst HO HtS HtR]
  isplitr; · iapply (inv_send m K c o); iexact HR
  isplitr; · iapply (inv_recv m K (peer c o) o); iexact HR
  isplitl [Hsrc]; · iexact Hsrc
  isplitl [Hdst]; · iexact Hdst
  isplitl [HO]; · iexact HO
  isplitl [HtS]; · iexact HtS
  isplitr; · iapply (reached_send m K c o); iexact HR
  isplitl [HtR]; · iexact HtR
  iapply (reached_recv m K (peer c o) o); iexact HR

/-- The wait for the row of the device `o + 1` places back: it comes holding that device's partial sums; the cell is closed. -/
theorem wp_recvwait {α : Type} {Q : α → sProp 𝕄} {k : PUnit → Prog (TpuEff nD τ sig (Elt F) Λ₀ .tc) α} (o : Fin 15) {W : Waits sig Unit}
    {off off' : Fin 2 → Nat} {inb : ∀ a, off a + S1x512.size a ≤ S16x512.size a} {inb' : ∀ a, off' a + S1x512.size a ≤ S16x512.size a}
    {hsrc : ((cM : Memref sig .tc .vmem S16x512 .f32).slice (Rect.unit (s := S16x512) off' S1x512.size inb') (fun _ => rfl)).view.WordExact}
    {hdst : ((cM : Memref sig .tc .vmem S16x512 .f32).slice (Rect.unit (s := S16x512) off S1x512.size inb) (fun _ => rfl)).view.WordExact} :
    iprop(records m K ∗ cred (tallyAt (recvCell c o) () Nrow) ∗ owes (c : Thread nD τ) 0 W ∗ atPos ER (recvCell c o) 0 ∅ 0)
      ⊢ iprop(((owes (c : Thread nD τ) 0 (insert (SemLoc.dma (recvS o), ()) W) ∗ semVal (recvCell c o) 0 ∗ rowPts c (from_ c o) fullShare (commF m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS o) ((cM : Memref sig .tc .vmem S16x512 .f32).slice (Rect.unit (s := S16x512) off' S1x512.size inb') (fun _ => rfl)) ((cM : Memref sig .tc .vmem S16x512 .f32).slice (Rect.unit (s := S16x512) off S1x512.size inb) (fun _ => rfl)) hsrc hdst) k) Q) := by
  iintro ⟨#HR, Hc, HO, Hat⟩ Hk
  iapply (Rounds.wp_wait_rest_token 𝒱₀ ER (sched m) (c : Thread nD τ) none (κ := K (c, kRecv o))
      (wpE_waitDma2_eq 𝒱₀ (c : Thread nD τ) none Set.univ) (Set.mem_univ _) () (O := 0) (W := W) (R := 0) (m := 0) (T := ∅)
      (by rw [Nat.zero_add, expect_recv]; rfl)) $$ [Hc HO Hat]
  · isplitr; · iapply (inv_recv m K c o); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c o)) $$ Hpay
  imod (Rounds.cell_close ER (sched m) (Set.mem_univ (K (c, kRecv o))) (fun h => h) (R := 0 + 1) (duties_later m (recvCell c o))) $$ [Hat] with Hz
  · isplitr; · iapply (inv_recv m K c o); iexact HR
    iexact Hat
  iapply Hk
  isplitl [HO]; · iexact HO
  isplitl [Hz]; · iexact Hz
  unfold recvPay; iexact Hp

/-- The wait for the `o`-th copy to have left: the share of the own row lent to it comes back; the cell is closed. -/
theorem wp_sendwait {α : Type} {Q : α → sProp 𝕄} {k : PUnit → Prog (TpuEff nD τ sig (Elt F) Λ₀ .tc) α} (o : Fin 15) {W : Waits sig Unit}
    {off off' : Fin 2 → Nat} {inb : ∀ a, off a + S1x512.size a ≤ S16x512.size a} {inb' : ∀ a, off' a + S1x512.size a ≤ S16x512.size a}
    {hsrc : ((cM : Memref sig .tc .vmem S16x512 .f32).slice (Rect.unit (s := S16x512) off' S1x512.size inb') (fun _ => rfl)).view.WordExact}
    {hdst : ((cM : Memref sig .tc .vmem S16x512 .f32).slice (Rect.unit (s := S16x512) off S1x512.size inb) (fun _ => rfl)).view.WordExact} :
    iprop(records m K ∗ cred (tallyAt (sendCell c o) () Nrow) ∗ owes (c : Thread nD τ) 0 W ∗ atPos ER (sendCell c o) 0 ∅ 0)
      ⊢ iprop(((owes (c : Thread nD τ) 0 (insert (SemLoc.dma (sendS o), ()) W) ∗ semVal (sendCell c o) 0 ∗ rowPts c c (shr o) (commF m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS o) ((cM : Memref sig .tc .vmem S16x512 .f32).slice (Rect.unit (s := S16x512) off' S1x512.size inb') (fun _ => rfl)) ((cM : Memref sig .tc .vmem S16x512 .f32).slice (Rect.unit (s := S16x512) off S1x512.size inb) (fun _ => rfl)) hsrc hdst) k) Q) := by
  iintro ⟨#HR, Hc, HO, Hat⟩ Hk
  iapply (Rounds.wp_wait_rest_token 𝒱₀ ER (sched m) (c : Thread nD τ) none (κ := K (c, kSend o))
      (wpE_waitDma2_eq 𝒱₀ (c : Thread nD τ) none Set.univ) (Set.mem_univ _) () (O := 0) (W := W) (R := 0) (m := 0) (T := ∅)
      (by rw [Nat.zero_add, expect_send]; rfl)) $$ [Hc HO Hat]
  · isplitr; · iapply (inv_send m K c o); iexact HR
    isplitl [Hc]; · iexact Hc
    isplitl [HO]; · iexact HO
    isplitr; · rw [MayWait_zero]; iempintro
    iexact Hat
  iintro ⟨HO, Hat, -, Hpay⟩
  ihave Hp := (Entails.of_eq (rest_send m c o)) $$ Hpay
  imod (Rounds.cell_close ER (sched m) (Set.mem_univ (K (c, kSend o))) (fun h => h) (R := 0 + 1) (duties_later m (sendCell c o))) $$ [Hat] with Hz
  · isplitr; · iapply (inv_send m K c o); iexact HR
    iexact Hat
  iapply Hk
  isplitl [HO]; · iexact HO
  isplitl [Hz]; · iexact Hz
  unfold sendPay; iexact Hp

end Steps

end Cert.KernelIdeal.AR

end
-- ==== Proof.PhaseSigs.lean ====
/-
  The fifteen signals of a device's entry, as one step.
-/
import proofs.«901068_g7700000000001069_dist_sum_ax0_shard0_i_m1024_n512_v7x_i16_bf16_1_alg».proof.Proof.Proto
import proofs.«901068_g7700000000001069_dist_sum_ax0_shard0_i_m1024_n512_v7x_i16_bf16_1_alg».proof.Proof.Tables
import proofs.«901068_g7700000000001069_dist_sum_ax0_shard0_i_m1024_n512_v7x_i16_bf16_1_alg».proof.Proof.Owed
import proofs.«901068_g7700000000001069_dist_sum_ax0_shard0_i_m1024_n512_v7x_i16_bf16_1_alg».proof.Proof.Geom
import proofs.«901068_g7700000000001069_dist_sum_ax0_shard0_i_m1024_n512_v7x_i16_bf16_1_alg».proof.Proof.Landed
import proofs.«901068_g7700000000001069_dist_sum_ax0_shard0_i_m1024_n512_v7x_i16_bf16_1_alg».proof.Proof.Steps

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 35 → ℕ) (c : Dev nD)

/-- One signal, with what is owed before and after it written out as numbers. -/
private theorem sig_at {α : Type} {Q : α → sProp 𝕄} {k : PUnit → Prog (TpuEff nD τ sig (Elt F) Λ₀ .tc) α} (o : Fin 15) (a b : ℕ)
    (ha : a = 30 - o.val) (hb : b = 29 - o.val) (n : Dev nD) (hn : n = peer c o) {W : Waits sig Unit} {k' : ℕ} (hk' : k' = 1)
    (fc : Buf (Elt F) ((c : Thread nD τ).loc cc0_scratch1)) :
    iprop(records m K ∗ owes (c : Thread nD τ) (owedLeft c a) W ∗ dutyTok ER (barCell (peer c o)) 0 (rev o) ∗ rowPts c (peer c o) fullShare fc)
      ⊢ iprop((owes (c : Thread nD τ) (owedLeft c b) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n, Proc.tc) : Thread nD τ) barS k') k) Q) := by
  subst ha hb
  iintro ⟨#HR, HO, Htok, Hrow⟩
  iapply (wp_sig m K c o n hn hk') $$ [HO Htok Hrow]
  isplitr; · iexact HR
  isplitl [HO]; · iexact HO
  isplitl [Htok]; · iexact Htok
  iexists fc; iexact Hrow

/-- The fifteen signals: each hands the signalled device the row of this device's exchange buffer it will copy into. -/
theorem phase_sigs {α : Type} {Q : α → sProp 𝕄} {k : PUnit → Prog (TpuEff nD τ sig (Elt F) Λ₀ .tc) α} {W : Waits sig Unit}
    (fc : Buf (Elt F) ((c : Thread nD τ).loc cc0_scratch1)) :
    iprop(records m K ∗ owes (c : Thread nD τ) (owedLeft c 30) W
        ∗ (bigSep Finset.univ fun o : Fin 15 => dutyTok ER (barCell (peer c o)) 0 (rev o))
        ∗ (bigSep Finset.univ fun o : Fin 15 => rowPts c (peer c o) fullShare fc))
      ⊢ iprop((owes (c : Thread nD τ) (owedLeft c 15) W -∗ wp frame (wpE (defs₀ (F := F)) 𝒱₀ (c : Thread nD τ) none) Set.univ (k ⟨⟩) Q)
          -∗ wp frame (wpE (defs₀ (F := F)) 𝒱₀ (c : Thread nD τ) none) Set.univ
          (.op (.semSignal (((⟨k0_dev1 c, k0_dev1_lt c⟩ : Dev nD), Proc.tc) : Thread nD τ) barS (1#32 : BitVec 32).toNat) fun _ =>
          (.op (.semSignal (((⟨k0_dev2 c, k0_dev2_lt c⟩ : Dev nD), Proc.tc) : Thread nD τ) barS (1#32 : BitVec 32).toNat) fun _ =>
          (.op (.semSignal (((⟨k0_dev3 c, k0_dev3_lt c⟩ : Dev nD), Proc.tc) : Thread nD τ) barS (1#32 : BitVec 32).toNat) fun _ =>
          (.op (.semSignal (((⟨k0_dev4 c, k0_dev4_lt c⟩ : Dev nD), Proc.tc) : Thread nD τ) barS (1#32 : BitVec 32).toNat) fun _ =>
          (.op (.semSignal (((⟨k0_dev5 c, k0_dev5_lt c⟩ : Dev nD), Proc.tc) : Thread nD τ) barS (1#32 : BitVec 32).toNat) fun _ =>
          (.op (.semSignal (((⟨k0_dev6 c, k0_dev6_lt c⟩ : Dev nD), Proc.tc) : Thread nD τ) barS (1#32 : BitVec 32).toNat) fun _ =>
          (.op (.semSignal (((⟨k0_dev7 c, k0_dev7_lt c⟩ : Dev nD), Proc.tc) : Thread nD τ) barS (1#32 : BitVec 32).toNat) fun _ =>
          (.op (.semSignal (((⟨k0_dev8 c, k0_dev8_lt c⟩ : Dev nD), Proc.tc) : Thread nD τ) barS (1#32 : BitVec 32).toNat) fun _ =>
          (.op (.semSignal (((⟨k0_dev9 c, k0_dev9_lt c⟩ : Dev nD), Proc.tc) : Thread nD τ) barS (1#32 : BitVec 32).toNat) fun _ =>
          (.op (.semSignal (((⟨k0_dev10 c, k0_dev10_lt c⟩ : Dev nD), Proc.tc) : Thread nD τ) barS (1#32 : BitVec 32).toNat) fun _ =>
          (.op (.semSignal (((⟨k0_dev11 c, k0_dev11_lt c⟩ : Dev nD), Proc.tc) : Thread nD τ) barS (1#32 : BitVec 32).toNat) fun _ =>
          (.op (.semSignal (((⟨k0_dev12 c, k0_dev12_lt c⟩ : Dev nD), Proc.tc) : Thread nD τ) barS (1#32 : BitVec 32).toNat) fun _ =>
          (.op (.semSignal (((⟨k0_dev13 c, k0_dev13_lt c⟩ : Dev nD), Proc.tc) : Thread nD τ) barS (1#32 : BitVec 32).toNat) fun _ =>
          (.op (.semSignal (((⟨k0_dev14 c, k0_dev14_lt c⟩ : Dev nD), Proc.tc) : Thread nD τ) barS (1#32 : BitVec 32).toNat) fun _ =>
          (.op (.semSignal (((⟨k0_dev15 c, k0_dev15_lt c⟩ : Dev nD), Proc.tc) : Thread nD τ) barS (1#32 : BitVec 32).toNat) k))))))))))))))) Q) := by
  rw [bigSep_fin15, bigSep_fin15]
  iintro ⟨#HR, HO, ⟨Ht0, Ht1, Ht2, Ht3, Ht4, Ht5, Ht6, Ht7, Ht8, Ht9, Ht10, Ht11, Ht12, Ht13, Ht14⟩, Hr0, Hr1, Hr2, Hr3, Hr4, Hr5, Hr6, Hr7, Hr8, Hr9, Hr10, Hr11, Hr12, Hr13, Hr14⟩ Hk
  iapply (sig_at m K c 0 30 29 rfl rfl _ (dev1_eq c) rfl fc) $$ [HO Ht0 Hr0]
  · isplitr; · iexact HR
    isplitl [HO]; · iexact HO
    isplitl [Ht0]; · iexact Ht0
    iexact Hr0
  iintro HO
  iapply (sig_at m K c 1 29 28 rfl rfl _ (dev2_eq c) rfl fc) $$ [HO Ht1 Hr1]
  · isplitr; · iexact HR
    isplitl [HO]; · iexact HO
    isplitl [Ht1]; · iexact Ht1
    iexact Hr1
  iintro HO
  iapply (sig_at m K c 2 28 27 rfl rfl _ (dev3_eq c) rfl fc) $$ [HO Ht2 Hr2]
  · isplitr; · iexact HR
    isplitl [HO]; · iexact HO
    isplitl [Ht2]; · iexact Ht2
    iexact Hr2
  iintro HO
  iapply (sig_at m K c 3 27 26 rfl rfl _ (dev4_eq c) rfl fc) $$ [HO Ht3 Hr3]
  · isplitr; · iexact HR
    isplitl [HO]; · iexact HO
    isplitl [Ht3]; · iexact Ht3
    iexact Hr3
  iintro HO
  iapply (sig_at m K c 4 26 25 rfl rfl _ (dev5_eq c) rfl fc) $$ [HO Ht4 Hr4]
  · isplitr; · iexact HR
    isplitl [HO]; · iexact HO
    isplitl [Ht4]; · iexact Ht4
    iexact Hr4
  iintro HO
  iapply (sig_at m K c 5 25 24 rfl rfl _ (dev6_eq c) rfl fc) $$ [HO Ht5 Hr5]
  · isplitr; · iexact HR
    isplitl [HO]; · iexact HO
    isplitl [Ht5]; · iexact Ht5
    iexact Hr5
  iintro HO
  iapply (sig_at m K c 6 24 23 rfl rfl _ (dev7_eq c) rfl fc) $$ [HO Ht6 Hr6]
  · isplitr; · iexact HR
    isplitl [HO]; · iexact HO
    isplitl [Ht6]; · iexact Ht6
    iexact Hr6
  iintro HO
  iapply (sig_at m K c 7 23 22 rfl rfl _ (dev8_eq c) rfl fc) $$ [HO Ht7 Hr7]
  · isplitr; · iexact HR
    isplitl [HO]; · iexact HO
    isplitl [Ht7]; · iexact Ht7
    iexact Hr7
  iintro HO
  iapply (sig_at m K c 8 22 21 rfl rfl _ (dev9_eq c) rfl fc) $$ [HO Ht8 Hr8]
  · isplitr; · iexact HR
    isplitl [HO]; · iexact HO
    isplitl [Ht8]; · iexact Ht8
    iexact Hr8
  iintro HO
  iapply (sig_at m K c 9 21 20 rfl rfl _ (dev10_eq c) rfl fc) $$ [HO Ht9 Hr9]
  · isplitr; · iexact HR
    isplitl [HO]; · iexact HO
    isplitl [Ht9]; · iexact Ht9
    iexact Hr9
  iintro HO
  iapply (sig_at m K c 10 20 19 rfl rfl _ (dev11_eq c) rfl fc) $$ [HO Ht10 Hr10]
  · isplitr; · iexact HR
    isplitl [HO]; · iexact HO
    isplitl [Ht10]; · iexact Ht10
    iexact Hr10
  iintro HO
  iapply (sig_at m K c 11 19 18 rfl rfl _ (dev12_eq c) rfl fc) $$ [HO Ht11 Hr11]
  · isplitr; · iexact HR
    isplitl [HO]; · iexact HO
    isplitl [Ht11]; · iexact Ht11
    iexact Hr11
  iintro HO
  iapply (sig_at m K c 12 18 17 rfl rfl _ (dev13_eq c) rfl fc) $$ [HO Ht12 Hr12]
  · isplitr; · iexact HR
    isplitl [HO]; · iexact HO
    isplitl [Ht12]; · iexact Ht12
    iexact Hr12
  iintro HO
  iapply (sig_at m K c 13 17 16 rfl rfl _ (dev14_eq c) rfl fc) $$ [HO Ht13 Hr13]
  · isplitr; · iexact HR
    isplitl [HO]; · iexact HO
    isplitl [Ht13]; · iexact Ht13
    iexact Hr13
  iintro HO
  iapply (sig_at m K c 14 16 15 rfl rfl _ (dev15_eq c) rfl fc) $$ [HO Ht14 Hr14]
  · isplitr; · iexact HR
    isplitl [HO]; · iexact HO
    isplitl [Ht14]; · iexact Ht14
    iexact Hr14
  iexact Hk

end Cert.KernelIdeal.AR

end
-- ==== Proof.PhaseSends.lean ====
/-
  The fifteen copies of a device's own row into the other devices' buffers, as one step.
-/
import proofs.«901068_g7700000000001069_dist_sum_ax0_shard0_i_m1024_n512_v7x_i16_bf16_1_alg».proof.Proof.Proto
import proofs.«901068_g7700000000001069_dist_sum_ax0_shard0_i_m1024_n512_v7x_i16_bf16_1_alg».proof.Proof.Tables
import proofs.«901068_g7700000000001069_dist_sum_ax0_shard0_i_m1024_n512_v7x_i16_bf16_1_alg».proof.Proof.Owed
import proofs.«901068_g7700000000001069_dist_sum_ax0_shard0_i_m1024_n512_v7x_i16_bf16_1_alg».proof.Proof.Geom
import proofs.«901068_g7700000000001069_dist_sum_ax0_shard0_i_m1024_n512_v7x_i16_bf16_1_alg».proof.Proof.Landed
import proofs.«901068_g7700000000001069_dist_sum_ax0_shard0_i_m1024_n512_v7x_i16_bf16_1_alg».proof.Proof.Steps

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 35 → ℕ) (c : Dev nD)

/-- The fifteen copies of the own row into the other devices' buffers. -/
theorem phase_sends {α : Type} {Q : α → sProp 𝕄} {k : PUnit → Prog (TpuEff nD τ sig (Elt F) Λ₀ .tc) α} {W : Waits sig Unit} :
    iprop(records m K ∗ owes (c : Thread nD τ) (owedLeft c 15) W
        ∗ (bigSep Finset.univ fun o : Fin 15 => rowPts c c (shr o) (commF m c))
        ∗ (bigSep Finset.univ fun o : Fin 15 => barPay (F := F) c o)
        ∗ (bigSep Finset.univ fun o : Fin 15 => dutyTok ER (sendCell c o) 0 (0 : DD))
        ∗ (bigSep Finset.univ fun o : Fin 15 => dutyTok ER (recvCell (peer c o) o) 0 (0 : DD)))
      ⊢ iprop(((owes (c : Thread nD τ) 0 W ∗ bigSep Finset.univ fun o : Fin 15 => cred (tallyAt (sendCell c o) () Nrow)) -∗ wp frame (wpE (defs₀ (F := F)) 𝒱₀ (c : Thread nD τ) none) Set.univ (k ⟨⟩) Q)
          -∗ wp frame (wpE (defs₀ (F := F)) 𝒱₀ (c : Thread nD τ) none) Set.univ
          (.op (.enqueueDma (rowM c) (.remote (Dev.tc (⟨k0_dev16 c, k0_dev16_lt c⟩ : Dev nD)) (rowM c) (.dma (sendS 0))) (.dma (recvS 0)) (View.wordExact_bits rfl) (View.wordExact_bits rfl) ⟨⟨rfl, Or.inl rfl⟩, trivial⟩) fun _ =>
          (.op (.enqueueDma (rowM c) (.remote (Dev.tc (⟨k0_dev17 c, k0_dev17_lt c⟩ : Dev nD)) (rowM c) (.dma (sendS 1))) (.dma (recvS 1)) (View.wordExact_bits rfl) (View.wordExact_bits rfl) ⟨⟨rfl, Or.inl rfl⟩, trivial⟩) fun _ =>
          (.op (.enqueueDma (rowM c) (.remote (Dev.tc (⟨k0_dev18 c, k0_dev18_lt c⟩ : Dev nD)) (rowM c) (.dma (sendS 2))) (.dma (recvS 2)) (View.wordExact_bits rfl) (View.wordExact_bits rfl) ⟨⟨rfl, Or.inl rfl⟩, trivial⟩) fun _ =>
          (.op (.enqueueDma (rowM c) (.remote (Dev.tc (⟨k0_dev19 c, k0_dev19_lt c⟩ : Dev nD)) (rowM c) (.dma (sendS 3))) (.dma (recvS 3)) (View.wordExact_bits rfl) (View.wordExact_bits rfl) ⟨⟨rfl, Or.inl rfl⟩, trivial⟩) fun _ =>
          (.op (.enqueueDma (rowM c) (.remote (Dev.tc (⟨k0_dev20 c, k0_dev20_lt c⟩ : Dev nD)) (rowM c) (.dma (sendS 4))) (.dma (recvS 4)) (View.wordExact_bits rfl) (View.wordExact_bits rfl) ⟨⟨rfl, Or.inl rfl⟩, trivial⟩) fun _ =>
          (.op (.enqueueDma (rowM c) (.remote (Dev.tc (⟨k0_dev21 c, k0_dev21_lt c⟩ : Dev nD)) (rowM c) (.dma (sendS 5))) (.dma (recvS 5)) (View.wordExact_bits rfl) (View.wordExact_bits rfl) ⟨⟨rfl, Or.inl rfl⟩, trivial⟩) fun _ =>
          (.op (.enqueueDma (rowM c) (.remote (Dev.tc (⟨k0_dev22 c, k0_dev22_lt c⟩ : Dev nD)) (rowM c) (.dma (sendS 6))) (.dma (recvS 6)) (View.wordExact_bits rfl) (View.wordExact_bits rfl) ⟨⟨rfl, Or.inl rfl⟩, trivial⟩) fun _ =>
          (.op (.enqueueDma (rowM c) (.remote (Dev.tc (⟨k0_dev23 c, k0_dev23_lt c⟩ : Dev nD)) (rowM c) (.dma (sendS 7))) (.dma (recvS 7)) (View.wordExact_bits rfl) (View.wordExact_bits rfl) ⟨⟨rfl, Or.inl rfl⟩, trivial⟩) fun _ =>
          (.op (.enqueueDma (rowM c) (.remote (Dev.tc (⟨k0_dev24 c, k0_dev24_lt c⟩ : Dev nD)) (rowM c) (.dma (sendS 8))) (.dma (recvS 8)) (View.wordExact_bits rfl) (View.wordExact_bits rfl) ⟨⟨rfl, Or.inl rfl⟩, trivial⟩) fun _ =>
          (.op (.enqueueDma (rowM c) (.remote (Dev.tc (⟨k0_dev25 c, k0_dev25_lt c⟩ : Dev nD)) (rowM c) (.dma (sendS 9))) (.dma (recvS 9)) (View.wordExact_bits rfl) (View.wordExact_bits rfl) ⟨⟨rfl, Or.inl rfl⟩, trivial⟩) fun _ =>
          (.op (.enqueueDma (rowM c) (.remote (Dev.tc (⟨k0_dev26 c, k0_dev26_lt c⟩ : Dev nD)) (rowM c) (.dma (sendS 10))) (.dma (recvS 10)) (View.wordExact_bits rfl) (View.wordExact_bits rfl) ⟨⟨rfl, Or.inl rfl⟩, trivial⟩) fun _ =>
          (.op (.enqueueDma (rowM c) (.remote (Dev.tc (⟨k0_dev27 c, k0_dev27_lt c⟩ : Dev nD)) (rowM c) (.dma (sendS 11))) (.dma (recvS 11)) (View.wordExact_bits rfl) (View.wordExact_bits rfl) ⟨⟨rfl, Or.inl rfl⟩, trivial⟩) fun _ =>
          (.op (.enqueueDma (rowM c) (.remote (Dev.tc (⟨k0_dev28 c, k0_dev28_lt c⟩ : Dev nD)) (rowM c) (.dma (sendS 12))) (.dma (recvS 12)) (View.wordExact_bits rfl) (View.wordExact_bits rfl) ⟨⟨rfl, Or.inl rfl⟩, trivial⟩) fun _ =>
          (.op (.enqueueDma (rowM c) (.remote (Dev.tc (⟨k0_dev29 c, k0_dev29_lt c⟩ : Dev nD)) (rowM c) (.dma (sendS 13))) (.dma (recvS 13)) (View.wordExact_bits rfl) (View.wordExact_bits rfl) ⟨⟨rfl, Or.inl rfl⟩, trivial⟩) fun _ =>
          (.op (.enqueueDma (rowM c) (.remote (Dev.tc (⟨k0_dev30 c, k0_dev30_lt c⟩ : Dev nD)) (rowM c) (.dma (sendS 14))) (.dma (recvS 14)) (View.wordExact_bits rfl) (View.wordExact_bits rfl) ⟨⟨rfl, Or.inl rfl⟩, trivial⟩) k))))))))))))))) Q) := by
  simp only [bigSep_fin15]
  unfold barPay
  iintro ⟨#HR, HO, ⟨Hs0, Hs1, Hs2, Hs3, Hs4, Hs5, Hs6, Hs7, Hs8, Hs9, Hs10, Hs11, Hs12, Hs13, Hs14⟩, ⟨⟨%fn0, Hd0⟩, ⟨%fn1, Hd1⟩, ⟨%fn2, Hd2⟩, ⟨%fn3, Hd3⟩, ⟨%fn4, Hd4⟩, ⟨%fn5, Hd5⟩, ⟨%fn6, Hd6⟩, ⟨%fn7, Hd7⟩, ⟨%fn8, Hd8⟩, ⟨%fn9, Hd9⟩, ⟨%fn10, Hd10⟩, ⟨%fn11, Hd11⟩, ⟨%fn12, Hd12⟩, ⟨%fn13, Hd13⟩, ⟨%fn14, Hd14⟩⟩, ⟨Ht0, Ht1, Ht2, Ht3, Ht4, Ht5, Ht6, Ht7, Ht8, Ht9, Ht10, Ht11, Ht12, Ht13, Ht14⟩, ⟨Hr0, Hr1, Hr2, Hr3, Hr4, Hr5, Hr6, Hr7, Hr8, Hr9, Hr10, Hr11, Hr12, Hr13, Hr14⟩⟩ Hk
  iapply (wp_send_o m K c 0 ⟨k0_dev16 c, k0_dev16_lt c⟩ (dev16_eq c) fn0 (W := W)) $$ [Hs0 Hd0 HO Ht0 Hr0]
  · isplitr; · iexact HR
    isplitl [Hs0]; · iexact Hs0
    isplitl [Hd0]; · iexact Hd0
    isplitl [HO]; · iexact HO
    isplitl [Ht0]; · iexact Ht0
    iexact Hr0
  iintro ⟨Hc0, HO⟩
  iapply (wp_send_o m K c 1 ⟨k0_dev17 c, k0_dev17_lt c⟩ (dev17_eq c) fn1 (W := W)) $$ [Hs1 Hd1 HO Ht1 Hr1]
  · isplitr; · iexact HR
    isplitl [Hs1]; · iexact Hs1
    isplitl [Hd1]; · iexact Hd1
    isplitl [HO]; · iexact HO
    isplitl [Ht1]; · iexact Ht1
    iexact Hr1
  iintro ⟨Hc1, HO⟩
  iapply (wp_send_o m K c 2 ⟨k0_dev18 c, k0_dev18_lt c⟩ (dev18_eq c) fn2 (W := W)) $$ [Hs2 Hd2 HO Ht2 Hr2]
  · isplitr; · iexact HR
    isplitl [Hs2]; · iexact Hs2
    isplitl [Hd2]; · iexact Hd2
    isplitl [HO]; · iexact HO
    isplitl [Ht2]; · iexact Ht2
    iexact Hr2
  iintro ⟨Hc2, HO⟩
  iapply (wp_send_o m K c 3 ⟨k0_dev19 c, k0_dev19_lt c⟩ (dev19_eq c) fn3 (W := W)) $$ [Hs3 Hd3 HO Ht3 Hr3]
  · isplitr; · iexact HR
    isplitl [Hs3]; · iexact Hs3
    isplitl [Hd3]; · iexact Hd3
    isplitl [HO]; · iexact HO
    isplitl [Ht3]; · iexact Ht3
    iexact Hr3
  iintro ⟨Hc3, HO⟩
  iapply (wp_send_o m K c 4 ⟨k0_dev20 c, k0_dev20_lt c⟩ (dev20_eq c) fn4 (W := W)) $$ [Hs4 Hd4 HO Ht4 Hr4]
  · isplitr; · iexact HR
    isplitl [Hs4]; · iexact Hs4
    isplitl [Hd4]; · iexact Hd4
    isplitl [HO]; · iexact HO
    isplitl [Ht4]; · iexact Ht4
    iexact Hr4
  iintro ⟨Hc4, HO⟩
  iapply (wp_send_o m K c 5 ⟨k0_dev21 c, k0_dev21_lt c⟩ (dev21_eq c) fn5 (W := W)) $$ [Hs5 Hd5 HO Ht5 Hr5]
  · isplitr; · iexact HR
    isplitl [Hs5]; · iexact Hs5
    isplitl [Hd5]; · iexact Hd5
    isplitl [HO]; · iexact HO
    isplitl [Ht5]; · iexact Ht5
    iexact Hr5
  iintro ⟨Hc5, HO⟩
  iapply (wp_send_o m K c 6 ⟨k0_dev22 c, k0_dev22_lt c⟩ (dev22_eq c) fn6 (W := W)) $$ [Hs6 Hd6 HO Ht6 Hr6]
  · isplitr; · iexact HR
    isplitl [Hs6]; · iexact Hs6
    isplitl [Hd6]; · iexact Hd6
    isplitl [HO]; · iexact HO
    isplitl [Ht6]; · iexact Ht6
    iexact Hr6
  iintro ⟨Hc6, HO⟩
  iapply (wp_send_o m K c 7 ⟨k0_dev23 c, k0_dev23_lt c⟩ (dev23_eq c) fn7 (W := W)) $$ [Hs7 Hd7 HO Ht7 Hr7]
  · isplitr; · iexact HR
    isplitl [Hs7]; · iexact Hs7
    isplitl [Hd7]; · iexact Hd7
    isplitl [HO]; · iexact HO
    isplitl [Ht7]; · iexact Ht7
    iexact Hr7
  iintro ⟨Hc7, HO⟩
  iapply (wp_send_o m K c 8 ⟨k0_dev24 c, k0_dev24_lt c⟩ (dev24_eq c) fn8 (W := W)) $$ [Hs8 Hd8 HO Ht8 Hr8]
  · isplitr; · iexact HR
    isplitl [Hs8]; · iexact Hs8
    isplitl [Hd8]; · iexact Hd8
    isplitl [HO]; · iexact HO
    isplitl [Ht8]; · iexact Ht8
    iexact Hr8
  iintro ⟨Hc8, HO⟩
  iapply (wp_send_o m K c 9 ⟨k0_dev25 c, k0_dev25_lt c⟩ (dev25_eq c) fn9 (W := W)) $$ [Hs9 Hd9 HO Ht9 Hr9]
  · isplitr; · iexact HR
    isplitl [Hs9]; · iexact Hs9
    isplitl [Hd9]; · iexact Hd9
    isplitl [HO]; · iexact HO
    isplitl [Ht9]; · iexact Ht9
    iexact Hr9
  iintro ⟨Hc9, HO⟩
  iapply (wp_send_o m K c 10 ⟨k0_dev26 c, k0_dev26_lt c⟩ (dev26_eq c) fn10 (W := W)) $$ [Hs10 Hd10 HO Ht10 Hr10]
  · isplitr; · iexact HR
    isplitl [Hs10]; · iexact Hs10
    isplitl [Hd10]; · iexact Hd10
    isplitl [HO]; · iexact HO
    isplitl [Ht10]; · iexact Ht10
    iexact Hr10
  iintro ⟨Hc10, HO⟩
  iapply (wp_send_o m K c 11 ⟨k0_dev27 c, k0_dev27_lt c⟩ (dev27_eq c) fn11 (W := W)) $$ [Hs11 Hd11 HO Ht11 Hr11]
  · isplitr; · iexact HR
    isplitl [Hs11]; · iexact Hs11
    isplitl [Hd11]; · iexact Hd11
    isplitl [HO]; · iexact HO
    isplitl [Ht11]; · iexact Ht11
    iexact Hr11
  iintro ⟨Hc11, HO⟩
  iapply (wp_send_o m K c 12 ⟨k0_dev28 c, k0_dev28_lt c⟩ (dev28_eq c) fn12 (W := W)) $$ [Hs12 Hd12 HO Ht12 Hr12]
  · isplitr; · iexact HR
    isplitl [Hs12]; · iexact Hs12
    isplitl [Hd12]; · iexact Hd12
    isplitl [HO]; · iexact HO
    isplitl [Ht12]; · iexact Ht12
    iexact Hr12
  iintro ⟨Hc12, HO⟩
  iapply (wp_send_o m K c 13 ⟨k0_dev29 c, k0_dev29_lt c⟩ (dev29_eq c) fn13 (W := W)) $$ [Hs13 Hd13 HO Ht13 Hr13]
  · isplitr; · iexact HR
    isplitl [Hs13]; · iexact Hs13
    isplitl [Hd13]; · iexact Hd13
    isplitl [HO]; · iexact HO
    isplitl [Ht13]; · iexact Ht13
    iexact Hr13
  iintro ⟨Hc13, HO⟩
  iapply (wp_send_o m K c 14 ⟨k0_dev30 c, k0_dev30_lt c⟩ (dev30_eq c) fn14 (W := W)) $$ [Hs14 Hd14 HO Ht14 Hr14]
  · isplitr; · iexact HR
    isplitl [Hs14]; · iexact Hs14
    isplitl [Hd14]; · iexact Hd14
    isplitl [HO]; · iexact HO
    isplitl [Ht14]; · iexact Ht14
    iexact Hr14
  iintro ⟨Hc14, HO⟩
  iapply Hk
  isplitl [HO]; · iexact HO
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hc10]; · iexact Hc10
  isplitl [Hc11]; · iexact Hc11
  isplitl [Hc12]; · iexact Hc12
  isplitl [Hc13]; · iexact Hc13
  iexact Hc14

end Cert.KernelIdeal.AR

end
-- ==== Proof.PhaseWaits.lean ====
/-
  The fifteen waits for the other devices' rows, and the fifteen waits for the own copies to have left, each run as one step.
-/
import proofs.«901068_g7700000000001069_dist_sum_ax0_shard0_i_m1024_n512_v7x_i16_bf16_1_alg».proof.Proof.Proto
import proofs.«901068_g7700000000001069_dist_sum_ax0_shard0_i_m1024_n512_v7x_i16_bf16_1_alg».proof.Proof.Tables
import proofs.«901068_g7700000000001069_dist_sum_ax0_shard0_i_m1024_n512_v7x_i16_bf16_1_alg».proof.Proof.Owed
import proofs.«901068_g7700000000001069_dist_sum_ax0_shard0_i_m1024_n512_v7x_i16_bf16_1_alg».proof.Proof.Geom
import proofs.«901068_g7700000000001069_dist_sum_ax0_shard0_i_m1024_n512_v7x_i16_bf16_1_alg».proof.Proof.Landed
import proofs.«901068_g7700000000001069_dist_sum_ax0_shard0_i_m1024_n512_v7x_i16_bf16_1_alg».proof.Proof.Steps

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 35 → ℕ) (c : Dev nD)

/-- The fifteen waits for the other devices' rows. -/
theorem phase_recvs {α : Type} {Q : α → sProp 𝕄} {k : PUnit → Prog (TpuEff nD τ sig (Elt F) Λ₀ .tc) α} {W : Waits sig Unit} :
    iprop(records m K ∗ owes (c : Thread nD τ) 0 W
        ∗ (bigSep Finset.univ fun o : Fin 15 => cred (tallyAt (recvCell c o) () Nrow))
        ∗ (bigSep Finset.univ fun o : Fin 15 => atPos ER (recvCell c o) 0 ∅ 0))
      ⊢ iprop((((∃ W', owes (c : Thread nD τ) 0 W') ∗ (bigSep Finset.univ fun o : Fin 15 => semVal (recvCell c o) 0)
              ∗ (bigSep Finset.univ fun o : Fin 15 => rowPts c (from_ c o) fullShare (commF m c))) -∗ wp frame (wpE (defs₀ (F := F)) 𝒱₀ (c : Thread nD τ) none) Set.univ (k ⟨⟩) Q)
          -∗ wp frame (wpE (defs₀ (F := F)) 𝒱₀ (c : Thread nD τ) none) Set.univ
          (.op (.waitDma2 (recvS 0) ((cM : Memref sig .tc .vmem S16x512 .f32).slice (Rect.unit (s := S16x512) (k0_off3 c 1#32) S1x512.size (k0_off3_inb c 0)) (fun _ => rfl)) ((cM : Memref sig .tc .vmem S16x512 .f32).slice (Rect.unit (s := S16x512) (k0_off3 c 1#32) S1x512.size (k0_off3_inb c 0)) (fun _ => rfl)) (View.wordExact_bits rfl) (View.wordExact_bits rfl)) fun _ =>
          (.op (.waitDma2 (recvS 1) ((cM : Memref sig .tc .vmem S16x512 .f32).slice (Rect.unit (s := S16x512) (k0_off3 c 2#32) S1x512.size (k0_off3_inb c 1)) (fun _ => rfl)) ((cM : Memref sig .tc .vmem S16x512 .f32).slice (Rect.unit (s := S16x512) (k0_off3 c 2#32) S1x512.size (k0_off3_inb c 1)) (fun _ => rfl)) (View.wordExact_bits rfl) (View.wordExact_bits rfl)) fun _ =>
          (.op (.waitDma2 (recvS 2) ((cM : Memref sig .tc .vmem S16x512 .f32).slice (Rect.unit (s := S16x512) (k0_off3 c 3#32) S1x512.size (k0_off3_inb c 2)) (fun _ => rfl)) ((cM : Memref sig .tc .vmem S16x512 .f32).slice (Rect.unit (s := S16x512) (k0_off3 c 3#32) S1x512.size (k0_off3_inb c 2)) (fun _ => rfl)) (View.wordExact_bits rfl) (View.wordExact_bits rfl)) fun _ =>
          (.op (.waitDma2 (recvS 3) ((cM : Memref sig .tc .vmem S16x512 .f32).slice (Rect.unit (s := S16x512) (k0_off3 c 4#32) S1x512.size (k0_off3_inb c 3)) (fun _ => rfl)) ((cM : Memref sig .tc .vmem S16x512 .f32).slice (Rect.unit (s := S16x512) (k0_off3 c 4#32) S1x512.size (k0_off3_inb c 3)) (fun _ => rfl)) (View.wordExact_bits rfl) (View.wordExact_bits rfl)) fun _ =>
          (.op (.waitDma2 (recvS 4) ((cM : Memref sig .tc .vmem S16x512 .f32).slice (Rect.unit (s := S16x512) (k0_off3 c 5#32) S1x512.size (k0_off3_inb c 4)) (fun _ => rfl)) ((cM : Memref sig .tc .vmem S16x512 .f32).slice (Rect.unit (s := S16x512) (k0_off3 c 5#32) S1x512.size (k0_off3_inb c 4)) (fun _ => rfl)) (View.wordExact_bits rfl) (View.wordExact_bits rfl)) fun _ =>
          (.op (.waitDma2 (recvS 5) ((cM : Memref sig .tc .vmem S16x512 .f32).slice (Rect.unit (s := S16x512) (k0_off3 c 6#32) S1x512.size (k0_off3_inb c 5)) (fun _ => rfl)) ((cM : Memref sig .tc .vmem S16x512 .f32).slice (Rect.unit (s := S16x512) (k0_off3 c 6#32) S1x512.size (k0_off3_inb c 5)) (fun _ => rfl)) (View.wordExact_bits rfl) (View.wordExact_bits rfl)) fun _ =>
          (.op (.waitDma2 (recvS 6) ((cM : Memref sig .tc .vmem S16x512 .f32).slice (Rect.unit (s := S16x512) (k0_off3 c 7#32) S1x512.size (k0_off3_inb c 6)) (fun _ => rfl)) ((cM : Memref sig .tc .vmem S16x512 .f32).slice (Rect.unit (s := S16x512) (k0_off3 c 7#32) S1x512.size (k0_off3_inb c 6)) (fun _ => rfl)) (View.wordExact_bits rfl) (View.wordExact_bits rfl)) fun _ =>
          (.op (.waitDma2 (recvS 7) ((cM : Memref sig .tc .vmem S16x512 .f32).slice (Rect.unit (s := S16x512) (k0_off3 c 8#32) S1x512.size (k0_off3_inb c 7)) (fun _ => rfl)) ((cM : Memref sig .tc .vmem S16x512 .f32).slice (Rect.unit (s := S16x512) (k0_off3 c 8#32) S1x512.size (k0_off3_inb c 7)) (fun _ => rfl)) (View.wordExact_bits rfl) (View.wordExact_bits rfl)) fun _ =>
          (.op (.waitDma2 (recvS 8) ((cM : Memref sig .tc .vmem S16x512 .f32).slice (Rect.unit (s := S16x512) (k0_off3 c 9#32) S1x512.size (k0_off3_inb c 8)) (fun _ => rfl)) ((cM : Memref sig .tc .vmem S16x512 .f32).slice (Rect.unit (s := S16x512) (k0_off3 c 9#32) S1x512.size (k0_off3_inb c 8)) (fun _ => rfl)) (View.wordExact_bits rfl) (View.wordExact_bits rfl)) fun _ =>
          (.op (.waitDma2 (recvS 9) ((cM : Memref sig .tc .vmem S16x512 .f32).slice (Rect.unit (s := S16x512) (k0_off3 c 10#32) S1x512.size (k0_off3_inb c 9)) (fun _ => rfl)) ((cM : Memref sig .tc .vmem S16x512 .f32).slice (Rect.unit (s := S16x512) (k0_off3 c 10#32) S1x512.size (k0_off3_inb c 9)) (fun _ => rfl)) (View.wordExact_bits rfl) (View.wordExact_bits rfl)) fun _ =>
          (.op (.waitDma2 (recvS 10) ((cM : Memref sig .tc .vmem S16x512 .f32).slice (Rect.unit (s := S16x512) (k0_off3 c 11#32) S1x512.size (k0_off3_inb c 10)) (fun _ => rfl)) ((cM : Memref sig .tc .vmem S16x512 .f32).slice (Rect.unit (s := S16x512) (k0_off3 c 11#32) S1x512.size (k0_off3_inb c 10)) (fun _ => rfl)) (View.wordExact_bits rfl) (View.wordExact_bits rfl)) fun _ =>
          (.op (.waitDma2 (recvS 11) ((cM : Memref sig .tc .vmem S16x512 .f32).slice (Rect.unit (s := S16x512) (k0_off3 c 12#32) S1x512.size (k0_off3_inb c 11)) (fun _ => rfl)) ((cM : Memref sig .tc .vmem S16x512 .f32).slice (Rect.unit (s := S16x512) (k0_off3 c 12#32) S1x512.size (k0_off3_inb c 11)) (fun _ => rfl)) (View.wordExact_bits rfl) (View.wordExact_bits rfl)) fun _ =>
          (.op (.waitDma2 (recvS 12) ((cM : Memref sig .tc .vmem S16x512 .f32).slice (Rect.unit (s := S16x512) (k0_off3 c 13#32) S1x512.size (k0_off3_inb c 12)) (fun _ => rfl)) ((cM : Memref sig .tc .vmem S16x512 .f32).slice (Rect.unit (s := S16x512) (k0_off3 c 13#32) S1x512.size (k0_off3_inb c 12)) (fun _ => rfl)) (View.wordExact_bits rfl) (View.wordExact_bits rfl)) fun _ =>
          (.op (.waitDma2 (recvS 13) ((cM : Memref sig .tc .vmem S16x512 .f32).slice (Rect.unit (s := S16x512) (k0_off3 c 14#32) S1x512.size (k0_off3_inb c 13)) (fun _ => rfl)) ((cM : Memref sig .tc .vmem S16x512 .f32).slice (Rect.unit (s := S16x512) (k0_off3 c 14#32) S1x512.size (k0_off3_inb c 13)) (fun _ => rfl)) (View.wordExact_bits rfl) (View.wordExact_bits rfl)) fun _ =>
          (.op (.waitDma2 (recvS 14) ((cM : Memref sig .tc .vmem S16x512 .f32).slice (Rect.unit (s := S16x512) (k0_off3 c 15#32) S1x512.size (k0_off3_inb c 14)) (fun _ => rfl)) ((cM : Memref sig .tc .vmem S16x512 .f32).slice (Rect.unit (s := S16x512) (k0_off3 c 15#32) S1x512.size (k0_off3_inb c 14)) (fun _ => rfl)) (View.wordExact_bits rfl) (View.wordExact_bits rfl)) k))))))))))))))) Q) := by
  rw [bigSep_fin15, bigSep_fin15, bigSep_fin15, bigSep_fin15]
  iintro ⟨#HR, HO, ⟨Hc0, Hc1, Hc2, Hc3, Hc4, Hc5, Hc6, Hc7, Hc8, Hc9, Hc10, Hc11, Hc12, Hc13, Hc14⟩, ⟨Ha0, Ha1, Ha2, Ha3, Ha4, Ha5, Ha6, Ha7, Ha8, Ha9, Ha10, Ha11, Ha12, Ha13, Ha14⟩⟩ Hk
  iapply (wp_recvwait m K c 0) $$ [HO Hc0 Ha0]
  · isplitr; · iexact HR
    isplitl [Hc0]; · iexact Hc0
    isplitl [HO]; · iexact HO
    iexact Ha0
  iintro ⟨HO, Hz0, Hp0⟩
  iapply (wp_recvwait m K c 1) $$ [HO Hc1 Ha1]
  · isplitr; · iexact HR
    isplitl [Hc1]; · iexact Hc1
    isplitl [HO]; · iexact HO
    iexact Ha1
  iintro ⟨HO, Hz1, Hp1⟩
  iapply (wp_recvwait m K c 2) $$ [HO Hc2 Ha2]
  · isplitr; · iexact HR
    isplitl [Hc2]; · iexact Hc2
    isplitl [HO]; · iexact HO
    iexact Ha2
  iintro ⟨HO, Hz2, Hp2⟩
  iapply (wp_recvwait m K c 3) $$ [HO Hc3 Ha3]
  · isplitr; · iexact HR
    isplitl [Hc3]; · iexact Hc3
    isplitl [HO]; · iexact HO
    iexact Ha3
  iintro ⟨HO, Hz3, Hp3⟩
  iapply (wp_recvwait m K c 4) $$ [HO Hc4 Ha4]
  · isplitr; · iexact HR
    isplitl [Hc4]; · iexact Hc4
    isplitl [HO]; · iexact HO
    iexact Ha4
  iintro ⟨HO, Hz4, Hp4⟩
  iapply (wp_recvwait m K c 5) $$ [HO Hc5 Ha5]
  · isplitr; · iexact HR
    isplitl [Hc5]; · iexact Hc5
    isplitl [HO]; · iexact HO
    iexact Ha5
  iintro ⟨HO, Hz5, Hp5⟩
  iapply (wp_recvwait m K c 6) $$ [HO Hc6 Ha6]
  · isplitr; · iexact HR
    isplitl [Hc6]; · iexact Hc6
    isplitl [HO]; · iexact HO
    iexact Ha6
  iintro ⟨HO, Hz6, Hp6⟩
  iapply (wp_recvwait m K c 7) $$ [HO Hc7 Ha7]
  · isplitr; · iexact HR
    isplitl [Hc7]; · iexact Hc7
    isplitl [HO]; · iexact HO
    iexact Ha7
  iintro ⟨HO, Hz7, Hp7⟩
  iapply (wp_recvwait m K c 8) $$ [HO Hc8 Ha8]
  · isplitr; · iexact HR
    isplitl [Hc8]; · iexact Hc8
    isplitl [HO]; · iexact HO
    iexact Ha8
  iintro ⟨HO, Hz8, Hp8⟩
  iapply (wp_recvwait m K c 9) $$ [HO Hc9 Ha9]
  · isplitr; · iexact HR
    isplitl [Hc9]; · iexact Hc9
    isplitl [HO]; · iexact HO
    iexact Ha9
  iintro ⟨HO, Hz9, Hp9⟩
  iapply (wp_recvwait m K c 10) $$ [HO Hc10 Ha10]
  · isplitr; · iexact HR
    isplitl [Hc10]; · iexact Hc10
    isplitl [HO]; · iexact HO
    iexact Ha10
  iintro ⟨HO, Hz10, Hp10⟩
  iapply (wp_recvwait m K c 11) $$ [HO Hc11 Ha11]
  · isplitr; · iexact HR
    isplitl [Hc11]; · iexact Hc11
    isplitl [HO]; · iexact HO
    iexact Ha11
  iintro ⟨HO, Hz11, Hp11⟩
  iapply (wp_recvwait m K c 12) $$ [HO Hc12 Ha12]
  · isplitr; · iexact HR
    isplitl [Hc12]; · iexact Hc12
    isplitl [HO]; · iexact HO
    iexact Ha12
  iintro ⟨HO, Hz12, Hp12⟩
  iapply (wp_recvwait m K c 13) $$ [HO Hc13 Ha13]
  · isplitr; · iexact HR
    isplitl [Hc13]; · iexact Hc13
    isplitl [HO]; · iexact HO
    iexact Ha13
  iintro ⟨HO, Hz13, Hp13⟩
  iapply (wp_recvwait m K c 14) $$ [HO Hc14 Ha14]
  · isplitr; · iexact HR
    isplitl [Hc14]; · iexact Hc14
    isplitl [HO]; · iexact HO
    iexact Ha14
  iintro ⟨HO, Hz14, Hp14⟩
  iapply Hk
  isplitl [HO]; · iexists _; iexact HO
  isplitl [Hz0 Hz1 Hz2 Hz3 Hz4 Hz5 Hz6 Hz7 Hz8 Hz9 Hz10 Hz11 Hz12 Hz13 Hz14]
  ·
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    iexact Hz14
  isplitl [Hp0]; · iexact Hp0
  isplitl [Hp1]; · iexact Hp1
  isplitl [Hp2]; · iexact Hp2
  isplitl [Hp3]; · iexact Hp3
  isplitl [Hp4]; · iexact Hp4
  isplitl [Hp5]; · iexact Hp5
  isplitl [Hp6]; · iexact Hp6
  isplitl [Hp7]; · iexact Hp7
  isplitl [Hp8]; · iexact Hp8
  isplitl [Hp9]; · iexact Hp9
  isplitl [Hp10]; · iexact Hp10
  isplitl [Hp11]; · iexact Hp11
  isplitl [Hp12]; · iexact Hp12
  isplitl [Hp13]; · iexact Hp13
  iexact Hp14

/-- The fifteen waits for the own copies to have left. -/
theorem phase_sendwaits {α : Type} {Q : α → sProp 𝕄} {k : PUnit → Prog (TpuEff nD τ sig (Elt F) Λ₀ .tc) α} {W : Waits sig Unit} :
    iprop(records m K ∗ owes (c : Thread nD τ) 0 W
        ∗ (bigSep Finset.univ fun o : Fin 15 => cred (tallyAt (sendCell c o) () Nrow))
        ∗ (bigSep Finset.univ fun o : Fin 15 => atPos ER (sendCell c o) 0 ∅ 0))
      ⊢ iprop((((∃ W', owes (c : Thread nD τ) 0 W') ∗ (bigSep Finset.univ fun o : Fin 15 => semVal (sendCell c o) 0)
              ∗ (bigSep Finset.univ fun o : Fin 15 => rowPts c c (shr o) (commF m c))) -∗ wp frame (wpE (defs₀ (F := F)) 𝒱₀ (c : Thread nD τ) none) Set.univ (k ⟨⟩) Q)
          -∗ wp frame (wpE (defs₀ (F := F)) 𝒱₀ (c : Thread nD τ) none) Set.univ
          (.op (.waitDma2 (sendS 0) (rowM c) (rowM c) (View.wordExact_bits rfl) (View.wordExact_bits rfl)) fun _ =>
          (.op (.waitDma2 (sendS 1) (rowM c) (rowM c) (View.wordExact_bits rfl) (View.wordExact_bits rfl)) fun _ =>
          (.op (.waitDma2 (sendS 2) (rowM c) (rowM c) (View.wordExact_bits rfl) (View.wordExact_bits rfl)) fun _ =>
          (.op (.waitDma2 (sendS 3) (rowM c) (rowM c) (View.wordExact_bits rfl) (View.wordExact_bits rfl)) fun _ =>
          (.op (.waitDma2 (sendS 4) (rowM c) (rowM c) (View.wordExact_bits rfl) (View.wordExact_bits rfl)) fun _ =>
          (.op (.waitDma2 (sendS 5) (rowM c) (rowM c) (View.wordExact_bits rfl) (View.wordExact_bits rfl)) fun _ =>
          (.op (.waitDma2 (sendS 6) (rowM c) (rowM c) (View.wordExact_bits rfl) (View.wordExact_bits rfl)) fun _ =>
          (.op (.waitDma2 (sendS 7) (rowM c) (rowM c) (View.wordExact_bits rfl) (View.wordExact_bits rfl)) fun _ =>
          (.op (.waitDma2 (sendS 8) (rowM c) (rowM c) (View.wordExact_bits rfl) (View.wordExact_bits rfl)) fun _ =>
          (.op (.waitDma2 (sendS 9) (rowM c) (rowM c) (View.wordExact_bits rfl) (View.wordExact_bits rfl)) fun _ =>
          (.op (.waitDma2 (sendS 10) (rowM c) (rowM c) (View.wordExact_bits rfl) (View.wordExact_bits rfl)) fun _ =>
          (.op (.waitDma2 (sendS 11) (rowM c) (rowM c) (View.wordExact_bits rfl) (View.wordExact_bits rfl)) fun _ =>
          (.op (.waitDma2 (sendS 12) (rowM c) (rowM c) (View.wordExact_bits rfl) (View.wordExact_bits rfl)) fun _ =>
          (.op (.waitDma2 (sendS 13) (rowM c) (rowM c) (View.wordExact_bits rfl) (View.wordExact_bits rfl)) fun _ =>
          (.op (.waitDma2 (sendS 14) (rowM c) (rowM c) (View.wordExact_bits rfl) (View.wordExact_bits rfl)) k))))))))))))))) Q) := by
  rw [bigSep_fin15, bigSep_fin15, bigSep_fin15, bigSep_fin15]
  iintro ⟨#HR, HO, ⟨Hc0, Hc1, Hc2, Hc3, Hc4, Hc5, Hc6, Hc7, Hc8, Hc9, Hc10, Hc11, Hc12, Hc13, Hc14⟩, ⟨Ha0, Ha1, Ha2, Ha3, Ha4, Ha5, Ha6, Ha7, Ha8, Ha9, Ha10, Ha11, Ha12, Ha13, Ha14⟩⟩ Hk
  iapply (wp_sendwait m K c 0) $$ [HO Hc0 Ha0]
  · isplitr; · iexact HR
    isplitl [Hc0]; · iexact Hc0
    isplitl [HO]; · iexact HO
    iexact Ha0
  iintro ⟨HO, Hz0, Hp0⟩
  iapply (wp_sendwait m K c 1) $$ [HO Hc1 Ha1]
  · isplitr; · iexact HR
    isplitl [Hc1]; · iexact Hc1
    isplitl [HO]; · iexact HO
    iexact Ha1
  iintro ⟨HO, Hz1, Hp1⟩
  iapply (wp_sendwait m K c 2) $$ [HO Hc2 Ha2]
  · isplitr; · iexact HR
    isplitl [Hc2]; · iexact Hc2
    isplitl [HO]; · iexact HO
    iexact Ha2
  iintro ⟨HO, Hz2, Hp2⟩
  iapply (wp_sendwait m K c 3) $$ [HO Hc3 Ha3]
  · isplitr; · iexact HR
    isplitl [Hc3]; · iexact Hc3
    isplitl [HO]; · iexact HO
    iexact Ha3
  iintro ⟨HO, Hz3, Hp3⟩
  iapply (wp_sendwait m K c 4) $$ [HO Hc4 Ha4]
  · isplitr; · iexact HR
    isplitl [Hc4]; · iexact Hc4
    isplitl [HO]; · iexact HO
    iexact Ha4
  iintro ⟨HO, Hz4, Hp4⟩
  iapply (wp_sendwait m K c 5) $$ [HO Hc5 Ha5]
  · isplitr; · iexact HR
    isplitl [Hc5]; · iexact Hc5
    isplitl [HO]; · iexact HO
    iexact Ha5
  iintro ⟨HO, Hz5, Hp5⟩
  iapply (wp_sendwait m K c 6) $$ [HO Hc6 Ha6]
  · isplitr; · iexact HR
    isplitl [Hc6]; · iexact Hc6
    isplitl [HO]; · iexact HO
    iexact Ha6
  iintro ⟨HO, Hz6, Hp6⟩
  iapply (wp_sendwait m K c 7) $$ [HO Hc7 Ha7]
  · isplitr; · iexact HR
    isplitl [Hc7]; · iexact Hc7
    isplitl [HO]; · iexact HO
    iexact Ha7
  iintro ⟨HO, Hz7, Hp7⟩
  iapply (wp_sendwait m K c 8) $$ [HO Hc8 Ha8]
  · isplitr; · iexact HR
    isplitl [Hc8]; · iexact Hc8
    isplitl [HO]; · iexact HO
    iexact Ha8
  iintro ⟨HO, Hz8, Hp8⟩
  iapply (wp_sendwait m K c 9) $$ [HO Hc9 Ha9]
  · isplitr; · iexact HR
    isplitl [Hc9]; · iexact Hc9
    isplitl [HO]; · iexact HO
    iexact Ha9
  iintro ⟨HO, Hz9, Hp9⟩
  iapply (wp_sendwait m K c 10) $$ [HO Hc10 Ha10]
  · isplitr; · iexact HR
    isplitl [Hc10]; · iexact Hc10
    isplitl [HO]; · iexact HO
    iexact Ha10
  iintro ⟨HO, Hz10, Hp10⟩
  iapply (wp_sendwait m K c 11) $$ [HO Hc11 Ha11]
  · isplitr; · iexact HR
    isplitl [Hc11]; · iexact Hc11
    isplitl [HO]; · iexact HO
    iexact Ha11
  iintro ⟨HO, Hz11, Hp11⟩
  iapply (wp_sendwait m K c 12) $$ [HO Hc12 Ha12]
  · isplitr; · iexact HR
    isplitl [Hc12]; · iexact Hc12
    isplitl [HO]; · iexact HO
    iexact Ha12
  iintro ⟨HO, Hz12, Hp12⟩
  iapply (wp_sendwait m K c 13) $$ [HO Hc13 Ha13]
  · isplitr; · iexact HR
    isplitl [Hc13]; · iexact Hc13
    isplitl [HO]; · iexact HO
    iexact Ha13
  iintro ⟨HO, Hz13, Hp13⟩
  iapply (wp_sendwait m K c 14) $$ [HO Hc14 Ha14]
  · isplitr; · iexact HR
    isplitl [Hc14]; · iexact Hc14
    isplitl [HO]; · iexact HO
    iexact Ha14
  iintro ⟨HO, Hz14, Hp14⟩
  iapply Hk
  isplitl [HO]; · iexists _; iexact HO
  isplitl [Hz0 Hz1 Hz2 Hz3 Hz4 Hz5 Hz6 Hz7 Hz8 Hz9 Hz10 Hz11 Hz12 Hz13 Hz14]
  ·
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    iexact Hz14
  isplitl [Hp0]; · iexact Hp0
  isplitl [Hp1]; · iexact Hp1
  isplitl [Hp2]; · iexact Hp2
  isplitl [Hp3]; · iexact Hp3
  isplitl [Hp4]; · iexact Hp4
  isplitl [Hp5]; · iexact Hp5
  isplitl [Hp6]; · iexact Hp6
  isplitl [Hp7]; · iexact Hp7
  isplitl [Hp8]; · iexact Hp8
  isplitl [Hp9]; · iexact Hp9
  isplitl [Hp10]; · iexact Hp10
  isplitl [Hp11]; · iexact Hp11
  isplitl [Hp12]; · iexact Hp12
  isplitl [Hp13]; · iexact Hp13
  iexact Hp14

end Cert.KernelIdeal.AR

end
-- ==== Proof.Own.lean ====
/-
  A device's thirty-four own semaphores are the four of its local copies, the fifteen of its sends and the fifteen of its
  receives.
-/
import proofs.«901068_g7700000000001069_dist_sum_ax0_shard0_i_m1024_n512_v7x_i16_bf16_1_alg».proof.Proof.Proto
import Mathlib.Logic.Equiv.Fin.Basic

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A product over `a + b` indices is the product over the first `a` and the product over the last `b`. -/
theorem bigSep_own_add (a b : ℕ) (Φ : Fin (a + b) → sProp 𝕄) :
    bigSep Finset.univ Φ
      = iprop((bigSep Finset.univ fun i : Fin a => Φ (Fin.castAdd b i)) ∗ (bigSep Finset.univ fun i : Fin b => Φ (Fin.natAdd a i))) := by
  rw [bigSep_univ_equiv finSumFinEquiv Φ, bigSep_univ_sum]
  rfl

/-- Own semaphore `k` is DMA semaphore `k + 1`. -/
theorem osem_eq (k : Fin 34) (q : DmaSem sig) (h : q.val = k.val + 1) : osem k = .dma q :=
  congrArg SemLoc.dma (Fin.ext h.symm)

omit [FloatOps F] in
/-- The thirty-four own semaphores in order: numbers 0 to 3 are the local copies' (DMA semaphores 1 to 4), numbers 4 to 18
    the sends' (5 to 19), numbers 19 to 33 the receives' (20 to 34). -/
theorem ownSems_join (c : Dev nD) :
    iprop((bigSep Finset.univ fun j : Fin 4 => semVal (cpCell c j) 0) ∗ (bigSep Finset.univ fun o : Fin 15 => semVal (sendCell c o) 0)
        ∗ (bigSep Finset.univ fun o : Fin 15 => semVal (recvCell c o) 0))
      ⊢ (bigSep Finset.univ fun k : Fin 34 => semVal ((c : Thread nD τ), osem k) 0 : sProp 𝕄) := by
  have e1 := bigSep_own_add (F := F) 4 30 (fun k => semVal ((c : Thread nD τ), osem k) 0)
  have e2 := bigSep_own_add (F := F) 15 15 (fun i => semVal ((c : Thread nD τ), osem (Fin.natAdd 4 i)) 0)
  refine Entails.trans (Entails.of_eq ?_) (Entails.of_eq (e1.trans (congrArg (fun P => iprop(_ ∗ P)) e2)).symm)
  refine congrArg₂ (fun P Q => iprop(P ∗ Q)) (bigSep_congr fun j _ => ?_)
    (congrArg₂ (fun P Q => iprop(P ∗ Q)) (bigSep_congr fun o _ => ?_) (bigSep_congr fun o _ => ?_))
  · exact congrArg (fun s => semVal ((c : Thread nD τ), s) 0)
      (osem_eq _ (cpS j) (by show 1 + j.val = j.val + 1; omega)).symm
  · exact congrArg (fun s => semVal ((c : Thread nD τ), s) 0)
      (osem_eq _ (sendS o) (by show 5 + o.val = 4 + o.val + 1; omega)).symm
  · exact congrArg (fun s => semVal ((c : Thread nD τ), s) 0)
      (osem_eq _ (recvS o) (by show 20 + o.val = 4 + (15 + o.val) + 1; omega)).symm

end Cert.KernelIdeal.AR

end
-- ==== Proof.Body.lean ====
/-
  One device's body, stepped from what the launch hands it to what it hands back: the fifteen signals; the four slabs
  copied in and summed; the wait on the barrier; the partial sums stored into the own row and copied to the fifteen
  others; their rows awaited; the sixteen rows summed into the result.
-/
import proofs.«901068_g7700000000001069_dist_sum_ax0_shard0_i_m1024_n512_v7x_i16_bf16_1_alg».proof.Proof.Proto
import proofs.«901068_g7700000000001069_dist_sum_ax0_shard0_i_m1024_n512_v7x_i16_bf16_1_alg».proof.Proof.Tables
import proofs.«901068_g7700000000001069_dist_sum_ax0_shard0_i_m1024_n512_v7x_i16_bf16_1_alg».proof.Proof.Owed
import proofs.«901068_g7700000000001069_dist_sum_ax0_shard0_i_m1024_n512_v7x_i16_bf16_1_alg».proof.Proof.Geom
import proofs.«901068_g7700000000001069_dist_sum_ax0_shard0_i_m1024_n512_v7x_i16_bf16_1_alg».proof.Proof.Landed
import proofs.«901068_g7700000000001069_dist_sum_ax0_shard0_i_m1024_n512_v7x_i16_bf16_1_alg».proof.Proof.Steps
import proofs.«901068_g7700000000001069_dist_sum_ax0_shard0_i_m1024_n512_v7x_i16_bf16_1_alg».proof.Proof.PhaseSigs
import proofs.«901068_g7700000000001069_dist_sum_ax0_shard0_i_m1024_n512_v7x_i16_bf16_1_alg».proof.Proof.PhaseSends
import proofs.«901068_g7700000000001069_dist_sum_ax0_shard0_i_m1024_n512_v7x_i16_bf16_1_alg».proof.Proof.PhaseWaits
import proofs.«901068_g7700000000001069_dist_sum_ax0_shard0_i_m1024_n512_v7x_i16_bf16_1_alg».proof.Proof.Own

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev r0 : Rect S1x512 := Rect.unit (s := S1x512) ![0, 0] S1x512.size inb_S1x512_S1x512_0_0
omit [FloatOps F] in
theorem hz : (![0, 0] : Fin 2 → Nat) = fun _ => 0 := funext fun a => by fin_cases a <;> rfl
omit [FloatOps F] in
theorem write_out (f w : (cc0_stg0_0 : Ref sig .tc).ty.Contents (Elt F)) :
    ((oM : Memref sig .tc .vmem S1x512 .f32).access r0 : View sig .tc _ _ _).write (Elt F) f w Finset.univ = w :=
  Memref.write_access_unit_zero_univ (Elt F) cc0_stg0_0 hz _ f w

omit [FloatOps F] in
/-- The row a store went into, as the row it is. -/
theorem row_fold (c : Dev nD) (g : Buf (Elt F) ((c : Thread nD τ).loc cc0_scratch1)) :
    (((cM : Memref sig .tc .vmem S16x512 .f32).access (Rect.unit (s := S16x512) (k0_off1 c) S1x512.size (k0_off1_inb c)) : View sig .tc _ _ _).loc (c : Thread nD τ)
        ↦[(rowM c).view.set]{fullShare} g : sProp 𝕄) ⊢ rowPts c c fullShare g := by
  unfold rowPts; exact BI.Entails.refl _

omit [FloatOps F] in
/-- The slot a load went through, as the slot it is. -/
theorem slot_fold (c : Dev nD) (j : Fin 4) (g : Buf (Elt F) ((c : Thread nD τ).loc cc0_scratch0)) :
    ((vM : Memref sig .tc .vmem S4x256x512 .f32).view.loc (c : Thread nD τ) ↦[(vsl j).view.set]{fullShare} g : sProp 𝕄) ⊢ slotPts c j g := by
  unfold slotPts; exact BI.Entails.refl _

section Body
variable (K : Dev nD × Fin 35 → ℕ)

def bodyPre (c : Dev nD) : sProp 𝕄 :=
  iprop(((ghost m K c ∗ cred (tallyAt (barCell c) () 15) ∗ (bigSep Finset.univ fun o : Fin 15 => cred (tallyAt (recvCell c o) () Nrow)) ∗ levAts L lv)
      ∗ xPts m c ∗ (∃ f, vPts c f) ∗ (∃ f, cPts c f))
    ∗ (dats m ρ 0 c).owesAt () t0_0.castSucc
    ∗ (∃ d, stg c cc0_stg0_0 ((dats m ρ 0 c).before (0 : Fin 1) t0_0 d)))

def bodyPost (c : Dev nD) : sProp 𝕄 :=
  iprop(Φ₁ m c ∗ (dats m ρ 0 c).owesAt () t0_0.succ ∗ stg c cc0_stg0_0 (outF m))

set_option maxHeartbeats 4000000 in
/-- The body from `bodyPre` to `bodyPost`, operation by operation in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole main_arg0) (Memref.isWhole_whole _) (Memref.whole cc0_stg0_0) (Memref.isWhole_whole _)
            (Memref.whole cc0_scratch0) (Memref.isWhole_whole _) (Memref.whole cc0_scratch1) (Memref.isWhole_whole _) cc0_scratch2 cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel
  simp only [semSignalWord, semWaitWord, Prog.lift, Prog.bind_op, Prog.bind_ret, Prog.pure_eq_ret, wp_deviceId]
  unfold bodyPre ghost linear
  iintro ⟨⟨⟨⟨⟨#HR, HaB, Hcp, Hsnd, HaR, HtB, HtR⟩, HcB, HcR, #Hlev⟩, Hx, ⟨%fv, Hv⟩, ⟨%fc, Hc⟩⟩, Ho, ⟨%d0, %g0, %hg0, Hout⟩⟩, Hk⟩
  unfold Dat.owesAt Pipeline.owesWithin
  icases Ho with ⟨%W, %hW, HO⟩
  rw [show (dats m ρ 0 c).owed t0_0.castSucc = owedLeft c 30 from rfl]
  -- the exchange buffer as its rows: the own one and the fifteen handed to the others
  ihave Hrows := (cPts_rows c fc).1 $$ Hc
  ihave Hrows := (Entails.of_eq (bigSep_dev_peer c (fun r => rowPts c r fullShare fc))) $$ Hrows
  icases Hrows with ⟨Hrc, Hrp⟩
  -- the fifteen signals
  iapply (phase_sigs m K c fc) $$ [HO HtB Hrp]
  · isplitr; · iexact HR
    isplitl [HO]; · iexact HO
    isplitl [HtB]; · iexact HtB
    iexact Hrp
  iintro HO
  -- the block as its slabs, the copy buffer as its slots; the four copies start
  ihave Hxs := ((xPts_slabs m c).1.trans (Entails.of_eq (bigSep_fin4 _))) $$ Hx
  icases Hxs with ⟨Hx0, Hx1, Hx2, Hx3⟩
  ihave Hvs := ((vPts_slots c fv).1.trans (Entails.of_eq (bigSep_fin4 _))) $$ Hv
  icases Hvs with ⟨Hv0, Hv1, Hv2, Hv3⟩
  ihave Hcp' := (Entails.of_eq (bigSep_fin4 _)) $$ Hcp
  icases Hcp' with ⟨⟨HaC0, HtC0⟩, ⟨HaC1, HtC1⟩, ⟨HaC2, HtC2⟩, ⟨HaC3, HtC3⟩⟩
  iapply (wp_cpstart m K c 0 fv) $$ [Hx0 Hv0 HtC0]
  · isplitr; · iexact HR
    isplitl [Hx0]; · iexact Hx0
    isplitl [Hv0]; · iexact Hv0
    iexact HtC0
  iintro HcC0
  iapply (wp_cpstart m K c 1 fv) $$ [Hx1 Hv1 HtC1]
  · isplitr; · iexact HR
    isplitl [Hx1]; · iexact Hx1
    isplitl [Hv1]; · iexact Hv1
    iexact HtC1
  iintro HcC1
  iapply (wp_cpstart m K c 2 fv) $$ [Hx2 Hv2 HtC2]
  · isplitr; · iexact HR
    isplitl [Hx2]; · iexact Hx2
    isplitl [Hv2]; · iexact Hv2
    iexact HtC2
  iintro HcC2
  iapply (wp_cpstart m K c 3 fv) $$ [Hx3 Hv3 HtC3]
  · isplitr; · iexact HR
    isplitl [Hx3]; · iexact Hx3
    isplitl [Hv3]; · iexact Hv3
    iexact HtC3
  iintro HcC3
  -- each slab awaited and read
  iapply (wp_cpwait m K c 0 15 (Nat.le_refl _)) $$ [HcC0 HO HaC0]
  · isplitr; · iexact HR
    isplitr; · iexact Hlev
    isplitl [HcC0]; · iexact HcC0
    isplitl [HO]; · iexact HO
    iexact HaC0
  iintro ⟨HO, Hz0, Hv0, Hx0⟩
  unfold slotPts
  iapply (wp_load 𝒱₀ (c : Thread nD τ) none Set.univ (m := vM) (load_slot_sub 0)) $$ Hv0; iintro Hv0
  iapply (wp_cpwait m K c 1 15 (Nat.le_refl _)) $$ [HcC1 HO HaC1]
  · isplitr; · iexact HR
    isplitr; · iexact Hlev
    isplitl [HcC1]; · iexact HcC1
    isplitl [HO]; · iexact HO
    iexact HaC1
  iintro ⟨HO, Hz1, Hv1, Hx1⟩
  unfold slotPts
  iapply (wp_load 𝒱₀ (c : Thread nD τ) none Set.univ (m := vM) (load_slot_sub 1)) $$ Hv1; iintro Hv1
  iapply (wp_cpwait m K c 2 15 (Nat.le_refl _)) $$ [HcC2 HO HaC2]
  · isplitr; · iexact HR
    isplitr; · iexact Hlev
    isplitl [HcC2]; · iexact HcC2
    isplitl [HO]; · iexact HO
    iexact HaC2
  iintro ⟨HO, Hz2, Hv2, Hx2⟩
  unfold slotPts
  iapply (wp_load 𝒱₀ (c : Thread nD τ) none Set.univ (m := vM) (load_slot_sub 2)) $$ Hv2; iintro Hv2
  iapply (wp_cpwait m K c 3 15 (Nat.le_refl _)) $$ [HcC3 HO HaC3]
  · isplitr; · iexact HR
    isplitr; · iexact Hlev
    isplitl [HcC3]; · iexact HcC3
    isplitl [HO]; · iexact HO
    iexact HaC3
  iintro ⟨HO, Hz3, Hv3, Hx3⟩
  unfold slotPts
  iapply (wp_load 𝒱₀ (c : Thread nD τ) none Set.univ (m := vM) (load_slot_sub 3)) $$ Hv3; iintro Hv3
  -- the fifteen others have entered: row `c` of each of their buffers is in hand
  iapply (wp_barwait m K c rfl) $$ [HcB HO HaB]
  · isplitr; · iexact HR
    isplitr; · iexact Hlev
    isplitl [HcB]; · iexact HcB
    isplitl [HO]; · iexact HO
    iexact HaB
  iintro ⟨HO, Hbp⟩
  -- the partial sums into the own row
  unfold rowPts
  iapply (wp_load 𝒱₀ (c : Thread nD τ) none Set.univ (m := cM) (load_row_sub c)) $$ Hrc; iintro Hrc
  iapply (wp_store 𝒱₀ (c : Thread nD τ) none Set.univ (m := cM) (r := Rect.unit (s := S16x512) (k0_off1 c) S1x512.size (k0_off1_inb c))
    (Mk := Finset.univ) (store_row_sub c)) $$ Hrc; iintro Hrc
  ihave Hrc := (Entails.of_eq (pointsTo_congr (row_stored m c fc))) $$ Hrc
  ihave Hrc := (row_fold c _) $$ Hrc
  -- a share of it lent to each of the fifteen copies
  ihave Hsh := (rowPts_shares c c (commF m c)).1 $$ Hrc
  icases Hsh with ⟨Hkeep, Hshs⟩
  ihave Hsnd' := (Entails.of_eq (bigSep_sep' Finset.univ (fun o : Fin 15 => (atPos ER (sendCell c o) 0 ∅ 0 : sProp 𝕄)) (fun o : Fin 15 => dutyTok ER (sendCell c o) 0 (0 : DD)))) $$ Hsnd
  icases Hsnd' with ⟨HaS, HtS⟩
  iapply (phase_sends m K c) $$ [HO Hshs Hbp HtS HtR]
  · isplitr; · iexact HR
    isplitl [HO]; · iexact HO
    isplitl [Hshs]; · iexact Hshs
    isplitl [Hbp]; · iexact Hbp
    isplitl [HtS]; · iexact HtS
    iexact HtR
  iintro ⟨HO, HcS⟩
  -- the fifteen rows of the others land
  iapply (phase_recvs m K c) $$ [HO HcR HaR]
  · isplitr; · iexact HR
    isplitl [HO]; · iexact HO
    isplitl [HcR]; · iexact HcR
    iexact HaR
  iintro ⟨⟨%W1, HO⟩, HzR, Hrf⟩
  -- the fifteen copies have left: the lent shares are back
  iapply (phase_sendwaits m K c) $$ [HO HcS HaS]
  · isplitr; · iexact HR
    isplitl [HO]; · iexact HO
    isplitl [HcS]; · iexact HcS
    iexact HaS
  iintro ⟨⟨%W2, HO⟩, HzS, Hshs⟩
  -- the own row whole again; the sixteen rows are the buffer
  ihave Hrc := (rowPts_shares c c (commF m c)).2 $$ [Hkeep Hshs]
  · isplitl [Hkeep]; · iexact Hkeep
    iexact Hshs
  ihave Hall := (Entails.of_eq (bigSep_dev_from c (fun r => rowPts c r fullShare (commF m c))).symm) $$ [Hrc Hrf]
  · isplitl [Hrc]; · iexact Hrc
    iexact Hrf
  ihave Hc := (cPts_rows c (commF m c)).2 $$ Hall
  -- the sixteen rows summed into the result
  unfold cPts
  iapply (wp_load 𝒱₀ (c : Thread nD τ) none Set.univ (m := cM) (Finset.subset_univ _)) $$ Hc; iintro Hc
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out, wp_ret]; imodintro
  iapply Hk
  unfold bodyPost Φ₁ Dat.owesAt Pipeline.owesWithin
  rw [show (dats m ρ 0 c).owed t0_0.succ = 0 from rfl]
  -- the block and the copy buffer whole again
  ihave Hx := ((Entails.of_eq (bigSep_fin4 (fun j : Fin 4 => slabPts m c j)).symm).trans (xPts_slabs m c).2) $$ [Hx0 Hx1 Hx2 Hx3]
  · isplitl [Hx0]; · iexact Hx0
    isplitl [Hx1]; · iexact Hx1
    isplitl [Hx2]; · iexact Hx2
    iexact Hx3
  ihave Hv := ((Entails.of_eq (bigSep_fin4 (fun j : Fin 4 => slotPts c j (XV m c))).symm).trans (vPts_slots c (XV m c)).2) $$ [Hv0 Hv1 Hv2 Hv3]
  · isplitl [Hv0]; · iapply (slot_fold c 0 _); iexact Hv0
    isplitl [Hv1]; · iapply (slot_fold c 1 _); iexact Hv1
    isplitl [Hv2]; · iapply (slot_fold c 2 _); iexact Hv2
    iapply (slot_fold c 3 _); iexact Hv3
  ihave Hz := (ownSems_join (F := F) c) $$ [Hz0 Hz1 Hz2 Hz3 HzS HzR]
  · isplitl [Hz0 Hz1 Hz2 Hz3]
    · iapply (Entails.of_eq (bigSep_fin4 (fun j : Fin 4 => (semVal (cpCell c j) 0 : sProp 𝕄))).symm)
      isplitl [Hz0]; · iexact Hz0
      isplitl [Hz1]; · iexact Hz1
      isplitl [Hz2]; · iexact Hz2
      iexact Hz3
    isplitl [HzS]; · iexact HzS
    iexact HzR
  isplitl [Hx Hv Hc Hz]
  · isplitl [Hx]; · iexact Hx
    isplitl [Hv]; · iexact Hv
    isplitl [Hc]; · unfold cPts; iexact Hc
    iexact Hz
  isplitl [HO]
  · iexists W2
    isplitr; · ipureintro; exact fun _ _ => Or.inl trivial
    iexact HO
  iexists _; isplitr; · (ipureintro; rfl)
  iexact Hout

def bodyPre' (c : Dev nD) : sProp 𝕄 :=
  iprop(Φ₀ m c ∗ (dats m ρ 0 c).owesAt () t0_0.castSucc
    ∗ (∃ d, stg c cc0_stg0_0 ((dats m ρ 0 c).before (0 : Fin 1) t0_0 d)))

set_option maxRecDepth 65536 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole main_arg0) (Memref.isWhole_whole _) (Memref.whole cc0_stg0_0) (Memref.isWhole_whole _)
            (Memref.whole cc0_scratch0) (Memref.isWhole_whole _) (Memref.whole cc0_scratch1) (Memref.isWhole_whole _) cc0_scratch2 cc0_scratch3 cc0_scratch4) (fun _ => bodyPost m ρ c)
  unfold bodyPre' Φ₀ start
  iintro ⟨⟨⟨⟨%K, Hg⟩, HcB, HcR, Hlev⟩, Hx, Hv, Hc⟩, Ho, Hout⟩
  iapply (sound_body m ρ K c fun _ => bodyPost m ρ c)
  unfold bodyPre
  isplitr []
  · isplitl [Hg HcB HcR Hlev Hx Hv Hc]
    · isplitl [Hg HcB HcR Hlev]
      · isplitl [Hg]; · iexact Hg
        isplitl [HcB]; · iexact HcB
        isplitl [HcR]; · iexact HcR
        iexact Hlev
      isplitl [Hx]; · iexact Hx
      isplitl [Hv]; · iexact Hv
      iexact Hc
    isplitl [Ho]; · iexact Ho
    iexact Hout
  · iintro H; iexact H

/-- info: 'Cert.KernelIdeal.AR.body_obligation' depends on axioms: [propext, Classical.choice, Quot.sound] -/
#guard_msgs in #print axioms body_obligation

end Body

end Cert.KernelIdeal.AR

end
-- ==== Proof.Launch.lean ====
/-
  The launch: from a memory with every semaphore at zero the sixteen devices are dealt their cells' invariants, their
  positions and the tokens of the duties they pay; each device's body runs from that; and every final state has each
  device's result array at the sum of all partial sums and its block of x unchanged.
-/
import proofs.«901068_g7700000000001069_dist_sum_ax0_shard0_i_m1024_n512_v7x_i16_bf16_1_alg».proof.Proof.Proto
import proofs.«901068_g7700000000001069_dist_sum_ax0_shard0_i_m1024_n512_v7x_i16_bf16_1_alg».proof.Proof.Tables
import proofs.«901068_g7700000000001069_dist_sum_ax0_shard0_i_m1024_n512_v7x_i16_bf16_1_alg».proof.Proof.Owed
import proofs.«901068_g7700000000001069_dist_sum_ax0_shard0_i_m1024_n512_v7x_i16_bf16_1_alg».proof.Proof.Geom
import proofs.«901068_g7700000000001069_dist_sum_ax0_shard0_i_m1024_n512_v7x_i16_bf16_1_alg».proof.Proof.Body
import Idealize.ShloMosaic.Lib.SparseCore.Stream
import Idealize.ShloMosaic.Lib.Pipeline.Value
import Mathlib.Logic.Equiv.Fin.Basic

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What every final state satisfies: on every device the result array holds the sum of the sixteen partial sums and the
    block of `x` is as launched. -/
def QC : PUnit × MemSt nD τ sig (Elt F) → Prop := fun r => ∀ c : Dev nD,
  r.2.mem ((c : Thread nD τ).loc main_v1) = outF m ∧ r.2.mem ((c : Thread nD τ).loc main_arg0) = m ((c : Thread nD τ).loc main_arg0)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 35 → GSem nD τ sig) := by
  rintro ⟨c, k⟩ ⟨c', k'⟩ h
  have h1 : c = c' := congrArg (fun g : GSem nD τ sig => g.1.1) h
  subst h1
  have h2 : csem k = csem k' := congrArg Prod.snd h
  have : k = k' := by
    by_cases hk : k.val = 0 <;> by_cases hk' : k'.val = 0
    · exact Fin.ext (hk.trans hk'.symm)
    · rw [show csem k = .reg barS from dif_pos hk, show csem k' = .dma ⟨k'.val, k'.isLt⟩ from dif_neg hk'] at h2; cases h2
    · rw [show csem k = .dma ⟨k.val, k.isLt⟩ from dif_neg hk, show csem k' = .reg barS from dif_pos hk'] at h2; cases h2
    · rw [show csem k = .dma ⟨k.val, k.isLt⟩ from dif_neg hk, show csem k' = .dma ⟨k'.val, k'.isLt⟩ from dif_neg hk'] at h2
      exact Fin.ext (congrArg (fun q : DmaSem sig => q.val) (SemLoc.dma.inj h2))
  subst this; rfl
/-- All cells of all devices. -/
def arCells : Finset (GSem nD τ sig) := Finset.univ.map ⟨kcell, kcell_injective⟩

/-- A device's own cells' duty tokens as minted: the barrier cell's fifteen, and the one of each copy, send and receive cell. -/
abbrev TokIx : Type := Fin 15 ⊕ (Fin 4 ⊕ (Fin 15 ⊕ Fin 15))
abbrev tokOf (ct : Dev nD × TokIx) : GSem nD τ sig × ℕ × DD := match ct.2 with
  | .inl o => (barCell ct.1, 0, o)
  | .inr (.inl j) => (cpCell ct.1 j, 0, 0)
  | .inr (.inr (.inl o)) => (sendCell ct.1 o, 0, 0)
  | .inr (.inr (.inr o)) => (recvCell ct.1 o, 0, 0)
/-- Which token a (cell, round, duty) triple is. -/
def tokBack (x : GSem nD τ sig × ℕ × DD) : Dev nD × TokIx := (x.1.1.1, match kd x.1.2 with
  | .bar => .inl x.2.2 | .cp j => .inr (.inl j) | .send o => .inr (.inr (.inl o)) | .recv o => .inr (.inr (.inr o)) | .other => .inl 0)
theorem tokOf_injective : Function.Injective (tokOf : Dev nD × TokIx → GSem nD τ sig × ℕ × DD) := by
  refine Function.LeftInverse.injective (g := tokBack) ?_
  rintro ⟨c, o | j | o | o⟩
  · rfl
  · show (c, (match kd (.dma (cpS j)) with
      | .bar => .inl 0 | .cp j => .inr (.inl j) | .send o => .inr (.inr (.inl o)) | .recv o => .inr (.inr (.inr o)) | .other => .inl 0 : TokIx)) = _
    rw [kd_cp]
  · show (c, (match kd (.dma (sendS o)) with
      | .bar => .inl 0 | .cp j => .inr (.inl j) | .send o => .inr (.inr (.inl o)) | .recv o => .inr (.inr (.inr o)) | .other => .inl 0 : TokIx)) = _
    rw [kd_send]
  · show (c, (match kd (.dma (recvS o)) with
      | .bar => .inl 0 | .cp j => .inr (.inl j) | .send o => .inr (.inr (.inl o)) | .recv o => .inr (.inr (.inr o)) | .other => .inl 0 : TokIx)) = _
    rw [kd_recv]
def arToks : Finset (GSem nD τ sig × ℕ × DD) := Finset.univ.map ⟨tokOf, tokOf_injective⟩

def u₀ : UU :=
  (initOf (Pipeline.cells cfgs cellOf_inj) (Pipeline.launchToks cfgs cellOf_inj), initOf arCells arToks)

/-- The duty tokens of device `c`'s own cells. -/
def toks (c : Dev nD) : sProp 𝕄 :=
  iprop((bigSep Finset.univ fun o : Fin 15 => dutyTok ER (barCell c) 0 o)
    ∗ (bigSep Finset.univ fun j : Fin 4 => dutyTok ER (cpCell c j) 0 (0 : DD))
    ∗ (bigSep Finset.univ fun o : Fin 15 => dutyTok ER (sendCell c o) 0 (0 : DD))
    ∗ (bigSep Finset.univ fun o : Fin 15 => dutyTok ER (recvCell c o) 0 (0 : DD)))

/-- What the launch element deals device `c`. -/
def G (c : Dev nD) : sProp 𝕄 :=
  iprop((bigSep Finset.univ fun k : Fin 35 => roundState ER (sched m) (kcell (c, k)) 0)
    ∗ (bigSep Finset.univ fun k : Fin 35 => iprop(atPos ER (kcell (c, k)) 0 ∅ 0 ∗ reached ER (kcell (c, k)) 0)) ∗ toks c)

/-- What the global step makes of it. -/
def G' (c : Dev nD) : sProp 𝕄 := iprop(∃ K, ghost m K c)

theorem fund_ar : BI.own (ER (initOf arCells arToks)) ⊢ (|==> bigSep Finset.univ (G m) : sProp 𝕄) := by
  have hX (Φ : GSem nD τ sig → sProp 𝕄) : bigSep arCells Φ = bigSep Finset.univ fun c : Dev nD => bigSep Finset.univ fun k : Fin 35 => Φ (kcell (c, k)) := by
    unfold arCells; rw [bigSep_map, bigSep_univ_prod]; rfl
  have hT : bigSep arToks (fun x => (dutyTok ER x.1 x.2.1 x.2.2 : sProp 𝕄)) = bigSep Finset.univ fun c : Dev nD => toks c := by
    unfold arToks; rw [bigSep_map, bigSep_univ_prod]
    exact bigSep_congr fun c _ => by unfold toks; rw [bigSep_univ_sum, bigSep_univ_sum, bigSep_univ_sum]; rfl
  iintro HX
  imod (Rounds.fund ER (sched m) arCells arToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### A device's thirty-five cells, class by class -/

theorem bigSep_fin_add {a b : ℕ} (Φ : Fin (a + b) → sProp 𝕄) :
    bigSep Finset.univ Φ = iprop((bigSep Finset.univ fun i : Fin a => Φ (Fin.castAdd b i)) ∗ bigSep Finset.univ fun j : Fin b => Φ (Fin.natAdd a j)) := by
  rw [bigSep_univ_equiv finSumFinEquiv Φ, bigSep_univ_sum]; rfl

/-- The cell numbers of the local copies, the sends and the receives. -/
abbrev cellCp (j : Fin 4) : Fin 35 := ⟨1 + j.val, by omega⟩
abbrev cellSend (o : Fin 15) : Fin 35 := ⟨5 + o.val, by omega⟩
abbrev cellRecv (o : Fin 15) : Fin 35 := ⟨20 + o.val, by omega⟩

/-- Thirty-five is one and four and fifteen and fifteen. -/
theorem bigSep_cells (Φ : Fin 35 → sProp 𝕄) :
    bigSep Finset.univ Φ = iprop(Φ 0 ∗ (bigSep Finset.univ fun j : Fin 4 => Φ (cellCp j))
      ∗ (bigSep Finset.univ fun o : Fin 15 => Φ (cellSend o)) ∗ bigSep Finset.univ fun o : Fin 15 => Φ (cellRecv o)) := by
  have h1 := bigSep_fin_add (F := F) (a := 20) (b := 15) Φ
  have h2 := bigSep_fin_add (F := F) (a := 5) (b := 15) (fun i : Fin 20 => Φ (Fin.castAdd 15 i))
  have h3 := bigSep_fin_add (F := F) (a := 1) (b := 4) (fun i : Fin 5 => Φ (Fin.castAdd 15 (Fin.castAdd 15 i)))
  rw [bigSep_univ_of_subsingleton (0 : Fin 1)] at h3
  rw [h1, h2, h3]
  exact (BI.sep_assoc.antisymm BI.sep_assoc').trans (BI.sep_assoc.antisymm BI.sep_assoc')

theorem kcell_cellCp (c : Dev nD) (j : Fin 4) : kcell (c, cellCp j) = cpCell c j :=
  congrArg (Prod.mk (c : Thread nD τ)) (dif_neg (by show ¬ (1 + j.val = 0); omega))
theorem kcell_cellSend (c : Dev nD) (o : Fin 15) : kcell (c, cellSend o) = sendCell c o :=
  congrArg (Prod.mk (c : Thread nD τ)) (dif_neg (by show ¬ (5 + o.val = 0); omega))
theorem kcell_cellRecv (c : Dev nD) (o : Fin 15) : kcell (c, cellRecv o) = recvCell c o :=
  congrArg (Prod.mk (c : Thread nD τ)) (dif_neg (by show ¬ (20 + o.val = 0); omega))

/-- A family over a device's cells: the barrier cell, the copy cells, the send cells, the receive cells. -/
theorem bigSep_kcells (c : Dev nD) (Φ : GSem nD τ sig → sProp 𝕄) :
    (bigSep Finset.univ fun k : Fin 35 => Φ (kcell (c, k)))
      = iprop(Φ (barCell c) ∗ (bigSep Finset.univ fun j : Fin 4 => Φ (cpCell c j))
        ∗ (bigSep Finset.univ fun o : Fin 15 => Φ (sendCell c o)) ∗ bigSep Finset.univ fun o : Fin 15 => Φ (recvCell c o)) := by
  rw [bigSep_cells,
    bigSep_congr (s := Finset.univ) (Ψ := fun j : Fin 4 => Φ (cpCell c j)) (fun j _ => congrArg Φ (kcell_cellCp c j)),
    bigSep_congr (s := Finset.univ) (Ψ := fun o : Fin 15 => Φ (sendCell c o)) (fun o _ => congrArg Φ (kcell_cellSend c o)),
    bigSep_congr (s := Finset.univ) (Ψ := fun o : Fin 15 => Φ (recvCell c o)) (fun o _ => congrArg Φ (kcell_cellRecv c o))]
  rfl

/-! ### The semaphores at zero become the cells' invariants -/

/-- The barrier semaphore is the one semaphore of a device that no kernel scopes. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 35 => semVal (kcell (c, k)) 0 : sProp 𝕄) := by
  rw [unscopedSems0_eq, bigSep_univ_succ (fun k : Fin 35 => (semVal (kcell (c, k)) 0 : sProp 𝕄))]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 35 => semVal (kcell (c, k)) 0) ∗ bigSep Finset.univ fun k : Fin 35 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens dealt to the devices that pay them -/

/-- What stays with device `c` of the tokens: those of the duties it pays. -/
def payToks (c : Dev nD) : sProp 𝕄 :=
  iprop((bigSep Finset.univ fun j : Fin 4 => dutyTok ER (cpCell c j) 0 (0 : DD))
    ∗ (bigSep Finset.univ fun o : Fin 15 => dutyTok ER (sendCell c o) 0 (0 : DD))
    ∗ (bigSep Finset.univ fun o : Fin 15 => dutyTok ER (barCell (peer c o)) 0 (rev o))
    ∗ (bigSep Finset.univ fun o : Fin 15 => dutyTok ER (recvCell (peer c o) o) 0 (0 : DD)))

/-- A family over the fifteen places, read backwards. -/
theorem bigSep_rev (Φ : Fin 15 → sProp 𝕄) : bigSep Finset.univ Φ = bigSep Finset.univ fun o => Φ (rev o) :=
  bigSep_univ_equiv ⟨rev, rev, rev_rev, rev_rev⟩ Φ

/-- For each place `o`, turning every device by `o + 1` places only reorders the devices. -/
theorem deal (Φ : Dev nD → Fin 15 → sProp 𝕄) :
    (bigSep Finset.univ fun c : Dev nD => bigSep Finset.univ fun o : Fin 15 => Φ c o)
      = bigSep Finset.univ fun c : Dev nD => bigSep Finset.univ fun o : Fin 15 => Φ (peer c o) o := by
  rw [BI.bigSep_univ_comm, BI.bigSep_univ_comm (fun c o => Φ (peer c o) o)]
  exact bigSep_congr fun o _ => bigSep_univ_equiv (rot o) (fun c => Φ c o)

/-- The token of duty `d` of a barrier cell goes to the device `d + 1` places after its owner, as that device's token
    number `rev d`; the token of a receive cell `o` to the device `o + 1` places before its owner. -/
theorem toks_around : (bigSep Finset.univ fun c : Dev nD => (toks c : sProp 𝕄)) ⊢ bigSep Finset.univ fun c : Dev nD => payToks c := by
  have hB : (bigSep Finset.univ fun c : Dev nD => bigSep Finset.univ fun o : Fin 15 => (dutyTok ER (barCell c) 0 o : sProp 𝕄))
      = bigSep Finset.univ fun c : Dev nD => bigSep Finset.univ fun o : Fin 15 => dutyTok ER (barCell (peer c o)) 0 (rev o) :=
    (bigSep_congr fun c _ => bigSep_rev (F := F) fun o => dutyTok ER (barCell c) 0 o).trans
      (deal (F := F) fun c o => dutyTok ER (barCell c) 0 (rev o))
  have hR : (bigSep Finset.univ fun c : Dev nD => bigSep Finset.univ fun o : Fin 15 => (dutyTok ER (recvCell c o) 0 (0 : DD) : sProp 𝕄))
      = bigSep Finset.univ fun c : Dev nD => bigSep Finset.univ fun o : Fin 15 => dutyTok ER (recvCell (peer c o) o) 0 (0 : DD) :=
    deal (F := F) fun c o => dutyTok ER (recvCell c o) 0 (0 : DD)
  unfold toks payToks
  rw [bigSep_sep', bigSep_sep', bigSep_sep', bigSep_sep', bigSep_sep', bigSep_sep', hB, hR]
  iintro ⟨H1, H2, H3, H4⟩
  isplitl [H2]; · iexact H2
  isplitl [H3]; · iexact H3
  isplitl [H1]; · iexact H1
  iexact H4

/-- A device's positions on its cells and the tokens it pays are what is its alone. -/
theorem linear_intro (c : Dev nD) :
    iprop((bigSep Finset.univ fun k : Fin 35 => (atPos ER (kcell (c, k)) 0 ∅ 0 : sProp 𝕄)) ∗ payToks c) ⊢ linear c := by
  rw [bigSep_kcells c (fun g => (atPos ER g 0 ∅ 0 : sProp 𝕄))]
  unfold payToks linear
  simp only [bigSep_sep']
  iintro ⟨⟨HaB, HaC, HaS, HaR⟩, HtC, HtS, HtB, HtR⟩
  isplitl [HaB]; · iexact HaB
  isplitl [HaC HtC]; · isplitl [HaC] <;> iassumption
  isplitl [HaS HtS]; · isplitl [HaS] <;> iassumption
  isplitl [HaR]; · iexact HaR
  isplitl [HtB]; · iexact HtB
  iexact HtR

theorem ghost_intro (K : Dev nD × Fin 35 → ℕ) (c : Dev nD) : iprop(records m K ∗ linear c) ⊢ G' m c := by
  unfold G' ghost
  iintro H
  iexists K
  iexact H

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 35 => iprop(∃ κ : ℕ, cellInv ER (sched m) κ (kcell ck))),
    bigSep_congr (s := Finset.univ) (fun (c : Dev nD) _ => bigSep_sep' Finset.univ (fun k : Fin 35 => (atPos ER (kcell (c, k)) 0 ∅ 0 : sProp 𝕄)) (fun k => reached ER (kcell (c, k)) 0)),
    bigSep_sep', ← bigSep_univ_prod (fun ck : Dev nD × Fin 35 => (reached ER (kcell ck) 0 : sProp 𝕄))]
  iintro ⟨HI, ⟨Hat, #HR⟩, Htok⟩
  ihave HK := (BI.bigSep_exists_pi Finset.univ (fun (ck : Dev nD × Fin 35) (κ : ℕ) => (cellInv ER (sched m) κ (kcell ck) : sProp 𝕄))) $$ HI
  icases HK with ⟨%K, #HI⟩
  haveI : BI.Persistent (records m K) := by unfold records; infer_instance
  ihave Htk := (toks_around (F := F)) $$ Htok
  iapply (Transfers.bigSep_mono_pers Finset.univ (records m K) _ _ fun c _ => (sep_mono_right (linear_intro (F := F) c)).trans (ghost_intro m K c))
  isplitr
  · unfold records; isplitl; · iexact HI
    iexact HR
  · iapply (Entails.of_eq (bigSep_sep' Finset.univ (fun c : Dev nD => bigSep Finset.univ fun k : Fin 35 => (atPos ER (kcell (c, k)) 0 ∅ 0 : sProp 𝕄)) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(iprop(start m c ∗ xPts m c) ∗ emp) := by
  rw [Pipeline.unscopedRestP_none, unscopedRest0_eq]
  iintro ⟨Hx, Hlev, Hcr, -, HG⟩
  ihave Hc := (creds (F := F) c) $$ Hcr
  icases Hc with ⟨H1, HN⟩
  imodintro
  unfold start G' xPts X
  isplitl
  · isplitr [Hx]
    · isplitl [HG]; · iexact HG
      isplitl [H1]; · iexact H1
      isplitl [HN]; · iexact HN
      iexact Hlev
    · iexact Hx
  · iempintro

theorem phi0_intro (c : Dev nD) :
    iprop(iprop(start m c ∗ xPts m c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ vPts cPts
  iintro ⟨⟨Hs, Hx⟩, -, ⟨Hv, Hc⟩⟩
  isplitl [Hs]; · iexact Hs
  isplitl [Hx]; · iexact Hx
  isplitl [Hv]; · iexact Hv
  iexact Hc

theorem phi1_exit (c : Dev nD) :
    (dats m ρ 0 c).Φ (Fin.last cfg0.N) ⊢ iprop(xPts m c ∗ Pipeline.ownSems0 osem c ∗ Pipeline.scopedRest cfg0.spec c) := by
  rw [show (dats m ρ 0 c).Φ (Fin.last cfg0.N) = Φ₁ m c from rfl, scopedRest0_eq]
  unfold Φ₁ vPts cPts Pipeline.ownSems0
  iintro ⟨Hx, Hv, Hc, Hs⟩
  isplitl [Hx]; · iexact Hx
  isplitl [Hs]; · iexact Hs
  isplitl [Hv]
  · iexists (XV m c); iexact Hv
  · iexists (commF m c); iexact Hc

theorem waits (c : Dev nD) : (levAts L lv : sProp 𝕄) ⊢ Pipeline.cellsWaits cfgs (dats m ρ) () 0 c :=
  Pipeline.cellsWaits_intro cfgs (dats m ρ) () 0 c fun w s t =>
    mayWait_zero_level c _ (by fin_cases w; fin_cases s; rfl) _ (by
      rcases t with ⟨_ | _, ht⟩
      · exact Or.inl ⟨30, rfl⟩
      · exact Or.inr rfl)

/-- The result array in the end: the one window, whole, written back at the one point. -/
theorem final_out (c : Dev nD) : (dats m ρ 0 c).arrAt (0 : Fin 1) cfg0.N = outF m := by
  rw [show cfg0.N = (t0_0 : Fin cfg0.N).val + 1 from rfl, (dats m ρ 0 c).arrAt_succ (0 : Fin 1) t0_0, if_pos (flush0_0 t0_0)]
  have hoff : (fun a : Fin 2 => (cfg0.win 0).index t0_0 a * (cfg0.win 0).size a) = fun _ => 0 := funext fun a => Nat.zero_mul _
  funext i
  have hi : i ∈ ((cfg0.win 0).blk t0_0).view.set := by
    rw [show ((cfg0.win 0).blk t0_0).view.set = ((cfg0.win 0).rect t0_0).set from View.set_slice_whole main_v1 _]
    exact View.mem_set_unit_zero (S := S1x512) hoff _ i
  obtain ⟨y, rfl⟩ := View.exists_emb_of_mem_set _ hi
  rw [View.write_emb_of_mem _ _ (Finset.mem_univ y), cast_eq]
  refine congrArg (outF m) (funext fun a => Fin.ext ?_)
  show (y a).val = 0 * _ + 1 * (y a).val
  omega

set_option maxRecDepth 8000 in
/-- At the compiled mesh of sixteen devices, for any float values, from any memory with zero counters: every weakly fair
    execution of @main terminates, nothing faults, and every final state satisfies `QC`. -/
theorem run_main : θ_run defs (onTc (τ := τ) (main (F := F))) (s₀ m ρ) (QC m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ar m) $$ HX with HG
      imodintro
      isplitl [HP] <;> iassumption)
    (hglob := glob m)
    (hA := fun _ _ => rfl) (hpf := fun _ k => k.elim0)
    (X := fun c => iprop(start m c ∗ xPts m c)) (Y := fun c => xPts m c) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := fun c s' => by
      iintro ⟨Hx, -, HSI⟩
      unfold xPts X
      icombine HSI Hx gives %hx
      imodintro
      isplitr; · ipureintro; exact Buf.eq_of_forall_mem_univ hx
      iexact HSI)
    (hQ := fun s h c => ⟨((h c).1 (0 : Fin 1)).trans (final_out m ρ c), (h c).2.2⟩)

end Cert.KernelIdeal.AR

end
-- ==== Proof.Bits.Proto.lean ====
/-
  The sixteen-device row sum: what the devices say to each other.

  Every device c first tells each of the other fifteen, through the barrier semaphore, that it has entered the
  kernel; it sums its own 1024 rows of x in four pieces of 256 into one row acc(c); once all fifteen others have
  signalled it, it stores acc(c) into row c of its 16-row exchange buffer and copies that row into row c of every
  other device's exchange buffer; it waits until the fifteen rows of the others have landed in its own buffer and its
  fifteen copies have left; then every row r of its buffer holds acc(r), and the sum of the sixteen rows is the
  column sums of the whole of x.

  This module names the devices' neighbours, the semaphores as cells, the rows of the exchange buffer, what every
  buffer holds at each moment, and the schedule of duties: who owes which cell how much, and what each payment hands
  the cell's owner.
-/
import proofs.«901068_g7700000000001069_dist_sum_ax0_shard0_i_m1024_n512_v7x_i16_bf16_1_alg».proof.Proof.Gen.Kernel
import proofs.«901068_g7700000000001069_dist_sum_ax0_shard0_i_m1024_n512_v7x_i16_bf16_1_alg».proof.Proof.Gen.Kernel.Skeleton
import proofs.«901068_g7700000000001069_dist_sum_ax0_shard0_i_m1024_n512_v7x_i16_bf16_1_alg».proof.Proof.Gen.Kernel.Launch
import proofs.«901068_g7700000000001069_dist_sum_ax0_shard0_i_m1024_n512_v7x_i16_bf16_1_alg».proof.Proof.Gen.Kernel.Points
import Idealize.ShloMosaic.Lib.Pipeline.Launch
import Idealize.ShloMosaic.Lib.Pipeline.Kit
import Idealize.ShloMosaic.Lib.Tactic
import Idealize.ShloMosaic.Lib.Transfers
import Idealize.ShloMosaic.Lib.ValueIdx

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy (duties `Unit`) beside the exchange's (duties `Fin 15`) -/

abbrev DD : Type := Fin 15
abbrev UB : Type := URounds (GSem nD τ sig) DD
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## Neighbours on the ring of sixteen -/

/-- The device `o + 1` places after `c`. -/
def peer (c : Dev nD) (o : Fin 15) : Dev nD := ⟨(c.val + o.val + 1) % 16, Nat.mod_lt _ (by decide)⟩
/-- The device `o + 1` places before `c`. -/
def from_ (c : Dev nD) (o : Fin 15) : Dev nD := ⟨(c.val + 15 - o.val) % 16, Nat.mod_lt _ (by decide)⟩

theorem from_peer (c : Dev nD) (o : Fin 15) : from_ (peer c o) o = c := by revert c o; decide
theorem peer_from (c : Dev nD) (o : Fin 15) : peer (from_ c o) o = c := by revert c o; decide
theorem peer_ne (c : Dev nD) (o : Fin 15) : peer c o ≠ c := by revert c o; decide
theorem from_ne (c : Dev nD) (o : Fin 15) : from_ c o ≠ c := by revert c o; decide
theorem peer_inj (c : Dev nD) : Function.Injective (peer c) := by revert c; decide
theorem from_inj (c : Dev nD) : Function.Injective (from_ c) := by revert c; decide
/-- Every device other than `c` is some `from_ c o`. -/
theorem exists_from (c d : Dev nD) (h : d ≠ c) : ∃ o, from_ c o = d := by revert c d; decide

/-- Turning by `o + 1` places is a permutation of the devices. -/
def rot (o : Fin 15) : Dev nD ≃ Dev nD := ⟨fun c => peer c o, fun c => from_ c o, fun c => from_peer c o, fun c => peer_from c o⟩

/-! ## The semaphores, as cells -/

/-- The runtime's barrier semaphore of collective id 0. -/
abbrev barS : Sem sig := (SemArray.scalar (sig.barrier 0 rfl) : Sems sig S_).sem
/-- The DMA semaphores of the four local copies, of the fifteen sends and of the fifteen receives. -/
abbrev cpS (j : Fin 4) : DmaSem sig := ⟨1 + j.val, by show 1 + j.val < 35; omega⟩
abbrev sendS (o : Fin 15) : DmaSem sig := ⟨5 + o.val, by show 5 + o.val < 35; omega⟩
abbrev recvS (o : Fin 15) : DmaSem sig := ⟨20 + o.val, by show 20 + o.val < 35; omega⟩

abbrev barCell (c : Dev nD) : GSem nD τ sig := ((c : Thread nD τ), .reg barS)
abbrev cpCell (c : Dev nD) (j : Fin 4) : GSem nD τ sig := ((c : Thread nD τ), .dma (cpS j))
abbrev sendCell (c : Dev nD) (o : Fin 15) : GSem nD τ sig := ((c : Thread nD τ), .dma (sendS o))
abbrev recvCell (c : Dev nD) (o : Fin 15) : GSem nD τ sig := ((c : Thread nD τ), .dma (recvS o))

theorem dev1_eq (c : Dev nD) : (⟨k0_dev1 c, k0_dev1_lt c⟩ : Dev nD) = peer c 0 := Fin.ext (k0_dev1_eq c)
theorem dev2_eq (c : Dev nD) : (⟨k0_dev2 c, k0_dev2_lt c⟩ : Dev nD) = peer c 1 := Fin.ext (k0_dev2_eq c)
theorem dev3_eq (c : Dev nD) : (⟨k0_dev3 c, k0_dev3_lt c⟩ : Dev nD) = peer c 2 := Fin.ext (k0_dev3_eq c)
theorem dev4_eq (c : Dev nD) : (⟨k0_dev4 c, k0_dev4_lt c⟩ : Dev nD) = peer c 3 := Fin.ext (k0_dev4_eq c)
theorem dev5_eq (c : Dev nD) : (⟨k0_dev5 c, k0_dev5_lt c⟩ : Dev nD) = peer c 4 := Fin.ext (k0_dev5_eq c)
theorem dev6_eq (c : Dev nD) : (⟨k0_dev6 c, k0_dev6_lt c⟩ : Dev nD) = peer c 5 := Fin.ext (k0_dev6_eq c)
theorem dev7_eq (c : Dev nD) : (⟨k0_dev7 c, k0_dev7_lt c⟩ : Dev nD) = peer c 6 := Fin.ext (k0_dev7_eq c)
theorem dev8_eq (c : Dev nD) : (⟨k0_dev8 c, k0_dev8_lt c⟩ : Dev nD) = peer c 7 := Fin.ext (k0_dev8_eq c)
theorem dev9_eq (c : Dev nD) : (⟨k0_dev9 c, k0_dev9_lt c⟩ : Dev nD) = peer c 8 := Fin.ext (k0_dev9_eq c)
theorem dev10_eq (c : Dev nD) : (⟨k0_dev10 c, k0_dev10_lt c⟩ : Dev nD) = peer c 9 := Fin.ext (k0_dev10_eq c)
theorem dev11_eq (c : Dev nD) : (⟨k0_dev11 c, k0_dev11_lt c⟩ : Dev nD) = peer c 10 := Fin.ext (k0_dev11_eq c)
theorem dev12_eq (c : Dev nD) : (⟨k0_dev12 c, k0_dev12_lt c⟩ : Dev nD) = peer c 11 := Fin.ext (k0_dev12_eq c)
theorem dev13_eq (c : Dev nD) : (⟨k0_dev13 c, k0_dev13_lt c⟩ : Dev nD) = peer c 12 := Fin.ext (k0_dev13_eq c)
theorem dev14_eq (c : Dev nD) : (⟨k0_dev14 c, k0_dev14_lt c⟩ : Dev nD) = peer c 13 := Fin.ext (k0_dev14_eq c)
theorem dev15_eq (c : Dev nD) : (⟨k0_dev15 c, k0_dev15_lt c⟩ : Dev nD) = peer c 14 := Fin.ext (k0_dev15_eq c)
theorem dev16_eq (c : Dev nD) : (⟨k0_dev16 c, k0_dev16_lt c⟩ : Dev nD) = peer c 0 := Fin.ext (k0_dev16_eq c)
theorem dev17_eq (c : Dev nD) : (⟨k0_dev17 c, k0_dev17_lt c⟩ : Dev nD) = peer c 1 := Fin.ext (k0_dev17_eq c)
theorem dev18_eq (c : Dev nD) : (⟨k0_dev18 c, k0_dev18_lt c⟩ : Dev nD) = peer c 2 := Fin.ext (k0_dev18_eq c)
theorem dev19_eq (c : Dev nD) : (⟨k0_dev19 c, k0_dev19_lt c⟩ : Dev nD) = peer c 3 := Fin.ext (k0_dev19_eq c)
theorem dev20_eq (c : Dev nD) : (⟨k0_dev20 c, k0_dev20_lt c⟩ : Dev nD) = peer c 4 := Fin.ext (k0_dev20_eq c)
theorem dev21_eq (c : Dev nD) : (⟨k0_dev21 c, k0_dev21_lt c⟩ : Dev nD) = peer c 5 := Fin.ext (k0_dev21_eq c)
theorem dev22_eq (c : Dev nD) : (⟨k0_dev22 c, k0_dev22_lt c⟩ : Dev nD) = peer c 6 := Fin.ext (k0_dev22_eq c)
theorem dev23_eq (c : Dev nD) : (⟨k0_dev23 c, k0_dev23_lt c⟩ : Dev nD) = peer c 7 := Fin.ext (k0_dev23_eq c)
theorem dev24_eq (c : Dev nD) : (⟨k0_dev24 c, k0_dev24_lt c⟩ : Dev nD) = peer c 8 := Fin.ext (k0_dev24_eq c)
theorem dev25_eq (c : Dev nD) : (⟨k0_dev25 c, k0_dev25_lt c⟩ : Dev nD) = peer c 9 := Fin.ext (k0_dev25_eq c)
theorem dev26_eq (c : Dev nD) : (⟨k0_dev26 c, k0_dev26_lt c⟩ : Dev nD) = peer c 10 := Fin.ext (k0_dev26_eq c)
theorem dev27_eq (c : Dev nD) : (⟨k0_dev27 c, k0_dev27_lt c⟩ : Dev nD) = peer c 11 := Fin.ext (k0_dev27_eq c)
theorem dev28_eq (c : Dev nD) : (⟨k0_dev28 c, k0_dev28_lt c⟩ : Dev nD) = peer c 12 := Fin.ext (k0_dev28_eq c)
theorem dev29_eq (c : Dev nD) : (⟨k0_dev29 c, k0_dev29_lt c⟩ : Dev nD) = peer c 13 := Fin.ext (k0_dev29_eq c)
theorem dev30_eq (c : Dev nD) : (⟨k0_dev30 c, k0_dev30_lt c⟩ : Dev nD) = peer c 14 := Fin.ext (k0_dev30_eq c)

/-! ## The buffers and their pieces -/

abbrev xM : Memref sig .tc .hbm S1024x512 .f32 := Memref.whole main_arg0
abbrev oM : Memref sig .tc .vmem S1x512 .f32 := Memref.whole cc0_stg0_0
abbrev vM : Memref sig .tc .vmem S4x256x512 .f32 := Memref.whole cc0_scratch0
abbrev cM : Memref sig .tc .vmem S16x512 .f32 := Memref.whole cc0_scratch1

/-- Row `r` of the exchange buffer: the row device `r`'s partial sums travel in, on every device. -/
abbrev rowM (r : Dev nD) : Memref sig .tc .vmem S1x512 .f32 :=
  cM.slice (Rect.unit (s := S16x512) (k0_off2 r) S1x512.size (k0_off2_inb r)) (fun _ => rfl)

/-- The four slabs of 256 rows of a device's block of `x`, and the four slots they are copied into. -/
theorem xsl_inb : ∀ (j : Fin 4) a, (![256 * j.val, 0] : Fin 2 → Nat) a + S256x512.size a ≤ S1024x512.size a := by decide
theorem vsl_inb : ∀ (j : Fin 4) a, (![j.val, 0, 0] : Fin 3 → Nat) a + S1x256x512.size a ≤ S4x256x512.size a := by decide
abbrev xsl (j : Fin 4) : Memref sig .tc .hbm S256x512 .f32 :=
  xM.slice (Rect.unit (s := S1024x512) ![256 * j.val, 0] S256x512.size (xsl_inb j)) (fun _ => rfl)
abbrev vsl (j : Fin 4) : Memref sig .tc .vmem S256x512 .f32 :=
  (vM.slice (Rect.unit (s := S4x256x512) ![j.val, 0, 0] S1x256x512.size (vsl_inb j)) (fun _ => rfl)).squeeze S256x512 squeezes_S1x256x512_S256x512

/-- The credit of one copied slab, and of one copied row. -/
abbrev Ncp : ℕ := (vsl 0).view.dmaCredit
abbrev Nrow : ℕ := (rowM 0).view.dmaCredit
theorem Ncp_pos : 0 < Ncp := View.dmaCredit_pos _ (by decide)
theorem Nrow_pos : 0 < Nrow := View.dmaCredit_pos _ (by decide)

/-! ## What the buffers hold -/

/-- Device `c`'s block of `x`, as launched. -/
def X (c : Dev nD) : Buf (Elt F) ((c : Thread nD τ).loc main_arg0) := m ((c : Thread nD τ).loc main_arg0)

/-- The copy buffer once the four slabs have landed: slot `j`, row `i`, is row `256 j + i` of the block. -/
def XV (c : Dev nD) : Buf (Elt F) ((c : Thread nD τ).loc cc0_scratch0) := fun i =>
  X m c (ValueIdx.ix2 (⟨256 * (i 0).val + (i 1).val, by
    have h0 : (i 0).val < 4 := (i 0).isLt
    have h1 : (i 1).val < 256 := (i 1).isLt
    omega⟩ : Fin 1024) (i 2))

/-- What the kernel's load of slot `j` reads once the slabs have landed. -/
def chunk (c : Dev nD) : Fin 4 → Vec F S1x256x512 .f32
  | 0 => (vM : Memref sig .tc .vmem S4x256x512 .f32).view.readAt (Elt F) (Rect.unit (s := S4x256x512) ![0, 0, 0] S1x256x512.size inb_S4x256x512_S1x256x512_0_0_0).toLoadRect (XV m c)
  | 1 => (vM : Memref sig .tc .vmem S4x256x512 .f32).view.readAt (Elt F) (Rect.unit (s := S4x256x512) ![1, 0, 0] S1x256x512.size inb_S4x256x512_S1x256x512_1_0_0).toLoadRect (XV m c)
  | 2 => (vM : Memref sig .tc .vmem S4x256x512 .f32).view.readAt (Elt F) (Rect.unit (s := S4x256x512) ![2, 0, 0] S1x256x512.size inb_S4x256x512_S1x256x512_2_0_0).toLoadRect (XV m c)
  | 3 => (vM : Memref sig .tc .vmem S4x256x512 .f32).view.readAt (Elt F) (Rect.unit (s := S4x256x512) ![3, 0, 0] S1x256x512.size inb_S4x256x512_S1x256x512_3_0_0).toLoadRect (XV m c)

/-- Device `c`'s partial sums: the column sums of its 1024 rows, a slab of 256 at a time, from zero. -/
def acc (c : Dev nD) : FVec F S1x512 .f32 := k0_pay3 (k0_pay2 (chunk m c 0)) (chunk m c 1) (chunk m c 2) (chunk m c 3)

/-- The exchange buffer in the end, the same on every device: row `r` is device `r`'s partial sums. -/
def commF (c : Dev nD) : Buf (Elt F) ((c : Thread nD τ).loc cc0_scratch1) := fun i =>
  acc m (i 0) (ValueIdx.ix2 (0 : Fin 1) (i 1))

/-- The result, the same on every device: the sixteen rows summed. -/
def outF : (cc0_stg0_0 : Ref sig .tc).ty.Contents (Elt F) :=
  k0_pay1 ((cM : Memref sig .tc .vmem S16x512 .f32).view.readAt (Elt F) (Rect.unit (s := S16x512) ![0, 0] S16x512.size inb_S16x512_S16x512_0_0).toLoadRect (commF m 0))

/-! ## Holdings -/

/-- Device `d` holds row `r` of its exchange buffer, at share `q` and contents `f`. -/
def rowPts (d r : Dev nD) (q : PosShare TreeShare) (f : Buf (Elt F) ((d : Thread nD τ).loc cc0_scratch1)) : sProp 𝕄 :=
  (rowM r).view.loc (d : Thread nD τ) ↦[(rowM r).view.set]{q} f
/-- Device `c` holds slab `j` of its block of `x` as launched; slot `j` of its copy buffer at contents `f`. -/
def slabPts (c : Dev nD) (j : Fin 4) : sProp 𝕄 := (xsl j).view.loc (c : Thread nD τ) ↦[(xsl j).view.set]{fullShare} X m c
def slotPts (c : Dev nD) (j : Fin 4) (f : Buf (Elt F) ((c : Thread nD τ).loc cc0_scratch0)) : sProp 𝕄 :=
  (vsl j).view.loc (c : Thread nD τ) ↦[(vsl j).view.set]{fullShare} f
omit [FloatOps F] in
instance rowPts_storable (d r : Dev nD) (q : PosShare TreeShare) (f) : BI.Storable (upEmb : UEmb _ 𝕄) (rowPts (F := F) d r q f) := by unfold rowPts; infer_instance
omit [FloatOps F] in
instance slabPts_storable (c : Dev nD) (j : Fin 4) : BI.Storable (upEmb : UEmb _ 𝕄) (slabPts (F := F) m c j) := by unfold slabPts; infer_instance
omit [FloatOps F] in
instance slotPts_storable (c : Dev nD) (j : Fin 4) (f) : BI.Storable (upEmb : UEmb _ 𝕄) (slotPts (F := F) c j f) := by unfold slotPts; infer_instance
/-- The three buffers whole. -/
def xPts (c : Dev nD) : sProp 𝕄 := ((c : Thread nD τ).loc main_arg0) ↦{fullShare} X m c
def vPts (c : Dev nD) (f : Buf (Elt F) ((c : Thread nD τ).loc cc0_scratch0)) : sProp 𝕄 := ((c : Thread nD τ).loc cc0_scratch0) ↦{fullShare} f
def cPts (c : Dev nD) (f : Buf (Elt F) ((c : Thread nD τ).loc cc0_scratch1)) : sProp 𝕄 := ((c : Thread nD τ).loc cc0_scratch1) ↦{fullShare} f

/-- The share of its own row a device lends its `o`-th copy, and what it keeps meanwhile. -/
abbrev shr (o : Fin 15) : PosShare TreeShare := Transfers.shareTok fullShare 15 o
abbrev shrKeep : PosShare TreeShare := Transfers.shareDrop fullShare 15

/-! ## The schedule: one round; who pays what, and what a payment hands over -/

/-- Duty `o` of device `c`'s barrier cell is the signal of the device `o + 1` places after it, whose signal it is
    number `14 - o`. -/
def rev (o : Fin 15) : Fin 15 := ⟨14 - o.val, by omega⟩
theorem rev_rev (o : Fin 15) : rev (rev o) = o := by revert o; decide
theorem peer_peer_rev (c : Dev nD) (o : Fin 15) : peer (peer c o) (rev o) = c := by revert c o; decide

/-- Which of a device's cells a semaphore is. -/
inductive Kd where
  | bar | cp (j : Fin 4) | send (o : Fin 15) | recv (o : Fin 15) | other
def kd : SemLoc sig → Kd
  | .reg _ => .bar
  | .dma q =>
    if h : q.val < 1 then .other
    else if h4 : q.val < 5 then .cp ⟨q.val - 1, by omega⟩
    else if h19 : q.val < 20 then .send ⟨q.val - 5, by omega⟩
    else if h34 : q.val < 35 then .recv ⟨q.val - 20, by omega⟩
    else .other

/-- The signal of the device `o + 1` places after `c` hands `c` row `c` of that device's exchange buffer. -/
def barPay (c : Dev nD) (o : Fin 15) : sProp 𝕄 := iprop(∃ f, rowPts (peer c o) c fullShare f)
/-- A local copy landed hands back the slot, holding the slab, and the slab. -/
def cpPay (c : Dev nD) (j : Fin 4) : sProp 𝕄 := iprop(slotPts c j (XV m c) ∗ slabPts m c j)
/-- A copy read out of its source hands back the share of the source row it was lent. -/
def sendPay (c : Dev nD) (o : Fin 15) : sProp 𝕄 := rowPts c c (shr o) (commF m c)
/-- A copy landed hands the receiver the sender's row, holding the sender's partial sums. -/
def recvPay (c : Dev nD) (o : Fin 15) : sProp 𝕄 := rowPts c (from_ c o) fullShare (commF m c)

def sched : Rounds.Schedule (GSem nD τ sig) DD 𝕄 where
  duties g r := if r = 0 ∧ g.1.2 = .tc then (match kd g.2 with | .bar => Finset.univ | .other => ∅ | _ => {0}) else ∅
  unitless _ := False
  amount g _ _ := match kd g.2 with | .bar => 1 | .cp _ => Ncp | _ => Nrow
  payload g _ d := match kd g.2 with
    | .bar => barPay g.1.1 d | .cp j => cpPay m g.1.1 j | .send o => sendPay m g.1.1 o | .recv o => recvPay m g.1.1 o | .other => iprop(emp)
  amount_pos g _ _ _ := by
    cases kd g.2
    · exact Nat.one_pos
    · exact Ncp_pos
    · exact Nrow_pos
    · exact Nrow_pos
    · exact Nrow_pos

instance sched_payload_storable (g : GSem nD τ sig) (r : ℕ) (d : DD) :
    BI.Storable (upEmb : UEmb _ 𝕄) ((sched (F := F) m).payload g r d) := by
  show BI.Storable upEmb (match kd g.2 with
    | .bar => barPay g.1.1 d | .cp j => cpPay m g.1.1 j | .send o => sendPay m g.1.1 o | .recv o => recvPay m g.1.1 o | .other => iprop(emp))
  unfold barPay cpPay sendPay recvPay
  split <;> infer_instance

/-! ## What each device owes at launch, and the levels -/

/-- Device `c`'s `j`-th payment: fifteen signals, then fifteen copies. -/
def due (c : Dev nD) (j : ℕ) : CellTallies nD τ sig Unit :=
  if h : j < 15 then tallyAt (barCell (peer c ⟨j, h⟩)) () 1
  else if h' : j < 30 then tallyAt (recvCell (peer c ⟨j - 15, by omega⟩) ⟨j - 15, by omega⟩) () Nrow
  else 0
/-- What `c` still owes when `n` payments are left. -/
def owedLeft (c : Dev nD) : ℕ → CellTallies nD τ sig Unit
  | 0 => 0
  | n + 1 => owedLeft c n + due c (29 - n)
def O₀ (c : Dev nD) : CellTallies nD τ sig Unit := owedLeft c 30

def L (g : GSem nD τ sig) : Finset Unit := if g.1.2 = .tc then {()} else ∅
/-- Barrier cells at 1, receive cells at 2, the rest (staging, local copies, sends) at 0. -/
def lv (g : GSem nD τ sig) (_ : Unit) : ℕ := match kd g.2 with | .bar => 1 | .recv _ => 2 | _ => 0

/-! ## The cells as the launch indexes them -/

/-- The kernel's own (scoped) semaphores: every DMA semaphore but the staging one. -/
abbrev osem : Fin 34 → SemLoc sig := fun k => .dma ⟨k.val + 1, by show k.val + 1 < 35; omega⟩
/-- All thirty-five cells of a device: the barrier, then its own. -/
abbrev csem : Fin 35 → SemLoc sig := fun k => if h : k.val = 0 then .reg barS else .dma ⟨k.val, k.isLt⟩
abbrev kcell (ck : Dev nD × Fin 35) : GSem nD τ sig := ((ck.1 : Thread nD τ), csem ck.2)

/-! ## The ghost state a device's body starts from -/

/-- Every cell's invariant, and that every cell is at round 0: known to all. -/
def records (K : Dev nD × Fin 35 → ℕ) : sProp 𝕄 :=
  iprop((bigSep Finset.univ fun ck : Dev nD × Fin 35 => cellInv ER (sched m) (K ck) (kcell ck))
    ∗ bigSep Finset.univ fun ck : Dev nD × Fin 35 => reached ER (kcell ck) 0)

/-- What is device `c`'s alone: its positions on its own cells, and the tokens of the duties it pays. -/
def linear (c : Dev nD) : sProp 𝕄 :=
  iprop(atPos ER (barCell c) 0 ∅ 0
    ∗ (bigSep Finset.univ fun j : Fin 4 => iprop(atPos ER (cpCell c j) 0 ∅ 0 ∗ dutyTok ER (cpCell c j) 0 (0 : DD)))
    ∗ (bigSep Finset.univ fun o : Fin 15 => iprop(atPos ER (sendCell c o) 0 ∅ 0 ∗ dutyTok ER (sendCell c o) 0 (0 : DD)))
    ∗ (bigSep Finset.univ fun o : Fin 15 => atPos ER (recvCell c o) 0 ∅ 0)
    ∗ (bigSep Finset.univ fun o : Fin 15 => dutyTok ER (barCell (peer c o)) 0 (rev o))
    ∗ (bigSep Finset.univ fun o : Fin 15 => dutyTok ER (recvCell (peer c o) o) 0 (0 : DD)))

def ghost (K : Dev nD × Fin 35 → ℕ) (c : Dev nD) : sProp 𝕄 := iprop(records m K ∗ linear c)

/-- What a device's body starts from: the ghost state at some names, the credit its barrier's fifteen units and its
    fifteen receive cells are funded with, and the levels. -/
def start (c : Dev nD) : sProp 𝕄 :=
  iprop((∃ K, ghost m K c) ∗ cred (tallyAt (barCell c) () 15)
    ∗ (bigSep Finset.univ fun o : Fin 15 => cred (tallyAt (recvCell c o) () Nrow)) ∗ levAts L lv)

def Φ₀ (c : Dev nD) : sProp 𝕄 := iprop(start m c ∗ xPts m c ∗ (∃ f, vPts c f) ∗ (∃ f, cPts c f))
/-- After the point: `x` as launched, the copy buffer holding the block, the exchange buffer holding every device's
    partial sums, the own cells closed at zero. -/
def Φ₁ (c : Dev nD) : sProp 𝕄 :=
  iprop(xPts m c ∗ vPts c (XV m c) ∗ cPts c (commF m c) ∗ bigSep Finset.univ fun k : Fin 34 => semVal ((c : Thread nD τ), osem k) 0)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => outF m
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.AR

end
-- ==== Proof.Bits.Tables.lean ====
/-
  The schedule read cell by cell: which duties each of a device's cells has in its one round, their amounts, what the
  round expects in all, and what each payment hands over.
-/
import proofs.«901068_g7700000000001069_dist_sum_ax0_shard0_i_m1024_n512_v7x_i16_bf16_1_alg».proof.Proof.Bits.Proto

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Which cell a semaphore is -/

theorem kd_bar : kd (.reg barS) = Kd.bar := rfl
theorem kd_cp (j : Fin 4) : kd (.dma (cpS j)) = Kd.cp j := by
  have hj := j.isLt
  have h1 : ¬ (cpS j).val < 1 := by show ¬ (1 + j.val < 1); omega
  have h4 : (cpS j).val < 5 := by show 1 + j.val < 5; omega
  unfold kd
  simp only [dif_neg h1, dif_pos h4]
  congr 1
  exact Fin.ext (by show 1 + j.val - 1 = j.val; omega)
theorem kd_send (o : Fin 15) : kd (.dma (sendS o)) = Kd.send o := by
  have ho := o.isLt
  have h1 : ¬ (sendS o).val < 1 := by show ¬ (5 + o.val < 1); omega
  have h4 : ¬ (sendS o).val < 5 := by show ¬ (5 + o.val < 5); omega
  have h19 : (sendS o).val < 20 := by show 5 + o.val < 20; omega
  unfold kd
  simp only [dif_neg h1, dif_neg h4, dif_pos h19]
  congr 1
  exact Fin.ext (by show 5 + o.val - 5 = o.val; omega)
theorem kd_recv (o : Fin 15) : kd (.dma (recvS o)) = Kd.recv o := by
  have ho := o.isLt
  have h1 : ¬ (recvS o).val < 1 := by show ¬ (20 + o.val < 1); omega
  have h4 : ¬ (recvS o).val < 5 := by show ¬ (20 + o.val < 5); omega
  have h19 : ¬ (recvS o).val < 20 := by show ¬ (20 + o.val < 20); omega
  have h34 : (recvS o).val < 35 := by show 20 + o.val < 35; omega
  unfold kd
  simp only [dif_neg h1, dif_neg h4, dif_neg h19, dif_pos h34]
  congr 1
  exact Fin.ext (by show 20 + o.val - 20 = o.val; omega)

section Sched
variable (c : Dev nD)

/-! ## Duties -/
theorem duties_bar : (sched (F := F) m).duties (barCell c) 0 = Finset.univ := by
  dsimp only [sched]; exact if_pos ⟨rfl, rfl⟩
theorem duties_cp (j : Fin 4) : (sched (F := F) m).duties (cpCell c j) 0 = {0} := by
  dsimp only [sched]; rw [if_pos ⟨rfl, rfl⟩, kd_cp]
theorem duties_send (o : Fin 15) : (sched (F := F) m).duties (sendCell c o) 0 = {0} := by
  dsimp only [sched]; rw [if_pos ⟨rfl, rfl⟩, kd_send]
theorem duties_recv (o : Fin 15) : (sched (F := F) m).duties (recvCell c o) 0 = {0} := by
  dsimp only [sched]; rw [if_pos ⟨rfl, rfl⟩, kd_recv]
theorem duties_later (g : GSem nD τ sig) : ∀ r, 1 ≤ r → (sched (F := F) m).duties g r = ∅ :=
  fun r hr => by dsimp only [sched]; exact if_neg fun h => by omega

/-! ## Amounts and what a round expects -/
theorem amount_bar (d : DD) : (sched (F := F) m).amount (barCell c) 0 d = 1 := rfl
theorem amount_cp (j : Fin 4) (d : DD) : (sched (F := F) m).amount (cpCell c j) 0 d = Ncp := by
  dsimp only [sched]; rw [kd_cp]
theorem amount_send (o : Fin 15) (d : DD) : (sched (F := F) m).amount (sendCell c o) 0 d = Nrow := by
  dsimp only [sched]; rw [kd_send]
theorem amount_recv (o : Fin 15) (d : DD) : (sched (F := F) m).amount (recvCell c o) 0 d = Nrow := by
  dsimp only [sched]; rw [kd_recv]
theorem expect_bar : (sched (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_cp (j : Fin 4) : (sched (F := F) m).expect (cpCell c j) 0 = Ncp := by
  unfold Schedule.expect Schedule.amountOf; rw [duties_cp, Finset.sum_singleton, amount_cp]
theorem expect_send (o : Fin 15) : (sched (F := F) m).expect (sendCell c o) 0 = Nrow := by
  unfold Schedule.expect Schedule.amountOf; rw [duties_send, Finset.sum_singleton, amount_send]
theorem expect_recv (o : Fin 15) : (sched (F := F) m).expect (recvCell c o) 0 = Nrow := by
  unfold Schedule.expect Schedule.amountOf; rw [duties_recv, Finset.sum_singleton, amount_recv]

/-! ## Payloads -/
theorem payload_bar (d : DD) : (sched (F := F) m).payload (barCell c) 0 d = barPay c d := rfl
theorem payload_cp (j : Fin 4) (d : DD) : (sched (F := F) m).payload (cpCell c j) 0 d = cpPay m c j := by
  dsimp only [sched]; rw [kd_cp]
theorem payload_send (o : Fin 15) (d : DD) : (sched (F := F) m).payload (sendCell c o) 0 d = sendPay m c o := by
  dsimp only [sched]; rw [kd_send]
theorem payload_recv (o : Fin 15) (d : DD) : (sched (F := F) m).payload (recvCell c o) 0 d = recvPay m c o := by
  dsimp only [sched]; rw [kd_recv]

/-- The rest of a round of which no duty has been taken. -/
theorem rest_bar : bigSep ((sched (F := F) m).duties (barCell c) 0 \ ∅) (fun d => (sched (F := F) m).payload (barCell c) 0 d)
    = bigSep Finset.univ (fun o : Fin 15 => barPay (F := F) c o) := by
  rw [Finset.sdiff_empty, duties_bar]
  exact congrArg (bigSep Finset.univ) (funext fun d => payload_bar m c d)
theorem rest_cp (j : Fin 4) : bigSep ((sched (F := F) m).duties (cpCell c j) 0 \ ∅) (fun d => (sched (F := F) m).payload (cpCell c j) 0 d) = cpPay m c j := by
  rw [Finset.sdiff_empty, duties_cp, bigSep_singleton, payload_cp]
theorem rest_send (o : Fin 15) : bigSep ((sched (F := F) m).duties (sendCell c o) 0 \ ∅) (fun d => (sched (F := F) m).payload (sendCell c o) 0 d) = sendPay m c o := by
  rw [Finset.sdiff_empty, duties_send, bigSep_singleton, payload_send]
theorem rest_recv (o : Fin 15) : bigSep ((sched (F := F) m).duties (recvCell c o) 0 \ ∅) (fun d => (sched (F := F) m).payload (recvCell c o) 0 d) = recvPay m c o := by
  rw [Finset.sdiff_empty, duties_recv, bigSep_singleton, payload_recv]

end Sched

end Cert.Kernel.AR

end
-- ==== Proof.Bits.Owed.lean ====
/-
  What a device still owes as its thirty payments go by, that every wait of the kernel is on a cell below everything
  still owed, and that the units all devices owe one cell at launch are what its owner is credited.
-/
import proofs.«901068_g7700000000001069_dist_sum_ax0_shard0_i_m1024_n512_v7x_i16_bf16_1_alg».proof.Proof.Bits.Proto
import Mathlib.Algebra.BigOperators.Group.Finset.Basic
import Mathlib.Algebra.BigOperators.Group.Finset.Piecewise
import Mathlib.Algebra.BigOperators.Group.Finset.Sigma
import Mathlib.Algebra.BigOperators.Fin
import Mathlib.Algebra.BigOperators.Intervals
import Mathlib.Algebra.BigOperators.Finsupp.Basic

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The owed tallies, payment by payment -/

/-- Payment `o`, `o < 15`, is the signal to the device `o + 1` places on; -/
private theorem due_sig (c : Dev nD) (o : Fin 15) : due c o.val = tallyAt (barCell (peer c o)) () 1 := by
  unfold due; rw [dif_pos o.isLt]
/-- payment `15 + o` is the copy to it. -/
private theorem due_send (c : Dev nD) (o : Fin 15) : due c (15 + o.val) = tallyAt (recvCell (peer c o) o) () Nrow := by
  unfold due
  rw [dif_neg (by omega), dif_pos (by omega : 15 + o.val < 30)]
  simp only [Nat.add_sub_cancel_left]

/-- Before its `o`-th signal a device owes that signal's unit on top of the rest. -/
theorem owed_sig (c : Dev nD) (o : Fin 15) :
    owedLeft c (30 - o.val) = owedLeft c (29 - o.val) + tallyAt (barCell (peer c o)) () 1 := by
  have h1 : 30 - o.val = (29 - o.val) + 1 := by omega
  have h2 : 29 - (29 - o.val) = o.val := by omega
  rw [h1, ← due_sig]
  show owedLeft c (29 - o.val) + due c (29 - (29 - o.val)) = _
  rw [h2]
/-- Before its `o`-th copy a device owes that copy's landing on top of the rest. -/
theorem owed_send (c : Dev nD) (o : Fin 15) :
    owedLeft c (15 - o.val) = owedLeft c (14 - o.val) + tallyAt (recvCell (peer c o) o) () Nrow := by
  have h1 : 15 - o.val = (14 - o.val) + 1 := by omega
  have h2 : 29 - (14 - o.val) = 15 + o.val := by omega
  rw [h1, ← due_send]
  show owedLeft c (14 - o.val) + due c (29 - (14 - o.val)) = _
  rw [h2]
theorem owedLeft_zero (c : Dev nD) : owedLeft c 0 = 0 := rfl

/-- A payment is a unit to a barrier cell if it is one of the first fifteen, else a row's credit to a receive cell. -/
private theorem due_pos {c : Dev nD} {j : ℕ} {g : GSem nD τ sig} {u : Unit} (h : 0 < due c j g u) :
    (j < 15 ∧ ∃ o, g = barCell (peer c o)) ∨ (15 ≤ j ∧ ∃ o, g = recvCell (peer c o) o) := by
  unfold due at h
  by_cases h1 : j < 15
  · rw [dif_pos h1] at h
    exact Or.inl ⟨h1, ⟨j, h1⟩, (Pipeline.tallyAt_pos h).1⟩
  · rw [dif_neg h1] at h
    by_cases h2 : j < 30
    · rw [dif_pos h2] at h
      exact Or.inr ⟨by omega, _, (Pipeline.tallyAt_pos h).1⟩
    · rw [dif_neg h2, Pi.zero_apply, Finsupp.zero_apply] at h
      exact absurd h (Nat.lt_irrefl 0)

/-- Whatever is owed is owed to a barrier cell or a receive cell of another device; -/
theorem owedLeft_pos {c : Dev nD} {n : ℕ} {g : GSem nD τ sig} {u : Unit} (h : 0 < owedLeft c n g u) :
    (∃ o, g = barCell (peer c o)) ∨ (∃ o, g = recvCell (peer c o) o) := by
  induction n with
  | zero => rw [owedLeft_zero, Pi.zero_apply, Finsupp.zero_apply] at h; exact absurd h (Nat.lt_irrefl 0)
  | succ n ih =>
    rcases Pipeline.add_pos_cases (show 0 < (owedLeft c n + due c (29 - n)) g u from h) with h | h
    · exact ih h
    · rcases due_pos h with ⟨_, ho⟩ | ⟨_, ho⟩
      · exact Or.inl ho
      · exact Or.inr ho
/-- once the signals are paid, to a receive cell. -/
theorem owedLeft_pos_le {c : Dev nD} {n : ℕ} (hn : n ≤ 15) {g : GSem nD τ sig} {u : Unit} (h : 0 < owedLeft c n g u) :
    ∃ o, g = recvCell (peer c o) o := by
  induction n with
  | zero => rw [owedLeft_zero, Pi.zero_apply, Finsupp.zero_apply] at h; exact absurd h (Nat.lt_irrefl 0)
  | succ n ih =>
    rcases Pipeline.add_pos_cases (show 0 < (owedLeft c n + due c (29 - n)) g u from h) with h | h
    · exact ih (by omega) h
    · rcases due_pos h with ⟨hlt, _⟩ | ⟨_, ho⟩
      · omega
      · exact ho

/-! ## Levels -/

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := rfl
theorem lv_cp (c : Dev nD) (j : Fin 4) : lv (cpCell c j) () = 0 := by revert c j; decide
theorem lv_send (c : Dev nD) (o : Fin 15) : lv (sendCell c o) () = 0 := by revert c o; decide
theorem lv_recv (c : Dev nD) (o : Fin 15) : lv (recvCell c o) () = 2 := by revert c o; decide

omit [FloatOps F] in
/-- A wait on a cell at level 0 is below everything a device owes at launch (and below nothing owed). -/
theorem mayWait_zero_level (c : Dev nD) (sm : SemLoc sig) (hsm : lv ((c : Thread nD τ), sm) () = 0) (O : CellTallies nD τ sig Unit)
    (hO : (∃ n, O = owedLeft c n) ∨ O = 0) :
    (levAts L lv : sProp 𝕄) ⊢ MayWait (c : Thread nD τ) sm () O := by
  rcases hO with ⟨n, rfl⟩ | rfl
  · refine MayOwe.of_cut (L := L) (lev := lv) 0 (fun p hp => by rw [Finset.mem_singleton.mp hp, L_tc]; exact Finset.mem_singleton_self _)
      (fun g u hg => by
        rcases owedLeft_pos hg with ⟨o, rfl⟩ | ⟨o, rfl⟩
        · rw [L_tc]; exact Finset.mem_singleton_self _
        · rw [L_tc]; exact Finset.mem_singleton_self _)
      (fun p hp => by rw [Finset.mem_singleton.mp hp]; exact le_of_eq hsm)
      (fun g u hg => by
        rcases owedLeft_pos hg with ⟨o, rfl⟩ | ⟨o, rfl⟩
        · cases u; rw [lv_bar]; decide
        · cases u; rw [lv_recv]; decide)
  · rw [MayWait_zero]; iintro -; iempintro
omit [FloatOps F] in
/-- Once the signals are paid, a wait on a cell below level 2 is below everything still owed. -/
theorem mayWait_low (c : Dev nD) (sm : SemLoc sig) (hsm : lv ((c : Thread nD τ), sm) () < 2) (n : ℕ) (hn : n ≤ 15) :
    (levAts L lv : sProp 𝕄) ⊢ MayWait (c : Thread nD τ) sm () (owedLeft c n) :=
  MayOwe.of_cut (L := L) (lev := lv) (lv ((c : Thread nD τ), sm) ()) (fun p hp => by rw [Finset.mem_singleton.mp hp, L_tc]; exact Finset.mem_singleton_self _)
    (fun g u hg => by obtain ⟨o, rfl⟩ := owedLeft_pos_le hn hg; rw [L_tc]; exact Finset.mem_singleton_self _)
    (fun p hp => by rw [Finset.mem_singleton.mp hp])
    (fun g u hg => by obtain ⟨o, rfl⟩ := owedLeft_pos_le hn hg; cases u; rw [lv_recv]; exact hsm)

/-! ## The launch credit -/

/-- What is owed with `n` payments left is the last `n` payments summed. -/
private theorem owedLeft_eq_sum (c : Dev nD) (n : ℕ) : owedLeft c n = ∑ k ∈ Finset.range n, due c (29 - k) := by
  induction n with
  | zero => rfl
  | succ n ih => rw [Finset.sum_range_succ, ← ih]; rfl

/-- At launch a device owes its fifteen signals and its fifteen copies. -/
private theorem O₀_eq (d : Dev nD) :
    O₀ d = (∑ o : Fin 15, tallyAt (barCell (peer d o)) () 1) + ∑ o : Fin 15, tallyAt (recvCell (peer d o) o) () Nrow := by
  unfold O₀
  rw [owedLeft_eq_sum, show (∑ k ∈ Finset.range 30, due d (29 - k)) = ∑ k ∈ Finset.range 30, due d k from Finset.sum_range_reflect (fun k => due d k) 30,
    show (30 : ℕ) = 15 + 15 from rfl, Finset.sum_range_add, Finset.sum_range, Finset.sum_range]
  exact congrArg₂ (· + ·) (Finset.sum_congr rfl fun o _ => due_sig d o) (Finset.sum_congr rfl fun o _ => due_send d o)

private theorem bar_eq_iff {a b : Dev nD} : Iff (barCell a = barCell b) (a = b) :=
  ⟨fun h => Fin.ext (congrArg (fun g : GSem nD τ sig => g.1.1.val) h), fun h => h ▸ rfl⟩
private theorem recv_eq_iff {a b : Dev nD} {o o' : Fin 15} : Iff (recvCell a o = recvCell b o') (a = b ∧ o = o') :=
  ⟨fun h => ⟨Fin.ext (congrArg (fun g : GSem nD τ sig => g.1.1.val) h), by
      have h2 : recvS o = recvS o' := SemLoc.dma.inj (congrArg Prod.snd h)
      have h3 : 20 + o.val = 20 + o'.val := congrArg Fin.val h2
      exact Fin.ext (by omega)⟩, fun h => by rw [h.1, h.2]⟩
private theorem recv_ne_bar (a b : Dev nD) (o : Fin 15) : recvCell a o ≠ barCell b := fun h => by cases congrArg Prod.snd h
private theorem bar_ne_recv (a b : Dev nD) (o : Fin 15) : barCell b ≠ recvCell a o := fun h => by cases congrArg Prod.snd h

private theorem peer_eq_iff (d c : Dev nD) (o : Fin 15) : Iff (peer d o = c) (d = from_ c o) :=
  ⟨fun h => by rw [← h, from_peer], fun h => by rw [h, peer_from]⟩

/-- What device `d` owes device `c`'s barrier cell: a unit for each of its signals that goes there. -/
private theorem owed_bar (d c : Dev nD) : O₀ d (barCell c) () = ∑ o : Fin 15, if d = from_ c o then 1 else 0 := by
  rw [O₀_eq, Pi.add_apply, Finsupp.add_apply, Finset.sum_apply, Finsupp.finsetSum_apply, Finset.sum_apply, Finsupp.finsetSum_apply,
    Finset.sum_eq_zero (s := Finset.univ) (f := fun o : Fin 15 => (tallyAt (recvCell (peer d o) o) () Nrow : CellTallies nD τ sig Unit) (barCell c) ())
      (fun o _ => by rw [tallyAt_ne_cell (bar_ne_recv _ _ _)]; rfl), Nat.add_zero]
  refine Finset.sum_congr rfl fun o _ => ?_
  rw [tallyAt_apply]
  exact if_congr ⟨fun h => (peer_eq_iff d c o).mp (bar_eq_iff.mp h.1).symm, fun h => ⟨(bar_eq_iff.mpr ((peer_eq_iff d c o).mpr h)).symm, rfl⟩⟩ rfl rfl

/-- What device `d` owes receive cell `o` of device `c`: a row's credit if it is the device `o + 1` places before `c`. -/
private theorem owed_recv (d c : Dev nD) (o : Fin 15) : O₀ d (recvCell c o) () = if d = from_ c o then Nrow else 0 := by
  rw [O₀_eq, Pi.add_apply, Finsupp.add_apply, Finset.sum_apply, Finsupp.finsetSum_apply, Finset.sum_apply, Finsupp.finsetSum_apply,
    Finset.sum_eq_zero (s := Finset.univ) (f := fun o' : Fin 15 => (tallyAt (barCell (peer d o')) () 1 : CellTallies nD τ sig Unit) (recvCell c o) ())
      (fun o' _ => by rw [tallyAt_ne_cell (recv_ne_bar _ _ _)]; rfl), Nat.zero_add,
    Finset.sum_eq_single o (fun o' _ ho' => by
      rw [tallyAt_apply, if_neg (fun h => ho' (recv_eq_iff.mp h.1).2.symm)]) (fun h => absurd (Finset.mem_univ o) h), tallyAt_apply]
  exact if_congr ⟨fun h => (peer_eq_iff d c o).mp (recv_eq_iff.mp h.1).1.symm, fun h => ⟨by rw [(peer_eq_iff d c o).mpr h], rfl⟩⟩ rfl rfl

omit [FloatOps F] in
/-- The fifteen other devices owe a barrier cell one unit each; -/
theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun (o : Fin 15) _ => (Finset.sum_ite_eq' Finset.univ (from_ c o) fun _ => 1).trans (if_pos (Finset.mem_univ _)),
    Finset.sum_const, Finset.card_univ, Fintype.card_fin, smul_eq_mul, Nat.mul_one]
omit [FloatOps F] in
/-- one device owes a receive cell one row's credit. -/
theorem launch_recv (c : Dev nD) (o : Fin 15) :
    tallyOn (recvCell c o) (launchCredit (Pipeline.owing O₀) 0 (recvCell c o)) = (tallyAt (recvCell c o) () Nrow : CellTallies nD τ sig Unit) := by
  unfold tallyAt; refine congrArg _ (Finsupp.ext fun u => ?_); cases u
  rw [Pipeline.launchCredit_owing, Finsupp.single_eq_same, Finset.sum_congr rfl fun d _ => owed_recv d c o,
    Finset.sum_ite_eq' Finset.univ (from_ c o) fun _ => Nrow, if_pos (Finset.mem_univ _)]

/-- The receive semaphores among all semaphores. -/
private def recvEmb : Fin 15 ↪ SemLoc sig :=
  ⟨fun o => SemLoc.dma (recvS o), fun o o' h => by
    have h3 : 20 + o.val = 20 + o'.val := congrArg Fin.val (SemLoc.dma.inj h)
    exact Fin.ext (by omega)⟩

omit [FloatOps F] in
theorem creds (c : Dev nD) :
    (Pipeline.launchCred O₀ c : sProp 𝕄)
      ⊢ iprop(cred (tallyAt (barCell c) () 15) ∗ bigSep Finset.univ fun o : Fin 15 => cred (tallyAt (recvCell c o) () Nrow)) := by
  unfold Pipeline.launchCred
  rw [bigSep_univ_at _ (SemLoc.reg barS), launch_bar]
  refine sep_mono_right ?_
  have hR : (bigSep Finset.univ fun o : Fin 15 => (cred (tallyAt (recvCell c o) () Nrow) : sProp 𝕄))
      = bigSep (Finset.univ.map recvEmb) fun sm : SemLoc sig =>
          cred (tallyOn ((c : Thread nD τ), sm) (launchCredit (Pipeline.owing O₀) 0 ((c : Thread nD τ), sm))) := by
    rw [bigSep_map]
    exact bigSep_congr fun o _ => by rw [← launch_recv]; rfl
  rw [hR]
  refine bigSep_subset fun sm h => ?_
  obtain ⟨o, -, rfl⟩ := Finset.mem_map.mp h
  exact Finset.mem_erase.mpr ⟨(fun h' => by cases h'), Finset.mem_univ _⟩

end Cert.Kernel.AR

end
-- ==== Proof.Bits.Geom.lean ====
/-
  The buffers in pieces: the exchange buffer is its sixteen rows, a device's block of x its four slabs, the copy buffer
  its four slots, a row held whole is fifteen lent shares and a kept one; and what a landed copy and a stored row leave.
-/
import proofs.«901068_g7700000000001069_dist_sum_ax0_shard0_i_m1024_n512_v7x_i16_bf16_1_alg».proof.Proof.Bits.Proto
import Idealize.ShloMosaic.Lib.SparseCore.Stream
import Idealize.ShloMosaic.Lib.Pipeline.Value

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The sixteen devices from one device's place -/

omit [FloatOps F] in
/-- All devices: `c` itself and the fifteen after it; -/
theorem bigSep_dev_peer (c : Dev nD) (Φ : Dev nD → sProp 𝕄) :
    bigSep Finset.univ Φ = iprop(Φ c ∗ bigSep Finset.univ fun o : Fin 15 => Φ (peer c o)) := by
  have hu : (Finset.univ : Finset (Dev nD)) = insert c ((Finset.univ : Finset (Fin 15)).map ⟨peer c, peer_inj c⟩) := by
    revert c; decide
  have hn : c ∉ (Finset.univ : Finset (Fin 15)).map ⟨peer c, peer_inj c⟩ := by
    rw [Finset.mem_map]
    rintro ⟨o, -, ho⟩
    exact peer_ne c o ho
  rw [hu, bigSep_insert hn, bigSep_map]
  rfl
omit [FloatOps F] in
/-- `c` itself and the fifteen before it. -/
theorem bigSep_dev_from (c : Dev nD) (Φ : Dev nD → sProp 𝕄) :
    bigSep Finset.univ Φ = iprop(Φ c ∗ bigSep Finset.univ fun o : Fin 15 => Φ (from_ c o)) := by
  have hu : (Finset.univ : Finset (Dev nD)) = insert c ((Finset.univ : Finset (Fin 15)).map ⟨from_ c, from_inj c⟩) := by
    revert c; decide
  have hn : c ∉ (Finset.univ : Finset (Fin 15)).map ⟨from_ c, from_inj c⟩ := by
    rw [Finset.mem_map]
    rintro ⟨o, -, ho⟩
    exact from_ne c o ho
  rw [hu, bigSep_insert hn, bigSep_map]
  rfl

/-! ## Buffers in pieces -/

/-- Two unit-stride rectangles with pointwise equal offsets and sizes read the same elements. -/
private theorem unit_set_eq {s : Shape} {off off' size size' : Fin s.rank → Nat} {inb inb'}
    (ho : ∀ a, off a = off' a) (hs : ∀ a, size a = size' a) :
    (Rect.unit (s := s) off size inb).set = (Rect.unit (s := s) off' size' inb').set := by
  ext i
  rw [Rect.mem_set_unit, Rect.mem_set_unit]
  exact forall_congr' fun a => by rw [ho a, hs a]

omit [FloatOps F] in
/-- Row `r` of the exchange buffer is its row `r` along the first axis. -/
private theorem rowM_set (r : Dev nD) :
    (rowM r).view.set = ((cM : Memref sig .tc .vmem S16x512 .f32).view.slice (S16x512.rowRect 0 r)).set := by
  have h1 : (rowM r).view.set = (Rect.unit (s := S16x512) (k0_off2 r) S1x512.size (k0_off2_inb r)).set :=
    View.set_slice_whole cc0_scratch1 _
  have h2 : ((cM : Memref sig .tc .vmem S16x512 .f32).view.slice (S16x512.rowRect 0 r)).set = (S16x512.rowRect 0 r).set :=
    View.set_slice_whole cc0_scratch1 _
  rw [h1, h2]
  refine unit_set_eq (fun a => ?_) (fun a => ?_)
  · rw [k0_off2_eq]
    revert a; exact Fin.forall_fin_two.mpr ⟨rfl, rfl⟩
  · revert a; exact Fin.forall_fin_two.mpr ⟨rfl, rfl⟩

/-- The four slabs of 256 rows cover the 1024 rows; -/
private theorem slab_cover :
    (Finset.univ : Finset S1024x512.Idx)
      = Finset.univ.biUnion fun j : Fin 4 => (Rect.unit (s := S1024x512) ![256 * j.val, 0] S256x512.size (xsl_inb j)).set := by
  ext i
  simp only [Finset.mem_univ, Finset.mem_biUnion, true_and, true_iff]
  have h0 : (i 0).val < 1024 := (i 0).isLt
  have h1 : (i 1).val < 512 := (i 1).isLt
  refine ⟨⟨(i 0).val / 256, by omega⟩, Rect.mem_set_unit.mpr (Fin.forall_fin_two.mpr ⟨?_, ?_⟩)⟩
  · show 256 * ((i 0).val / 256) ≤ (i 0).val ∧ (i 0).val < 256 * ((i 0).val / 256) + 256
    omega
  · show 0 ≤ (i 1).val ∧ (i 1).val < 0 + 512
    omega

/-- and two of them share no row. -/
private theorem slab_disj {j j' : Fin 4} (h : j ≠ j') :
    Disjoint (Rect.unit (s := S1024x512) ![256 * j.val, 0] S256x512.size (xsl_inb j)).set
      (Rect.unit (s := S1024x512) ![256 * j'.val, 0] S256x512.size (xsl_inb j')).set := by
  refine Rect.unit_disjoint 0 ?_
  show 256 * j.val + 256 ≤ 256 * j'.val ∨ 256 * j'.val + 256 ≤ 256 * j.val
  have : j.val ≠ j'.val := fun e => h (Fin.ext e)
  omega

omit [FloatOps F] in
/-- Slot `j` of the copy buffer is its row `j` along the first axis: dropping the axis of extent one keeps the elements. -/
private theorem vsl_set (j : Fin 4) :
    (vsl j).view.set = ((vM : Memref sig .tc .vmem S4x256x512 .f32).view.slice (S4x256x512.rowRect 0 j)).set := by
  have h0 : (vsl j).view.set
      = ((vM : Memref sig .tc .vmem S4x256x512 .f32).view.slice (Rect.unit (s := S4x256x512) ![j.val, 0, 0] S1x256x512.size (vsl_inb j))).set :=
    View.set_reshape _ _
  have h1 : ((vM : Memref sig .tc .vmem S4x256x512 .f32).view.slice (Rect.unit (s := S4x256x512) ![j.val, 0, 0] S1x256x512.size (vsl_inb j))).set
      = (Rect.unit (s := S4x256x512) ![j.val, 0, 0] S1x256x512.size (vsl_inb j)).set :=
    View.set_slice_whole cc0_scratch0 _
  have h2 : ((vM : Memref sig .tc .vmem S4x256x512 .f32).view.slice (S4x256x512.rowRect 0 j)).set = (S4x256x512.rowRect 0 j).set :=
    View.set_slice_whole cc0_scratch0 _
  rw [h0, h1, h2]
  refine unit_set_eq (fun a => ?_) (fun a => ?_)
  · revert a; exact Fin.forall_fin_succ.mpr ⟨rfl, Fin.forall_fin_two.mpr ⟨rfl, rfl⟩⟩
  · revert a; exact Fin.forall_fin_succ.mpr ⟨rfl, Fin.forall_fin_two.mpr ⟨rfl, rfl⟩⟩

omit [FloatOps F] in
/-- The exchange buffer held whole is its sixteen rows held. -/
theorem cPts_rows (c : Dev nD) (f : Buf (Elt F) ((c : Thread nD τ).loc cc0_scratch1)) :
    cPts c f ⊣⊢ bigSep Finset.univ fun r : Dev nD => rowPts c r fullShare f := by
  refine BiEntails.of_eq ?_
  have h := pointsTo_rows (Ix := Unit) (Val := Elt F) (Name := ℕ) (U := UU) (Lvl := ℕ) (c : Thread nD τ)
    (cM : Memref sig .tc .vmem S16x512 .f32).view 0 fullShare f
  have hw : (cM : Memref sig .tc .vmem S16x512 .f32).view.set = Finset.univ := View.set_whole cc0_scratch1
  rw [hw] at h
  refine h.trans ?_
  refine bigSep_congr fun r _ => ?_
  unfold rowPts
  rw [rowM_set r]
omit [FloatOps F] in
/-- A device's block of `x` held whole is its four slabs held. -/
theorem xPts_slabs (c : Dev nD) : xPts m c ⊣⊢ bigSep Finset.univ fun j : Fin 4 => slabPts m c j := by
  refine BiEntails.of_eq ?_
  have h := pointsTo_biUnion (Ix := Unit) (Val := Elt F) (Name := ℕ) (U := UU) (Lvl := ℕ)
    (ℓ := (c : Thread nD τ).loc main_arg0) (q := fullShare) (f := X m c) (Finset.univ : Finset (Fin 4))
    (fun j => (Rect.unit (s := S1024x512) ![256 * j.val, 0] S256x512.size (xsl_inb j)).set)
    (fun j _ j' _ h => slab_disj h)
  rw [← slab_cover] at h
  refine h.trans (bigSep_congr fun j _ => ?_)
  have hs : (xsl j).view.set = (Rect.unit (s := S1024x512) ![256 * j.val, 0] S256x512.size (xsl_inb j)).set :=
    View.set_slice_whole main_arg0 _
  unfold slabPts
  rw [hs]
omit [FloatOps F] in
/-- The copy buffer held whole is its four slots held. -/
theorem vPts_slots (c : Dev nD) (f : Buf (Elt F) ((c : Thread nD τ).loc cc0_scratch0)) :
    vPts c f ⊣⊢ bigSep Finset.univ fun j : Fin 4 => slotPts c j f := by
  refine BiEntails.of_eq ?_
  have h := pointsTo_rows (Ix := Unit) (Val := Elt F) (Name := ℕ) (U := UU) (Lvl := ℕ) (c : Thread nD τ)
    (vM : Memref sig .tc .vmem S4x256x512 .f32).view 0 fullShare f
  have hw : (vM : Memref sig .tc .vmem S4x256x512 .f32).view.set = Finset.univ := View.set_whole cc0_scratch0
  rw [hw] at h
  refine h.trans ?_
  refine bigSep_congr fun j _ => ?_
  unfold slotPts
  rw [vsl_set j]
omit [FloatOps F] in
/-- A row held whole is a kept share and the fifteen shares lent to the copies. -/
theorem rowPts_shares (d r : Dev nD) (f : Buf (Elt F) ((d : Thread nD τ).loc cc0_scratch1)) :
    rowPts d r fullShare f ⊣⊢ iprop(rowPts d r shrKeep f ∗ bigSep Finset.univ fun o : Fin 15 => rowPts d r (shr o) f) := by
  unfold rowPts
  exact Transfers.pointsTo_toks fullShare 15
omit [FloatOps F] in
/-- Only a row's own elements matter. -/
theorem rowPts_congr (d r : Dev nD) (q : PosShare TreeShare) (f g : Buf (Elt F) ((d : Thread nD τ).loc cc0_scratch1))
    (h : ∀ i ∈ (rowM r).view.set, f i = g i) : rowPts d r q f = rowPts d r q g := by
  unfold rowPts
  exact pointsTo_congr h
omit [FloatOps F] in
theorem slotPts_congr (c : Dev nD) (j : Fin 4) (f g : Buf (Elt F) ((c : Thread nD τ).loc cc0_scratch0))
    (h : ∀ i ∈ (vsl j).view.set, f i = g i) : slotPts c j f = slotPts c j g := by
  unfold slotPts
  exact pointsTo_congr h

end Cert.Kernel.AR

end
-- ==== Proof.Bits.Landed.lean ====
/-
  What a landed copy, a stored row and the kernel's loads and stores leave and touch, element by element.
-/
import proofs.«901068_g7700000000001069_dist_sum_ax0_shard0_i_m1024_n512_v7x_i16_bf16_1_alg».proof.Proof.Bits.Proto
import Idealize.ShloMosaic.Lib.Pipeline.Value
import Idealize.ShloMosaic.Lib.ValueLayout
import Idealize.ShloMosaic.Lib.Exec.Geometry

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rows as the kernel spells them -/

/-- The row a device stores into, and the rows it waits to be filled, are rows of the same family. -/
theorem off1_eq (c : Dev nD) : k0_off1 c = k0_off2 c := (k0_off1_eq c).trans (k0_off2_eq c).symm
theorem off3_eq (c : Dev nD) (o : Fin 15) : k0_off3 c (BitVec.ofNat 32 (1 + o.val)) = k0_off2 (from_ c o) := by
  rw [k0_off3_eq, k0_off2_eq]; rfl

/-! ## What a landed copy, a stored row and the loads leave -/

open Idealize.ShloMosaic.ValueIdx in
/-- Where element `y` of slot `j` sits in the copy buffer: slot `j`, row `y 0`, column `y 1` (the squeezed unit
    axis is put back as the coordinate `0`, and the slice adds its offsets `(j, 0, 0)`). -/
private theorem vsl_emb (j : Fin 4) (y : S256x512.Idx) :
    ((vsl j).view.emb y 0).val = j.val ∧ ((vsl j).view.emb y 1).val = (y 0).val ∧ ((vsl j).view.emb y 2).val = (y 1).val := by
  have hz : Shape.reshapeEquiv squeezes_S1x256x512_S256x512.numel_eq y = ix3 (⟨0, Nat.one_pos⟩ : Fin 1) (y 0) (y 1) :=
    (congrArg _ (eq_ix2 y)).trans (reshapeEquiv_ix2_1ab _ (y 0) (y 1))
  have e : (vsl j).view.emb y
      = (Rect.unit (s := S4x256x512) ![j.val, 0, 0] S1x256x512.size (vsl_inb j)).emb
          (Shape.reshapeEquiv squeezes_S1x256x512_S256x512.numel_eq y) := rfl
  rw [e, hz]
  refine ⟨?_, ?_, ?_⟩
  · show j.val + 1 * 0 = j.val; omega
  · show 0 + 1 * (y 0).val = (y 0).val; omega
  · show 0 + 1 * (y 1).val = (y 1).val; omega

/-- An element of the exchange buffer in row `c`, at the column of `y`, is device `c`'s partial sum at `y`. -/
private theorem commF_at (c : Dev nD) (i : Idx ((c : Thread nD τ).loc cc0_scratch1)) (y : S1x512.Idx)
    (h0 : (i 0).val = c.val) (h1 : (i 1).val = (y 1).val) : commF m c i = acc m c y := by
  unfold commF
  have e0 : i 0 = c := Fin.ext h0
  rw [e0]
  congr 1
  funext a
  match a with
  | ⟨0, _⟩ => exact Fin.ext (by have h : (y 0).val < 1 := (y 0).isLt; show 0 = (y 0).val; omega)
  | ⟨1, _⟩ => exact Fin.ext h1

private theorem S1x512_size_pos (a : Fin 2) : 0 < S1x512.size a := by
  match a with
  | ⟨0, _⟩ => show 0 < 1; omega
  | ⟨1, _⟩ => show 0 < 512; omega

private theorem S1x256x512_size_pos (a : Fin 3) : 0 < S1x256x512.size a := by
  match a with
  | ⟨0, _⟩ => show 0 < 1; omega
  | ⟨1, _⟩ => show 0 < 256; omega
  | ⟨2, _⟩ => show 0 < 512; omega

/-- Row `c` as the store spells its offsets lies within row `c` as the copies spell them: the offsets are equal. -/
private theorem row_within (c : Dev nD) :
    LoadRect.within (Rect.unit (s := S16x512) (k0_off2 c) S1x512.size (k0_off2_inb c))
      (Rect.unit (s := S16x512) (k0_off1 c) S1x512.size (k0_off1_inb c)).toLoadRect = true :=
  LoadRect.within_of_withinP fun a => by
    have hp := S1x512_size_pos a
    have e : k0_off1 c a = k0_off2 c a := congrFun (off1_eq c) a
    refine ⟨?_, ?_, Or.inl rfl⟩
    · show k0_off2 c a ≤ k0_off1 c a; omega
    · show k0_off1 c a + 1 * (S1x512.size a - 1) < k0_off2 c a + 1 * S1x512.size a; omega

/-- Slab `j` landed in slot `j`: on the slot's elements the copy buffer holds the block. -/
theorem slot_landed (c : Dev nD) (j : Fin 4) (fd : Buf (Elt F) ((c : Thread nD τ).loc cc0_scratch0)) :
    ∀ i ∈ (vsl j).view.set, (vsl j).view.write (Elt F) fd ((xsl j).view.read (Elt F) (X m c)) Finset.univ i = XV m c i := by
  intro i hi
  obtain ⟨y, rfl⟩ := View.exists_emb_of_mem_set _ hi
  rw [View.write_emb_of_mem _ _ (Finset.mem_univ y), View.read_apply, cast_cast, cast_eq]
  -- element `y` of the slab is row `256 j + y 0`, column `y 1` of the block; of the slot, `(j, y 0, y 1)` of the buffer
  obtain ⟨h0, h1, h2⟩ := vsl_emb j y
  unfold XV
  congr 1
  funext a
  apply Fin.ext
  match a with
  | ⟨0, _⟩ =>
    show 256 * j.val + 1 * (y 0).val = 256 * ((vsl j).view.emb y 0).val + ((vsl j).view.emb y 1).val
    rw [h0, h1]; omega
  | ⟨1, _⟩ =>
    show 0 + 1 * (y 1).val = ((vsl j).view.emb y 2).val
    rw [h2]; omega
/-- Device `c`'s row landed in row `c` of device `p`'s buffer: on the row's elements that buffer holds what every
    exchange buffer holds in the end. -/
theorem row_landed (c p : Dev nD) (fd : Buf (Elt F) ((p : Thread nD τ).loc cc0_scratch1)) :
    ∀ i ∈ (rowM c).view.set, (rowM c).view.write (Elt F) fd ((rowM c).view.read (Elt F) (commF m c)) Finset.univ i = commF m p i := by
  intro i hi
  obtain ⟨y, rfl⟩ := View.exists_emb_of_mem_set _ hi
  rw [View.write_emb_of_mem _ _ (Finset.mem_univ y), View.read_apply, cast_cast, cast_eq]
  -- the two exchange buffers' contents are the same function of the index
  rfl
/-- The partial sums stored into row `c`. -/
theorem row_stored (c : Dev nD) (f : Buf (Elt F) ((c : Thread nD τ).loc cc0_scratch1)) :
    ∀ i ∈ (rowM c).view.set,
      ((cM : Memref sig .tc .vmem S16x512 .f32).access (Rect.unit (s := S16x512) (k0_off1 c) S1x512.size (k0_off1_inb c)) : View sig .tc _ _ _).write (Elt F) f (acc m c) Finset.univ i
        = commF m c i := by
  intro i hi
  obtain ⟨y, rfl⟩ := View.exists_emb_of_mem_set _ hi
  -- the store's rectangle and the row's have equal offsets, so they place `y` at the same element
  have e : (rowM c).view.emb y = ((cM : Memref sig .tc .vmem S16x512 .f32).access (Rect.unit (s := S16x512) (k0_off1 c) S1x512.size (k0_off1_inb c)) : View sig .tc _ _ _).emb y := by
    funext a
    apply Fin.ext
    show k0_off2 c a + 1 * (y a).val = k0_off1 c a + 1 * (y a).val
    rw [off1_eq]
  rw [e, View.write_emb_of_mem _ _ (Finset.mem_univ y)]
  have hy0 : (y 0).val < 1 := (y 0).isLt
  refine Eq.symm (commF_at m c _ y ?_ ?_)
  · show k0_off1 c 0 + 1 * (y 0).val = c.val
    rw [k0_off1_eq]; show c.val + 1 * (y 0).val = c.val; omega
  · show k0_off1 c 1 + 1 * (y 1).val = (y 1).val
    rw [k0_off1_eq]; show 0 + 1 * (y 1).val = (y 1).val; omega
omit [FloatOps F] in
/-- The store into row `c` and the load before it touch row `c` only. -/
theorem store_row_sub (c : Dev nD) :
    ((cM : Memref sig .tc .vmem S16x512 .f32).access (Rect.unit (s := S16x512) (k0_off1 c) S1x512.size (k0_off1_inb c)) : View sig .tc _ _ _).setOn Finset.univ
      ⊆ (rowM c).view.set :=
  Memref.setOn_access_subset_slice_of_within cM _ (fun _ => rfl) _ Finset.univ (row_within c)
omit [FloatOps F] in
theorem load_row_sub (c : Dev nD) :
    (cM : Memref sig .tc .vmem S16x512 .f32).view.setOn (Rect.unit (s := S16x512) (k0_off1 c) S1x512.size (k0_off1_inb c)).toLoadRect.set ⊆ (rowM c).view.set :=
  Memref.setOn_subset_slice_of_within cM _ (fun _ => rfl) _ (row_within c)
omit [FloatOps F] in
/-- The load of slot `j` touches slot `j` only. -/
theorem load_slot_sub (j : Fin 4) :
    (vM : Memref sig .tc .vmem S4x256x512 .f32).view.setOn (Rect.unit (s := S4x256x512) ![j.val, 0, 0] S1x256x512.size (vsl_inb j)).toLoadRect.set ⊆ (vsl j).view.set := by
  -- squeezing keeps the element set; the load's rectangle is the slot's own
  rw [Memref.set_view_squeeze]
  refine Memref.setOn_subset_slice_of_within vM _ (fun _ => rfl) _ (LoadRect.within_of_withinP fun a => ?_)
  have hp := S1x256x512_size_pos a
  refine ⟨le_refl _, ?_, Or.inl rfl⟩
  show (![j.val, 0, 0] : Fin 3 → ℕ) a + 1 * (S1x256x512.size a - 1) < (![j.val, 0, 0] : Fin 3 → ℕ) a + 1 * S1x256x512.size a
  omega

end Cert.Kernel.AR

end
-- ==== Proof.Bits.Steps.lean ====
/-
  The kernel's operations one at a time: what a device hands in at a signal, a copy, a wait, and what it has afterwards.
-/
import proofs.«901068_g7700000000001069_dist_sum_ax0_shard0_i_m1024_n512_v7x_i16_bf16_1_alg».proof.Proof.Bits.Proto
import proofs.«901068_g7700000000001069_dist_sum_ax0_shard0_i_m1024_n512_v7x_i16_bf16_1_alg».proof.Proof.Bits.Tables
import proofs.«901068_g7700000000001069_dist_sum_ax0_shard0_i_m1024_n512_v7x_i16_bf16_1_alg».proof.Proof.Bits.Owed
import proofs.«901068_g7700000000001069_dist_sum_ax0_shard0_i_m1024_n512_v7x_i16_bf16_1_alg».proof.Proof.Bits.Landed

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 35 → ℕ)

/-! ## The records, cell by cell -/

abbrev kBar : Fin 35 := 0
abbrev kCp (j : Fin 4) : Fin 35 := ⟨1 + j.val, by omega⟩
abbrev kSend (o : Fin 15) : Fin 35 := ⟨5 + o.val, by omega⟩
abbrev kRecv (o : Fin 15) : Fin 35 := ⟨20 + o.val, by omega⟩

theorem kcell_bar (c : Dev nD) : kcell (c, kBar) = barCell c := rfl
theorem kcell_cp (c : Dev nD) (j : Fin 4) : kcell (c, kCp j) = cpCell c j := by
  show ((c : Thread nD τ), csem (kCp j)) = _; unfold csem; rw [dif_neg (by show ¬ (1 + j.val = 0); omega)]
theorem kcell_send (c : Dev nD) (o : Fin 15) : kcell (c, kSend o) = sendCell c o := by
  show ((c : Thread nD τ), csem (kSend o)) = _; unfold csem; rw [dif_neg (by show ¬ (5 + o.val = 0); omega)]
theorem kcell_recv (c : Dev nD) (o : Fin 15) : kcell (c, kRecv o) = recvCell c o := by
  show ((c : Thread nD τ), csem (kRecv o)) = _; unfold csem; rw [dif_neg (by show ¬ (20 + o.val = 0); omega)]

theorem inv_at (ck : Dev nD × Fin 35) : records m K ⊢ cellInv ER (sched m) (K ck) (kcell ck) := by
  unfold records; iintro ⟨H, -⟩
  iapply (show (bigSep Finset.univ fun ck : Dev nD × Fin 35 => (cellInv ER (sched m) (K ck) (kcell ck) : sProp 𝕄)) ⊢ cellInv ER (sched m) (K ck) (kcell ck)
    from bigSep_elim (Finset.mem_univ ck))
  iexact H
theorem reached_at (ck : Dev nD × Fin 35) : records m K ⊢ reached ER (kcell ck) 0 := by
  unfold records; iintro ⟨-, H⟩
  iapply (show (bigSep Finset.univ fun ck : Dev nD × Fin 35 => (reached ER (kcell ck) 0 : sProp 𝕄)) ⊢ reached ER (kcell ck) 0
    from bigSep_elim (Finset.mem_univ ck))
  iexact H
instance records_persistent : BI.Persistent (records m K) := by unfold records; infer_instance

theorem inv_bar (c : Dev nD) : records m K ⊢ cellInv ER (sched m) (K (c, kBar)) (barCell c) := inv_at m K (c, kBar)
theorem inv_cp (c : Dev nD) (j : Fin 4) : records m K ⊢ cellInv ER (sched m) (K (c, kCp j)) (cpCell c j) := by
  have := inv_at m K (c, kCp j); rwa [kcell_cp] at this
theorem inv_send (c : Dev nD) (o : Fin 15) : records m K ⊢ cellInv ER (sched m) (K (c, kSend o)) (sendCell c o) := by
  have := inv_at m K (c, kSend o); rwa [kcell_send] at this
theorem inv_recv (c : Dev nD) (o : Fin 15) : records m K ⊢ cellInv ER (sched m) (K (c, kRecv o)) (recvCell c o) := by
  have := inv_at m K (c, kRecv o); rwa [kcell_recv] at this
theorem reached_bar (c : Dev nD) : records m K ⊢ reached ER (barCell c) 0 := reached_at m K (c, kBar)
theorem reached_cp (c : Dev nD) (j : Fin 4) : records m K ⊢ reached ER (cpCell c j) 0 := by
  have := reached_at m K (c, kCp j); rwa [kcell_cp] at this
theorem reached_send (c : Dev nD) (o : Fin 15) : records m K ⊢ reached ER (sendCell c o) 0 := by
  have := reached_at m K (c, kSend o); rwa [kcell_send] at this
theorem reached_recv (c : Dev nD) (o : Fin 15) : records m K ⊢ reached ER (recvCell c o) 0 := by
  have := reached_at m K (c, kRecv o); rwa [kcell_recv] at this

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

section Steps
variable (c : Dev nD)

/-! ## A signal -/

/-- The `o`-th signal, to the device `o + 1` places on: it pays that device's barrier duty `rev o`, handing over the row
    of this device's exchange buffer that device will copy into. -/
theorem wp_sig {α : Type} {Q : α → sProp 𝕄} {k : PUnit → Prog (TpuEff nD τ sig (Elt F) Λ₀ .tc) α} (o : Fin 15) (n : Dev nD) (hn : n = peer c o) {W : Waits sig Unit} {k' : ℕ} (hk' : k' = 1) :
    iprop(records m K ∗ owes (c : Thread nD τ) (owedLeft c (30 - o.val)) W ∗ dutyTok ER (barCell (peer c o)) 0 (rev o)
        ∗ (∃ f, rowPts c (peer c o) fullShare f))
      ⊢ iprop((owes (c : Thread nD τ) (owedLeft c (29 - o.val)) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n, Proc.tc) : Thread nD τ) barS k') k) Q) := by
  subst hn hk'
  iintro ⟨#HR, HO, Htok, Hrow⟩
  iapply (Rounds.wp_signal 𝒱₀ ER (sched m) (c : Thread nD τ) none (dst := (peer c o : Thread nD τ)) (κ := K (peer c o, kBar))
      (d := rev o) (by rw [duties_bar]; exact Finset.mem_univ _) (amount_bar m (peer c o) (rev o)) () (owedLeft c (29 - o.val)) (owed_sig c o))
    $$ [HO Htok Hrow]
  isplitr; · iapply (inv_bar m K (peer c o)); iexact HR
  isplitl [HO]; · iexact HO
  isplitl [Htok]; · iexact Htok
  isplitl [Hrow]
  · rw [payload_bar]; unfold barPay; rw [peer_peer_rev]; iexact Hrow
  · iapply (reached_bar m K (peer c o)); iexact HR

/-! ## A local copy and its wait -/

/-- Slab `j` of the block starts for slot `j`: the copy's landing is the one duty of its cell. -/
theorem wp_cpstart {α : Type} {Q : α → sProp 𝕄} {k : PUnit → Prog (TpuEff nD τ sig (Elt F) Λ₀ .tc) α} (j : Fin 4) (fd : Buf (Elt F) ((c : Thread nD τ).loc cc0_scratch0))
    {hsrc : (xsl j : Memref sig .tc .hbm S256x512 .f32).view.WordExact} {hdst : (vsl j : Memref sig .tc .vmem S256x512 .f32).view.WordExact}
    {hsem : DmaTarget.Typed (nD := nD) .hbm (.dma (cpS j)) (DmaTarget.here (vsl j) : DmaTarget nD τ sig Proc.tc .vmem S256x512 .f32)} :
    iprop(records m K ∗ slabPts m c j ∗ slotPts c j fd ∗ dutyTok ER (cpCell c j) 0 (0 : DD))
      ⊢ iprop((cred (tallyAt (cpCell c j) () Ncp) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (xsl j) (.here (vsl j)) (.dma (cpS j)) hsrc hdst hsem) k) Q) := by
  iintro ⟨#HR, Hx, Hv, Htok⟩
  unfold slabPts slotPts
  iapply (Rounds.wp_copy_pointsTo 𝒱₀ ER (sched m) (c : Thread nD τ) none (src := xsl j) (dst := vsl j) (sem := .dma (cpS j)) (q := fullShare) (fs := X m c) (κ := K (c, kCp j)) (r := 0) (d := (0 : DD)) (fd := fd)
      (by rw [duties_cp]; exact Finset.mem_singleton_self _) () Ncp rfl (amount_cp m c j 0)
      (by rw [payload_cp]; unfold cpPay slotPts slabPts; rw [pointsTo_congr (slot_landed m c j fd)]))
    $$ [Hx Hv Htok]
  isplitr; · iapply (inv_cp m K c j); iexact HR
  isplitl [Hx]; · iexact Hx
  isplitl [Hv]; · iexact Hv
  isplitl [Htok]; · iexact Htok
  iapply (reached_cp m K c j); iexact HR

/-- The wait for slab `j`: the slot comes back holding the slab, the slab with it, and the cell is closed. -/
theorem wp_cpwait {α : Type} {Q : α → sProp 𝕄} {k : PUnit → Prog (TpuEff nD τ sig (Elt F) Λ₀ .tc) α} (j : Fin 4) (n : ℕ) (hn : n ≤ 15) {W : Waits sig Unit}
    {hsrc : (xsl j : Memref sig .tc .hbm S256x512 .f32).view.WordExact} {hdst : (vsl j : Memref sig .tc .vmem S256x512 .f32).view.WordExact} :
    iprop(records m K ∗ levAts L lv ∗ cred (tallyAt (cpCell c j) () Ncp) ∗ owes (c : Thread nD τ) (owedLeft c n) W ∗ atPos ER (cpCell c j) 0 ∅ 0)
      ⊢ iprop(((owes (c : Thread nD τ) (owedLeft c n) (insert (SemLoc.dma (cpS j), ()) W) ∗ semVal (cpCell c j) 0 ∗ slotPts c j (XV m c) ∗ slabPts m c j)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (cpS j) (xsl j) (vsl j) hsrc hdst) k) Q) := by
  iintro ⟨#HR, #Hlev, Hc, HO, Hat⟩ Hk
  iapply (Rounds.wp_wait_rest_token 𝒱₀ ER (sched m) (c : Thread nD τ) none (κ := K (c, kCp j))
      (wpE_waitDma2_eq 𝒱₀ (c : Thread nD τ) none Set.univ) (Set.mem_univ _) () (O := owedLeft c n) (W := W) (R := 0) (m := 0) (T := ∅)
      (by rw [Nat.zero_add, expect_cp])) $$ [Hc HO Hat]
  · isplitr; · iapply (inv_cp m K c j); iexact HR
    isplitl [Hc]; · iexact Hc
    isplitl [HO]; · iexact HO
    isplitr; · iapply (mayWait_low (F := F) c (.dma (cpS j)) (by rw [lv_cp]; decide) n hn); iexact Hlev
    iexact Hat
  iintro ⟨HO, Hat, -, Hpay⟩
  ihave Hp := (Entails.of_eq (rest_cp m c j)) $$ Hpay
  unfold cpPay
  icases Hp with ⟨Hv, Hx⟩
  imod (Rounds.cell_close ER (sched m) (Set.mem_univ (K (c, kCp j))) (fun h => h) (R := 0 + 1) (duties_later m (cpCell c j))) $$ [Hat] with Hz
  · isplitr; · iapply (inv_cp m K c j); iexact HR
    iexact Hat
  iapply Hk
  isplitl [HO]; · iexact HO
  isplitl [Hz]; · iexact Hz
  isplitl [Hv]; · iexact Hv
  iexact Hx

/-! ## The wait on the barrier -/

/-- Once the fifteen others have signalled, a device holds row `c` of each of their exchange buffers. -/
theorem wp_barwait {α : Type} {Q : α → sProp 𝕄} {k : PUnit → Prog (TpuEff nD τ sig (Elt F) Λ₀ .tc) α} {W : Waits sig Unit} {k' : ℕ} (hk' : k' = 15) :
    iprop(records m K ∗ levAts L lv ∗ cred (tallyAt (barCell c) () 15) ∗ owes (c : Thread nD τ) (owedLeft c 15) W ∗ atPos ER (barCell c) 0 ∅ 0)
      ⊢ iprop(((owes (c : Thread nD τ) (owedLeft c 15) (insert (SemLoc.reg barS, ()) W) ∗ bigSep Finset.univ (fun o : Fin 15 => barPay (F := F) c o))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  iintro ⟨#HR, #Hlev, Hc, HO, Hat⟩ Hk
  iapply (Rounds.wp_wait_rest_token 𝒱₀ ER (sched m) (c : Thread nD τ) none (κ := K (c, kBar))
      (wpE_semWait_eq 𝒱₀ (c : Thread nD τ) none Set.univ) (Set.mem_univ _) () (O := owedLeft c 15) (W := W) (R := 0) (m := 0) (T := ∅)
      (by rw [Nat.zero_add, expect_bar])) $$ [Hc HO Hat]
  · isplitr; · iapply (inv_bar m K c); iexact HR
    isplitl [Hc]; · iexact Hc
    isplitl [HO]; · iexact HO
    isplitr; · iapply (mayWait_low (F := F) c (.reg barS) (by rw [lv_bar]; decide) 15 (Nat.le_refl _)); iexact Hlev
    iexact Hat
  iintro ⟨HO, Hat, -, Hpay⟩
  ihave Hp := (Entails.of_eq (rest_bar m c)) $$ Hpay
  iapply Hk
  isplitl [HO]; · iexact HO
  iexact Hp

/-! ## A copy to another device, and its two waits -/

/-- The `o`-th copy: row `c` of this device's buffer, at the share lent to it, into row `c` of the buffer of the device
    `o + 1` places on. Its reading-out is the duty of this device's `o`-th send cell, its landing the duty of that device's
    `o`-th receive cell. -/
theorem wp_send_o {α : Type} {Q : α → sProp 𝕄} {k : PUnit → Prog (TpuEff nD τ sig (Elt F) Λ₀ .tc) α} (o : Fin 15) (n : Dev nD) (hn : n = peer c o) (fn : Buf (Elt F) ((peer c o : Thread nD τ).loc cc0_scratch1)) {W : Waits sig Unit}
    {hsc : (rowM c : Memref sig (Dev.tc n : Thread nD τ).2.kind .vmem S1x512 .f32).view.ref.isScScratch = false}
    {hsrc : (rowM c : Memref sig .tc .vmem S1x512 .f32).view.WordExact} {hdst : (rowM c : Memref sig .tc .vmem S1x512 .f32).view.WordExact}
    {hsem : DmaTarget.Typed .vmem (.dma (recvS o)) (.remote (Dev.tc n : Thread nD τ) (rowM c : Memref sig .tc .vmem S1x512 .f32) (.dma (sendS o)) hsc)} :
    iprop(records m K ∗ rowPts c c (shr o) (commF m c) ∗ rowPts (peer c o) c fullShare fn ∗ owes (c : Thread nD τ) (owedLeft c (15 - o.val)) W
        ∗ dutyTok ER (sendCell c o) 0 (0 : DD) ∗ dutyTok ER (recvCell (peer c o) o) 0 (0 : DD))
      ⊢ iprop(((cred (tallyAt (sendCell c o) () Nrow) ∗ owes (c : Thread nD τ) (owedLeft c (14 - o.val)) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (rowM c) (.remote (Dev.tc n : Thread nD τ) (rowM c) (.dma (sendS o)) hsc) (.dma (recvS o)) hsrc hdst hsem) k) Q) := by
  subst hn
  iintro ⟨#HR, Hsrc, Hdst, HO, HtS, HtR⟩
  unfold rowPts
  iapply (Rounds.wp_send_pointsTo 𝒱₀ ER (sched m) (c : Thread nD τ) none (c' := (peer c o : Thread nD τ)) (src := rowM c) (dst := rowM c) (sS := .dma (sendS o)) (sem := .dma (recvS o)) (q := shr o) (fs := commF m c) (κ₁ := K (c, kSend o)) (κ₂ := K (peer c o, kRecv o))
      (r₁ := 0) (r₂ := 0) (d₁ := (0 : DD)) (d₂ := (0 : DD)) (fd := fn)
      (by rw [duties_send]; exact Finset.mem_singleton_self _) (by rw [duties_recv]; exact Finset.mem_singleton_self _)
      () () Nrow rfl (amount_send m c o 0) (amount_recv m (peer c o) o 0) (owedLeft c (14 - o.val)) (owed_send c o) (W := W)
      (by rw [payload_send]; unfold sendPay rowPts; exact BI.Entails.refl _)
      (by rw [payload_recv]; unfold recvPay rowPts; rw [from_peer, pointsTo_congr (row_landed m c (peer c o) fn)]))
    $$ [Hsrc Hdst HO HtS HtR]
  isplitr; · iapply (inv_send m K c o); iexact HR
  isplitr; · iapply (inv_recv m K (peer c o) o); iexact HR
  isplitl [Hsrc]; · iexact Hsrc
  isplitl [Hdst]; · iexact Hdst
  isplitl [HO]; · iexact HO
  isplitl [HtS]; · iexact HtS
  isplitr; · iapply (reached_send m K c o); iexact HR
  isplitl [HtR]; · iexact HtR
  iapply (reached_recv m K (peer c o) o); iexact HR

/-- The wait for the row of the device `o + 1` places back: it comes holding that device's partial sums; the cell is closed. -/
theorem wp_recvwait {α : Type} {Q : α → sProp 𝕄} {k : PUnit → Prog (TpuEff nD τ sig (Elt F) Λ₀ .tc) α} (o : Fin 15) {W : Waits sig Unit}
    {off off' : Fin 2 → Nat} {inb : ∀ a, off a + S1x512.size a ≤ S16x512.size a} {inb' : ∀ a, off' a + S1x512.size a ≤ S16x512.size a}
    {hsrc : ((cM : Memref sig .tc .vmem S16x512 .f32).slice (Rect.unit (s := S16x512) off' S1x512.size inb') (fun _ => rfl)).view.WordExact}
    {hdst : ((cM : Memref sig .tc .vmem S16x512 .f32).slice (Rect.unit (s := S16x512) off S1x512.size inb) (fun _ => rfl)).view.WordExact} :
    iprop(records m K ∗ cred (tallyAt (recvCell c o) () Nrow) ∗ owes (c : Thread nD τ) 0 W ∗ atPos ER (recvCell c o) 0 ∅ 0)
      ⊢ iprop(((owes (c : Thread nD τ) 0 (insert (SemLoc.dma (recvS o), ()) W) ∗ semVal (recvCell c o) 0 ∗ rowPts c (from_ c o) fullShare (commF m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS o) ((cM : Memref sig .tc .vmem S16x512 .f32).slice (Rect.unit (s := S16x512) off' S1x512.size inb') (fun _ => rfl)) ((cM : Memref sig .tc .vmem S16x512 .f32).slice (Rect.unit (s := S16x512) off S1x512.size inb) (fun _ => rfl)) hsrc hdst) k) Q) := by
  iintro ⟨#HR, Hc, HO, Hat⟩ Hk
  iapply (Rounds.wp_wait_rest_token 𝒱₀ ER (sched m) (c : Thread nD τ) none (κ := K (c, kRecv o))
      (wpE_waitDma2_eq 𝒱₀ (c : Thread nD τ) none Set.univ) (Set.mem_univ _) () (O := 0) (W := W) (R := 0) (m := 0) (T := ∅)
      (by rw [Nat.zero_add, expect_recv]; rfl)) $$ [Hc HO Hat]
  · isplitr; · iapply (inv_recv m K c o); iexact HR
    isplitl [Hc]; · iexact Hc
    isplitl [HO]; · iexact HO
    isplitr; · rw [MayWait_zero]; iempintro
    iexact Hat
  iintro ⟨HO, Hat, -, Hpay⟩
  ihave Hp := (Entails.of_eq (rest_recv m c o)) $$ Hpay
  imod (Rounds.cell_close ER (sched m) (Set.mem_univ (K (c, kRecv o))) (fun h => h) (R := 0 + 1) (duties_later m (recvCell c o))) $$ [Hat] with Hz
  · isplitr; · iapply (inv_recv m K c o); iexact HR
    iexact Hat
  iapply Hk
  isplitl [HO]; · iexact HO
  isplitl [Hz]; · iexact Hz
  unfold recvPay; iexact Hp

/-- The wait for the `o`-th copy to have left: the share of the own row lent to it comes back; the cell is closed. -/
theorem wp_sendwait {α : Type} {Q : α → sProp 𝕄} {k : PUnit → Prog (TpuEff nD τ sig (Elt F) Λ₀ .tc) α} (o : Fin 15) {W : Waits sig Unit}
    {off off' : Fin 2 → Nat} {inb : ∀ a, off a + S1x512.size a ≤ S16x512.size a} {inb' : ∀ a, off' a + S1x512.size a ≤ S16x512.size a}
    {hsrc : ((cM : Memref sig .tc .vmem S16x512 .f32).slice (Rect.unit (s := S16x512) off' S1x512.size inb') (fun _ => rfl)).view.WordExact}
    {hdst : ((cM : Memref sig .tc .vmem S16x512 .f32).slice (Rect.unit (s := S16x512) off S1x512.size inb) (fun _ => rfl)).view.WordExact} :
    iprop(records m K ∗ cred (tallyAt (sendCell c o) () Nrow) ∗ owes (c : Thread nD τ) 0 W ∗ atPos ER (sendCell c o) 0 ∅ 0)
      ⊢ iprop(((owes (c : Thread nD τ) 0 (insert (SemLoc.dma (sendS o), ()) W) ∗ semVal (sendCell c o) 0 ∗ rowPts c c (shr o) (commF m c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS o) ((cM : Memref sig .tc .vmem S16x512 .f32).slice (Rect.unit (s := S16x512) off' S1x512.size inb') (fun _ => rfl)) ((cM : Memref sig .tc .vmem S16x512 .f32).slice (Rect.unit (s := S16x512) off S1x512.size inb) (fun _ => rfl)) hsrc hdst) k) Q) := by
  iintro ⟨#HR, Hc, HO, Hat⟩ Hk
  iapply (Rounds.wp_wait_rest_token 𝒱₀ ER (sched m) (c : Thread nD τ) none (κ := K (c, kSend o))
      (wpE_waitDma2_eq 𝒱₀ (c : Thread nD τ) none Set.univ) (Set.mem_univ _) () (O := 0) (W := W) (R := 0) (m := 0) (T := ∅)
      (by rw [Nat.zero_add, expect_send]; rfl)) $$ [Hc HO Hat]
  · isplitr; · iapply (inv_send m K c o); iexact HR
    isplitl [Hc]; · iexact Hc
    isplitl [HO]; · iexact HO
    isplitr; · rw [MayWait_zero]; iempintro
    iexact Hat
  iintro ⟨HO, Hat, -, Hpay⟩
  ihave Hp := (Entails.of_eq (rest_send m c o)) $$ Hpay
  imod (Rounds.cell_close ER (sched m) (Set.mem_univ (K (c, kSend o))) (fun h => h) (R := 0 + 1) (duties_later m (sendCell c o))) $$ [Hat] with Hz
  · isplitr; · iapply (inv_send m K c o); iexact HR
    iexact Hat
  iapply Hk
  isplitl [HO]; · iexact HO
  isplitl [Hz]; · iexact Hz
  unfold sendPay; iexact Hp

end Steps

end Cert.Kernel.AR

end
-- ==== Proof.Bits.PhaseSigs.lean ====
/-
  The fifteen signals of a device's entry, as one step.
-/
import proofs.«901068_g7700000000001069_dist_sum_ax0_shard0_i_m1024_n512_v7x_i16_bf16_1_alg».proof.Proof.Bits.Proto
import proofs.«901068_g7700000000001069_dist_sum_ax0_shard0_i_m1024_n512_v7x_i16_bf16_1_alg».proof.Proof.Bits.Tables
import proofs.«901068_g7700000000001069_dist_sum_ax0_shard0_i_m1024_n512_v7x_i16_bf16_1_alg».proof.Proof.Bits.Owed
import proofs.«901068_g7700000000001069_dist_sum_ax0_shard0_i_m1024_n512_v7x_i16_bf16_1_alg».proof.Proof.Bits.Geom
import proofs.«901068_g7700000000001069_dist_sum_ax0_shard0_i_m1024_n512_v7x_i16_bf16_1_alg».proof.Proof.Bits.Landed
import proofs.«901068_g7700000000001069_dist_sum_ax0_shard0_i_m1024_n512_v7x_i16_bf16_1_alg».proof.Proof.Bits.Steps

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 35 → ℕ) (c : Dev nD)

/-- One signal, with what is owed before and after it written out as numbers. -/
private theorem sig_at {α : Type} {Q : α → sProp 𝕄} {k : PUnit → Prog (TpuEff nD τ sig (Elt F) Λ₀ .tc) α} (o : Fin 15) (a b : ℕ)
    (ha : a = 30 - o.val) (hb : b = 29 - o.val) (n : Dev nD) (hn : n = peer c o) {W : Waits sig Unit} {k' : ℕ} (hk' : k' = 1)
    (fc : Buf (Elt F) ((c : Thread nD τ).loc cc0_scratch1)) :
    iprop(records m K ∗ owes (c : Thread nD τ) (owedLeft c a) W ∗ dutyTok ER (barCell (peer c o)) 0 (rev o) ∗ rowPts c (peer c o) fullShare fc)
      ⊢ iprop((owes (c : Thread nD τ) (owedLeft c b) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((n, Proc.tc) : Thread nD τ) barS k') k) Q) := by
  subst ha hb
  iintro ⟨#HR, HO, Htok, Hrow⟩
  iapply (wp_sig m K c o n hn hk') $$ [HO Htok Hrow]
  isplitr; · iexact HR
  isplitl [HO]; · iexact HO
  isplitl [Htok]; · iexact Htok
  iexists fc; iexact Hrow

/-- The fifteen signals: each hands the signalled device the row of this device's exchange buffer it will copy into. -/
theorem phase_sigs {α : Type} {Q : α → sProp 𝕄} {k : PUnit → Prog (TpuEff nD τ sig (Elt F) Λ₀ .tc) α} {W : Waits sig Unit}
    (fc : Buf (Elt F) ((c : Thread nD τ).loc cc0_scratch1)) :
    iprop(records m K ∗ owes (c : Thread nD τ) (owedLeft c 30) W
        ∗ (bigSep Finset.univ fun o : Fin 15 => dutyTok ER (barCell (peer c o)) 0 (rev o))
        ∗ (bigSep Finset.univ fun o : Fin 15 => rowPts c (peer c o) fullShare fc))
      ⊢ iprop((owes (c : Thread nD τ) (owedLeft c 15) W -∗ wp frame (wpE (defs₀ (F := F)) 𝒱₀ (c : Thread nD τ) none) Set.univ (k ⟨⟩) Q)
          -∗ wp frame (wpE (defs₀ (F := F)) 𝒱₀ (c : Thread nD τ) none) Set.univ
          (.op (.semSignal (((⟨k0_dev1 c, k0_dev1_lt c⟩ : Dev nD), Proc.tc) : Thread nD τ) barS (1#32 : BitVec 32).toNat) fun _ =>
          (.op (.semSignal (((⟨k0_dev2 c, k0_dev2_lt c⟩ : Dev nD), Proc.tc) : Thread nD τ) barS (1#32 : BitVec 32).toNat) fun _ =>
          (.op (.semSignal (((⟨k0_dev3 c, k0_dev3_lt c⟩ : Dev nD), Proc.tc) : Thread nD τ) barS (1#32 : BitVec 32).toNat) fun _ =>
          (.op (.semSignal (((⟨k0_dev4 c, k0_dev4_lt c⟩ : Dev nD), Proc.tc) : Thread nD τ) barS (1#32 : BitVec 32).toNat) fun _ =>
          (.op (.semSignal (((⟨k0_dev5 c, k0_dev5_lt c⟩ : Dev nD), Proc.tc) : Thread nD τ) barS (1#32 : BitVec 32).toNat) fun _ =>
          (.op (.semSignal (((⟨k0_dev6 c, k0_dev6_lt c⟩ : Dev nD), Proc.tc) : Thread nD τ) barS (1#32 : BitVec 32).toNat) fun _ =>
          (.op (.semSignal (((⟨k0_dev7 c, k0_dev7_lt c⟩ : Dev nD), Proc.tc) : Thread nD τ) barS (1#32 : BitVec 32).toNat) fun _ =>
          (.op (.semSignal (((⟨k0_dev8 c, k0_dev8_lt c⟩ : Dev nD), Proc.tc) : Thread nD τ) barS (1#32 : BitVec 32).toNat) fun _ =>
          (.op (.semSignal (((⟨k0_dev9 c, k0_dev9_lt c⟩ : Dev nD), Proc.tc) : Thread nD τ) barS (1#32 : BitVec 32).toNat) fun _ =>
          (.op (.semSignal (((⟨k0_dev10 c, k0_dev10_lt c⟩ : Dev nD), Proc.tc) : Thread nD τ) barS (1#32 : BitVec 32).toNat) fun _ =>
          (.op (.semSignal (((⟨k0_dev11 c, k0_dev11_lt c⟩ : Dev nD), Proc.tc) : Thread nD τ) barS (1#32 : BitVec 32).toNat) fun _ =>
          (.op (.semSignal (((⟨k0_dev12 c, k0_dev12_lt c⟩ : Dev nD), Proc.tc) : Thread nD τ) barS (1#32 : BitVec 32).toNat) fun _ =>
          (.op (.semSignal (((⟨k0_dev13 c, k0_dev13_lt c⟩ : Dev nD), Proc.tc) : Thread nD τ) barS (1#32 : BitVec 32).toNat) fun _ =>
          (.op (.semSignal (((⟨k0_dev14 c, k0_dev14_lt c⟩ : Dev nD), Proc.tc) : Thread nD τ) barS (1#32 : BitVec 32).toNat) fun _ =>
          (.op (.semSignal (((⟨k0_dev15 c, k0_dev15_lt c⟩ : Dev nD), Proc.tc) : Thread nD τ) barS (1#32 : BitVec 32).toNat) k))))))))))))))) Q) := by
  rw [bigSep_fin15, bigSep_fin15]
  iintro ⟨#HR, HO, ⟨Ht0, Ht1, Ht2, Ht3, Ht4, Ht5, Ht6, Ht7, Ht8, Ht9, Ht10, Ht11, Ht12, Ht13, Ht14⟩, Hr0, Hr1, Hr2, Hr3, Hr4, Hr5, Hr6, Hr7, Hr8, Hr9, Hr10, Hr11, Hr12, Hr13, Hr14⟩ Hk
  iapply (sig_at m K c 0 30 29 rfl rfl _ (dev1_eq c) rfl fc) $$ [HO Ht0 Hr0]
  · isplitr; · iexact HR
    isplitl [HO]; · iexact HO
    isplitl [Ht0]; · iexact Ht0
    iexact Hr0
  iintro HO
  iapply (sig_at m K c 1 29 28 rfl rfl _ (dev2_eq c) rfl fc) $$ [HO Ht1 Hr1]
  · isplitr; · iexact HR
    isplitl [HO]; · iexact HO
    isplitl [Ht1]; · iexact Ht1
    iexact Hr1
  iintro HO
  iapply (sig_at m K c 2 28 27 rfl rfl _ (dev3_eq c) rfl fc) $$ [HO Ht2 Hr2]
  · isplitr; · iexact HR
    isplitl [HO]; · iexact HO
    isplitl [Ht2]; · iexact Ht2
    iexact Hr2
  iintro HO
  iapply (sig_at m K c 3 27 26 rfl rfl _ (dev4_eq c) rfl fc) $$ [HO Ht3 Hr3]
  · isplitr; · iexact HR
    isplitl [HO]; · iexact HO
    isplitl [Ht3]; · iexact Ht3
    iexact Hr3
  iintro HO
  iapply (sig_at m K c 4 26 25 rfl rfl _ (dev5_eq c) rfl fc) $$ [HO Ht4 Hr4]
  · isplitr; · iexact HR
    isplitl [HO]; · iexact HO
    isplitl [Ht4]; · iexact Ht4
    iexact Hr4
  iintro HO
  iapply (sig_at m K c 5 25 24 rfl rfl _ (dev6_eq c) rfl fc) $$ [HO Ht5 Hr5]
  · isplitr; · iexact HR
    isplitl [HO]; · iexact HO
    isplitl [Ht5]; · iexact Ht5
    iexact Hr5
  iintro HO
  iapply (sig_at m K c 6 24 23 rfl rfl _ (dev7_eq c) rfl fc) $$ [HO Ht6 Hr6]
  · isplitr; · iexact HR
    isplitl [HO]; · iexact HO
    isplitl [Ht6]; · iexact Ht6
    iexact Hr6
  iintro HO
  iapply (sig_at m K c 7 23 22 rfl rfl _ (dev8_eq c) rfl fc) $$ [HO Ht7 Hr7]
  · isplitr; · iexact HR
    isplitl [HO]; · iexact HO
    isplitl [Ht7]; · iexact Ht7
    iexact Hr7
  iintro HO
  iapply (sig_at m K c 8 22 21 rfl rfl _ (dev9_eq c) rfl fc) $$ [HO Ht8 Hr8]
  · isplitr; · iexact HR
    isplitl [HO]; · iexact HO
    isplitl [Ht8]; · iexact Ht8
    iexact Hr8
  iintro HO
  iapply (sig_at m K c 9 21 20 rfl rfl _ (dev10_eq c) rfl fc) $$ [HO Ht9 Hr9]
  · isplitr; · iexact HR
    isplitl [HO]; · iexact HO
    isplitl [Ht9]; · iexact Ht9
    iexact Hr9
  iintro HO
  iapply (sig_at m K c 10 20 19 rfl rfl _ (dev11_eq c) rfl fc) $$ [HO Ht10 Hr10]
  · isplitr; · iexact HR
    isplitl [HO]; · iexact HO
    isplitl [Ht10]; · iexact Ht10
    iexact Hr10
  iintro HO
  iapply (sig_at m K c 11 19 18 rfl rfl _ (dev12_eq c) rfl fc) $$ [HO Ht11 Hr11]
  · isplitr; · iexact HR
    isplitl [HO]; · iexact HO
    isplitl [Ht11]; · iexact Ht11
    iexact Hr11
  iintro HO
  iapply (sig_at m K c 12 18 17 rfl rfl _ (dev13_eq c) rfl fc) $$ [HO Ht12 Hr12]
  · isplitr; · iexact HR
    isplitl [HO]; · iexact HO
    isplitl [Ht12]; · iexact Ht12
    iexact Hr12
  iintro HO
  iapply (sig_at m K c 13 17 16 rfl rfl _ (dev14_eq c) rfl fc) $$ [HO Ht13 Hr13]
  · isplitr; · iexact HR
    isplitl [HO]; · iexact HO
    isplitl [Ht13]; · iexact Ht13
    iexact Hr13
  iintro HO
  iapply (sig_at m K c 14 16 15 rfl rfl _ (dev15_eq c) rfl fc) $$ [HO Ht14 Hr14]
  · isplitr; · iexact HR
    isplitl [HO]; · iexact HO
    isplitl [Ht14]; · iexact Ht14
    iexact Hr14
  iexact Hk

end Cert.Kernel.AR

end
-- ==== Proof.Bits.PhaseSends.lean ====
/-
  The fifteen copies of a device's own row into the other devices' buffers, as one step.
-/
import proofs.«901068_g7700000000001069_dist_sum_ax0_shard0_i_m1024_n512_v7x_i16_bf16_1_alg».proof.Proof.Bits.Proto
import proofs.«901068_g7700000000001069_dist_sum_ax0_shard0_i_m1024_n512_v7x_i16_bf16_1_alg».proof.Proof.Bits.Tables
import proofs.«901068_g7700000000001069_dist_sum_ax0_shard0_i_m1024_n512_v7x_i16_bf16_1_alg».proof.Proof.Bits.Owed
import proofs.«901068_g7700000000001069_dist_sum_ax0_shard0_i_m1024_n512_v7x_i16_bf16_1_alg».proof.Proof.Bits.Geom
import proofs.«901068_g7700000000001069_dist_sum_ax0_shard0_i_m1024_n512_v7x_i16_bf16_1_alg».proof.Proof.Bits.Landed
import proofs.«901068_g7700000000001069_dist_sum_ax0_shard0_i_m1024_n512_v7x_i16_bf16_1_alg».proof.Proof.Bits.Steps

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 35 → ℕ) (c : Dev nD)

/-- The fifteen copies of the own row into the other devices' buffers. -/
theorem phase_sends {α : Type} {Q : α → sProp 𝕄} {k : PUnit → Prog (TpuEff nD τ sig (Elt F) Λ₀ .tc) α} {W : Waits sig Unit} :
    iprop(records m K ∗ owes (c : Thread nD τ) (owedLeft c 15) W
        ∗ (bigSep Finset.univ fun o : Fin 15 => rowPts c c (shr o) (commF m c))
        ∗ (bigSep Finset.univ fun o : Fin 15 => barPay (F := F) c o)
        ∗ (bigSep Finset.univ fun o : Fin 15 => dutyTok ER (sendCell c o) 0 (0 : DD))
        ∗ (bigSep Finset.univ fun o : Fin 15 => dutyTok ER (recvCell (peer c o) o) 0 (0 : DD)))
      ⊢ iprop(((owes (c : Thread nD τ) 0 W ∗ bigSep Finset.univ fun o : Fin 15 => cred (tallyAt (sendCell c o) () Nrow)) -∗ wp frame (wpE (defs₀ (F := F)) 𝒱₀ (c : Thread nD τ) none) Set.univ (k ⟨⟩) Q)
          -∗ wp frame (wpE (defs₀ (F := F)) 𝒱₀ (c : Thread nD τ) none) Set.univ
          (.op (.enqueueDma (rowM c) (.remote (Dev.tc (⟨k0_dev16 c, k0_dev16_lt c⟩ : Dev nD)) (rowM c) (.dma (sendS 0))) (.dma (recvS 0)) (View.wordExact_bits rfl) (View.wordExact_bits rfl) ⟨⟨rfl, Or.inl rfl⟩, trivial⟩) fun _ =>
          (.op (.enqueueDma (rowM c) (.remote (Dev.tc (⟨k0_dev17 c, k0_dev17_lt c⟩ : Dev nD)) (rowM c) (.dma (sendS 1))) (.dma (recvS 1)) (View.wordExact_bits rfl) (View.wordExact_bits rfl) ⟨⟨rfl, Or.inl rfl⟩, trivial⟩) fun _ =>
          (.op (.enqueueDma (rowM c) (.remote (Dev.tc (⟨k0_dev18 c, k0_dev18_lt c⟩ : Dev nD)) (rowM c) (.dma (sendS 2))) (.dma (recvS 2)) (View.wordExact_bits rfl) (View.wordExact_bits rfl) ⟨⟨rfl, Or.inl rfl⟩, trivial⟩) fun _ =>
          (.op (.enqueueDma (rowM c) (.remote (Dev.tc (⟨k0_dev19 c, k0_dev19_lt c⟩ : Dev nD)) (rowM c) (.dma (sendS 3))) (.dma (recvS 3)) (View.wordExact_bits rfl) (View.wordExact_bits rfl) ⟨⟨rfl, Or.inl rfl⟩, trivial⟩) fun _ =>
          (.op (.enqueueDma (rowM c) (.remote (Dev.tc (⟨k0_dev20 c, k0_dev20_lt c⟩ : Dev nD)) (rowM c) (.dma (sendS 4))) (.dma (recvS 4)) (View.wordExact_bits rfl) (View.wordExact_bits rfl) ⟨⟨rfl, Or.inl rfl⟩, trivial⟩) fun _ =>
          (.op (.enqueueDma (rowM c) (.remote (Dev.tc (⟨k0_dev21 c, k0_dev21_lt c⟩ : Dev nD)) (rowM c) (.dma (sendS 5))) (.dma (recvS 5)) (View.wordExact_bits rfl) (View.wordExact_bits rfl) ⟨⟨rfl, Or.inl rfl⟩, trivial⟩) fun _ =>
          (.op (.enqueueDma (rowM c) (.remote (Dev.tc (⟨k0_dev22 c, k0_dev22_lt c⟩ : Dev nD)) (rowM c) (.dma (sendS 6))) (.dma (recvS 6)) (View.wordExact_bits rfl) (View.wordExact_bits rfl) ⟨⟨rfl, Or.inl rfl⟩, trivial⟩) fun _ =>
          (.op (.enqueueDma (rowM c) (.remote (Dev.tc (⟨k0_dev23 c, k0_dev23_lt c⟩ : Dev nD)) (rowM c) (.dma (sendS 7))) (.dma (recvS 7)) (View.wordExact_bits rfl) (View.wordExact_bits rfl) ⟨⟨rfl, Or.inl rfl⟩, trivial⟩) fun _ =>
          (.op (.enqueueDma (rowM c) (.remote (Dev.tc (⟨k0_dev24 c, k0_dev24_lt c⟩ : Dev nD)) (rowM c) (.dma (sendS 8))) (.dma (recvS 8)) (View.wordExact_bits rfl) (View.wordExact_bits rfl) ⟨⟨rfl, Or.inl rfl⟩, trivial⟩) fun _ =>
          (.op (.enqueueDma (rowM c) (.remote (Dev.tc (⟨k0_dev25 c, k0_dev25_lt c⟩ : Dev nD)) (rowM c) (.dma (sendS 9))) (.dma (recvS 9)) (View.wordExact_bits rfl) (View.wordExact_bits rfl) ⟨⟨rfl, Or.inl rfl⟩, trivial⟩) fun _ =>
          (.op (.enqueueDma (rowM c) (.remote (Dev.tc (⟨k0_dev26 c, k0_dev26_lt c⟩ : Dev nD)) (rowM c) (.dma (sendS 10))) (.dma (recvS 10)) (View.wordExact_bits rfl) (View.wordExact_bits rfl) ⟨⟨rfl, Or.inl rfl⟩, trivial⟩) fun _ =>
          (.op (.enqueueDma (rowM c) (.remote (Dev.tc (⟨k0_dev27 c, k0_dev27_lt c⟩ : Dev nD)) (rowM c) (.dma (sendS 11))) (.dma (recvS 11)) (View.wordExact_bits rfl) (View.wordExact_bits rfl) ⟨⟨rfl, Or.inl rfl⟩, trivial⟩) fun _ =>
          (.op (.enqueueDma (rowM c) (.remote (Dev.tc (⟨k0_dev28 c, k0_dev28_lt c⟩ : Dev nD)) (rowM c) (.dma (sendS 12))) (.dma (recvS 12)) (View.wordExact_bits rfl) (View.wordExact_bits rfl) ⟨⟨rfl, Or.inl rfl⟩, trivial⟩) fun _ =>
          (.op (.enqueueDma (rowM c) (.remote (Dev.tc (⟨k0_dev29 c, k0_dev29_lt c⟩ : Dev nD)) (rowM c) (.dma (sendS 13))) (.dma (recvS 13)) (View.wordExact_bits rfl) (View.wordExact_bits rfl) ⟨⟨rfl, Or.inl rfl⟩, trivial⟩) fun _ =>
          (.op (.enqueueDma (rowM c) (.remote (Dev.tc (⟨k0_dev30 c, k0_dev30_lt c⟩ : Dev nD)) (rowM c) (.dma (sendS 14))) (.dma (recvS 14)) (View.wordExact_bits rfl) (View.wordExact_bits rfl) ⟨⟨rfl, Or.inl rfl⟩, trivial⟩) k))))))))))))))) Q) := by
  simp only [bigSep_fin15]
  unfold barPay
  iintro ⟨#HR, HO, ⟨Hs0, Hs1, Hs2, Hs3, Hs4, Hs5, Hs6, Hs7, Hs8, Hs9, Hs10, Hs11, Hs12, Hs13, Hs14⟩, ⟨⟨%fn0, Hd0⟩, ⟨%fn1, Hd1⟩, ⟨%fn2, Hd2⟩, ⟨%fn3, Hd3⟩, ⟨%fn4, Hd4⟩, ⟨%fn5, Hd5⟩, ⟨%fn6, Hd6⟩, ⟨%fn7, Hd7⟩, ⟨%fn8, Hd8⟩, ⟨%fn9, Hd9⟩, ⟨%fn10, Hd10⟩, ⟨%fn11, Hd11⟩, ⟨%fn12, Hd12⟩, ⟨%fn13, Hd13⟩, ⟨%fn14, Hd14⟩⟩, ⟨Ht0, Ht1, Ht2, Ht3, Ht4, Ht5, Ht6, Ht7, Ht8, Ht9, Ht10, Ht11, Ht12, Ht13, Ht14⟩, ⟨Hr0, Hr1, Hr2, Hr3, Hr4, Hr5, Hr6, Hr7, Hr8, Hr9, Hr10, Hr11, Hr12, Hr13, Hr14⟩⟩ Hk
  iapply (wp_send_o m K c 0 ⟨k0_dev16 c, k0_dev16_lt c⟩ (dev16_eq c) fn0 (W := W)) $$ [Hs0 Hd0 HO Ht0 Hr0]
  · isplitr; · iexact HR
    isplitl [Hs0]; · iexact Hs0
    isplitl [Hd0]; · iexact Hd0
    isplitl [HO]; · iexact HO
    isplitl [Ht0]; · iexact Ht0
    iexact Hr0
  iintro ⟨Hc0, HO⟩
  iapply (wp_send_o m K c 1 ⟨k0_dev17 c, k0_dev17_lt c⟩ (dev17_eq c) fn1 (W := W)) $$ [Hs1 Hd1 HO Ht1 Hr1]
  · isplitr; · iexact HR
    isplitl [Hs1]; · iexact Hs1
    isplitl [Hd1]; · iexact Hd1
    isplitl [HO]; · iexact HO
    isplitl [Ht1]; · iexact Ht1
    iexact Hr1
  iintro ⟨Hc1, HO⟩
  iapply (wp_send_o m K c 2 ⟨k0_dev18 c, k0_dev18_lt c⟩ (dev18_eq c) fn2 (W := W)) $$ [Hs2 Hd2 HO Ht2 Hr2]
  · isplitr; · iexact HR
    isplitl [Hs2]; · iexact Hs2
    isplitl [Hd2]; · iexact Hd2
    isplitl [HO]; · iexact HO
    isplitl [Ht2]; · iexact Ht2
    iexact Hr2
  iintro ⟨Hc2, HO⟩
  iapply (wp_send_o m K c 3 ⟨k0_dev19 c, k0_dev19_lt c⟩ (dev19_eq c) fn3 (W := W)) $$ [Hs3 Hd3 HO Ht3 Hr3]
  · isplitr; · iexact HR
    isplitl [Hs3]; · iexact Hs3
    isplitl [Hd3]; · iexact Hd3
    isplitl [HO]; · iexact HO
    isplitl [Ht3]; · iexact Ht3
    iexact Hr3
  iintro ⟨Hc3, HO⟩
  iapply (wp_send_o m K c 4 ⟨k0_dev20 c, k0_dev20_lt c⟩ (dev20_eq c) fn4 (W := W)) $$ [Hs4 Hd4 HO Ht4 Hr4]
  · isplitr; · iexact HR
    isplitl [Hs4]; · iexact Hs4
    isplitl [Hd4]; · iexact Hd4
    isplitl [HO]; · iexact HO
    isplitl [Ht4]; · iexact Ht4
    iexact Hr4
  iintro ⟨Hc4, HO⟩
  iapply (wp_send_o m K c 5 ⟨k0_dev21 c, k0_dev21_lt c⟩ (dev21_eq c) fn5 (W := W)) $$ [Hs5 Hd5 HO Ht5 Hr5]
  · isplitr; · iexact HR
    isplitl [Hs5]; · iexact Hs5
    isplitl [Hd5]; · iexact Hd5
    isplitl [HO]; · iexact HO
    isplitl [Ht5]; · iexact Ht5
    iexact Hr5
  iintro ⟨Hc5, HO⟩
  iapply (wp_send_o m K c 6 ⟨k0_dev22 c, k0_dev22_lt c⟩ (dev22_eq c) fn6 (W := W)) $$ [Hs6 Hd6 HO Ht6 Hr6]
  · isplitr; · iexact HR
    isplitl [Hs6]; · iexact Hs6
    isplitl [Hd6]; · iexact Hd6
    isplitl [HO]; · iexact HO
    isplitl [Ht6]; · iexact Ht6
    iexact Hr6
  iintro ⟨Hc6, HO⟩
  iapply (wp_send_o m K c 7 ⟨k0_dev23 c, k0_dev23_lt c⟩ (dev23_eq c) fn7 (W := W)) $$ [Hs7 Hd7 HO Ht7 Hr7]
  · isplitr; · iexact HR
    isplitl [Hs7]; · iexact Hs7
    isplitl [Hd7]; · iexact Hd7
    isplitl [HO]; · iexact HO
    isplitl [Ht7]; · iexact Ht7
    iexact Hr7
  iintro ⟨Hc7, HO⟩
  iapply (wp_send_o m K c 8 ⟨k0_dev24 c, k0_dev24_lt c⟩ (dev24_eq c) fn8 (W := W)) $$ [Hs8 Hd8 HO Ht8 Hr8]
  · isplitr; · iexact HR
    isplitl [Hs8]; · iexact Hs8
    isplitl [Hd8]; · iexact Hd8
    isplitl [HO]; · iexact HO
    isplitl [Ht8]; · iexact Ht8
    iexact Hr8
  iintro ⟨Hc8, HO⟩
  iapply (wp_send_o m K c 9 ⟨k0_dev25 c, k0_dev25_lt c⟩ (dev25_eq c) fn9 (W := W)) $$ [Hs9 Hd9 HO Ht9 Hr9]
  · isplitr; · iexact HR
    isplitl [Hs9]; · iexact Hs9
    isplitl [Hd9]; · iexact Hd9
    isplitl [HO]; · iexact HO
    isplitl [Ht9]; · iexact Ht9
    iexact Hr9
  iintro ⟨Hc9, HO⟩
  iapply (wp_send_o m K c 10 ⟨k0_dev26 c, k0_dev26_lt c⟩ (dev26_eq c) fn10 (W := W)) $$ [Hs10 Hd10 HO Ht10 Hr10]
  · isplitr; · iexact HR
    isplitl [Hs10]; · iexact Hs10
    isplitl [Hd10]; · iexact Hd10
    isplitl [HO]; · iexact HO
    isplitl [Ht10]; · iexact Ht10
    iexact Hr10
  iintro ⟨Hc10, HO⟩
  iapply (wp_send_o m K c 11 ⟨k0_dev27 c, k0_dev27_lt c⟩ (dev27_eq c) fn11 (W := W)) $$ [Hs11 Hd11 HO Ht11 Hr11]
  · isplitr; · iexact HR
    isplitl [Hs11]; · iexact Hs11
    isplitl [Hd11]; · iexact Hd11
    isplitl [HO]; · iexact HO
    isplitl [Ht11]; · iexact Ht11
    iexact Hr11
  iintro ⟨Hc11, HO⟩
  iapply (wp_send_o m K c 12 ⟨k0_dev28 c, k0_dev28_lt c⟩ (dev28_eq c) fn12 (W := W)) $$ [Hs12 Hd12 HO Ht12 Hr12]
  · isplitr; · iexact HR
    isplitl [Hs12]; · iexact Hs12
    isplitl [Hd12]; · iexact Hd12
    isplitl [HO]; · iexact HO
    isplitl [Ht12]; · iexact Ht12
    iexact Hr12
  iintro ⟨Hc12, HO⟩
  iapply (wp_send_o m K c 13 ⟨k0_dev29 c, k0_dev29_lt c⟩ (dev29_eq c) fn13 (W := W)) $$ [Hs13 Hd13 HO Ht13 Hr13]
  · isplitr; · iexact HR
    isplitl [Hs13]; · iexact Hs13
    isplitl [Hd13]; · iexact Hd13
    isplitl [HO]; · iexact HO
    isplitl [Ht13]; · iexact Ht13
    iexact Hr13
  iintro ⟨Hc13, HO⟩
  iapply (wp_send_o m K c 14 ⟨k0_dev30 c, k0_dev30_lt c⟩ (dev30_eq c) fn14 (W := W)) $$ [Hs14 Hd14 HO Ht14 Hr14]
  · isplitr; · iexact HR
    isplitl [Hs14]; · iexact Hs14
    isplitl [Hd14]; · iexact Hd14
    isplitl [HO]; · iexact HO
    isplitl [Ht14]; · iexact Ht14
    iexact Hr14
  iintro ⟨Hc14, HO⟩
  iapply Hk
  isplitl [HO]; · iexact HO
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hc8]; · iexact Hc8
  isplitl [Hc9]; · iexact Hc9
  isplitl [Hc10]; · iexact Hc10
  isplitl [Hc11]; · iexact Hc11
  isplitl [Hc12]; · iexact Hc12
  isplitl [Hc13]; · iexact Hc13
  iexact Hc14

end Cert.Kernel.AR

end
-- ==== Proof.Bits.PhaseWaits.lean ====
/-
  The fifteen waits for the other devices' rows, and the fifteen waits for the own copies to have left, each run as one step.
-/
import proofs.«901068_g7700000000001069_dist_sum_ax0_shard0_i_m1024_n512_v7x_i16_bf16_1_alg».proof.Proof.Bits.Proto
import proofs.«901068_g7700000000001069_dist_sum_ax0_shard0_i_m1024_n512_v7x_i16_bf16_1_alg».proof.Proof.Bits.Tables
import proofs.«901068_g7700000000001069_dist_sum_ax0_shard0_i_m1024_n512_v7x_i16_bf16_1_alg».proof.Proof.Bits.Owed
import proofs.«901068_g7700000000001069_dist_sum_ax0_shard0_i_m1024_n512_v7x_i16_bf16_1_alg».proof.Proof.Bits.Geom
import proofs.«901068_g7700000000001069_dist_sum_ax0_shard0_i_m1024_n512_v7x_i16_bf16_1_alg».proof.Proof.Bits.Landed
import proofs.«901068_g7700000000001069_dist_sum_ax0_shard0_i_m1024_n512_v7x_i16_bf16_1_alg».proof.Proof.Bits.Steps

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 35 → ℕ) (c : Dev nD)

/-- The fifteen waits for the other devices' rows. -/
theorem phase_recvs {α : Type} {Q : α → sProp 𝕄} {k : PUnit → Prog (TpuEff nD τ sig (Elt F) Λ₀ .tc) α} {W : Waits sig Unit} :
    iprop(records m K ∗ owes (c : Thread nD τ) 0 W
        ∗ (bigSep Finset.univ fun o : Fin 15 => cred (tallyAt (recvCell c o) () Nrow))
        ∗ (bigSep Finset.univ fun o : Fin 15 => atPos ER (recvCell c o) 0 ∅ 0))
      ⊢ iprop((((∃ W', owes (c : Thread nD τ) 0 W') ∗ (bigSep Finset.univ fun o : Fin 15 => semVal (recvCell c o) 0)
              ∗ (bigSep Finset.univ fun o : Fin 15 => rowPts c (from_ c o) fullShare (commF m c))) -∗ wp frame (wpE (defs₀ (F := F)) 𝒱₀ (c : Thread nD τ) none) Set.univ (k ⟨⟩) Q)
          -∗ wp frame (wpE (defs₀ (F := F)) 𝒱₀ (c : Thread nD τ) none) Set.univ
          (.op (.waitDma2 (recvS 0) ((cM : Memref sig .tc .vmem S16x512 .f32).slice (Rect.unit (s := S16x512) (k0_off3 c 1#32) S1x512.size (k0_off3_inb c 0)) (fun _ => rfl)) ((cM : Memref sig .tc .vmem S16x512 .f32).slice (Rect.unit (s := S16x512) (k0_off3 c 1#32) S1x512.size (k0_off3_inb c 0)) (fun _ => rfl)) (View.wordExact_bits rfl) (View.wordExact_bits rfl)) fun _ =>
          (.op (.waitDma2 (recvS 1) ((cM : Memref sig .tc .vmem S16x512 .f32).slice (Rect.unit (s := S16x512) (k0_off3 c 2#32) S1x512.size (k0_off3_inb c 1)) (fun _ => rfl)) ((cM : Memref sig .tc .vmem S16x512 .f32).slice (Rect.unit (s := S16x512) (k0_off3 c 2#32) S1x512.size (k0_off3_inb c 1)) (fun _ => rfl)) (View.wordExact_bits rfl) (View.wordExact_bits rfl)) fun _ =>
          (.op (.waitDma2 (recvS 2) ((cM : Memref sig .tc .vmem S16x512 .f32).slice (Rect.unit (s := S16x512) (k0_off3 c 3#32) S1x512.size (k0_off3_inb c 2)) (fun _ => rfl)) ((cM : Memref sig .tc .vmem S16x512 .f32).slice (Rect.unit (s := S16x512) (k0_off3 c 3#32) S1x512.size (k0_off3_inb c 2)) (fun _ => rfl)) (View.wordExact_bits rfl) (View.wordExact_bits rfl)) fun _ =>
          (.op (.waitDma2 (recvS 3) ((cM : Memref sig .tc .vmem S16x512 .f32).slice (Rect.unit (s := S16x512) (k0_off3 c 4#32) S1x512.size (k0_off3_inb c 3)) (fun _ => rfl)) ((cM : Memref sig .tc .vmem S16x512 .f32).slice (Rect.unit (s := S16x512) (k0_off3 c 4#32) S1x512.size (k0_off3_inb c 3)) (fun _ => rfl)) (View.wordExact_bits rfl) (View.wordExact_bits rfl)) fun _ =>
          (.op (.waitDma2 (recvS 4) ((cM : Memref sig .tc .vmem S16x512 .f32).slice (Rect.unit (s := S16x512) (k0_off3 c 5#32) S1x512.size (k0_off3_inb c 4)) (fun _ => rfl)) ((cM : Memref sig .tc .vmem S16x512 .f32).slice (Rect.unit (s := S16x512) (k0_off3 c 5#32) S1x512.size (k0_off3_inb c 4)) (fun _ => rfl)) (View.wordExact_bits rfl) (View.wordExact_bits rfl)) fun _ =>
          (.op (.waitDma2 (recvS 5) ((cM : Memref sig .tc .vmem S16x512 .f32).slice (Rect.unit (s := S16x512) (k0_off3 c 6#32) S1x512.size (k0_off3_inb c 5)) (fun _ => rfl)) ((cM : Memref sig .tc .vmem S16x512 .f32).slice (Rect.unit (s := S16x512) (k0_off3 c 6#32) S1x512.size (k0_off3_inb c 5)) (fun _ => rfl)) (View.wordExact_bits rfl) (View.wordExact_bits rfl)) fun _ =>
          (.op (.waitDma2 (recvS 6) ((cM : Memref sig .tc .vmem S16x512 .f32).slice (Rect.unit (s := S16x512) (k0_off3 c 7#32) S1x512.size (k0_off3_inb c 6)) (fun _ => rfl)) ((cM : Memref sig .tc .vmem S16x512 .f32).slice (Rect.unit (s := S16x512) (k0_off3 c 7#32) S1x512.size (k0_off3_inb c 6)) (fun _ => rfl)) (View.wordExact_bits rfl) (View.wordExact_bits rfl)) fun _ =>
          (.op (.waitDma2 (recvS 7) ((cM : Memref sig .tc .vmem S16x512 .f32).slice (Rect.unit (s := S16x512) (k0_off3 c 8#32) S1x512.size (k0_off3_inb c 7)) (fun _ => rfl)) ((cM : Memref sig .tc .vmem S16x512 .f32).slice (Rect.unit (s := S16x512) (k0_off3 c 8#32) S1x512.size (k0_off3_inb c 7)) (fun _ => rfl)) (View.wordExact_bits rfl) (View.wordExact_bits rfl)) fun _ =>
          (.op (.waitDma2 (recvS 8) ((cM : Memref sig .tc .vmem S16x512 .f32).slice (Rect.unit (s := S16x512) (k0_off3 c 9#32) S1x512.size (k0_off3_inb c 8)) (fun _ => rfl)) ((cM : Memref sig .tc .vmem S16x512 .f32).slice (Rect.unit (s := S16x512) (k0_off3 c 9#32) S1x512.size (k0_off3_inb c 8)) (fun _ => rfl)) (View.wordExact_bits rfl) (View.wordExact_bits rfl)) fun _ =>
          (.op (.waitDma2 (recvS 9) ((cM : Memref sig .tc .vmem S16x512 .f32).slice (Rect.unit (s := S16x512) (k0_off3 c 10#32) S1x512.size (k0_off3_inb c 9)) (fun _ => rfl)) ((cM : Memref sig .tc .vmem S16x512 .f32).slice (Rect.unit (s := S16x512) (k0_off3 c 10#32) S1x512.size (k0_off3_inb c 9)) (fun _ => rfl)) (View.wordExact_bits rfl) (View.wordExact_bits rfl)) fun _ =>
          (.op (.waitDma2 (recvS 10) ((cM : Memref sig .tc .vmem S16x512 .f32).slice (Rect.unit (s := S16x512) (k0_off3 c 11#32) S1x512.size (k0_off3_inb c 10)) (fun _ => rfl)) ((cM : Memref sig .tc .vmem S16x512 .f32).slice (Rect.unit (s := S16x512) (k0_off3 c 11#32) S1x512.size (k0_off3_inb c 10)) (fun _ => rfl)) (View.wordExact_bits rfl) (View.wordExact_bits rfl)) fun _ =>
          (.op (.waitDma2 (recvS 11) ((cM : Memref sig .tc .vmem S16x512 .f32).slice (Rect.unit (s := S16x512) (k0_off3 c 12#32) S1x512.size (k0_off3_inb c 11)) (fun _ => rfl)) ((cM : Memref sig .tc .vmem S16x512 .f32).slice (Rect.unit (s := S16x512) (k0_off3 c 12#32) S1x512.size (k0_off3_inb c 11)) (fun _ => rfl)) (View.wordExact_bits rfl) (View.wordExact_bits rfl)) fun _ =>
          (.op (.waitDma2 (recvS 12) ((cM : Memref sig .tc .vmem S16x512 .f32).slice (Rect.unit (s := S16x512) (k0_off3 c 13#32) S1x512.size (k0_off3_inb c 12)) (fun _ => rfl)) ((cM : Memref sig .tc .vmem S16x512 .f32).slice (Rect.unit (s := S16x512) (k0_off3 c 13#32) S1x512.size (k0_off3_inb c 12)) (fun _ => rfl)) (View.wordExact_bits rfl) (View.wordExact_bits rfl)) fun _ =>
          (.op (.waitDma2 (recvS 13) ((cM : Memref sig .tc .vmem S16x512 .f32).slice (Rect.unit (s := S16x512) (k0_off3 c 14#32) S1x512.size (k0_off3_inb c 13)) (fun _ => rfl)) ((cM : Memref sig .tc .vmem S16x512 .f32).slice (Rect.unit (s := S16x512) (k0_off3 c 14#32) S1x512.size (k0_off3_inb c 13)) (fun _ => rfl)) (View.wordExact_bits rfl) (View.wordExact_bits rfl)) fun _ =>
          (.op (.waitDma2 (recvS 14) ((cM : Memref sig .tc .vmem S16x512 .f32).slice (Rect.unit (s := S16x512) (k0_off3 c 15#32) S1x512.size (k0_off3_inb c 14)) (fun _ => rfl)) ((cM : Memref sig .tc .vmem S16x512 .f32).slice (Rect.unit (s := S16x512) (k0_off3 c 15#32) S1x512.size (k0_off3_inb c 14)) (fun _ => rfl)) (View.wordExact_bits rfl) (View.wordExact_bits rfl)) k))))))))))))))) Q) := by
  rw [bigSep_fin15, bigSep_fin15, bigSep_fin15, bigSep_fin15]
  iintro ⟨#HR, HO, ⟨Hc0, Hc1, Hc2, Hc3, Hc4, Hc5, Hc6, Hc7, Hc8, Hc9, Hc10, Hc11, Hc12, Hc13, Hc14⟩, ⟨Ha0, Ha1, Ha2, Ha3, Ha4, Ha5, Ha6, Ha7, Ha8, Ha9, Ha10, Ha11, Ha12, Ha13, Ha14⟩⟩ Hk
  iapply (wp_recvwait m K c 0) $$ [HO Hc0 Ha0]
  · isplitr; · iexact HR
    isplitl [Hc0]; · iexact Hc0
    isplitl [HO]; · iexact HO
    iexact Ha0
  iintro ⟨HO, Hz0, Hp0⟩
  iapply (wp_recvwait m K c 1) $$ [HO Hc1 Ha1]
  · isplitr; · iexact HR
    isplitl [Hc1]; · iexact Hc1
    isplitl [HO]; · iexact HO
    iexact Ha1
  iintro ⟨HO, Hz1, Hp1⟩
  iapply (wp_recvwait m K c 2) $$ [HO Hc2 Ha2]
  · isplitr; · iexact HR
    isplitl [Hc2]; · iexact Hc2
    isplitl [HO]; · iexact HO
    iexact Ha2
  iintro ⟨HO, Hz2, Hp2⟩
  iapply (wp_recvwait m K c 3) $$ [HO Hc3 Ha3]
  · isplitr; · iexact HR
    isplitl [Hc3]; · iexact Hc3
    isplitl [HO]; · iexact HO
    iexact Ha3
  iintro ⟨HO, Hz3, Hp3⟩
  iapply (wp_recvwait m K c 4) $$ [HO Hc4 Ha4]
  · isplitr; · iexact HR
    isplitl [Hc4]; · iexact Hc4
    isplitl [HO]; · iexact HO
    iexact Ha4
  iintro ⟨HO, Hz4, Hp4⟩
  iapply (wp_recvwait m K c 5) $$ [HO Hc5 Ha5]
  · isplitr; · iexact HR
    isplitl [Hc5]; · iexact Hc5
    isplitl [HO]; · iexact HO
    iexact Ha5
  iintro ⟨HO, Hz5, Hp5⟩
  iapply (wp_recvwait m K c 6) $$ [HO Hc6 Ha6]
  · isplitr; · iexact HR
    isplitl [Hc6]; · iexact Hc6
    isplitl [HO]; · iexact HO
    iexact Ha6
  iintro ⟨HO, Hz6, Hp6⟩
  iapply (wp_recvwait m K c 7) $$ [HO Hc7 Ha7]
  · isplitr; · iexact HR
    isplitl [Hc7]; · iexact Hc7
    isplitl [HO]; · iexact HO
    iexact Ha7
  iintro ⟨HO, Hz7, Hp7⟩
  iapply (wp_recvwait m K c 8) $$ [HO Hc8 Ha8]
  · isplitr; · iexact HR
    isplitl [Hc8]; · iexact Hc8
    isplitl [HO]; · iexact HO
    iexact Ha8
  iintro ⟨HO, Hz8, Hp8⟩
  iapply (wp_recvwait m K c 9) $$ [HO Hc9 Ha9]
  · isplitr; · iexact HR
    isplitl [Hc9]; · iexact Hc9
    isplitl [HO]; · iexact HO
    iexact Ha9
  iintro ⟨HO, Hz9, Hp9⟩
  iapply (wp_recvwait m K c 10) $$ [HO Hc10 Ha10]
  · isplitr; · iexact HR
    isplitl [Hc10]; · iexact Hc10
    isplitl [HO]; · iexact HO
    iexact Ha10
  iintro ⟨HO, Hz10, Hp10⟩
  iapply (wp_recvwait m K c 11) $$ [HO Hc11 Ha11]
  · isplitr; · iexact HR
    isplitl [Hc11]; · iexact Hc11
    isplitl [HO]; · iexact HO
    iexact Ha11
  iintro ⟨HO, Hz11, Hp11⟩
  iapply (wp_recvwait m K c 12) $$ [HO Hc12 Ha12]
  · isplitr; · iexact HR
    isplitl [Hc12]; · iexact Hc12
    isplitl [HO]; · iexact HO
    iexact Ha12
  iintro ⟨HO, Hz12, Hp12⟩
  iapply (wp_recvwait m K c 13) $$ [HO Hc13 Ha13]
  · isplitr; · iexact HR
    isplitl [Hc13]; · iexact Hc13
    isplitl [HO]; · iexact HO
    iexact Ha13
  iintro ⟨HO, Hz13, Hp13⟩
  iapply (wp_recvwait m K c 14) $$ [HO Hc14 Ha14]
  · isplitr; · iexact HR
    isplitl [Hc14]; · iexact Hc14
    isplitl [HO]; · iexact HO
    iexact Ha14
  iintro ⟨HO, Hz14, Hp14⟩
  iapply Hk
  isplitl [HO]; · iexists _; iexact HO
  isplitl [Hz0 Hz1 Hz2 Hz3 Hz4 Hz5 Hz6 Hz7 Hz8 Hz9 Hz10 Hz11 Hz12 Hz13 Hz14]
  ·
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    iexact Hz14
  isplitl [Hp0]; · iexact Hp0
  isplitl [Hp1]; · iexact Hp1
  isplitl [Hp2]; · iexact Hp2
  isplitl [Hp3]; · iexact Hp3
  isplitl [Hp4]; · iexact Hp4
  isplitl [Hp5]; · iexact Hp5
  isplitl [Hp6]; · iexact Hp6
  isplitl [Hp7]; · iexact Hp7
  isplitl [Hp8]; · iexact Hp8
  isplitl [Hp9]; · iexact Hp9
  isplitl [Hp10]; · iexact Hp10
  isplitl [Hp11]; · iexact Hp11
  isplitl [Hp12]; · iexact Hp12
  isplitl [Hp13]; · iexact Hp13
  iexact Hp14

/-- The fifteen waits for the own copies to have left. -/
theorem phase_sendwaits {α : Type} {Q : α → sProp 𝕄} {k : PUnit → Prog (TpuEff nD τ sig (Elt F) Λ₀ .tc) α} {W : Waits sig Unit} :
    iprop(records m K ∗ owes (c : Thread nD τ) 0 W
        ∗ (bigSep Finset.univ fun o : Fin 15 => cred (tallyAt (sendCell c o) () Nrow))
        ∗ (bigSep Finset.univ fun o : Fin 15 => atPos ER (sendCell c o) 0 ∅ 0))
      ⊢ iprop((((∃ W', owes (c : Thread nD τ) 0 W') ∗ (bigSep Finset.univ fun o : Fin 15 => semVal (sendCell c o) 0)
              ∗ (bigSep Finset.univ fun o : Fin 15 => rowPts c c (shr o) (commF m c))) -∗ wp frame (wpE (defs₀ (F := F)) 𝒱₀ (c : Thread nD τ) none) Set.univ (k ⟨⟩) Q)
          -∗ wp frame (wpE (defs₀ (F := F)) 𝒱₀ (c : Thread nD τ) none) Set.univ
          (.op (.waitDma2 (sendS 0) (rowM c) (rowM c) (View.wordExact_bits rfl) (View.wordExact_bits rfl)) fun _ =>
          (.op (.waitDma2 (sendS 1) (rowM c) (rowM c) (View.wordExact_bits rfl) (View.wordExact_bits rfl)) fun _ =>
          (.op (.waitDma2 (sendS 2) (rowM c) (rowM c) (View.wordExact_bits rfl) (View.wordExact_bits rfl)) fun _ =>
          (.op (.waitDma2 (sendS 3) (rowM c) (rowM c) (View.wordExact_bits rfl) (View.wordExact_bits rfl)) fun _ =>
          (.op (.waitDma2 (sendS 4) (rowM c) (rowM c) (View.wordExact_bits rfl) (View.wordExact_bits rfl)) fun _ =>
          (.op (.waitDma2 (sendS 5) (rowM c) (rowM c) (View.wordExact_bits rfl) (View.wordExact_bits rfl)) fun _ =>
          (.op (.waitDma2 (sendS 6) (rowM c) (rowM c) (View.wordExact_bits rfl) (View.wordExact_bits rfl)) fun _ =>
          (.op (.waitDma2 (sendS 7) (rowM c) (rowM c) (View.wordExact_bits rfl) (View.wordExact_bits rfl)) fun _ =>
          (.op (.waitDma2 (sendS 8) (rowM c) (rowM c) (View.wordExact_bits rfl) (View.wordExact_bits rfl)) fun _ =>
          (.op (.waitDma2 (sendS 9) (rowM c) (rowM c) (View.wordExact_bits rfl) (View.wordExact_bits rfl)) fun _ =>
          (.op (.waitDma2 (sendS 10) (rowM c) (rowM c) (View.wordExact_bits rfl) (View.wordExact_bits rfl)) fun _ =>
          (.op (.waitDma2 (sendS 11) (rowM c) (rowM c) (View.wordExact_bits rfl) (View.wordExact_bits rfl)) fun _ =>
          (.op (.waitDma2 (sendS 12) (rowM c) (rowM c) (View.wordExact_bits rfl) (View.wordExact_bits rfl)) fun _ =>
          (.op (.waitDma2 (sendS 13) (rowM c) (rowM c) (View.wordExact_bits rfl) (View.wordExact_bits rfl)) fun _ =>
          (.op (.waitDma2 (sendS 14) (rowM c) (rowM c) (View.wordExact_bits rfl) (View.wordExact_bits rfl)) k))))))))))))))) Q) := by
  rw [bigSep_fin15, bigSep_fin15, bigSep_fin15, bigSep_fin15]
  iintro ⟨#HR, HO, ⟨Hc0, Hc1, Hc2, Hc3, Hc4, Hc5, Hc6, Hc7, Hc8, Hc9, Hc10, Hc11, Hc12, Hc13, Hc14⟩, ⟨Ha0, Ha1, Ha2, Ha3, Ha4, Ha5, Ha6, Ha7, Ha8, Ha9, Ha10, Ha11, Ha12, Ha13, Ha14⟩⟩ Hk
  iapply (wp_sendwait m K c 0) $$ [HO Hc0 Ha0]
  · isplitr; · iexact HR
    isplitl [Hc0]; · iexact Hc0
    isplitl [HO]; · iexact HO
    iexact Ha0
  iintro ⟨HO, Hz0, Hp0⟩
  iapply (wp_sendwait m K c 1) $$ [HO Hc1 Ha1]
  · isplitr; · iexact HR
    isplitl [Hc1]; · iexact Hc1
    isplitl [HO]; · iexact HO
    iexact Ha1
  iintro ⟨HO, Hz1, Hp1⟩
  iapply (wp_sendwait m K c 2) $$ [HO Hc2 Ha2]
  · isplitr; · iexact HR
    isplitl [Hc2]; · iexact Hc2
    isplitl [HO]; · iexact HO
    iexact Ha2
  iintro ⟨HO, Hz2, Hp2⟩
  iapply (wp_sendwait m K c 3) $$ [HO Hc3 Ha3]
  · isplitr; · iexact HR
    isplitl [Hc3]; · iexact Hc3
    isplitl [HO]; · iexact HO
    iexact Ha3
  iintro ⟨HO, Hz3, Hp3⟩
  iapply (wp_sendwait m K c 4) $$ [HO Hc4 Ha4]
  · isplitr; · iexact HR
    isplitl [Hc4]; · iexact Hc4
    isplitl [HO]; · iexact HO
    iexact Ha4
  iintro ⟨HO, Hz4, Hp4⟩
  iapply (wp_sendwait m K c 5) $$ [HO Hc5 Ha5]
  · isplitr; · iexact HR
    isplitl [Hc5]; · iexact Hc5
    isplitl [HO]; · iexact HO
    iexact Ha5
  iintro ⟨HO, Hz5, Hp5⟩
  iapply (wp_sendwait m K c 6) $$ [HO Hc6 Ha6]
  · isplitr; · iexact HR
    isplitl [Hc6]; · iexact Hc6
    isplitl [HO]; · iexact HO
    iexact Ha6
  iintro ⟨HO, Hz6, Hp6⟩
  iapply (wp_sendwait m K c 7) $$ [HO Hc7 Ha7]
  · isplitr; · iexact HR
    isplitl [Hc7]; · iexact Hc7
    isplitl [HO]; · iexact HO
    iexact Ha7
  iintro ⟨HO, Hz7, Hp7⟩
  iapply (wp_sendwait m K c 8) $$ [HO Hc8 Ha8]
  · isplitr; · iexact HR
    isplitl [Hc8]; · iexact Hc8
    isplitl [HO]; · iexact HO
    iexact Ha8
  iintro ⟨HO, Hz8, Hp8⟩
  iapply (wp_sendwait m K c 9) $$ [HO Hc9 Ha9]
  · isplitr; · iexact HR
    isplitl [Hc9]; · iexact Hc9
    isplitl [HO]; · iexact HO
    iexact Ha9
  iintro ⟨HO, Hz9, Hp9⟩
  iapply (wp_sendwait m K c 10) $$ [HO Hc10 Ha10]
  · isplitr; · iexact HR
    isplitl [Hc10]; · iexact Hc10
    isplitl [HO]; · iexact HO
    iexact Ha10
  iintro ⟨HO, Hz10, Hp10⟩
  iapply (wp_sendwait m K c 11) $$ [HO Hc11 Ha11]
  · isplitr; · iexact HR
    isplitl [Hc11]; · iexact Hc11
    isplitl [HO]; · iexact HO
    iexact Ha11
  iintro ⟨HO, Hz11, Hp11⟩
  iapply (wp_sendwait m K c 12) $$ [HO Hc12 Ha12]
  · isplitr; · iexact HR
    isplitl [Hc12]; · iexact Hc12
    isplitl [HO]; · iexact HO
    iexact Ha12
  iintro ⟨HO, Hz12, Hp12⟩
  iapply (wp_sendwait m K c 13) $$ [HO Hc13 Ha13]
  · isplitr; · iexact HR
    isplitl [Hc13]; · iexact Hc13
    isplitl [HO]; · iexact HO
    iexact Ha13
  iintro ⟨HO, Hz13, Hp13⟩
  iapply (wp_sendwait m K c 14) $$ [HO Hc14 Ha14]
  · isplitr; · iexact HR
    isplitl [Hc14]; · iexact Hc14
    isplitl [HO]; · iexact HO
    iexact Ha14
  iintro ⟨HO, Hz14, Hp14⟩
  iapply Hk
  isplitl [HO]; · iexists _; iexact HO
  isplitl [Hz0 Hz1 Hz2 Hz3 Hz4 Hz5 Hz6 Hz7 Hz8 Hz9 Hz10 Hz11 Hz12 Hz13 Hz14]
  ·
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    iexact Hz14
  isplitl [Hp0]; · iexact Hp0
  isplitl [Hp1]; · iexact Hp1
  isplitl [Hp2]; · iexact Hp2
  isplitl [Hp3]; · iexact Hp3
  isplitl [Hp4]; · iexact Hp4
  isplitl [Hp5]; · iexact Hp5
  isplitl [Hp6]; · iexact Hp6
  isplitl [Hp7]; · iexact Hp7
  isplitl [Hp8]; · iexact Hp8
  isplitl [Hp9]; · iexact Hp9
  isplitl [Hp10]; · iexact Hp10
  isplitl [Hp11]; · iexact Hp11
  isplitl [Hp12]; · iexact Hp12
  isplitl [Hp13]; · iexact Hp13
  iexact Hp14

end Cert.Kernel.AR

end
-- ==== Proof.Bits.Own.lean ====
/-
  A device's thirty-four own semaphores are the four of its local copies, the fifteen of its sends and the fifteen of its
  receives.
-/
import proofs.«901068_g7700000000001069_dist_sum_ax0_shard0_i_m1024_n512_v7x_i16_bf16_1_alg».proof.Proof.Bits.Proto
import Mathlib.Logic.Equiv.Fin.Basic

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A product over `a + b` indices is the product over the first `a` and the product over the last `b`. -/
theorem bigSep_own_add (a b : ℕ) (Φ : Fin (a + b) → sProp 𝕄) :
    bigSep Finset.univ Φ
      = iprop((bigSep Finset.univ fun i : Fin a => Φ (Fin.castAdd b i)) ∗ (bigSep Finset.univ fun i : Fin b => Φ (Fin.natAdd a i))) := by
  rw [bigSep_univ_equiv finSumFinEquiv Φ, bigSep_univ_sum]
  rfl

/-- Own semaphore `k` is DMA semaphore `k + 1`. -/
theorem osem_eq (k : Fin 34) (q : DmaSem sig) (h : q.val = k.val + 1) : osem k = .dma q :=
  congrArg SemLoc.dma (Fin.ext h.symm)

omit [FloatOps F] in
/-- The thirty-four own semaphores in order: numbers 0 to 3 are the local copies' (DMA semaphores 1 to 4), numbers 4 to 18
    the sends' (5 to 19), numbers 19 to 33 the receives' (20 to 34). -/
theorem ownSems_join (c : Dev nD) :
    iprop((bigSep Finset.univ fun j : Fin 4 => semVal (cpCell c j) 0) ∗ (bigSep Finset.univ fun o : Fin 15 => semVal (sendCell c o) 0)
        ∗ (bigSep Finset.univ fun o : Fin 15 => semVal (recvCell c o) 0))
      ⊢ (bigSep Finset.univ fun k : Fin 34 => semVal ((c : Thread nD τ), osem k) 0 : sProp 𝕄) := by
  have e1 := bigSep_own_add (F := F) 4 30 (fun k => semVal ((c : Thread nD τ), osem k) 0)
  have e2 := bigSep_own_add (F := F) 15 15 (fun i => semVal ((c : Thread nD τ), osem (Fin.natAdd 4 i)) 0)
  refine Entails.trans (Entails.of_eq ?_) (Entails.of_eq (e1.trans (congrArg (fun P => iprop(_ ∗ P)) e2)).symm)
  refine congrArg₂ (fun P Q => iprop(P ∗ Q)) (bigSep_congr fun j _ => ?_)
    (congrArg₂ (fun P Q => iprop(P ∗ Q)) (bigSep_congr fun o _ => ?_) (bigSep_congr fun o _ => ?_))
  · exact congrArg (fun s => semVal ((c : Thread nD τ), s) 0)
      (osem_eq _ (cpS j) (by show 1 + j.val = j.val + 1; omega)).symm
  · exact congrArg (fun s => semVal ((c : Thread nD τ), s) 0)
      (osem_eq _ (sendS o) (by show 5 + o.val = 4 + o.val + 1; omega)).symm
  · exact congrArg (fun s => semVal ((c : Thread nD τ), s) 0)
      (osem_eq _ (recvS o) (by show 20 + o.val = 4 + (15 + o.val) + 1; omega)).symm

end Cert.Kernel.AR

end
-- ==== Proof.Bits.Body.lean ====
/-
  One device's body, stepped from what the launch hands it to what it hands back: the fifteen signals; the four slabs
  copied in and summed; the wait on the barrier; the partial sums stored into the own row and copied to the fifteen
  others; their rows awaited; the sixteen rows summed into the result.
-/
import proofs.«901068_g7700000000001069_dist_sum_ax0_shard0_i_m1024_n512_v7x_i16_bf16_1_alg».proof.Proof.Bits.Proto
import proofs.«901068_g7700000000001069_dist_sum_ax0_shard0_i_m1024_n512_v7x_i16_bf16_1_alg».proof.Proof.Bits.Tables
import proofs.«901068_g7700000000001069_dist_sum_ax0_shard0_i_m1024_n512_v7x_i16_bf16_1_alg».proof.Proof.Bits.Owed
import proofs.«901068_g7700000000001069_dist_sum_ax0_shard0_i_m1024_n512_v7x_i16_bf16_1_alg».proof.Proof.Bits.Geom
import proofs.«901068_g7700000000001069_dist_sum_ax0_shard0_i_m1024_n512_v7x_i16_bf16_1_alg».proof.Proof.Bits.Landed
import proofs.«901068_g7700000000001069_dist_sum_ax0_shard0_i_m1024_n512_v7x_i16_bf16_1_alg».proof.Proof.Bits.Steps
import proofs.«901068_g7700000000001069_dist_sum_ax0_shard0_i_m1024_n512_v7x_i16_bf16_1_alg».proof.Proof.Bits.PhaseSigs
import proofs.«901068_g7700000000001069_dist_sum_ax0_shard0_i_m1024_n512_v7x_i16_bf16_1_alg».proof.Proof.Bits.PhaseSends
import proofs.«901068_g7700000000001069_dist_sum_ax0_shard0_i_m1024_n512_v7x_i16_bf16_1_alg».proof.Proof.Bits.PhaseWaits
import proofs.«901068_g7700000000001069_dist_sum_ax0_shard0_i_m1024_n512_v7x_i16_bf16_1_alg».proof.Proof.Bits.Own

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 65536

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev r0 : Rect S1x512 := Rect.unit (s := S1x512) ![0, 0] S1x512.size inb_S1x512_S1x512_0_0
omit [FloatOps F] in
theorem hz : (![0, 0] : Fin 2 → Nat) = fun _ => 0 := funext fun a => by fin_cases a <;> rfl
omit [FloatOps F] in
theorem write_out (f w : (cc0_stg0_0 : Ref sig .tc).ty.Contents (Elt F)) :
    ((oM : Memref sig .tc .vmem S1x512 .f32).access r0 : View sig .tc _ _ _).write (Elt F) f w Finset.univ = w :=
  Memref.write_access_unit_zero_univ (Elt F) cc0_stg0_0 hz _ f w

omit [FloatOps F] in
/-- The row a store went into, as the row it is. -/
theorem row_fold (c : Dev nD) (g : Buf (Elt F) ((c : Thread nD τ).loc cc0_scratch1)) :
    (((cM : Memref sig .tc .vmem S16x512 .f32).access (Rect.unit (s := S16x512) (k0_off1 c) S1x512.size (k0_off1_inb c)) : View sig .tc _ _ _).loc (c : Thread nD τ)
        ↦[(rowM c).view.set]{fullShare} g : sProp 𝕄) ⊢ rowPts c c fullShare g := by
  unfold rowPts; exact BI.Entails.refl _

omit [FloatOps F] in
/-- The slot a load went through, as the slot it is. -/
theorem slot_fold (c : Dev nD) (j : Fin 4) (g : Buf (Elt F) ((c : Thread nD τ).loc cc0_scratch0)) :
    ((vM : Memref sig .tc .vmem S4x256x512 .f32).view.loc (c : Thread nD τ) ↦[(vsl j).view.set]{fullShare} g : sProp 𝕄) ⊢ slotPts c j g := by
  unfold slotPts; exact BI.Entails.refl _

section Body
variable (K : Dev nD × Fin 35 → ℕ)

def bodyPre (c : Dev nD) : sProp 𝕄 :=
  iprop(((ghost m K c ∗ cred (tallyAt (barCell c) () 15) ∗ (bigSep Finset.univ fun o : Fin 15 => cred (tallyAt (recvCell c o) () Nrow)) ∗ levAts L lv)
      ∗ xPts m c ∗ (∃ f, vPts c f) ∗ (∃ f, cPts c f))
    ∗ (dats m ρ 0 c).owesAt () t0_0.castSucc
    ∗ (∃ d, stg c cc0_stg0_0 ((dats m ρ 0 c).before (0 : Fin 1) t0_0 d)))

def bodyPost (c : Dev nD) : sProp 𝕄 :=
  iprop(Φ₁ m c ∗ (dats m ρ 0 c).owesAt () t0_0.succ ∗ stg c cc0_stg0_0 (outF m))

set_option maxHeartbeats 4000000 in
/-- The body from `bodyPre` to `bodyPost`, operation by operation in program order. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole main_arg0) (Memref.isWhole_whole _) (Memref.whole cc0_stg0_0) (Memref.isWhole_whole _)
            (Memref.whole cc0_scratch0) (Memref.isWhole_whole _) (Memref.whole cc0_scratch1) (Memref.isWhole_whole _) cc0_scratch2 cc0_scratch3 cc0_scratch4) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel
  simp only [semSignalWord, semWaitWord, Prog.lift, Prog.bind_op, Prog.bind_ret, Prog.pure_eq_ret, wp_deviceId]
  unfold bodyPre ghost linear
  iintro ⟨⟨⟨⟨⟨#HR, HaB, Hcp, Hsnd, HaR, HtB, HtR⟩, HcB, HcR, #Hlev⟩, Hx, ⟨%fv, Hv⟩, ⟨%fc, Hc⟩⟩, Ho, ⟨%d0, %g0, %hg0, Hout⟩⟩, Hk⟩
  unfold Dat.owesAt Pipeline.owesWithin
  icases Ho with ⟨%W, %hW, HO⟩
  rw [show (dats m ρ 0 c).owed t0_0.castSucc = owedLeft c 30 from rfl]
  -- the exchange buffer as its rows: the own one and the fifteen handed to the others
  ihave Hrows := (cPts_rows c fc).1 $$ Hc
  ihave Hrows := (Entails.of_eq (bigSep_dev_peer c (fun r => rowPts c r fullShare fc))) $$ Hrows
  icases Hrows with ⟨Hrc, Hrp⟩
  -- the fifteen signals
  iapply (phase_sigs m K c fc) $$ [HO HtB Hrp]
  · isplitr; · iexact HR
    isplitl [HO]; · iexact HO
    isplitl [HtB]; · iexact HtB
    iexact Hrp
  iintro HO
  -- the block as its slabs, the copy buffer as its slots; the four copies start
  ihave Hxs := ((xPts_slabs m c).1.trans (Entails.of_eq (bigSep_fin4 _))) $$ Hx
  icases Hxs with ⟨Hx0, Hx1, Hx2, Hx3⟩
  ihave Hvs := ((vPts_slots c fv).1.trans (Entails.of_eq (bigSep_fin4 _))) $$ Hv
  icases Hvs with ⟨Hv0, Hv1, Hv2, Hv3⟩
  ihave Hcp' := (Entails.of_eq (bigSep_fin4 _)) $$ Hcp
  icases Hcp' with ⟨⟨HaC0, HtC0⟩, ⟨HaC1, HtC1⟩, ⟨HaC2, HtC2⟩, ⟨HaC3, HtC3⟩⟩
  iapply (wp_cpstart m K c 0 fv) $$ [Hx0 Hv0 HtC0]
  · isplitr; · iexact HR
    isplitl [Hx0]; · iexact Hx0
    isplitl [Hv0]; · iexact Hv0
    iexact HtC0
  iintro HcC0
  iapply (wp_cpstart m K c 1 fv) $$ [Hx1 Hv1 HtC1]
  · isplitr; · iexact HR
    isplitl [Hx1]; · iexact Hx1
    isplitl [Hv1]; · iexact Hv1
    iexact HtC1
  iintro HcC1
  iapply (wp_cpstart m K c 2 fv) $$ [Hx2 Hv2 HtC2]
  · isplitr; · iexact HR
    isplitl [Hx2]; · iexact Hx2
    isplitl [Hv2]; · iexact Hv2
    iexact HtC2
  iintro HcC2
  iapply (wp_cpstart m K c 3 fv) $$ [Hx3 Hv3 HtC3]
  · isplitr; · iexact HR
    isplitl [Hx3]; · iexact Hx3
    isplitl [Hv3]; · iexact Hv3
    iexact HtC3
  iintro HcC3
  -- each slab awaited and read
  iapply (wp_cpwait m K c 0 15 (Nat.le_refl _)) $$ [HcC0 HO HaC0]
  · isplitr; · iexact HR
    isplitr; · iexact Hlev
    isplitl [HcC0]; · iexact HcC0
    isplitl [HO]; · iexact HO
    iexact HaC0
  iintro ⟨HO, Hz0, Hv0, Hx0⟩
  unfold slotPts
  iapply (wp_load 𝒱₀ (c : Thread nD τ) none Set.univ (m := vM) (load_slot_sub 0)) $$ Hv0; iintro Hv0
  iapply (wp_cpwait m K c 1 15 (Nat.le_refl _)) $$ [HcC1 HO HaC1]
  · isplitr; · iexact HR
    isplitr; · iexact Hlev
    isplitl [HcC1]; · iexact HcC1
    isplitl [HO]; · iexact HO
    iexact HaC1
  iintro ⟨HO, Hz1, Hv1, Hx1⟩
  unfold slotPts
  iapply (wp_load 𝒱₀ (c : Thread nD τ) none Set.univ (m := vM) (load_slot_sub 1)) $$ Hv1; iintro Hv1
  iapply (wp_cpwait m K c 2 15 (Nat.le_refl _)) $$ [HcC2 HO HaC2]
  · isplitr; · iexact HR
    isplitr; · iexact Hlev
    isplitl [HcC2]; · iexact HcC2
    isplitl [HO]; · iexact HO
    iexact HaC2
  iintro ⟨HO, Hz2, Hv2, Hx2⟩
  unfold slotPts
  iapply (wp_load 𝒱₀ (c : Thread nD τ) none Set.univ (m := vM) (load_slot_sub 2)) $$ Hv2; iintro Hv2
  iapply (wp_cpwait m K c 3 15 (Nat.le_refl _)) $$ [HcC3 HO HaC3]
  · isplitr; · iexact HR
    isplitr; · iexact Hlev
    isplitl [HcC3]; · iexact HcC3
    isplitl [HO]; · iexact HO
    iexact HaC3
  iintro ⟨HO, Hz3, Hv3, Hx3⟩
  unfold slotPts
  iapply (wp_load 𝒱₀ (c : Thread nD τ) none Set.univ (m := vM) (load_slot_sub 3)) $$ Hv3; iintro Hv3
  -- the fifteen others have entered: row `c` of each of their buffers is in hand
  iapply (wp_barwait m K c rfl) $$ [HcB HO HaB]
  · isplitr; · iexact HR
    isplitr; · iexact Hlev
    isplitl [HcB]; · iexact HcB
    isplitl [HO]; · iexact HO
    iexact HaB
  iintro ⟨HO, Hbp⟩
  -- the partial sums into the own row
  unfold rowPts
  iapply (wp_load 𝒱₀ (c : Thread nD τ) none Set.univ (m := cM) (load_row_sub c)) $$ Hrc; iintro Hrc
  iapply (wp_store 𝒱₀ (c : Thread nD τ) none Set.univ (m := cM) (r := Rect.unit (s := S16x512) (k0_off1 c) S1x512.size (k0_off1_inb c))
    (Mk := Finset.univ) (store_row_sub c)) $$ Hrc; iintro Hrc
  ihave Hrc := (Entails.of_eq (pointsTo_congr (row_stored m c fc))) $$ Hrc
  ihave Hrc := (row_fold c _) $$ Hrc
  -- a share of it lent to each of the fifteen copies
  ihave Hsh := (rowPts_shares c c (commF m c)).1 $$ Hrc
  icases Hsh with ⟨Hkeep, Hshs⟩
  ihave Hsnd' := (Entails.of_eq (bigSep_sep' Finset.univ (fun o : Fin 15 => (atPos ER (sendCell c o) 0 ∅ 0 : sProp 𝕄)) (fun o : Fin 15 => dutyTok ER (sendCell c o) 0 (0 : DD)))) $$ Hsnd
  icases Hsnd' with ⟨HaS, HtS⟩
  iapply (phase_sends m K c) $$ [HO Hshs Hbp HtS HtR]
  · isplitr; · iexact HR
    isplitl [HO]; · iexact HO
    isplitl [Hshs]; · iexact Hshs
    isplitl [Hbp]; · iexact Hbp
    isplitl [HtS]; · iexact HtS
    iexact HtR
  iintro ⟨HO, HcS⟩
  -- the fifteen rows of the others land
  iapply (phase_recvs m K c) $$ [HO HcR HaR]
  · isplitr; · iexact HR
    isplitl [HO]; · iexact HO
    isplitl [HcR]; · iexact HcR
    iexact HaR
  iintro ⟨⟨%W1, HO⟩, HzR, Hrf⟩
  -- the fifteen copies have left: the lent shares are back
  iapply (phase_sendwaits m K c) $$ [HO HcS HaS]
  · isplitr; · iexact HR
    isplitl [HO]; · iexact HO
    isplitl [HcS]; · iexact HcS
    iexact HaS
  iintro ⟨⟨%W2, HO⟩, HzS, Hshs⟩
  -- the own row whole again; the sixteen rows are the buffer
  ihave Hrc := (rowPts_shares c c (commF m c)).2 $$ [Hkeep Hshs]
  · isplitl [Hkeep]; · iexact Hkeep
    iexact Hshs
  ihave Hall := (Entails.of_eq (bigSep_dev_from c (fun r => rowPts c r fullShare (commF m c))).symm) $$ [Hrc Hrf]
  · isplitl [Hrc]; · iexact Hrc
    iexact Hrf
  ihave Hc := (cPts_rows c (commF m c)).2 $$ Hall
  -- the sixteen rows summed into the result
  unfold cPts
  iapply (wp_load 𝒱₀ (c : Thread nD τ) none Set.univ (m := cM) (Finset.subset_univ _)) $$ Hc; iintro Hc
  iapply (wp_load 𝒱₀ (c : Thread nD τ) none Set.univ (m := oM) (Finset.subset_univ _)) $$ Hout; iintro Hout
  iapply (wp_store 𝒱₀ (c : Thread nD τ) none Set.univ (m := oM) (r := r0) (Mk := Finset.univ) (Finset.subset_univ _)) $$ Hout; iintro Hout
  rw [write_out, wp_ret]; imodintro
  iapply Hk
  unfold bodyPost Φ₁ Dat.owesAt Pipeline.owesWithin
  rw [show (dats m ρ 0 c).owed t0_0.succ = 0 from rfl]
  -- the block and the copy buffer whole again
  ihave Hx := ((Entails.of_eq (bigSep_fin4 (fun j : Fin 4 => slabPts m c j)).symm).trans (xPts_slabs m c).2) $$ [Hx0 Hx1 Hx2 Hx3]
  · isplitl [Hx0]; · iexact Hx0
    isplitl [Hx1]; · iexact Hx1
    isplitl [Hx2]; · iexact Hx2
    iexact Hx3
  ihave Hv := ((Entails.of_eq (bigSep_fin4 (fun j : Fin 4 => slotPts c j (XV m c))).symm).trans (vPts_slots c (XV m c)).2) $$ [Hv0 Hv1 Hv2 Hv3]
  · isplitl [Hv0]; · iapply (slot_fold c 0 _); iexact Hv0
    isplitl [Hv1]; · iapply (slot_fold c 1 _); iexact Hv1
    isplitl [Hv2]; · iapply (slot_fold c 2 _); iexact Hv2
    iapply (slot_fold c 3 _); iexact Hv3
  ihave Hz := (ownSems_join (F := F) c) $$ [Hz0 Hz1 Hz2 Hz3 HzS HzR]
  · isplitl [Hz0 Hz1 Hz2 Hz3]
    · iapply (Entails.of_eq (bigSep_fin4 (fun j : Fin 4 => (semVal (cpCell c j) 0 : sProp 𝕄))).symm)
      isplitl [Hz0]; · iexact Hz0
      isplitl [Hz1]; · iexact Hz1
      isplitl [Hz2]; · iexact Hz2
      iexact Hz3
    isplitl [HzS]; · iexact HzS
    iexact HzR
  isplitl [Hx Hv Hc Hz]
  · isplitl [Hx]; · iexact Hx
    isplitl [Hv]; · iexact Hv
    isplitl [Hc]; · unfold cPts; iexact Hc
    iexact Hz
  isplitl [HO]
  · iexists W2
    isplitr; · ipureintro; exact fun _ _ => Or.inl trivial
    iexact HO
  iexists _; isplitr; · (ipureintro; rfl)
  iexact Hout

def bodyPre' (c : Dev nD) : sProp 𝕄 :=
  iprop(Φ₀ m c ∗ (dats m ρ 0 c).owesAt () t0_0.castSucc
    ∗ (∃ d, stg c cc0_stg0_0 ((dats m ρ 0 c).before (0 : Fin 1) t0_0 d)))

set_option maxRecDepth 65536 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ c none) Set.univ
    (cc0_body (Memref.whole main_arg0) (Memref.isWhole_whole _) (Memref.whole cc0_stg0_0) (Memref.isWhole_whole _)
            (Memref.whole cc0_scratch0) (Memref.isWhole_whole _) (Memref.whole cc0_scratch1) (Memref.isWhole_whole _) cc0_scratch2 cc0_scratch3 cc0_scratch4) (fun _ => bodyPost m ρ c)
  unfold bodyPre' Φ₀ start
  iintro ⟨⟨⟨⟨%K, Hg⟩, HcB, HcR, Hlev⟩, Hx, Hv, Hc⟩, Ho, Hout⟩
  iapply (sound_body m ρ K c fun _ => bodyPost m ρ c)
  unfold bodyPre
  isplitr []
  · isplitl [Hg HcB HcR Hlev Hx Hv Hc]
    · isplitl [Hg HcB HcR Hlev]
      · isplitl [Hg]; · iexact Hg
        isplitl [HcB]; · iexact HcB
        isplitl [HcR]; · iexact HcR
        iexact Hlev
      isplitl [Hx]; · iexact Hx
      isplitl [Hv]; · iexact Hv
      iexact Hc
    isplitl [Ho]; · iexact Ho
    iexact Hout
  · iintro H; iexact H

/-- info: 'Cert.Kernel.AR.body_obligation' depends on axioms: [propext, Classical.choice, Quot.sound] -/
#guard_msgs in #print axioms body_obligation

end Body

end Cert.Kernel.AR

end
-- ==== Proof.Bits.Launch.lean ====
/-
  The launch: from a memory with every semaphore at zero the sixteen devices are dealt their cells' invariants, their
  positions and the tokens of the duties they pay; each device's body runs from that; and every final state has each
  device's result array at the sum of all partial sums and its block of x unchanged.
-/
import proofs.«901068_g7700000000001069_dist_sum_ax0_shard0_i_m1024_n512_v7x_i16_bf16_1_alg».proof.Proof.Bits.Proto
import proofs.«901068_g7700000000001069_dist_sum_ax0_shard0_i_m1024_n512_v7x_i16_bf16_1_alg».proof.Proof.Bits.Tables
import proofs.«901068_g7700000000001069_dist_sum_ax0_shard0_i_m1024_n512_v7x_i16_bf16_1_alg».proof.Proof.Bits.Owed
import proofs.«901068_g7700000000001069_dist_sum_ax0_shard0_i_m1024_n512_v7x_i16_bf16_1_alg».proof.Proof.Bits.Geom
import proofs.«901068_g7700000000001069_dist_sum_ax0_shard0_i_m1024_n512_v7x_i16_bf16_1_alg».proof.Proof.Bits.Body
import Idealize.ShloMosaic.Lib.SparseCore.Stream
import Idealize.ShloMosaic.Lib.Pipeline.Value
import Mathlib.Logic.Equiv.Fin.Basic

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What every final state satisfies: on every device the result array holds the sum of the sixteen partial sums and the
    block of `x` is as launched. -/
def QC : PUnit × MemSt nD τ sig (Elt F) → Prop := fun r => ∀ c : Dev nD,
  r.2.mem ((c : Thread nD τ).loc main_v1) = outF m ∧ r.2.mem ((c : Thread nD τ).loc main_arg0) = m ((c : Thread nD τ).loc main_arg0)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 35 → GSem nD τ sig) := by
  rintro ⟨c, k⟩ ⟨c', k'⟩ h
  have h1 : c = c' := congrArg (fun g : GSem nD τ sig => g.1.1) h
  subst h1
  have h2 : csem k = csem k' := congrArg Prod.snd h
  have : k = k' := by
    by_cases hk : k.val = 0 <;> by_cases hk' : k'.val = 0
    · exact Fin.ext (hk.trans hk'.symm)
    · rw [show csem k = .reg barS from dif_pos hk, show csem k' = .dma ⟨k'.val, k'.isLt⟩ from dif_neg hk'] at h2; cases h2
    · rw [show csem k = .dma ⟨k.val, k.isLt⟩ from dif_neg hk, show csem k' = .reg barS from dif_pos hk'] at h2; cases h2
    · rw [show csem k = .dma ⟨k.val, k.isLt⟩ from dif_neg hk, show csem k' = .dma ⟨k'.val, k'.isLt⟩ from dif_neg hk'] at h2
      exact Fin.ext (congrArg (fun q : DmaSem sig => q.val) (SemLoc.dma.inj h2))
  subst this; rfl
/-- All cells of all devices. -/
def arCells : Finset (GSem nD τ sig) := Finset.univ.map ⟨kcell, kcell_injective⟩

/-- A device's own cells' duty tokens as minted: the barrier cell's fifteen, and the one of each copy, send and receive cell. -/
abbrev TokIx : Type := Fin 15 ⊕ (Fin 4 ⊕ (Fin 15 ⊕ Fin 15))
abbrev tokOf (ct : Dev nD × TokIx) : GSem nD τ sig × ℕ × DD := match ct.2 with
  | .inl o => (barCell ct.1, 0, o)
  | .inr (.inl j) => (cpCell ct.1 j, 0, 0)
  | .inr (.inr (.inl o)) => (sendCell ct.1 o, 0, 0)
  | .inr (.inr (.inr o)) => (recvCell ct.1 o, 0, 0)
/-- Which token a (cell, round, duty) triple is. -/
def tokBack (x : GSem nD τ sig × ℕ × DD) : Dev nD × TokIx := (x.1.1.1, match kd x.1.2 with
  | .bar => .inl x.2.2 | .cp j => .inr (.inl j) | .send o => .inr (.inr (.inl o)) | .recv o => .inr (.inr (.inr o)) | .other => .inl 0)
theorem tokOf_injective : Function.Injective (tokOf : Dev nD × TokIx → GSem nD τ sig × ℕ × DD) := by
  refine Function.LeftInverse.injective (g := tokBack) ?_
  rintro ⟨c, o | j | o | o⟩
  · rfl
  · show (c, (match kd (.dma (cpS j)) with
      | .bar => .inl 0 | .cp j => .inr (.inl j) | .send o => .inr (.inr (.inl o)) | .recv o => .inr (.inr (.inr o)) | .other => .inl 0 : TokIx)) = _
    rw [kd_cp]
  · show (c, (match kd (.dma (sendS o)) with
      | .bar => .inl 0 | .cp j => .inr (.inl j) | .send o => .inr (.inr (.inl o)) | .recv o => .inr (.inr (.inr o)) | .other => .inl 0 : TokIx)) = _
    rw [kd_send]
  · show (c, (match kd (.dma (recvS o)) with
      | .bar => .inl 0 | .cp j => .inr (.inl j) | .send o => .inr (.inr (.inl o)) | .recv o => .inr (.inr (.inr o)) | .other => .inl 0 : TokIx)) = _
    rw [kd_recv]
def arToks : Finset (GSem nD τ sig × ℕ × DD) := Finset.univ.map ⟨tokOf, tokOf_injective⟩

def u₀ : UU :=
  (initOf (Pipeline.cells cfgs cellOf_inj) (Pipeline.launchToks cfgs cellOf_inj), initOf arCells arToks)

/-- The duty tokens of device `c`'s own cells. -/
def toks (c : Dev nD) : sProp 𝕄 :=
  iprop((bigSep Finset.univ fun o : Fin 15 => dutyTok ER (barCell c) 0 o)
    ∗ (bigSep Finset.univ fun j : Fin 4 => dutyTok ER (cpCell c j) 0 (0 : DD))
    ∗ (bigSep Finset.univ fun o : Fin 15 => dutyTok ER (sendCell c o) 0 (0 : DD))
    ∗ (bigSep Finset.univ fun o : Fin 15 => dutyTok ER (recvCell c o) 0 (0 : DD)))

/-- What the launch element deals device `c`. -/
def G (c : Dev nD) : sProp 𝕄 :=
  iprop((bigSep Finset.univ fun k : Fin 35 => roundState ER (sched m) (kcell (c, k)) 0)
    ∗ (bigSep Finset.univ fun k : Fin 35 => iprop(atPos ER (kcell (c, k)) 0 ∅ 0 ∗ reached ER (kcell (c, k)) 0)) ∗ toks c)

/-- What the global step makes of it. -/
def G' (c : Dev nD) : sProp 𝕄 := iprop(∃ K, ghost m K c)

theorem fund_ar : BI.own (ER (initOf arCells arToks)) ⊢ (|==> bigSep Finset.univ (G m) : sProp 𝕄) := by
  have hX (Φ : GSem nD τ sig → sProp 𝕄) : bigSep arCells Φ = bigSep Finset.univ fun c : Dev nD => bigSep Finset.univ fun k : Fin 35 => Φ (kcell (c, k)) := by
    unfold arCells; rw [bigSep_map, bigSep_univ_prod]; rfl
  have hT : bigSep arToks (fun x => (dutyTok ER x.1 x.2.1 x.2.2 : sProp 𝕄)) = bigSep Finset.univ fun c : Dev nD => toks c := by
    unfold arToks; rw [bigSep_map, bigSep_univ_prod]
    exact bigSep_congr fun c _ => by unfold toks; rw [bigSep_univ_sum, bigSep_univ_sum, bigSep_univ_sum]; rfl
  iintro HX
  imod (Rounds.fund ER (sched m) arCells arToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ### A device's thirty-five cells, class by class -/

theorem bigSep_fin_add {a b : ℕ} (Φ : Fin (a + b) → sProp 𝕄) :
    bigSep Finset.univ Φ = iprop((bigSep Finset.univ fun i : Fin a => Φ (Fin.castAdd b i)) ∗ bigSep Finset.univ fun j : Fin b => Φ (Fin.natAdd a j)) := by
  rw [bigSep_univ_equiv finSumFinEquiv Φ, bigSep_univ_sum]; rfl

/-- The cell numbers of the local copies, the sends and the receives. -/
abbrev cellCp (j : Fin 4) : Fin 35 := ⟨1 + j.val, by omega⟩
abbrev cellSend (o : Fin 15) : Fin 35 := ⟨5 + o.val, by omega⟩
abbrev cellRecv (o : Fin 15) : Fin 35 := ⟨20 + o.val, by omega⟩

/-- Thirty-five is one and four and fifteen and fifteen. -/
theorem bigSep_cells (Φ : Fin 35 → sProp 𝕄) :
    bigSep Finset.univ Φ = iprop(Φ 0 ∗ (bigSep Finset.univ fun j : Fin 4 => Φ (cellCp j))
      ∗ (bigSep Finset.univ fun o : Fin 15 => Φ (cellSend o)) ∗ bigSep Finset.univ fun o : Fin 15 => Φ (cellRecv o)) := by
  have h1 := bigSep_fin_add (F := F) (a := 20) (b := 15) Φ
  have h2 := bigSep_fin_add (F := F) (a := 5) (b := 15) (fun i : Fin 20 => Φ (Fin.castAdd 15 i))
  have h3 := bigSep_fin_add (F := F) (a := 1) (b := 4) (fun i : Fin 5 => Φ (Fin.castAdd 15 (Fin.castAdd 15 i)))
  rw [bigSep_univ_of_subsingleton (0 : Fin 1)] at h3
  rw [h1, h2, h3]
  exact (BI.sep_assoc.antisymm BI.sep_assoc').trans (BI.sep_assoc.antisymm BI.sep_assoc')

theorem kcell_cellCp (c : Dev nD) (j : Fin 4) : kcell (c, cellCp j) = cpCell c j :=
  congrArg (Prod.mk (c : Thread nD τ)) (dif_neg (by show ¬ (1 + j.val = 0); omega))
theorem kcell_cellSend (c : Dev nD) (o : Fin 15) : kcell (c, cellSend o) = sendCell c o :=
  congrArg (Prod.mk (c : Thread nD τ)) (dif_neg (by show ¬ (5 + o.val = 0); omega))
theorem kcell_cellRecv (c : Dev nD) (o : Fin 15) : kcell (c, cellRecv o) = recvCell c o :=
  congrArg (Prod.mk (c : Thread nD τ)) (dif_neg (by show ¬ (20 + o.val = 0); omega))

/-- A family over a device's cells: the barrier cell, the copy cells, the send cells, the receive cells. -/
theorem bigSep_kcells (c : Dev nD) (Φ : GSem nD τ sig → sProp 𝕄) :
    (bigSep Finset.univ fun k : Fin 35 => Φ (kcell (c, k)))
      = iprop(Φ (barCell c) ∗ (bigSep Finset.univ fun j : Fin 4 => Φ (cpCell c j))
        ∗ (bigSep Finset.univ fun o : Fin 15 => Φ (sendCell c o)) ∗ bigSep Finset.univ fun o : Fin 15 => Φ (recvCell c o)) := by
  rw [bigSep_cells,
    bigSep_congr (s := Finset.univ) (Ψ := fun j : Fin 4 => Φ (cpCell c j)) (fun j _ => congrArg Φ (kcell_cellCp c j)),
    bigSep_congr (s := Finset.univ) (Ψ := fun o : Fin 15 => Φ (sendCell c o)) (fun o _ => congrArg Φ (kcell_cellSend c o)),
    bigSep_congr (s := Finset.univ) (Ψ := fun o : Fin 15 => Φ (recvCell c o)) (fun o _ => congrArg Φ (kcell_cellRecv c o))]
  rfl

/-! ### The semaphores at zero become the cells' invariants -/

/-- The barrier semaphore is the one semaphore of a device that no kernel scopes. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 35 => semVal (kcell (c, k)) 0 : sProp 𝕄) := by
  rw [unscopedSems0_eq, bigSep_univ_succ (fun k : Fin 35 => (semVal (kcell (c, k)) 0 : sProp 𝕄))]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 35 => semVal (kcell (c, k)) 0) ∗ bigSep Finset.univ fun k : Fin 35 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens dealt to the devices that pay them -/

/-- What stays with device `c` of the tokens: those of the duties it pays. -/
def payToks (c : Dev nD) : sProp 𝕄 :=
  iprop((bigSep Finset.univ fun j : Fin 4 => dutyTok ER (cpCell c j) 0 (0 : DD))
    ∗ (bigSep Finset.univ fun o : Fin 15 => dutyTok ER (sendCell c o) 0 (0 : DD))
    ∗ (bigSep Finset.univ fun o : Fin 15 => dutyTok ER (barCell (peer c o)) 0 (rev o))
    ∗ (bigSep Finset.univ fun o : Fin 15 => dutyTok ER (recvCell (peer c o) o) 0 (0 : DD)))

/-- A family over the fifteen places, read backwards. -/
theorem bigSep_rev (Φ : Fin 15 → sProp 𝕄) : bigSep Finset.univ Φ = bigSep Finset.univ fun o => Φ (rev o) :=
  bigSep_univ_equiv ⟨rev, rev, rev_rev, rev_rev⟩ Φ

/-- For each place `o`, turning every device by `o + 1` places only reorders the devices. -/
theorem deal (Φ : Dev nD → Fin 15 → sProp 𝕄) :
    (bigSep Finset.univ fun c : Dev nD => bigSep Finset.univ fun o : Fin 15 => Φ c o)
      = bigSep Finset.univ fun c : Dev nD => bigSep Finset.univ fun o : Fin 15 => Φ (peer c o) o := by
  rw [BI.bigSep_univ_comm, BI.bigSep_univ_comm (fun c o => Φ (peer c o) o)]
  exact bigSep_congr fun o _ => bigSep_univ_equiv (rot o) (fun c => Φ c o)

/-- The token of duty `d` of a barrier cell goes to the device `d + 1` places after its owner, as that device's token
    number `rev d`; the token of a receive cell `o` to the device `o + 1` places before its owner. -/
theorem toks_around : (bigSep Finset.univ fun c : Dev nD => (toks c : sProp 𝕄)) ⊢ bigSep Finset.univ fun c : Dev nD => payToks c := by
  have hB : (bigSep Finset.univ fun c : Dev nD => bigSep Finset.univ fun o : Fin 15 => (dutyTok ER (barCell c) 0 o : sProp 𝕄))
      = bigSep Finset.univ fun c : Dev nD => bigSep Finset.univ fun o : Fin 15 => dutyTok ER (barCell (peer c o)) 0 (rev o) :=
    (bigSep_congr fun c _ => bigSep_rev (F := F) fun o => dutyTok ER (barCell c) 0 o).trans
      (deal (F := F) fun c o => dutyTok ER (barCell c) 0 (rev o))
  have hR : (bigSep Finset.univ fun c : Dev nD => bigSep Finset.univ fun o : Fin 15 => (dutyTok ER (recvCell c o) 0 (0 : DD) : sProp 𝕄))
      = bigSep Finset.univ fun c : Dev nD => bigSep Finset.univ fun o : Fin 15 => dutyTok ER (recvCell (peer c o) o) 0 (0 : DD) :=
    deal (F := F) fun c o => dutyTok ER (recvCell c o) 0 (0 : DD)
  unfold toks payToks
  rw [bigSep_sep', bigSep_sep', bigSep_sep', bigSep_sep', bigSep_sep', bigSep_sep', hB, hR]
  iintro ⟨H1, H2, H3, H4⟩
  isplitl [H2]; · iexact H2
  isplitl [H3]; · iexact H3
  isplitl [H1]; · iexact H1
  iexact H4

/-- A device's positions on its cells and the tokens it pays are what is its alone. -/
theorem linear_intro (c : Dev nD) :
    iprop((bigSep Finset.univ fun k : Fin 35 => (atPos ER (kcell (c, k)) 0 ∅ 0 : sProp 𝕄)) ∗ payToks c) ⊢ linear c := by
  rw [bigSep_kcells c (fun g => (atPos ER g 0 ∅ 0 : sProp 𝕄))]
  unfold payToks linear
  simp only [bigSep_sep']
  iintro ⟨⟨HaB, HaC, HaS, HaR⟩, HtC, HtS, HtB, HtR⟩
  isplitl [HaB]; · iexact HaB
  isplitl [HaC HtC]; · isplitl [HaC] <;> iassumption
  isplitl [HaS HtS]; · isplitl [HaS] <;> iassumption
  isplitl [HaR]; · iexact HaR
  isplitl [HtB]; · iexact HtB
  iexact HtR

theorem ghost_intro (K : Dev nD × Fin 35 → ℕ) (c : Dev nD) : iprop(records m K ∗ linear c) ⊢ G' m c := by
  unfold G' ghost
  iintro H
  iexists K
  iexact H

theorem regroup :
    (bigSep Finset.univ fun c : Dev nD => iprop((bigSep Finset.univ fun k => iprop(∃ κ : ℕ, cellInv ER (sched m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 35 => iprop(∃ κ : ℕ, cellInv ER (sched m) κ (kcell ck))),
    bigSep_congr (s := Finset.univ) (fun (c : Dev nD) _ => bigSep_sep' Finset.univ (fun k : Fin 35 => (atPos ER (kcell (c, k)) 0 ∅ 0 : sProp 𝕄)) (fun k => reached ER (kcell (c, k)) 0)),
    bigSep_sep', ← bigSep_univ_prod (fun ck : Dev nD × Fin 35 => (reached ER (kcell ck) 0 : sProp 𝕄))]
  iintro ⟨HI, ⟨Hat, #HR⟩, Htok⟩
  ihave HK := (BI.bigSep_exists_pi Finset.univ (fun (ck : Dev nD × Fin 35) (κ : ℕ) => (cellInv ER (sched m) κ (kcell ck) : sProp 𝕄))) $$ HI
  icases HK with ⟨%K, #HI⟩
  haveI : BI.Persistent (records m K) := by unfold records; infer_instance
  ihave Htk := (toks_around (F := F)) $$ Htok
  iapply (Transfers.bigSep_mono_pers Finset.univ (records m K) _ _ fun c _ => (sep_mono_right (linear_intro (F := F) c)).trans (ghost_intro m K c))
  isplitr
  · unfold records; isplitl; · iexact HI
    iexact HR
  · iapply (Entails.of_eq (bigSep_sep' Finset.univ (fun c : Dev nD => bigSep Finset.univ fun k : Fin 35 => (atPos ER (kcell (c, k)) 0 ∅ 0 : sProp 𝕄)) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(iprop(start m c ∗ xPts m c) ∗ emp) := by
  rw [Pipeline.unscopedRestP_none, unscopedRest0_eq]
  iintro ⟨Hx, Hlev, Hcr, -, HG⟩
  ihave Hc := (creds (F := F) c) $$ Hcr
  icases Hc with ⟨H1, HN⟩
  imodintro
  unfold start G' xPts X
  isplitl
  · isplitr [Hx]
    · isplitl [HG]; · iexact HG
      isplitl [H1]; · iexact H1
      isplitl [HN]; · iexact HN
      iexact Hlev
    · iexact Hx
  · iempintro

theorem phi0_intro (c : Dev nD) :
    iprop(iprop(start m c ∗ xPts m c) ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ vPts cPts
  iintro ⟨⟨Hs, Hx⟩, -, ⟨Hv, Hc⟩⟩
  isplitl [Hs]; · iexact Hs
  isplitl [Hx]; · iexact Hx
  isplitl [Hv]; · iexact Hv
  iexact Hc

theorem phi1_exit (c : Dev nD) :
    (dats m ρ 0 c).Φ (Fin.last cfg0.N) ⊢ iprop(xPts m c ∗ Pipeline.ownSems0 osem c ∗ Pipeline.scopedRest cfg0.spec c) := by
  rw [show (dats m ρ 0 c).Φ (Fin.last cfg0.N) = Φ₁ m c from rfl, scopedRest0_eq]
  unfold Φ₁ vPts cPts Pipeline.ownSems0
  iintro ⟨Hx, Hv, Hc, Hs⟩
  isplitl [Hx]; · iexact Hx
  isplitl [Hs]; · iexact Hs
  isplitl [Hv]
  · iexists (XV m c); iexact Hv
  · iexists (commF m c); iexact Hc

theorem waits (c : Dev nD) : (levAts L lv : sProp 𝕄) ⊢ Pipeline.cellsWaits cfgs (dats m ρ) () 0 c :=
  Pipeline.cellsWaits_intro cfgs (dats m ρ) () 0 c fun w s t =>
    mayWait_zero_level c _ (by fin_cases w; fin_cases s; rfl) _ (by
      rcases t with ⟨_ | _, ht⟩
      · exact Or.inl ⟨30, rfl⟩
      · exact Or.inr rfl)

/-- The result array in the end: the one window, whole, written back at the one point. -/
theorem final_out (c : Dev nD) : (dats m ρ 0 c).arrAt (0 : Fin 1) cfg0.N = outF m := by
  rw [show cfg0.N = (t0_0 : Fin cfg0.N).val + 1 from rfl, (dats m ρ 0 c).arrAt_succ (0 : Fin 1) t0_0, if_pos (flush0_0 t0_0)]
  have hoff : (fun a : Fin 2 => (cfg0.win 0).index t0_0 a * (cfg0.win 0).size a) = fun _ => 0 := funext fun a => Nat.zero_mul _
  funext i
  have hi : i ∈ ((cfg0.win 0).blk t0_0).view.set := by
    rw [show ((cfg0.win 0).blk t0_0).view.set = ((cfg0.win 0).rect t0_0).set from View.set_slice_whole main_v1 _]
    exact View.mem_set_unit_zero (S := S1x512) hoff _ i
  obtain ⟨y, rfl⟩ := View.exists_emb_of_mem_set _ hi
  rw [View.write_emb_of_mem _ _ (Finset.mem_univ y), cast_eq]
  refine congrArg (outF m) (funext fun a => Fin.ext ?_)
  show (y a).val = 0 * _ + 1 * (y a).val
  omega

set_option maxRecDepth 8000 in
/-- At the compiled mesh of sixteen devices, for any float values, from any memory with zero counters: every weakly fair
    execution of @main terminates, nothing faults, and every final state satisfies `QC`. -/
theorem run_main : θ_run defs (onTc (τ := τ) (main (F := F))) (s₀ m ρ) (QC m) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ar m) $$ HX with HG
      imodintro
      isplitl [HP] <;> iassumption)
    (hglob := glob m)
    (hA := fun _ _ => rfl) (hpf := fun _ k => k.elim0)
    (X := fun c => iprop(start m c ∗ xPts m c)) (Y := fun c => xPts m c) (Z := fun _ => iprop(emp))
    (hX := start_intro m ρ) (hin := phi0_intro m ρ) (hout := phi1_exit m ρ)
    (QY := fun c s => s.mem ((c : Thread nD τ).loc main_arg0) = m ((c : Thread nD τ).loc main_arg0))
    (hY := fun c s' => by
      iintro ⟨Hx, -, HSI⟩
      unfold xPts X
      icombine HSI Hx gives %hx
      imodintro
      isplitr; · ipureintro; exact Buf.eq_of_forall_mem_univ hx
      iexact HSI)
    (hQ := fun s h c => ⟨((h c).1 (0 : Fin 1)).trans (final_out m ρ c), (h c).2.2⟩)

end Cert.Kernel.AR

end
-- ==== Proof.Value.lean ====
/-
  The reference's side: on one device the column sums of the whole of x are the sum over the sixteen devices of their
  partial sums.

  At the extended reals every operation is exact, so both sides are finite sums of the same 16384 terms per column:
  the reference adds the rows of the whole array to zero; the kernel adds, over the sixteen devices, the four slabs'
  sums of 256 rows of each device's block, each added in turn from zero. Row `1024 d + 256 j + i` of the whole array is
  row `256 j + i` of device `d`'s block, which is row `i` of its slab `j`; re-indexing the rows as (device, slab, row) and
  `0 + a = a` make the two sums one.
-/
import proofs.«901068_g7700000000001069_dist_sum_ax0_shard0_i_m1024_n512_v7x_i16_bf16_1_alg».proof.Defs
import proofs.«901068_g7700000000001069_dist_sum_ax0_shard0_i_m1024_n512_v7x_i16_bf16_1_alg».proof.Proof.Proto
import proofs.«901068_g7700000000001069_dist_sum_ax0_shard0_i_m1024_n512_v7x_i16_bf16_1_alg».proof.Proof.Gen.ReferenceIdeal
import proofs.«901068_g7700000000001069_dist_sum_ax0_shard0_i_m1024_n512_v7x_i16_bf16_1_alg».proof.Proof.Gen.ReferenceIdeal.Run
import proofs.«901068_g7700000000001069_dist_sum_ax0_shard0_i_m1024_n512_v7x_i16_bf16_1_alg».proof.Proof.Gen.ReferenceIdeal.Read
import proofs.«901068_g7700000000001069_dist_sum_ax0_shard0_i_m1024_n512_v7x_i16_bf16_1_alg».proof.Proof.Gen.Pre_finite_inputs_ReferenceIdeal
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Layout
import Mathlib.Algebra.BigOperators.Fin
import Mathlib.Logic.Equiv.Fin.Basic

noncomputable section

namespace Cert.KernelIdeal.ARValue

open Idealize.ShloMosaic Idealize.ShloMosaic.TcCoe Idealize.SL.Sem
open Cert.KernelIdeal.AR
open Cert.KernelIdeal Cert.KernelIdeal.Gen
open Idealize.ShloMosaic.ValueIdx
open scoped BigOperators

/-- A sum over `n = a * b` consecutive naturals is the double sum over `a` runs of `b`. -/
theorem sum_fin_mul {M : Type*} [AddCommMonoid M] (n a b : ℕ) (hn : n = a * b) (g : ℕ → M) :
    ∑ k : Fin n, g k.val = ∑ d : Fin a, ∑ i : Fin b, g (b * d.val + i.val) := by
  subst hn
  rw [← Equiv.sum_comp (finProdFinEquiv (m := a) (n := b)) (fun k => g k.val), Fintype.sum_prod_type]
  refine Finset.sum_congr rfl fun d _ => Finset.sum_congr rfl fun i _ => ?_
  show g (i.val + b * d.val) = _
  rw [Nat.add_comm]

/-- Device `c`'s block of the argument, read as extended reals. -/
abbrev XE (m : (ℓ : Loc nD τ sig) → Buf (Elt Ideal) ℓ) (c : Dev nD) : S1024x512.Idx → EReal := X (F := Ideal) m c

/-- The load of slot `j` of the copy buffer, once the slabs have landed, reads at `(0, i, col)` the block at row `256 j + i`. -/
theorem chunk_apply (m : (ℓ : Loc nD τ sig) → Buf (Elt Ideal) ℓ) (c : Dev nD) (j : Fin 4) (i : Fin 256) (col : Fin 512) :
    chunk (F := Ideal) m c j (ix3 (0 : Fin 1) i col) = XE m c (ix2 (⟨256 * j.val + i.val, by omega⟩ : Fin 1024) col) := by
  match j with
  | ⟨0, _⟩ =>
    show XE m c _ = XE m c _
    refine congrArg (XE m c) (funext fun a => ?_)
    match a with
    | ⟨0, _⟩ => exact Fin.ext (by show 256 * (0 + 1 * 0) + (0 + 1 * i.val) = 256 * 0 + i.val; omega)
    | ⟨1, _⟩ => exact Fin.ext (by show 0 + 1 * col.val = col.val; omega)
  | ⟨1, _⟩ =>
    show XE m c _ = XE m c _
    refine congrArg (XE m c) (funext fun a => ?_)
    match a with
    | ⟨0, _⟩ => exact Fin.ext (by show 256 * (1 + 1 * 0) + (0 + 1 * i.val) = 256 * 1 + i.val; omega)
    | ⟨1, _⟩ => exact Fin.ext (by show 0 + 1 * col.val = col.val; omega)
  | ⟨2, _⟩ =>
    show XE m c _ = XE m c _
    refine congrArg (XE m c) (funext fun a => ?_)
    match a with
    | ⟨0, _⟩ => exact Fin.ext (by show 256 * (2 + 1 * 0) + (0 + 1 * i.val) = 256 * 2 + i.val; omega)
    | ⟨1, _⟩ => exact Fin.ext (by show 0 + 1 * col.val = col.val; omega)
  | ⟨3, _⟩ =>
    show XE m c _ = XE m c _
    refine congrArg (XE m c) (funext fun a => ?_)
    match a with
    | ⟨0, _⟩ => exact Fin.ext (by show 256 * (3 + 1 * 0) + (0 + 1 * i.val) = 256 * 3 + i.val; omega)
    | ⟨1, _⟩ => exact Fin.ext (by show 0 + 1 * col.val = col.val; omega)

/-- One slab's column sums: the loaded `[1, 256, 512]` vector cast to `[256, 512]`, summed over its rows from zero and
    cast to `[1, 512]`, reads at `(0, col)` the sum over the 256 rows of the vector at `(0, i, col)`. -/
theorem slab_sum (v : Vec Ideal S1x256x512 .f32) (col : Fin 512) :
    shapeCast S1x512 (multiReduction (F := Ideal) .add [0] S512 (shapeCast S256x512 v shapeCasts_S1x256x512_S256x512)
        0x00000000#32 reduces_S256x512_S512 (.inl rfl) rfl) shapeCasts_S512_S1x512 (ix2 (0 : Fin 1) col)
      = ∑ i : Fin 256, (v (ix3 (0 : Fin 1) i col) : EReal) := by
  rw [shapeCast_a_1a_apply]
  refine (Ideal.multiReduction_add_single _ _ reduces_S256x512_S512 _ _ (ix1 col)).trans ?_
  show ∑ k : Fin 256, shapeCast S256x512 v shapeCasts_S1x256x512_S256x512 (reduces_S256x512_S512.lift (ix1 col) k) = _
  refine Finset.sum_congr rfl fun k _ => ?_
  have hl : reduces_S256x512_S512.lift (ix1 col) k = ix2 (n0 := 256) (n1 := 512) k col :=
    funext fun a => Fin.ext (match a with | ⟨0, _⟩ => rfl | ⟨1, _⟩ => rfl)
  rw [hl, shapeCast_1ab_ab_apply]

/-- The first slab's step: zero plus the slab's column sums. -/
theorem pay2_apply (v0 : Vec Ideal S1x256x512 .f32) (col : Fin 512) :
    k0_pay2 (F := Ideal) v0 (ix2 (0 : Fin 1) col) = (0 : EReal) + ∑ i : Fin 256, (v0 (ix3 (0 : Fin 1) i col) : EReal) := by
  refine (addf_apply _ _ _).trans ?_
  exact congrArg₂ (· + ·) Ideal.ofBits_zero_f32 (slab_sum v0 col)

/-- The three later slabs' steps: each slab's column sums added in turn to what came before. -/
theorem pay3_apply (a : FVec Ideal S1x512 .f32) (v1 v2 v3 : Vec Ideal S1x256x512 .f32) (col : Fin 512) :
    k0_pay3 (F := Ideal) a v1 v2 v3 (ix2 (0 : Fin 1) col)
      = (((a (ix2 (0 : Fin 1) col) : EReal) + ∑ i : Fin 256, (v1 (ix3 (0 : Fin 1) i col) : EReal))
          + ∑ i : Fin 256, (v2 (ix3 (0 : Fin 1) i col) : EReal)) + ∑ i : Fin 256, (v3 (ix3 (0 : Fin 1) i col) : EReal) := by
  unfold k0_pay3
  refine (congrFun (shapeCast_self _ _) _).trans ?_
  refine (addf_apply _ _ _).trans ?_
  refine congrArg₂ (· + ·) ?_ (slab_sum v3 col)
  refine (addf_apply _ _ _).trans ?_
  refine congrArg₂ (· + ·) ?_ (slab_sum v2 col)
  refine (addf_apply _ _ _).trans ?_
  exact congrArg₂ (· + ·) rfl (slab_sum v1 col)

/-- Device `c`'s partial sums at `(0, col)`: the four slabs' column sums, added in turn from zero. -/
theorem acc_apply (m : (ℓ : Loc nD τ sig) → Buf (Elt Ideal) ℓ) (c : Dev nD) (col : Fin 512) :
    acc (F := Ideal) m c (ix2 (0 : Fin 1) col)
      = ∑ j : Fin 4, ∑ i : Fin 256, XE m c (ix2 (⟨256 * j.val + i.val, by omega⟩ : Fin 1024) col) := by
  unfold acc
  rw [pay3_apply, pay2_apply]
  simp only [chunk_apply]
  rw [Fin.sum_univ_four, zero_add]

/-- The last step: the `[16, 512]` vector summed over its rows from zero and cast to `[1, 512]` reads at `(0, col)` the
    sum over the sixteen rows. -/
theorem pay1_apply (v : Vec Ideal S16x512 .f32) (col : Fin 512) :
    k0_pay1 (F := Ideal) v (ix2 (0 : Fin 1) col) = ∑ d : Fin 16, (v (ix2 d col) : EReal) := by
  unfold k0_pay1
  rw [shapeCast_a_1a_apply]
  refine (Ideal.multiReduction_add_single _ _ reduces_S16x512_S512 _ _ (ix1 col)).trans ?_
  show ∑ k : Fin 16, v (reduces_S16x512_S512.lift (ix1 col) k) = _
  refine Finset.sum_congr rfl fun k _ => ?_
  exact congrArg v (funext fun a => Fin.ext (match a with | ⟨0, _⟩ => rfl | ⟨1, _⟩ => rfl))

/-- The kernel's result is the last step applied to the exchange buffer's final contents: the load reads the whole buffer. -/
theorem outF_eq (m : (ℓ : Loc nD τ sig) → Buf (Elt Ideal) ℓ) :
    outF (F := Ideal) m = k0_pay1 (F := Ideal) (commF (F := Ideal) m 0) :=
  congrArg (k0_pay1 (F := Ideal)) (Memref.readAt_unit_zero (Elt Ideal) cc0_scratch1
    (funext fun a => match a with | ⟨0, _⟩ => rfl | ⟨1, _⟩ => rfl) inb_S16x512_S16x512_0_0 (commF (F := Ideal) m 0))

/-- The kernel's result at `(0, col)`: the sum over the sixteen devices of their partial sums. -/
theorem outF_apply (m : (ℓ : Loc nD τ sig) → Buf (Elt Ideal) ℓ) (col : Fin 512) :
    (outF (F := Ideal) m (ix2 (0 : Fin 1) col) : EReal) = ∑ d : Fin 16, (acc (F := Ideal) m d (ix2 (0 : Fin 1) col) : EReal) := by
  rw [outF_eq]
  refine (pay1_apply _ col).trans ?_
  refine Finset.sum_congr rfl fun d _ => ?_
  show (acc (F := Ideal) m d (ix2 (0 : Fin 1) col) : EReal) = _
  rfl

/-- The reference's result at `(0, col)`: the sum over all the 16384 rows of the whole array, from zero. -/
theorem ref_apply (x' : (⟨Cert.ReferenceIdeal.S16384x512, .f32⟩ : BufTy).Contents (Elt Ideal)) (col : Fin 512) :
    (Cert.ReferenceIdeal.Read.val_main_v1 (F := Ideal) x' (ix2 (0 : Fin 1) col) : EReal)
      = ∑ k : Fin 16384, (x' (ix2 k col) : EReal) := by
  rw [Cert.ReferenceIdeal.Read.val_main_v1_apply, Cert.ReferenceIdeal.Read.val_main_v0_apply,
    Cert.ReferenceIdeal.Read.val_main_cst_apply]
  refine (congrArg (· + _) Ideal.ofBits_zero_f32).trans ?_
  rw [zero_add]
  exact Finset.sum_congr rfl fun k _ =>
    congrArg x' (funext fun a => Fin.ext (match a with | ⟨0, _⟩ => rfl | ⟨1, _⟩ => rfl))

/-- A device's block read at `(r, col)` is the whole array at `(1024 c + r, col)`. -/
theorem X_block (m : (ℓ : Loc nD τ sig) → Buf (Elt Ideal) ℓ)
    (x' : (⟨Cert.ReferenceIdeal.S16384x512, .f32⟩ : BufTy).Contents (Elt Ideal)) (c : Dev nD)
    (h : X (F := Ideal) m c = Layout.block ⟨2, ![1024, 512]⟩ ⟨2, ![16384, 512]⟩ 0 16 c x') (r : Fin 1024) (col : Fin 512) :
    XE m c (ix2 r col)
      = x' (ix2 (⟨1024 * c.val + r.val, by have hc : c.val < 16 := c.isLt; omega⟩ : Fin 16384) col) := by
  show X (F := Ideal) m c (ix2 r col) = _
  rw [h, Layout.block_apply]
  refine congrArg x' (funext fun a => Fin.ext ?_)
  match a with
  | ⟨0, _⟩ => show c.val * 1024 + r.val = 1024 * c.val + r.val; omega
  | ⟨1, _⟩ => rfl

/-- Column `col` of the whole array as a function of the row's number (zero past the last row). -/
def colAt (x' : (⟨Cert.ReferenceIdeal.S16384x512, .f32⟩ : BufTy).Contents (Elt Ideal)) (col : Fin 512) : ℕ → EReal :=
  fun n => if h : n < 16384 then x' (ix2 (⟨n, h⟩ : Fin 16384) col) else 0

theorem colAt_of_lt (x' : (⟨Cert.ReferenceIdeal.S16384x512, .f32⟩ : BufTy).Contents (Elt Ideal)) (col : Fin 512) (n : ℕ)
    (h : n < 16384) : colAt x' col n = x' (ix2 (⟨n, h⟩ : Fin 16384) col) := dif_pos h

/-- The reference's column sums of the whole array are the kernel's: the 16384 rows are the sixteen devices' four slabs of
    256 rows, and addition of extended reals is commutative and associative with `0 + a = a`. -/
theorem value_eq (m : (ℓ : Loc nD τ sig) → Buf (Elt Ideal) ℓ)
    (x' : (⟨Cert.ReferenceIdeal.S16384x512, .f32⟩ : BufTy).Contents (Elt Ideal))
    (hagree : ∀ c : Dev nD, X (F := Ideal) m c = Layout.block ⟨2, ![1024, 512]⟩ ⟨2, ![16384, 512]⟩ 0 16 c x') :
    Cert.ReferenceIdeal.Read.val_main_v1 (F := Ideal) x' = outF (F := Ideal) m := by
  funext i
  obtain ⟨a, col, rfl⟩ : ∃ (a : Fin 1) (col : Fin 512), i = ix2 a col := ⟨i 0, i 1, eq_ix2 i⟩
  obtain rfl : a = 0 := Subsingleton.elim _ _
  refine (ref_apply x' col).trans (Eq.trans ?_ (outF_apply m col).symm)
  let g : ℕ → EReal := colAt x' col
  have hg : ∀ (n : ℕ) (h : n < 16384), (x' (ix2 (⟨n, h⟩ : Fin 16384) col) : EReal) = g n := fun n h => (colAt_of_lt x' col n h).symm
  have hL : ∑ k : Fin 16384, (x' (ix2 k col) : EReal) = ∑ k : Fin 16384, g k.val :=
    Finset.sum_congr rfl fun k _ => hg k.val k.isLt
  refine (hL.trans (sum_fin_mul 16384 16 1024 rfl g)).trans (Finset.sum_congr rfl fun d _ => ?_)
  refine ((sum_fin_mul 1024 4 256 rfl (fun n => g (1024 * d.val + n))).trans ?_).trans (acc_apply m d col).symm
  refine Finset.sum_congr rfl fun j _ => Finset.sum_congr rfl fun i _ => ?_
  exact ((X_block m x' d (hagree d) (⟨256 * j.val + i.val, by omega⟩ : Fin 1024) col).trans (hg _ _)).symm

open Cert.KernelIdeal.AR in
/-- frame of the reference: its generated run with the result dropped. -/
theorem frame_ri : Cert.frame_ReferenceIdeal :=
  fun m ρ _ => (θ_run Cert.ReferenceIdeal.defs _ _).mono (fun _ h c => (h c).2)
    (Cert.ReferenceIdeal.Value.run (F := Ideal) m ρ)

/-- The reference, run from a memory m' whose argument array is the whole x of which each kernel device c holds block c, ends with its result equal to the kernel's result `AR.outF` (the same on every device) and its argument unchanged. -/
theorem ref_run (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hagree : ∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1) = AR.outF (F := Ideal) m
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run (Cert.ReferenceIdeal.defs (F := Ideal)) _ _).mono
    (fun _ h => ⟨((h 0).1.trans (Cert.ReferenceIdeal.Read.val_main_v1_eq _)).trans (value_eq m _ hagree), (h 0).2⟩)
    (Cert.ReferenceIdeal.Value.run (F := Ideal) m' g')

end Cert.KernelIdeal.ARValue

end
-- ==== Proof.lean ====
/-
  The certificate of the sixteen-device row sum.

  The kernel's two printed programs, read at words and at extended reals, run on all sixteen devices to the end without a
  fault and leave each device's block of x as it was; at the extended reals every device's result is the sum of the
  sixteen devices' partial sums, each the column sums of its 1024 rows taken 256 at a time, which is the column sums of
  all 16384 rows: the reference's result. The ideal pass rewrote nothing, so there is nothing to preserve.
-/
import proofs.«901068_g7700000000001069_dist_sum_ax0_shard0_i_m1024_n512_v7x_i16_bf16_1_alg».proof.Defs
import proofs.«901068_g7700000000001069_dist_sum_ax0_shard0_i_m1024_n512_v7x_i16_bf16_1_alg».proof.Proof.Gen.Kernel
import proofs.«901068_g7700000000001069_dist_sum_ax0_shard0_i_m1024_n512_v7x_i16_bf16_1_alg».proof.Proof.Gen.KernelIdeal
import proofs.«901068_g7700000000001069_dist_sum_ax0_shard0_i_m1024_n512_v7x_i16_bf16_1_alg».proof.Proof.Gen.ReferenceIdeal
import proofs.«901068_g7700000000001069_dist_sum_ax0_shard0_i_m1024_n512_v7x_i16_bf16_1_alg».proof.Proof.Gen.Pre_finite_inputs_Kernel
import proofs.«901068_g7700000000001069_dist_sum_ax0_shard0_i_m1024_n512_v7x_i16_bf16_1_alg».proof.Proof.Gen.Pre_finite_inputs_ReferenceIdeal
import proofs.«901068_g7700000000001069_dist_sum_ax0_shard0_i_m1024_n512_v7x_i16_bf16_1_alg».proof.Proof.Launch
import proofs.«901068_g7700000000001069_dist_sum_ax0_shard0_i_m1024_n512_v7x_i16_bf16_1_alg».proof.Proof.Bits.Launch
import proofs.«901068_g7700000000001069_dist_sum_ax0_shard0_i_m1024_n512_v7x_i16_bf16_1_alg».proof.Proof.Value
import Idealize.ShloMosaic.Adequacy
import Idealize.ShloMosaic.Init

noncomputable section

namespace Cert.Proof

open Idealize.ShloMosaic Idealize.SL.Sem

/-- The word-level kernel runs and leaves its blocks of x unchanged. -/
theorem frame_k : Cert.frame_Kernel := fun m ρ _ =>
  (θ_run Cert.Kernel.defs _ _).mono (fun _ h c => (h c).2) (Cert.Kernel.AR.run_main (F := Bits) m ρ)

/-- The idealized kernel runs and leaves its blocks of x unchanged. -/
theorem frame_ki : Cert.frame_KernelIdeal := fun m ρ _ =>
  (θ_run Cert.KernelIdeal.defs _ _).mono (fun _ h c => (h c).2) (Cert.KernelIdeal.AR.run_main (F := Ideal) m ρ)

/-- Over the extended reals every device ends with the sum of all partial sums, and that is the reference's column sums. -/
theorem algebraic : Cert.algebraic_KernelIdeal_ReferenceIdeal := fun m ρ m' ρ' _ hagree =>
  ⟨Cert.KernelIdeal.AR.outF (F := Ideal) m, Cert.KernelIdeal.AR.run_main (F := Ideal) m ρ,
    Cert.KernelIdeal.ARValue.ref_run m m' ρ' hagree⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.KernelIdeal.ARValue.frame_ri, trivial, algebraic⟩

end Cert.Proof

end
